-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512 : Shape := ⟨2, ![8, 512]⟩
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : IVec S8x512 32) (main_arg1 : FVec F S8192x8192 .f32) : IVec S_ 1 :=
  let main_v0 : FVec F S8192x8192 .f32 := Host.absf main_arg1
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_c_0 : IVec S_ 32 := constantI S_ 32 0#32
  let main_v4 : IVec S8x512 32 := broadcastInDim S8x512 ![] bcast_S_S8x512 main_c_0
  let main_v5 : IVec S8x512 1 := cmpi .sge main_arg0 main_v4
  let main_c_1 : IVec S_ 32 := constantI S_ 32 8192#32
  let main_v6 : IVec S8x512 32 := broadcastInDim S8x512 ![] bcast_S_S8x512 main_c_1
  let main_v7 : IVec S8x512 1 := cmpi .slt main_arg0 main_v6
  let main_v8 : IVec S8x512 1 := andi main_v5 main_v7
  let main_c_2 : IVec S_ 1 := constantI S_ 1 1#1
  let main_v9 : IVec S_ 1 := (fun x v => Host.reduce IntOp.andi x v reducesTo_S8x512_S_d0_1 h_S_) main_v8 main_c_2
  let main_v10 : IVec S_ 1 := andi main_v3 main_v9
  main_v10
-- ==== Kernel.lean ====
abbrev S8x512 : Shape := ⟨2, ![8, 512]⟩
abbrev S8192x8192 : Shape := ⟨2, ![8192, 8192]⟩
abbrev S4096 : Shape := ⟨1, ![4096]⟩
abbrev S4096x8192 : Shape := ⟨2, ![4096, 8192]⟩
abbrev S256x8192 : Shape := ⟨2, ![256, 8192]⟩
abbrev S16 : Shape := ⟨1, ![16]⟩
abbrev S1 : Shape := ⟨1, ![1]⟩
abbrev S_ : Shape := ⟨0, ![]⟩
abbrev S1x8192 : Shape := ⟨2, ![1, 8192]⟩
abbrev S8192 : Shape := ⟨1, ![8192]⟩
abbrev S8x512x8192 : Shape := ⟨3, ![8, 512, 8192]⟩

abbrev nBuf : Space → Nat
  | .hbm => 4
  | .vmem => 2
  | .smem => 1
  | _ => 0

abbrev bufTy : (tb : Table) → Fin (tcTables nBuf tb) → BufTy
  | .hbm, ⟨0, _⟩ => ⟨S8x512, .i32⟩
  | .hbm, ⟨1, _⟩ => ⟨S8192x8192, .f32⟩
  | .hbm, ⟨2, _⟩ => ⟨S4096x8192, .f32⟩
  | .hbm, ⟨3, _⟩ => ⟨S8x512x8192, .f32⟩
  | .local _ .vmem, ⟨0, _⟩ => ⟨S256x8192, .f32⟩
  | .local _ .vmem, ⟨1, _⟩ => ⟨S256x8192, .f32⟩
  | .local _ .smem, ⟨0, _⟩ => ⟨S4096, .i32⟩
  | _, _ => ⟨S8x512, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_off5 (i : grid0.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_off7 (i : grid0.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_off9 (i : grid0.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_off11 (i : grid0.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_off13 (i : grid0.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_off15 (i : grid0.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_off17 (i : grid0.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_off19 (i : grid0.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_off21 (i : grid0.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_off23 (i : grid0.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_off25 (i : grid0.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_off27 (i : grid0.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_off29 (i : grid0.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_off31 (i : grid0.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_chk16 (v138 : BitVec 32) : Prop :=
  (∀ a, (k0_off32 v138) a + S1x8192.size a ≤ S8192x8192.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x8192.size a ≤ S8192x8192.size a := fun v138 k0_hw16 => k0_hw16

def k0_off33 (v3 : BitVec 32) : Fin 2 → Nat :=
  let c0_i32_67 : BitVec 32 := 0#32
  ![v3.toNat, 0]

def k0_chk1 (v3 : BitVec 32) : Prop :=
  (∀ a, (k0_off2 v3) a + S1x8192.size a ≤ S8192x8192.size a) ∧
  (∀ a, (k0_off33 v3) a + S1x8192.size a ≤ S8192x8192.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x8192.size a ≤ S8192x8192.size a := fun v3 k0_hw1 => k0_hw1.1
theorem k0_off33_inb : ∀ (v3 : BitVec 32) (k0_hw1 : k0_chk1 v3), ∀ a, (k0_off33 v3) a + S1x8192.size a ≤ S8192x8192.size a := fun v3 k0_hw1 => k0_hw1.2

def k0_off34 (v12 : BitVec 32) : Fin 2 → Nat :=
  let c0_i32_71 : BitVec 32 := 0#32
  ![v12.toNat, 0]

def k0_chk2 (v12 : BitVec 32) : Prop :=
  (∀ a, (k0_off4 v12) a + S1x8192.size a ≤ S8192x8192.size a) ∧
  (∀ a, (k0_off34 v12) a + S1x8192.size a ≤ S8192x8192.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x8192.size a ≤ S8192x8192.size a := fun v12 k0_hw2 => k0_hw2.1
theorem k0_off34_inb : ∀ (v12 : BitVec 32) (k0_hw2 : k0_chk2 v12), ∀ a, (k0_off34 v12) a + S1x8192.size a ≤ S8192x8192.size a := fun v12 k0_hw2 => k0_hw2.2

def k0_off35 (v21 : BitVec 32) : Fin 2 → Nat :=
  let c0_i32_75 : BitVec 32 := 0#32
  ![v21.toNat, 0]

def k0_chk3 (v21 : BitVec 32) : Prop :=
  (∀ a, (k0_off6 v21) a + S1x8192.size a ≤ S8192x8192.size a) ∧
  (∀ a, (k0_off35 v21) a + S1x8192.size a ≤ S8192x8192.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x8192.size a ≤ S8192x8192.size a := fun v21 k0_hw3 => k0_hw3.1
theorem k0_off35_inb : ∀ (v21 : BitVec 32) (k0_hw3 : k0_chk3 v21), ∀ a, (k0_off35 v21) a + S1x8192.size a ≤ S8192x8192.size a := fun v21 k0_hw3 => k0_hw3.2

def k0_off36 (v30 : BitVec 32) : Fin 2 → Nat :=
  let c0_i32_79 : BitVec 32 := 0#32
  ![v30.toNat, 0]

def k0_chk4 (v30 : BitVec 32) : Prop :=
  (∀ a, (k0_off8 v30) a + S1x8192.size a ≤ S8192x8192.size a) ∧
  (∀ a, (k0_off36 v30) a + S1x8192.size a ≤ S8192x8192.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x8192.size a ≤ S8192x8192.size a := fun v30 k0_hw4 => k0_hw4.1
theorem k0_off36_inb : ∀ (v30 : BitVec 32) (k0_hw4 : k0_chk4 v30), ∀ a, (k0_off36 v30) a + S1x8192.size a ≤ S8192x8192.size a := fun v30 k0_hw4 => k0_hw4.2

def k0_off37 (v39 : BitVec 32) : Fin 2 → Nat :=
  let c0_i32_83 : BitVec 32 := 0#32
  ![v39.toNat, 0]

def k0_chk5 (v39 : BitVec 32) : Prop :=
  (∀ a, (k0_off10 v39) a + S1x8192.size a ≤ S8192x8192.size a) ∧
  (∀ a, (k0_off37 v39) a + S1x8192.size a ≤ S8192x8192.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x8192.size a ≤ S8192x8192.size a := fun v39 k0_hw5 => k0_hw5.1
theorem k0_off37_inb : ∀ (v39 : BitVec 32) (k0_hw5 : k0_chk5 v39), ∀ a, (k0_off37 v39) a + S1x8192.size a ≤ S8192x8192.size a := fun v39 k0_hw5 => k0_hw5.2

def k0_off38 (v48 : BitVec 32) : Fin 2 → Nat :=
  let c0_i32_87 : BitVec 32 := 0#32
  ![v48.toNat, 0]

def k0_chk6 (v48 : BitVec 32) : Prop :=
  (∀ a, (k0_off12 v48) a + S1x8192.size a ≤ S8192x8192.size a) ∧
  (∀ a, (k0_off38 v48) a + S1x8192.size a ≤ S8192x8192.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x8192.size a ≤ S8192x8192.size a := fun v48 k0_hw6 => k0_hw6.1
theorem k0_off38_inb : ∀ (v48 : BitVec 32) (k0_hw6 : k0_chk6 v48), ∀ a, (k0_off38 v48) a + S1x8192.size a ≤ S8192x8192.size a := fun v48 k0_hw6 => k0_hw6.2

def k0_off39 (v57 : BitVec 32) : Fin 2 → Nat :=
  let c0_i32_91 : BitVec 32 := 0#32
  ![v57.toNat, 0]

def k0_chk7 (v57 : BitVec 32) : Prop :=
  (∀ a, (k0_off14 v57) a + S1x8192.size a ≤ S8192x8192.size a) ∧
  (∀ a, (k0_off39 v57) a + S1x8192.size a ≤ S8192x8192.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x8192.size a ≤ S8192x8192.size a := fun v57 k0_hw7 => k0_hw7.1
theorem k0_off39_inb : ∀ (v57 : BitVec 32) (k0_hw7 : k0_chk7 v57), ∀ a, (k0_off39 v57) a + S1x8192.size a ≤ S8192x8192.size a := fun v57 k0_hw7 => k0_hw7.2

def k0_off40 (v66 : BitVec 32) : Fin 2 → Nat :=
  let c0_i32_95 : BitVec 32 := 0#32
  ![v66.toNat, 0]

def k0_chk8 (v66 : BitVec 32) : Prop :=
  (∀ a, (k0_off16 v66) a + S1x8192.size a ≤ S8192x8192.size a) ∧
  (∀ a, (k0_off40 v66) a + S1x8192.size a ≤ S8192x8192.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x8192.size a ≤ S8192x8192.size a := fun v66 k0_hw8 => k0_hw8.1
theorem k0_off40_inb : ∀ (v66 : BitVec 32) (k0_hw8 : k0_chk8 v66), ∀ a, (k0_off40 v66) a + S1x8192.size a ≤ S8192x8192.size a := fun v66 k0_hw8 => k0_hw8.2

def k0_off41 (v75 : BitVec 32) : Fin 2 → Nat :=
  let c0_i32_99 : BitVec 32 := 0#32
  ![v75.toNat, 0]

def k0_chk9 (v75 : BitVec 32) : Prop :=
  (∀ a, (k0_off18 v75) a + S1x8192.size a ≤ S8192x8192.size a) ∧
  (∀ a, (k0_off41 v75) a + S1x8192.size a ≤ S8192x8192.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x8192.size a ≤ S8192x8192.size a := fun v75 k0_hw9 => k0_hw9.1
theorem k0_off41_inb : ∀ (v75 : BitVec 32) (k0_hw9 : k0_chk9 v75), ∀ a, (k0_off41 v75) a + S1x8192.size a ≤ S8192x8192.size a := fun v75 k0_hw9 => k0_hw9.2

def k0_off42 (v84 : BitVec 32) : Fin 2 → Nat :=
  let c0_i32_103 : BitVec 32 := 0#32
  ![v84.toNat, 0]

def k0_chk10 (v84 : BitVec 32) : Prop :=
  (∀ a, (k0_off20 v84) a + S1x8192.size a ≤ S8192x8192.size a) ∧
  (∀ a, (k0_off42 v84) a + S1x8192.size a ≤ S8192x8192.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x8192.size a ≤ S8192x8192.size a := fun v84 k0_hw10 => k0_hw10.1
theorem k0_off42_inb : ∀ (v84 : BitVec 32) (k0_hw10 : k0_chk10 v84), ∀ a, (k0_off42 v84) a + S1x8192.size a ≤ S8192x8192.size a := fun v84 k0_hw10 => k0_hw10.2

def k0_off43 (v93 : BitVec 32) : Fin 2 → Nat :=
  let c0_i32_107 : BitVec 32 := 0#32
  ![v93.toNat, 0]

def k0_chk11 (v93 : BitVec 32) : Prop :=
  (∀ a, (k0_off22 v93) a + S1x8192.size a ≤ S8192x8192.size a) ∧
  (∀ a, (k0_off43 v93) a + S1x8192.size a ≤ S8192x8192.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x8192.size a ≤ S8192x8192.size a := fun v93 k0_hw11 => k0_hw11.1
theorem k0_off43_inb : ∀ (v93 : BitVec 32) (k0_hw11 : k0_chk11 v93), ∀ a, (k0_off43 v93) a + S1x8192.size a ≤ S8192x8192.size a := fun v93 k0_hw11 => k0_hw11.2

def k0_off44 (v102 : BitVec 32) : Fin 2 → Nat :=
  let c0_i32_111 : BitVec 32 := 0#32
  ![v102.toNat, 0]

def k0_chk12 (v102 : BitVec 32) : Prop :=
  (∀ a, (k0_off24 v102) a + S1x8192.size a ≤ S8192x8192.size a) ∧
  (∀ a, (k0_off44 v102) a + S1x8192.size a ≤ S8192x8192.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x8192.size a ≤ S8192x8192.size a := fun v102 k0_hw12 => k0_hw12.1
theorem k0_off44_inb : ∀ (v102 : BitVec 32) (k0_hw12 : k0_chk12 v102), ∀ a, (k0_off44 v102) a + S1x8192.size a ≤ S8192x8192.size a := fun v102 k0_hw12 => k0_hw12.2

def k0_off45 (v111 : BitVec 32) : Fin 2 → Nat :=
  let c0_i32_115 : BitVec 32 := 0#32
  ![v111.toNat, 0]

def k0_chk13 (v111 : BitVec 32) : Prop :=
  (∀ a, (k0_off26 v111) a + S1x8192.size a ≤ S8192x8192.size a) ∧
  (∀ a, (k0_off45 v111) a + S1x8192.size a ≤ S8192x8192.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x8192.size a ≤ S8192x8192.size a := fun v111 k0_hw13 => k0_hw13.1
theorem k0_off45_inb : ∀ (v111 : BitVec 32) (k0_hw13 : k0_chk13 v111), ∀ a, (k0_off45 v111) a + S1x8192.size a ≤ S8192x8192.size a := fun v111 k0_hw13 => k0_hw13.2

def k0_off46 (v120 : BitVec 32) : Fin 2 → Nat :=
  let c0_i32_119 : BitVec 32 := 0#32
  ![v120.toNat, 0]

def k0_chk14 (v120 : BitVec 32) : Prop :=
  (∀ a, (k0_off28 v120) a + S1x8192.size a ≤ S8192x8192.size a) ∧
  (∀ a, (k0_off46 v120) a + S1x8192.size a ≤ S8192x8192.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x8192.size a ≤ S8192x8192.size a := fun v120 k0_hw14 => k0_hw14.1
theorem k0_off46_inb : ∀ (v120 : BitVec 32) (k0_hw14 : k0_chk14 v120), ∀ a, (k0_off46 v120) a + S1x8192.size a ≤ S8192x8192.size a := fun v120 k0_hw14 => k0_hw14.2

def k0_off47 (v129 : BitVec 32) : Fin 2 → Nat :=
  let c0_i32_123 : BitVec 32 := 0#32
  ![v129.toNat, 0]

def k0_chk15 (v129 : BitVec 32) : Prop :=
  (∀ a, (k0_off30 v129) a + S1x8192.size a ≤ S8192x8192.size a) ∧
  (∀ a, (k0_off47 v129) a + S1x8192.size a ≤ S8192x8192.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x8192.size a ≤ S8192x8192.size a := fun v129 k0_hw15 => k0_hw15.1
theorem k0_off47_inb : ∀ (v129 : BitVec 32) (k0_hw15 : k0_chk15 v129), ∀ a, (k0_off47 v129) a + S1x8192.size a ≤ S8192x8192.size a := fun v129 k0_hw15 => k0_hw15.2

def k0_off48 (i : grid0.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v241 : BitVec 32 := Scalar.addi v0 c16_i32
  let v242 : Index := Scalar.indexCast v241
  ![v242.toNat]
def k0_off49 (v243 : BitVec 32) : Fin 2 → Nat :=
  let c0_i32_131 : BitVec 32 := 0#32
  ![v243.toNat, 0]

def k0_off50 (i : grid0.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v250 : BitVec 32 := Scalar.addi v0 c17_i32
  let v251 : Index := Scalar.indexCast v250
  ![v251.toNat]
def k0_off51 (v252 : BitVec 32) : Fin 2 → Nat :=
  let c0_i32_135 : BitVec 32 := 0#32
  ![v252.toNat, 0]

def k0_off52 (i : grid0.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v259 : BitVec 32 := Scalar.addi v0 c18_i32
  let v260 : Index := Scalar.indexCast v259
  ![v260.toNat]
def k0_off53 (v261 : BitVec 32) : Fin 2 → Nat :=
  let c0_i32_139 : BitVec 32 := 0#32
  ![v261.toNat, 0]

def k0_off54 (i : grid0.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v268 : BitVec 32 := Scalar.addi v0 c19_i32
  let v269 : Index := Scalar.indexCast v268
  ![v269.toNat]
def k0_off55 (v270 : BitVec 32) : Fin 2 → Nat :=
  let c0_i32_143 : BitVec 32 := 0#32
  ![v270.toNat, 0]

def k0_off56 (i : grid0.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v277 : BitVec 32 := Scalar.addi v0 c20_i32
  let v278 : Index := Scalar.indexCast v277
  ![v278.toNat]
def k0_off57 (v279 : BitVec 32) : Fin 2 → Nat :=
  let c0_i32_147 : BitVec 32 := 0#32
  ![v279.toNat, 0]

def k0_off58 (i : grid0.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v286 : BitVec 32 := Scalar.addi v0 c21_i32
  let v287 : Index := Scalar.indexCast v286
  ![v287.toNat]
def k0_off59 (v288 : BitVec 32) : Fin 2 → Nat :=
  let c0_i32_151 : BitVec 32 := 0#32
  ![v288.toNat, 0]

def k0_off60 (i : grid0.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v295 : BitVec 32 := Scalar.addi v0 c22_i32
  let v296 : Index := Scalar.indexCast v295
  ![v296.toNat]
def k0_off61 (v297 : BitVec 32) : Fin 2 → Nat :=
  let c0_i32_155 : BitVec 32 := 0#32
  ![v297.toNat, 0]

def k0_off62 (i : grid0.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v304 : BitVec 32 := Scalar.addi v0 c23_i32
  let v305 : Index := Scalar.indexCast v304
  ![v305.toNat]
def k0_off63 (v306 : BitVec 32) : Fin 2 → Nat :=
  let c0_i32_159 : BitVec 32 := 0#32
  ![v306.toNat, 0]

def k0_off64 (i : grid0.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v313 : BitVec 32 := Scalar.addi v0 c24_i32
  let v314 : Index := Scalar.indexCast v313
  ![v314.toNat]
def k0_off65 (v315 : BitVec 32) : Fin 2 → Nat :=
  let c0_i32_163 : BitVec 32 := 0#32
  ![v315.toNat, 0]

def k0_off66 (i : grid0.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v322 : BitVec 32 := Scalar.addi v0 c25_i32
  let v323 : Index := Scalar.indexCast v322
  ![v323.toNat]
def k0_off67 (v324 : BitVec 32) : Fin 2 → Nat :=
  let c0_i32_167 : BitVec 32 := 0#32
  ![v324.toNat, 0]

def k0_off68 (i : grid0.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v331 : BitVec 32 := Scalar.addi v0 c26_i32
  let v332 : Index := Scalar.indexCast v331
  ![v332.toNat]
def k0_off69 (v333 : BitVec 32) : Fin 2 → Nat :=
  let c0_i32_171 : BitVec 32 := 0#32
  ![v333.toNat, 0]

def k0_off70 (i : grid0.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v340 : BitVec 32 := Scalar.addi v0 c27_i32
  let v341 : Index := Scalar.indexCast v340
  ![v341.toNat]
def k0_off71 (v342 : BitVec 32) : Fin 2 → Nat :=
  let c0_i32_175 : BitVec 32 := 0#32
  ![v342.toNat, 0]

def k0_off72 (i : grid0.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v349 : BitVec 32 := Scalar.addi v0 c28_i32
  let v350 : Index := Scalar.indexCast v349
  ![v350.toNat]
def k0_off73 (v351 : BitVec 32) : Fin 2 → Nat :=
  let c0_i32_179 : BitVec 32 := 0#32
  ![v351.toNat, 0]

def k0_off74 (i : grid0.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v358 : BitVec 32 := Scalar.addi v0 c29_i32
  let v359 : Index := Scalar.indexCast v358
  ![v359.toNat]
def k0_off75 (v360 : BitVec 32) : Fin 2 → Nat :=
  let c0_i32_183 : BitVec 32 := 0#32
  ![v360.toNat, 0]

def k0_off76 (i : grid0.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v367 : BitVec 32 := Scalar.addi v0 c30_i32
  let v368 : Index := Scalar.indexCast v367
  ![v368.toNat]
def k0_off77 (v369 : BitVec 32) : Fin 2 → Nat :=
  let c0_i32_187 : BitVec 32 := 0#32
  ![v369.toNat, 0]

def k0_off78 (i : grid0.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v376 : BitVec 32 := Scalar.addi v0 c31_i32
  let v377 : Index := Scalar.indexCast v376
  ![v377.toNat]
def k0_off79 (v378 : BitVec 32) : Fin 2 → Nat :=
  let c0_i32_191 : BitVec 32 := 0#32
  ![v378.toNat, 0]

def k0_chk32 (v378 : BitVec 32) : Prop :=
  (∀ a, (k0_off79 v378) a + S1x8192.size a ≤ S8192x8192.size a)
instance k0_chk32.dec : ∀ (v378 : BitVec 32), Decidable (k0_chk32 v378) := fun v378 => decidable_of_iff' _ (Iff.of_eq (k0_chk32.eq_1 v378))
theorem k0_off79_inb : ∀ (v378 : BitVec 32) (k0_hw32 : k0_chk32 v378), ∀ a, (k0_off79 v378) a + S1x8192.size a ≤ S8192x8192.size a := fun v378 k0_hw32 => k0_hw32

def k0_off80 (v243 : BitVec 32) : Fin 2 → Nat :=
  let c0_i32_195 : BitVec 32 := 0#32
  ![v243.toNat, 0]

def k0_chk17 (v243 : BitVec 32) : Prop :=
  (∀ a, (k0_off49 v243) a + S1x8192.size a ≤ S8192x8192.size a) ∧
  (∀ a, (k0_off80 v243) a + S1x8192.size a ≤ S8192x8192.size a)
instance k0_chk17.dec : ∀ (v243 : BitVec 32), Decidable (k0_chk17 v243) := fun v243 => decidable_of_iff' _ (Iff.of_eq (k0_chk17.eq_1 v243))
theorem k0_off49_inb : ∀ (v243 : BitVec 32) (k0_hw17 : k0_chk17 v243), ∀ a, (k0_off49 v243) a + S1x8192.size a ≤ S8192x8192.size a := fun v243 k0_hw17 => k0_hw17.1
theorem k0_off80_inb : ∀ (v243 : BitVec 32) (k0_hw17 : k0_chk17 v243), ∀ a, (k0_off80 v243) a + S1x8192.size a ≤ S8192x8192.size a := fun v243 k0_hw17 => k0_hw17.2

def k0_off81 (v252 : BitVec 32) : Fin 2 → Nat :=
  let c0_i32_199 : BitVec 32 := 0#32
  ![v252.toNat, 0]

def k0_chk18 (v252 : BitVec 32) : Prop :=
  (∀ a, (k0_off51 v252) a + S1x8192.size a ≤ S8192x8192.size a) ∧
  (∀ a, (k0_off81 v252) a + S1x8192.size a ≤ S8192x8192.size a)
instance k0_chk18.dec : ∀ (v252 : BitVec 32), Decidable (k0_chk18 v252) := fun v252 => decidable_of_iff' _ (Iff.of_eq (k0_chk18.eq_1 v252))
theorem k0_off51_inb : ∀ (v252 : BitVec 32) (k0_hw18 : k0_chk18 v252), ∀ a, (k0_off51 v252) a + S1x8192.size a ≤ S8192x8192.size a := fun v252 k0_hw18 => k0_hw18.1
theorem k0_off81_inb : ∀ (v252 : BitVec 32) (k0_hw18 : k0_chk18 v252), ∀ a, (k0_off81 v252) a + S1x8192.size a ≤ S8192x8192.size a := fun v252 k0_hw18 => k0_hw18.2

def k0_off82 (v261 : BitVec 32) : Fin 2 → Nat :=
  let c0_i32_203 : BitVec 32 := 0#32
  ![v261.toNat, 0]

def k0_chk19 (v261 : BitVec 32) : Prop :=
  (∀ a, (k0_off53 v261) a + S1x8192.size a ≤ S8192x8192.size a) ∧
  (∀ a, (k0_off82 v261) a + S1x8192.size a ≤ S8192x8192.size a)
instance k0_chk19.dec : ∀ (v261 : BitVec 32), Decidable (k0_chk19 v261) := fun v261 => decidable_of_iff' _ (Iff.of_eq (k0_chk19.eq_1 v261))
theorem k0_off53_inb : ∀ (v261 : BitVec 32) (k0_hw19 : k0_chk19 v261), ∀ a, (k0_off53 v261) a + S1x8192.size a ≤ S8192x8192.size a := fun v261 k0_hw19 => k0_hw19.1
theorem k0_off82_inb : ∀ (v261 : BitVec 32) (k0_hw19 : k0_chk19 v261), ∀ a, (k0_off82 v261) a + S1x8192.size a ≤ S8192x8192.size a := fun v261 k0_hw19 => k0_hw19.2

def k0_off83 (v270 : BitVec 32) : Fin 2 → Nat :=
  let c0_i32_207 : BitVec 32 := 0#32
  ![v270.toNat, 0]

def k0_chk20 (v270 : BitVec 32) : Prop :=
  (∀ a, (k0_off55 v270) a + S1x8192.size a ≤ S8192x8192.size a) ∧
  (∀ a, (k0_off83 v270) a + S1x8192.size a ≤ S8192x8192.size a)
instance k0_chk20.dec : ∀ (v270 : BitVec 32), Decidable (k0_chk20 v270) := fun v270 => decidable_of_iff' _ (Iff.of_eq (k0_chk20.eq_1 v270))
theorem k0_off55_inb : ∀ (v270 : BitVec 32) (k0_hw20 : k0_chk20 v270), ∀ a, (k0_off55 v270) a + S1x8192.size a ≤ S8192x8192.size a := fun v270 k0_hw20 => k0_hw20.1
theorem k0_off83_inb : ∀ (v270 : BitVec 32) (k0_hw20 : k0_chk20 v270), ∀ a, (k0_off83 v270) a + S1x8192.size a ≤ S8192x8192.size a := fun v270 k0_hw20 => k0_hw20.2

def k0_off84 (v279 : BitVec 32) : Fin 2 → Nat :=
  let c0_i32_211 : BitVec 32 := 0#32
  ![v279.toNat, 0]

def k0_chk21 (v279 : BitVec 32) : Prop :=
  (∀ a, (k0_off57 v279) a + S1x8192.size a ≤ S8192x8192.size a) ∧
  (∀ a, (k0_off84 v279) a + S1x8192.size a ≤ S8192x8192.size a)
instance k0_chk21.dec : ∀ (v279 : BitVec 32), Decidable (k0_chk21 v279) := fun v279 => decidable_of_iff' _ (Iff.of_eq (k0_chk21.eq_1 v279))
theorem k0_off57_inb : ∀ (v279 : BitVec 32) (k0_hw21 : k0_chk21 v279), ∀ a, (k0_off57 v279) a + S1x8192.size a ≤ S8192x8192.size a := fun v279 k0_hw21 => k0_hw21.1
theorem k0_off84_inb : ∀ (v279 : BitVec 32) (k0_hw21 : k0_chk21 v279), ∀ a, (k0_off84 v279) a + S1x8192.size a ≤ S8192x8192.size a := fun v279 k0_hw21 => k0_hw21.2

def k0_off85 (v288 : BitVec 32) : Fin 2 → Nat :=
  let c0_i32_215 : BitVec 32 := 0#32
  ![v288.toNat, 0]

def k0_chk22 (v288 : BitVec 32) : Prop :=
  (∀ a, (k0_off59 v288) a + S1x8192.size a ≤ S8192x8192.size a) ∧
  (∀ a, (k0_off85 v288) a + S1x8192.size a ≤ S8192x8192.size a)
instance k0_chk22.dec : ∀ (v288 : BitVec 32), Decidable (k0_chk22 v288) := fun v288 => decidable_of_iff' _ (Iff.of_eq (k0_chk22.eq_1 v288))
theorem k0_off59_inb : ∀ (v288 : BitVec 32) (k0_hw22 : k0_chk22 v288), ∀ a, (k0_off59 v288) a + S1x8192.size a ≤ S8192x8192.size a := fun v288 k0_hw22 => k0_hw22.1
theorem k0_off85_inb : ∀ (v288 : BitVec 32) (k0_hw22 : k0_chk22 v288), ∀ a, (k0_off85 v288) a + S1x8192.size a ≤ S8192x8192.size a := fun v288 k0_hw22 => k0_hw22.2

def k0_off86 (v297 : BitVec 32) : Fin 2 → Nat :=
  let c0_i32_219 : BitVec 32 := 0#32
  ![v297.toNat, 0]

def k0_chk23 (v297 : BitVec 32) : Prop :=
  (∀ a, (k0_off61 v297) a + S1x8192.size a ≤ S8192x8192.size a) ∧
  (∀ a, (k0_off86 v297) a + S1x8192.size a ≤ S8192x8192.size a)
instance k0_chk23.dec : ∀ (v297 : BitVec 32), Decidable (k0_chk23 v297) := fun v297 => decidable_of_iff' _ (Iff.of_eq (k0_chk23.eq_1 v297))
theorem k0_off61_inb : ∀ (v297 : BitVec 32) (k0_hw23 : k0_chk23 v297), ∀ a, (k0_off61 v297) a + S1x8192.size a ≤ S8192x8192.size a := fun v297 k0_hw23 => k0_hw23.1
theorem k0_off86_inb : ∀ (v297 : BitVec 32) (k0_hw23 : k0_chk23 v297), ∀ a, (k0_off86 v297) a + S1x8192.size a ≤ S8192x8192.size a := fun v297 k0_hw23 => k0_hw23.2

def k0_off87 (v306 : BitVec 32) : Fin 2 → Nat :=
  let c0_i32_223 : BitVec 32 := 0#32
  ![v306.toNat, 0]

def k0_chk24 (v306 : BitVec 32) : Prop :=
  (∀ a, (k0_off63 v306) a + S1x8192.size a ≤ S8192x8192.size a) ∧
  (∀ a, (k0_off87 v306) a + S1x8192.size a ≤ S8192x8192.size a)
instance k0_chk24.dec : ∀ (v306 : BitVec 32), Decidable (k0_chk24 v306) := fun v306 => decidable_of_iff' _ (Iff.of_eq (k0_chk24.eq_1 v306))
theorem k0_off63_inb : ∀ (v306 : BitVec 32) (k0_hw24 : k0_chk24 v306), ∀ a, (k0_off63 v306) a + S1x8192.size a ≤ S8192x8192.size a := fun v306 k0_hw24 => k0_hw24.1
theorem k0_off87_inb : ∀ (v306 : BitVec 32) (k0_hw24 : k0_chk24 v306), ∀ a, (k0_off87 v306) a + S1x8192.size a ≤ S8192x8192.size a := fun v306 k0_hw24 => k0_hw24.2

def k0_off88 (v315 : BitVec 32) : Fin 2 → Nat :=
  let c0_i32_227 : BitVec 32 := 0#32
  ![v315.toNat, 0]

def k0_chk25 (v315 : BitVec 32) : Prop :=
  (∀ a, (k0_off65 v315) a + S1x8192.size a ≤ S8192x8192.size a) ∧
  (∀ a, (k0_off88 v315) a + S1x8192.size a ≤ S8192x8192.size a)
instance k0_chk25.dec : ∀ (v315 : BitVec 32), Decidable (k0_chk25 v315) := fun v315 => decidable_of_iff' _ (Iff.of_eq (k0_chk25.eq_1 v315))
theorem k0_off65_inb : ∀ (v315 : BitVec 32) (k0_hw25 : k0_chk25 v315), ∀ a, (k0_off65 v315) a + S1x8192.size a ≤ S8192x8192.size a := fun v315 k0_hw25 => k0_hw25.1
theorem k0_off88_inb : ∀ (v315 : BitVec 32) (k0_hw25 : k0_chk25 v315), ∀ a, (k0_off88 v315) a + S1x8192.size a ≤ S8192x8192.size a := fun v315 k0_hw25 => k0_hw25.2

def k0_off89 (v324 : BitVec 32) : Fin 2 → Nat :=
  let c0_i32_231 : BitVec 32 := 0#32
  ![v324.toNat, 0]

def k0_chk26 (v324 : BitVec 32) : Prop :=
  (∀ a, (k0_off67 v324) a + S1x8192.size a ≤ S8192x8192.size a) ∧
  (∀ a, (k0_off89 v324) a + S1x8192.size a ≤ S8192x8192.size a)
instance k0_chk26.dec : ∀ (v324 : BitVec 32), Decidable (k0_chk26 v324) := fun v324 => decidable_of_iff' _ (Iff.of_eq (k0_chk26.eq_1 v324))
theorem k0_off67_inb : ∀ (v324 : BitVec 32) (k0_hw26 : k0_chk26 v324), ∀ a, (k0_off67 v324) a + S1x8192.size a ≤ S8192x8192.size a := fun v324 k0_hw26 => k0_hw26.1
theorem k0_off89_inb : ∀ (v324 : BitVec 32) (k0_hw26 : k0_chk26 v324), ∀ a, (k0_off89 v324) a + S1x8192.size a ≤ S8192x8192.size a := fun v324 k0_hw26 => k0_hw26.2

def k0_off90 (v333 : BitVec 32) : Fin 2 → Nat :=
  let c0_i32_235 : BitVec 32 := 0#32
  ![v333.toNat, 0]

def k0_chk27 (v333 : BitVec 32) : Prop :=
  (∀ a, (k0_off69 v333) a + S1x8192.size a ≤ S8192x8192.size a) ∧
  (∀ a, (k0_off90 v333) a + S1x8192.size a ≤ S8192x8192.size a)
instance k0_chk27.dec : ∀ (v333 : BitVec 32), Decidable (k0_chk27 v333) := fun v333 => decidable_of_iff' _ (Iff.of_eq (k0_chk27.eq_1 v333))
theorem k0_off69_inb : ∀ (v333 : BitVec 32) (k0_hw27 : k0_chk27 v333), ∀ a, (k0_off69 v333) a + S1x8192.size a ≤ S8192x8192.size a := fun v333 k0_hw27 => k0_hw27.1
theorem k0_off90_inb : ∀ (v333 : BitVec 32) (k0_hw27 : k0_chk27 v333), ∀ a, (k0_off90 v333) a + S1x8192.size a ≤ S8192x8192.size a := fun v333 k0_hw27 => k0_hw27.2

def k0_off91 (v342 : BitVec 32) : Fin 2 → Nat :=
  let c0_i32_239 : BitVec 32 := 0#32
  ![v342.toNat, 0]

def k0_chk28 (v342 : BitVec 32) : Prop :=
  (∀ a, (k0_off71 v342) a + S1x8192.size a ≤ S8192x8192.size a) ∧
  (∀ a, (k0_off91 v342) a + S1x8192.size a ≤ S8192x8192.size a)
instance k0_chk28.dec : ∀ (v342 : BitVec 32), Decidable (k0_chk28 v342) := fun v342 => decidable_of_iff' _ (Iff.of_eq (k0_chk28.eq_1 v342))
theorem k0_off71_inb : ∀ (v342 : BitVec 32) (k0_hw28 : k0_chk28 v342), ∀ a, (k0_off71 v342) a + S1x8192.size a ≤ S8192x8192.size a := fun v342 k0_hw28 => k0_hw28.1
theorem k0_off91_inb : ∀ (v342 : BitVec 32) (k0_hw28 : k0_chk28 v342), ∀ a, (k0_off91 v342) a + S1x8192.size a ≤ S8192x8192.size a := fun v342 k0_hw28 => k0_hw28.2

def k0_off92 (v351 : BitVec 32) : Fin 2 → Nat :=
  let c0_i32_243 : BitVec 32 := 0#32
  ![v351.toNat, 0]

def k0_chk29 (v351 : BitVec 32) : Prop :=
  (∀ a, (k0_off73 v351) a + S1x8192.size a ≤ S8192x8192.size a) ∧
  (∀ a, (k0_off92 v351) a + S1x8192.size a ≤ S8192x8192.size a)
instance k0_chk29.dec : ∀ (v351 : BitVec 32), Decidable (k0_chk29 v351) := fun v351 => decidable_of_iff' _ (Iff.of_eq (k0_chk29.eq_1 v351))
theorem k0_off73_inb : ∀ (v351 : BitVec 32) (k0_hw29 : k0_chk29 v351), ∀ a, (k0_off73 v351) a + S1x8192.size a ≤ S8192x8192.size a := fun v351 k0_hw29 => k0_hw29.1
theorem k0_off92_inb : ∀ (v351 : BitVec 32) (k0_hw29 : k0_chk29 v351), ∀ a, (k0_off92 v351) a + S1x8192.size a ≤ S8192x8192.size a := fun v351 k0_hw29 => k0_hw29.2

def k0_off93 (v360 : BitVec 32) : Fin 2 → Nat :=
  let c0_i32_247 : BitVec 32 := 0#32
  ![v360.toNat, 0]

def k0_chk30 (v360 : BitVec 32) : Prop :=
  (∀ a, (k0_off75 v360) a + S1x8192.size a ≤ S8192x8192.size a) ∧
  (∀ a, (k0_off93 v360) a + S1x8192.size a ≤ S8192x8192.size a)
instance k0_chk30.dec : ∀ (v360 : BitVec 32), Decidable (k0_chk30 v360) := fun v360 => decidable_of_iff' _ (Iff.of_eq (k0_chk30.eq_1 v360))
theorem k0_off75_inb : ∀ (v360 : BitVec 32) (k0_hw30 : k0_chk30 v360), ∀ a, (k0_off75 v360) a + S1x8192.size a ≤ S8192x8192.size a := fun v360 k0_hw30 => k0_hw30.1
theorem k0_off93_inb : ∀ (v360 : BitVec 32) (k0_hw30 : k0_chk30 v360), ∀ a, (k0_off93 v360) a + S1x8192.size a ≤ S8192x8192.size a := fun v360 k0_hw30 => k0_hw30.2

def k0_off94 (v369 : BitVec 32) : Fin 2 → Nat :=
  let c0_i32_251 : BitVec 32 := 0#32
  ![v369.toNat, 0]

def k0_chk31 (v369 : BitVec 32) : Prop :=
  (∀ a, (k0_off77 v369) a + S1x8192.size a ≤ S8192x8192.size a) ∧
  (∀ a, (k0_off94 v369) a + S1x8192.size a ≤ S8192x8192.size a)
instance k0_chk31.dec : ∀ (v369 : BitVec 32), Decidable (k0_chk31 v369) := fun v369 => decidable_of_iff' _ (Iff.of_eq (k0_chk31.eq_1 v369))
theorem k0_off77_inb : ∀ (v369 : BitVec 32) (k0_hw31 : k0_chk31 v369), ∀ a, (k0_off77 v369) a + S1x8192.size a ≤ S8192x8192.size a := fun v369 k0_hw31 => k0_hw31.1
theorem k0_off94_inb : ∀ (v369 : BitVec 32) (k0_hw31 : k0_chk31 v369), ∀ a, (k0_off94 v369) a + S1x8192.size a ≤ S8192x8192.size a := fun v369 k0_hw31 => k0_hw31.2

def k0_off95 (i : grid0.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v481 : BitVec 32 := Scalar.addi v0 c32_i32
  let v482 : Index := Scalar.indexCast v481
  ![v482.toNat]
def k0_off96 (v483 : BitVec 32) : Fin 2 → Nat :=
  let c0_i32_259 : BitVec 32 := 0#32
  ![v483.toNat, 0]

def k0_off97 (i : grid0.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v490 : BitVec 32 := Scalar.addi v0 c33_i32
  let v491 : Index := Scalar.indexCast v490
  ![v491.toNat]
def k0_off98 (v492 : BitVec 32) : Fin 2 → Nat :=
  let c0_i32_263 : BitVec 32 := 0#32
  ![v492.toNat, 0]

def k0_off99 (i : grid0.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v499 : BitVec 32 := Scalar.addi v0 c34_i32
  let v500 : Index := Scalar.indexCast v499
  ![v500.toNat]
def k0_off100 (v501 : BitVec 32) : Fin 2 → Nat :=
  let c0_i32_267 : BitVec 32 := 0#32
  ![v501.toNat, 0]

def k0_off101 (i : grid0.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v508 : BitVec 32 := Scalar.addi v0 c35_i32
  let v509 : Index := Scalar.indexCast v508
  ![v509.toNat]
def k0_off102 (v510 : BitVec 32) : Fin 2 → Nat :=
  let c0_i32_271 : BitVec 32 := 0#32
  ![v510.toNat, 0]

def k0_off103 (i : grid0.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v517 : BitVec 32 := Scalar.addi v0 c36_i32
  let v518 : Index := Scalar.indexCast v517
  ![v518.toNat]
def k0_off104 (v519 : BitVec 32) : Fin 2 → Nat :=
  let c0_i32_275 : BitVec 32 := 0#32
  ![v519.toNat, 0]

def k0_off105 (i : grid0.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v526 : BitVec 32 := Scalar.addi v0 c37_i32
  let v527 : Index := Scalar.indexCast v526
  ![v527.toNat]
def k0_off106 (v528 : BitVec 32) : Fin 2 → Nat :=
  let c0_i32_279 : BitVec 32 := 0#32
  ![v528.toNat, 0]

def k0_off107 (i : grid0.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v535 : BitVec 32 := Scalar.addi v0 c38_i32
  let v536 : Index := Scalar.indexCast v535
  ![v536.toNat]
def k0_off108 (v537 : BitVec 32) : Fin 2 → Nat :=
  let c0_i32_283 : BitVec 32 := 0#32
  ![v537.toNat, 0]

def k0_off109 (i : grid0.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v544 : BitVec 32 := Scalar.addi v0 c39_i32
  let v545 : Index := Scalar.indexCast v544
  ![v545.toNat]
def k0_off110 (v546 : BitVec 32) : Fin 2 → Nat :=
  let c0_i32_287 : BitVec 32 := 0#32
  ![v546.toNat, 0]

def k0_off111 (i : grid0.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v553 : BitVec 32 := Scalar.addi v0 c40_i32
  let v554 : Index := Scalar.indexCast v553
  ![v554.toNat]
def k0_off112 (v555 : BitVec 32) : Fin 2 → Nat :=
  let c0_i32_291 : BitVec 32 := 0#32
  ![v555.toNat, 0]

def k0_off113 (i : grid0.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v562 : BitVec 32 := Scalar.addi v0 c41_i32
  let v563 : Index := Scalar.indexCast v562
  ![v563.toNat]
def k0_off114 (v564 : BitVec 32) : Fin 2 → Nat :=
  let c0_i32_295 : BitVec 32 := 0#32
  ![v564.toNat, 0]

def k0_off115 (i : grid0.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v571 : BitVec 32 := Scalar.addi v0 c42_i32
  let v572 : Index := Scalar.indexCast v571
  ![v572.toNat]
def k0_off116 (v573 : BitVec 32) : Fin 2 → Nat :=
  let c0_i32_299 : BitVec 32 := 0#32
  ![v573.toNat, 0]

def k0_off117 (i : grid0.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v580 : BitVec 32 := Scalar.addi v0 c43_i32
  let v581 : Index := Scalar.indexCast v580
  ![v581.toNat]
def k0_off118 (v582 : BitVec 32) : Fin 2 → Nat :=
  let c0_i32_303 : BitVec 32 := 0#32
  ![v582.toNat, 0]

def k0_off119 (i : grid0.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v589 : BitVec 32 := Scalar.addi v0 c44_i32
  let v590 : Index := Scalar.indexCast v589
  ![v590.toNat]
def k0_off120 (v591 : BitVec 32) : Fin 2 → Nat :=
  let c0_i32_307 : BitVec 32 := 0#32
  ![v591.toNat, 0]

def k0_off121 (i : grid0.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v598 : BitVec 32 := Scalar.addi v0 c45_i32
  let v599 : Index := Scalar.indexCast v598
  ![v599.toNat]
def k0_off122 (v600 : BitVec 32) : Fin 2 → Nat :=
  let c0_i32_311 : BitVec 32 := 0#32
  ![v600.toNat, 0]

def k0_off123 (i : grid0.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v607 : BitVec 32 := Scalar.addi v0 c46_i32
  let v608 : Index := Scalar.indexCast v607
  ![v608.toNat]
def k0_off124 (v609 : BitVec 32) : Fin 2 → Nat :=
  let c0_i32_315 : BitVec 32 := 0#32
  ![v609.toNat, 0]

def k0_off125 (i : grid0.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v616 : BitVec 32 := Scalar.addi v0 c47_i32
  let v617 : Index := Scalar.indexCast v616
  ![v617.toNat]
def k0_off126 (v618 : BitVec 32) : Fin 2 → Nat :=
  let c0_i32_319 : BitVec 32 := 0#32
  ![v618.toNat, 0]

def k0_chk48 (v618 : BitVec 32) : Prop :=
  (∀ a, (k0_off126 v618) a + S1x8192.size a ≤ S8192x8192.size a)
instance k0_chk48.dec : ∀ (v618 : BitVec 32), Decidable (k0_chk48 v618) := fun v618 => decidable_of_iff' _ (Iff.of_eq (k0_chk48.eq_1 v618))
theorem k0_off126_inb : ∀ (v618 : BitVec 32) (k0_hw48 : k0_chk48 v618), ∀ a, (k0_off126 v618) a + S1x8192.size a ≤ S8192x8192.size a := fun v618 k0_hw48 => k0_hw48

def k0_off127 (v483 : BitVec 32) : Fin 2 → Nat :=
  let c0_i32_323 : BitVec 32 := 0#32
  ![v483.toNat, 0]

def k0_chk33 (v483 : BitVec 32) : Prop :=
  (∀ a, (k0_off96 v483) a + S1x8192.size a ≤ S8192x8192.size a) ∧
  (∀ a, (k0_off127 v483) a + S1x8192.size a ≤ S8192x8192.size a)
instance k0_chk33.dec : ∀ (v483 : BitVec 32), Decidable (k0_chk33 v483) := fun v483 => decidable_of_iff' _ (Iff.of_eq (k0_chk33.eq_1 v483))
theorem k0_off96_inb : ∀ (v483 : BitVec 32) (k0_hw33 : k0_chk33 v483), ∀ a, (k0_off96 v483) a + S1x8192.size a ≤ S8192x8192.size a := fun v483 k0_hw33 => k0_hw33.1
theorem k0_off127_inb : ∀ (v483 : BitVec 32) (k0_hw33 : k0_chk33 v483), ∀ a, (k0_off127 v483) a + S1x8192.size a ≤ S8192x8192.size a := fun v483 k0_hw33 => k0_hw33.2

def k0_off128 (v492 : BitVec 32) : Fin 2 → Nat :=
  let c0_i32_327 : BitVec 32 := 0#32
  ![v492.toNat, 0]

def k0_chk34 (v492 : BitVec 32) : Prop :=
  (∀ a, (k0_off98 v492) a + S1x8192.size a ≤ S8192x8192.size a) ∧
  (∀ a, (k0_off128 v492) a + S1x8192.size a ≤ S8192x8192.size a)
instance k0_chk34.dec : ∀ (v492 : BitVec 32), Decidable (k0_chk34 v492) := fun v492 => decidable_of_iff' _ (Iff.of_eq (k0_chk34.eq_1 v492))
theorem k0_off98_inb : ∀ (v492 : BitVec 32) (k0_hw34 : k0_chk34 v492), ∀ a, (k0_off98 v492) a + S1x8192.size a ≤ S8192x8192.size a := fun v492 k0_hw34 => k0_hw34.1
theorem k0_off128_inb : ∀ (v492 : BitVec 32) (k0_hw34 : k0_chk34 v492), ∀ a, (k0_off128 v492) a + S1x8192.size a ≤ S8192x8192.size a := fun v492 k0_hw34 => k0_hw34.2

def k0_off129 (v501 : BitVec 32) : Fin 2 → Nat :=
  let c0_i32_331 : BitVec 32 := 0#32
  ![v501.toNat, 0]

def k0_chk35 (v501 : BitVec 32) : Prop :=
  (∀ a, (k0_off100 v501) a + S1x8192.size a ≤ S8192x8192.size a) ∧
  (∀ a, (k0_off129 v501) a + S1x8192.size a ≤ S8192x8192.size a)
instance k0_chk35.dec : ∀ (v501 : BitVec 32), Decidable (k0_chk35 v501) := fun v501 => decidable_of_iff' _ (Iff.of_eq (k0_chk35.eq_1 v501))
theorem k0_off100_inb : ∀ (v501 : BitVec 32) (k0_hw35 : k0_chk35 v501), ∀ a, (k0_off100 v501) a + S1x8192.size a ≤ S8192x8192.size a := fun v501 k0_hw35 => k0_hw35.1
theorem k0_off129_inb : ∀ (v501 : BitVec 32) (k0_hw35 : k0_chk35 v501), ∀ a, (k0_off129 v501) a + S1x8192.size a ≤ S8192x8192.size a := fun v501 k0_hw35 => k0_hw35.2

def k0_off130 (v510 : BitVec 32) : Fin 2 → Nat :=
  let c0_i32_335 : BitVec 32 := 0#32
  ![v510.toNat, 0]

def k0_chk36 (v510 : BitVec 32) : Prop :=
  (∀ a, (k0_off102 v510) a + S1x8192.size a ≤ S8192x8192.size a) ∧
  (∀ a, (k0_off130 v510) a + S1x8192.size a ≤ S8192x8192.size a)
instance k0_chk36.dec : ∀ (v510 : BitVec 32), Decidable (k0_chk36 v510) := fun v510 => decidable_of_iff' _ (Iff.of_eq (k0_chk36.eq_1 v510))
theorem k0_off102_inb : ∀ (v510 : BitVec 32) (k0_hw36 : k0_chk36 v510), ∀ a, (k0_off102 v510) a + S1x8192.size a ≤ S8192x8192.size a := fun v510 k0_hw36 => k0_hw36.1
theorem k0_off130_inb : ∀ (v510 : BitVec 32) (k0_hw36 : k0_chk36 v510), ∀ a, (k0_off130 v510) a + S1x8192.size a ≤ S8192x8192.size a := fun v510 k0_hw36 => k0_hw36.2

def k0_off131 (v519 : BitVec 32) : Fin 2 → Nat :=
  let c0_i32_339 : BitVec 32 := 0#32
  ![v519.toNat, 0]

def k0_chk37 (v519 : BitVec 32) : Prop :=
  (∀ a, (k0_off104 v519) a + S1x8192.size a ≤ S8192x8192.size a) ∧
  (∀ a, (k0_off131 v519) a + S1x8192.size a ≤ S8192x8192.size a)
instance k0_chk37.dec : ∀ (v519 : BitVec 32), Decidable (k0_chk37 v519) := fun v519 => decidable_of_iff' _ (Iff.of_eq (k0_chk37.eq_1 v519))
theorem k0_off104_inb : ∀ (v519 : BitVec 32) (k0_hw37 : k0_chk37 v519), ∀ a, (k0_off104 v519) a + S1x8192.size a ≤ S8192x8192.size a := fun v519 k0_hw37 => k0_hw37.1
theorem k0_off131_inb : ∀ (v519 : BitVec 32) (k0_hw37 : k0_chk37 v519), ∀ a, (k0_off131 v519) a + S1x8192.size a ≤ S8192x8192.size a := fun v519 k0_hw37 => k0_hw37.2

def k0_off132 (v528 : BitVec 32) : Fin 2 → Nat :=
  let c0_i32_343 : BitVec 32 := 0#32
  ![v528.toNat, 0]

def k0_chk38 (v528 : BitVec 32) : Prop :=
  (∀ a, (k0_off106 v528) a + S1x8192.size a ≤ S8192x8192.size a) ∧
  (∀ a, (k0_off132 v528) a + S1x8192.size a ≤ S8192x8192.size a)
instance k0_chk38.dec : ∀ (v528 : BitVec 32), Decidable (k0_chk38 v528) := fun v528 => decidable_of_iff' _ (Iff.of_eq (k0_chk38.eq_1 v528))
theorem k0_off106_inb : ∀ (v528 : BitVec 32) (k0_hw38 : k0_chk38 v528), ∀ a, (k0_off106 v528) a + S1x8192.size a ≤ S8192x8192.size a := fun v528 k0_hw38 => k0_hw38.1
theorem k0_off132_inb : ∀ (v528 : BitVec 32) (k0_hw38 : k0_chk38 v528), ∀ a, (k0_off132 v528) a + S1x8192.size a ≤ S8192x8192.size a := fun v528 k0_hw38 => k0_hw38.2

def k0_off133 (v537 : BitVec 32) : Fin 2 → Nat :=
  let c0_i32_347 : BitVec 32 := 0#32
  ![v537.toNat, 0]

def k0_chk39 (v537 : BitVec 32) : Prop :=
  (∀ a, (k0_off108 v537) a + S1x8192.size a ≤ S8192x8192.size a) ∧
  (∀ a, (k0_off133 v537) a + S1x8192.size a ≤ S8192x8192.size a)
instance k0_chk39.dec : ∀ (v537 : BitVec 32), Decidable (k0_chk39 v537) := fun v537 => decidable_of_iff' _ (Iff.of_eq (k0_chk39.eq_1 v537))
theorem k0_off108_inb : ∀ (v537 : BitVec 32) (k0_hw39 : k0_chk39 v537), ∀ a, (k0_off108 v537) a + S1x8192.size a ≤ S8192x8192.size a := fun v537 k0_hw39 => k0_hw39.1
theorem k0_off133_inb : ∀ (v537 : BitVec 32) (k0_hw39 : k0_chk39 v537), ∀ a, (k0_off133 v537) a + S1x8192.size a ≤ S8192x8192.size a := fun v537 k0_hw39 => k0_hw39.2

def k0_off134 (v546 : BitVec 32) : Fin 2 → Nat :=
  let c0_i32_351 : BitVec 32 := 0#32
  ![v546.toNat, 0]

def k0_chk40 (v546 : BitVec 32) : Prop :=
  (∀ a, (k0_off110 v546) a + S1x8192.size a ≤ S8192x8192.size a) ∧
  (∀ a, (k0_off134 v546) a + S1x8192.size a ≤ S8192x8192.size a)
instance k0_chk40.dec : ∀ (v546 : BitVec 32), Decidable (k0_chk40 v546) := fun v546 => decidable_of_iff' _ (Iff.of_eq (k0_chk40.eq_1 v546))
theorem k0_off110_inb : ∀ (v546 : BitVec 32) (k0_hw40 : k0_chk40 v546), ∀ a, (k0_off110 v546) a + S1x8192.size a ≤ S8192x8192.size a := fun v546 k0_hw40 => k0_hw40.1
theorem k0_off134_inb : ∀ (v546 : BitVec 32) (k0_hw40 : k0_chk40 v546), ∀ a, (k0_off134 v546) a + S1x8192.size a ≤ S8192x8192.size a := fun v546 k0_hw40 => k0_hw40.2

def k0_off135 (v555 : BitVec 32) : Fin 2 → Nat :=
  let c0_i32_355 : BitVec 32 := 0#32
  ![v555.toNat, 0]

def k0_chk41 (v555 : BitVec 32) : Prop :=
  (∀ a, (k0_off112 v555) a + S1x8192.size a ≤ S8192x8192.size a) ∧
  (∀ a, (k0_off135 v555) a + S1x8192.size a ≤ S8192x8192.size a)
instance k0_chk41.dec : ∀ (v555 : BitVec 32), Decidable (k0_chk41 v555) := fun v555 => decidable_of_iff' _ (Iff.of_eq (k0_chk41.eq_1 v555))
theorem k0_off112_inb : ∀ (v555 : BitVec 32) (k0_hw41 : k0_chk41 v555), ∀ a, (k0_off112 v555) a + S1x8192.size a ≤ S8192x8192.size a := fun v555 k0_hw41 => k0_hw41.1
theorem k0_off135_inb : ∀ (v555 : BitVec 32) (k0_hw41 : k0_chk41 v555), ∀ a, (k0_off135 v555) a + S1x8192.size a ≤ S8192x8192.size a := fun v555 k0_hw41 => k0_hw41.2

def k0_off136 (v564 : BitVec 32) : Fin 2 → Nat :=
  let c0_i32_359 : BitVec 32 := 0#32
  ![v564.toNat, 0]

def k0_chk42 (v564 : BitVec 32) : Prop :=
  (∀ a, (k0_off114 v564) a + S1x8192.size a ≤ S8192x8192.size a) ∧
  (∀ a, (k0_off136 v564) a + S1x8192.size a ≤ S8192x8192.size a)
instance k0_chk42.dec : ∀ (v564 : BitVec 32), Decidable (k0_chk42 v564) := fun v564 => decidable_of_iff' _ (Iff.of_eq (k0_chk42.eq_1 v564))
theorem k0_off114_inb : ∀ (v564 : BitVec 32) (k0_hw42 : k0_chk42 v564), ∀ a, (k0_off114 v564) a + S1x8192.size a ≤ S8192x8192.size a := fun v564 k0_hw42 => k0_hw42.1
theorem k0_off136_inb : ∀ (v564 : BitVec 32) (k0_hw42 : k0_chk42 v564), ∀ a, (k0_off136 v564) a + S1x8192.size a ≤ S8192x8192.size a := fun v564 k0_hw42 => k0_hw42.2

def k0_off137 (v573 : BitVec 32) : Fin 2 → Nat :=
  let c0_i32_363 : BitVec 32 := 0#32
  ![v573.toNat, 0]

def k0_chk43 (v573 : BitVec 32) : Prop :=
  (∀ a, (k0_off116 v573) a + S1x8192.size a ≤ S8192x8192.size a) ∧
  (∀ a, (k0_off137 v573) a + S1x8192.size a ≤ S8192x8192.size a)
instance k0_chk43.dec : ∀ (v573 : BitVec 32), Decidable (k0_chk43 v573) := fun v573 => decidable_of_iff' _ (Iff.of_eq (k0_chk43.eq_1 v573))
theorem k0_off116_inb : ∀ (v573 : BitVec 32) (k0_hw43 : k0_chk43 v573), ∀ a, (k0_off116 v573) a + S1x8192.size a ≤ S8192x8192.size a := fun v573 k0_hw43 => k0_hw43.1
theorem k0_off137_inb : ∀ (v573 : BitVec 32) (k0_hw43 : k0_chk43 v573), ∀ a, (k0_off137 v573) a + S1x8192.size a ≤ S8192x8192.size a := fun v573 k0_hw43 => k0_hw43.2

def k0_off138 (v582 : BitVec 32) : Fin 2 → Nat :=
  let c0_i32_367 : BitVec 32 := 0#32
  ![v582.toNat, 0]

def k0_chk44 (v582 : BitVec 32) : Prop :=
  (∀ a, (k0_off118 v582) a + S1x8192.size a ≤ S8192x8192.size a) ∧
  (∀ a, (k0_off138 v582) a + S1x8192.size a ≤ S8192x8192.size a)
instance k0_chk44.dec : ∀ (v582 : BitVec 32), Decidable (k0_chk44 v582) := fun v582 => decidable_of_iff' _ (Iff.of_eq (k0_chk44.eq_1 v582))
theorem k0_off118_inb : ∀ (v582 : BitVec 32) (k0_hw44 : k0_chk44 v582), ∀ a, (k0_off118 v582) a + S1x8192.size a ≤ S8192x8192.size a := fun v582 k0_hw44 => k0_hw44.1
theorem k0_off138_inb : ∀ (v582 : BitVec 32) (k0_hw44 : k0_chk44 v582), ∀ a, (k0_off138 v582) a + S1x8192.size a ≤ S8192x8192.size a := fun v582 k0_hw44 => k0_hw44.2

def k0_off139 (v591 : BitVec 32) : Fin 2 → Nat :=
  let c0_i32_371 : BitVec 32 := 0#32
  ![v591.toNat, 0]

def k0_chk45 (v591 : BitVec 32) : Prop :=
  (∀ a, (k0_off120 v591) a + S1x8192.size a ≤ S8192x8192.size a) ∧
  (∀ a, (k0_off139 v591) a + S1x8192.size a ≤ S8192x8192.size a)
instance k0_chk45.dec : ∀ (v591 : BitVec 32), Decidable (k0_chk45 v591) := fun v591 => decidable_of_iff' _ (Iff.of_eq (k0_chk45.eq_1 v591))
theorem k0_off120_inb : ∀ (v591 : BitVec 32) (k0_hw45 : k0_chk45 v591), ∀ a, (k0_off120 v591) a + S1x8192.size a ≤ S8192x8192.size a := fun v591 k0_hw45 => k0_hw45.1
theorem k0_off139_inb : ∀ (v591 : BitVec 32) (k0_hw45 : k0_chk45 v591), ∀ a, (k0_off139 v591) a + S1x8192.size a ≤ S8192x8192.size a := fun v591 k0_hw45 => k0_hw45.2

def k0_off140 (v600 : BitVec 32) : Fin 2 → Nat :=
  let c0_i32_375 : BitVec 32 := 0#32
  ![v600.toNat, 0]

def k0_chk46 (v600 : BitVec 32) : Prop :=
  (∀ a, (k0_off122 v600) a + S1x8192.size a ≤ S8192x8192.size a) ∧
  (∀ a, (k0_off140 v600) a + S1x8192.size a ≤ S8192x8192.size a)
instance k0_chk46.dec : ∀ (v600 : BitVec 32), Decidable (k0_chk46 v600) := fun v600 => decidable_of_iff' _ (Iff.of_eq (k0_chk46.eq_1 v600))
theorem k0_off122_inb : ∀ (v600 : BitVec 32) (k0_hw46 : k0_chk46 v600), ∀ a, (k0_off122 v600) a + S1x8192.size a ≤ S8192x8192.size a := fun v600 k0_hw46 => k0_hw46.1
theorem k0_off140_inb : ∀ (v600 : BitVec 32) (k0_hw46 : k0_chk46 v600), ∀ a, (k0_off140 v600) a + S1x8192.size a ≤ S8192x8192.size a := fun v600 k0_hw46 => k0_hw46.2

def k0_off141 (v609 : BitVec 32) : Fin 2 → Nat :=
  let c0_i32_379 : BitVec 32 := 0#32
  ![v609.toNat, 0]

def k0_chk47 (v609 : BitVec 32) : Prop :=
  (∀ a, (k0_off124 v609) a + S1x8192.size a ≤ S8192x8192.size a) ∧
  (∀ a, (k0_off141 v609) a + S1x8192.size a ≤ S8192x8192.size a)
instance k0_chk47.dec : ∀ (v609 : BitVec 32), Decidable (k0_chk47 v609) := fun v609 => decidable_of_iff' _ (Iff.of_eq (k0_chk47.eq_1 v609))
theorem k0_off124_inb : ∀ (v609 : BitVec 32) (k0_hw47 : k0_chk47 v609), ∀ a, (k0_off124 v609) a + S1x8192.size a ≤ S8192x8192.size a := fun v609 k0_hw47 => k0_hw47.1
theorem k0_off141_inb : ∀ (v609 : BitVec 32) (k0_hw47 : k0_chk47 v609), ∀ a, (k0_off141 v609) a + S1x8192.size a ≤ S8192x8192.size a := fun v609 k0_hw47 => k0_hw47.2

def k0_off142 (i : grid0.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v721 : BitVec 32 := Scalar.addi v0 c48_i32
  let v722 : Index := Scalar.indexCast v721
  ![v722.toNat]
def k0_off143 (v723 : BitVec 32) : Fin 2 → Nat :=
  let c0_i32_387 : BitVec 32 := 0#32
  ![v723.toNat, 0]

def k0_off144 (i : grid0.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v730 : BitVec 32 := Scalar.addi v0 c49_i32
  let v731 : Index := Scalar.indexCast v730
  ![v731.toNat]
def k0_off145 (v732 : BitVec 32) : Fin 2 → Nat :=
  let c0_i32_391 : BitVec 32 := 0#32
  ![v732.toNat, 0]

def k0_off146 (i : grid0.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v739 : BitVec 32 := Scalar.addi v0 c50_i32
  let v740 : Index := Scalar.indexCast v739
  ![v740.toNat]
def k0_off147 (v741 : BitVec 32) : Fin 2 → Nat :=
  let c0_i32_395 : BitVec 32 := 0#32
  ![v741.toNat, 0]

def k0_off148 (i : grid0.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v748 : BitVec 32 := Scalar.addi v0 c51_i32
  let v749 : Index := Scalar.indexCast v748
  ![v749.toNat]
def k0_off149 (v750 : BitVec 32) : Fin 2 → Nat :=
  let c0_i32_399 : BitVec 32 := 0#32
  ![v750.toNat, 0]

def k0_off150 (i : grid0.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v757 : BitVec 32 := Scalar.addi v0 c52_i32
  let v758 : Index := Scalar.indexCast v757
  ![v758.toNat]
def k0_off151 (v759 : BitVec 32) : Fin 2 → Nat :=
  let c0_i32_403 : BitVec 32 := 0#32
  ![v759.toNat, 0]

def k0_off152 (i : grid0.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v766 : BitVec 32 := Scalar.addi v0 c53_i32
  let v767 : Index := Scalar.indexCast v766
  ![v767.toNat]
def k0_off153 (v768 : BitVec 32) : Fin 2 → Nat :=
  let c0_i32_407 : BitVec 32 := 0#32
  ![v768.toNat, 0]

def k0_off154 (i : grid0.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v775 : BitVec 32 := Scalar.addi v0 c54_i32
  let v776 : Index := Scalar.indexCast v775
  ![v776.toNat]
def k0_off155 (v777 : BitVec 32) : Fin 2 → Nat :=
  let c0_i32_411 : BitVec 32 := 0#32
  ![v777.toNat, 0]

def k0_off156 (i : grid0.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v784 : BitVec 32 := Scalar.addi v0 c55_i32
  let v785 : Index := Scalar.indexCast v784
  ![v785.toNat]
def k0_off157 (v786 : BitVec 32) : Fin 2 → Nat :=
  let c0_i32_415 : BitVec 32 := 0#32
  ![v786.toNat, 0]

def k0_off158 (i : grid0.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v793 : BitVec 32 := Scalar.addi v0 c56_i32
  let v794 : Index := Scalar.indexCast v793
  ![v794.toNat]
def k0_off159 (v795 : BitVec 32) : Fin 2 → Nat :=
  let c0_i32_419 : BitVec 32 := 0#32
  ![v795.toNat, 0]

def k0_off160 (i : grid0.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v802 : BitVec 32 := Scalar.addi v0 c57_i32
  let v803 : Index := Scalar.indexCast v802
  ![v803.toNat]
def k0_off161 (v804 : BitVec 32) : Fin 2 → Nat :=
  let c0_i32_423 : BitVec 32 := 0#32
  ![v804.toNat, 0]

def k0_off162 (i : grid0.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v811 : BitVec 32 := Scalar.addi v0 c58_i32
  let v812 : Index := Scalar.indexCast v811
  ![v812.toNat]
def k0_off163 (v813 : BitVec 32) : Fin 2 → Nat :=
  let c0_i32_427 : BitVec 32 := 0#32
  ![v813.toNat, 0]

def k0_off164 (i : grid0.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v820 : BitVec 32 := Scalar.addi v0 c59_i32
  let v821 : Index := Scalar.indexCast v820
  ![v821.toNat]
def k0_off165 (v822 : BitVec 32) : Fin 2 → Nat :=
  let c0_i32_431 : BitVec 32 := 0#32
  ![v822.toNat, 0]

def k0_off166 (i : grid0.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v829 : BitVec 32 := Scalar.addi v0 c60_i32
  let v830 : Index := Scalar.indexCast v829
  ![v830.toNat]
def k0_off167 (v831 : BitVec 32) : Fin 2 → Nat :=
  let c0_i32_435 : BitVec 32 := 0#32
  ![v831.toNat, 0]

def k0_off168 (i : grid0.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v838 : BitVec 32 := Scalar.addi v0 c61_i32
  let v839 : Index := Scalar.indexCast v838
  ![v839.toNat]
def k0_off169 (v840 : BitVec 32) : Fin 2 → Nat :=
  let c0_i32_439 : BitVec 32 := 0#32
  ![v840.toNat, 0]

def k0_off170 (i : grid0.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v847 : BitVec 32 := Scalar.addi v0 c62_i32
  let v848 : Index := Scalar.indexCast v847
  ![v848.toNat]
def k0_off171 (v849 : BitVec 32) : Fin 2 → Nat :=
  let c0_i32_443 : BitVec 32 := 0#32
  ![v849.toNat, 0]

def k0_off172 (i : grid0.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v856 : BitVec 32 := Scalar.addi v0 c63_i32
  let v857 : Index := Scalar.indexCast v856
  ![v857.toNat]
def k0_off173 (v858 : BitVec 32) : Fin 2 → Nat :=
  let c0_i32_447 : BitVec 32 := 0#32
  ![v858.toNat, 0]

def k0_chk64 (v858 : BitVec 32) : Prop :=
  (∀ a, (k0_off173 v858) a + S1x8192.size a ≤ S8192x8192.size a)
instance k0_chk64.dec : ∀ (v858 : BitVec 32), Decidable (k0_chk64 v858) := fun v858 => decidable_of_iff' _ (Iff.of_eq (k0_chk64.eq_1 v858))
theorem k0_off173_inb : ∀ (v858 : BitVec 32) (k0_hw64 : k0_chk64 v858), ∀ a, (k0_off173 v858) a + S1x8192.size a ≤ S8192x8192.size a := fun v858 k0_hw64 => k0_hw64

def k0_off174 (v723 : BitVec 32) : Fin 2 → Nat :=
  let c0_i32_451 : BitVec 32 := 0#32
  ![v723.toNat, 0]

def k0_chk49 (v723 : BitVec 32) : Prop :=
  (∀ a, (k0_off143 v723) a + S1x8192.size a ≤ S8192x8192.size a) ∧
  (∀ a, (k0_off174 v723) a + S1x8192.size a ≤ S8192x8192.size a)
instance k0_chk49.dec : ∀ (v723 : BitVec 32), Decidable (k0_chk49 v723) := fun v723 => decidable_of_iff' _ (Iff.of_eq (k0_chk49.eq_1 v723))
theorem k0_off143_inb : ∀ (v723 : BitVec 32) (k0_hw49 : k0_chk49 v723), ∀ a, (k0_off143 v723) a + S1x8192.size a ≤ S8192x8192.size a := fun v723 k0_hw49 => k0_hw49.1
theorem k0_off174_inb : ∀ (v723 : BitVec 32) (k0_hw49 : k0_chk49 v723), ∀ a, (k0_off174 v723) a + S1x8192.size a ≤ S8192x8192.size a := fun v723 k0_hw49 => k0_hw49.2

def k0_off175 (v732 : BitVec 32) : Fin 2 → Nat :=
  let c0_i32_455 : BitVec 32 := 0#32
  ![v732.toNat, 0]

def k0_chk50 (v732 : BitVec 32) : Prop :=
  (∀ a, (k0_off145 v732) a + S1x8192.size a ≤ S8192x8192.size a) ∧
  (∀ a, (k0_off175 v732) a + S1x8192.size a ≤ S8192x8192.size a)
instance k0_chk50.dec : ∀ (v732 : BitVec 32), Decidable (k0_chk50 v732) := fun v732 => decidable_of_iff' _ (Iff.of_eq (k0_chk50.eq_1 v732))
theorem k0_off145_inb : ∀ (v732 : BitVec 32) (k0_hw50 : k0_chk50 v732), ∀ a, (k0_off145 v732) a + S1x8192.size a ≤ S8192x8192.size a := fun v732 k0_hw50 => k0_hw50.1
theorem k0_off175_inb : ∀ (v732 : BitVec 32) (k0_hw50 : k0_chk50 v732), ∀ a, (k0_off175 v732) a + S1x8192.size a ≤ S8192x8192.size a := fun v732 k0_hw50 => k0_hw50.2

def k0_off176 (v741 : BitVec 32) : Fin 2 → Nat :=
  let c0_i32_459 : BitVec 32 := 0#32
  ![v741.toNat, 0]

def k0_chk51 (v741 : BitVec 32) : Prop :=
  (∀ a, (k0_off147 v741) a + S1x8192.size a ≤ S8192x8192.size a) ∧
  (∀ a, (k0_off176 v741) a + S1x8192.size a ≤ S8192x8192.size a)
instance k0_chk51.dec : ∀ (v741 : BitVec 32), Decidable (k0_chk51 v741) := fun v741 => decidable_of_iff' _ (Iff.of_eq (k0_chk51.eq_1 v741))
theorem k0_off147_inb : ∀ (v741 : BitVec 32) (k0_hw51 : k0_chk51 v741), ∀ a, (k0_off147 v741) a + S1x8192.size a ≤ S8192x8192.size a := fun v741 k0_hw51 => k0_hw51.1
theorem k0_off176_inb : ∀ (v741 : BitVec 32) (k0_hw51 : k0_chk51 v741), ∀ a, (k0_off176 v741) a + S1x8192.size a ≤ S8192x8192.size a := fun v741 k0_hw51 => k0_hw51.2

def k0_off177 (v750 : BitVec 32) : Fin 2 → Nat :=
  let c0_i32_463 : BitVec 32 := 0#32
  ![v750.toNat, 0]

def k0_chk52 (v750 : BitVec 32) : Prop :=
  (∀ a, (k0_off149 v750) a + S1x8192.size a ≤ S8192x8192.size a) ∧
  (∀ a, (k0_off177 v750) a + S1x8192.size a ≤ S8192x8192.size a)
instance k0_chk52.dec : ∀ (v750 : BitVec 32), Decidable (k0_chk52 v750) := fun v750 => decidable_of_iff' _ (Iff.of_eq (k0_chk52.eq_1 v750))
theorem k0_off149_inb : ∀ (v750 : BitVec 32) (k0_hw52 : k0_chk52 v750), ∀ a, (k0_off149 v750) a + S1x8192.size a ≤ S8192x8192.size a := fun v750 k0_hw52 => k0_hw52.1
theorem k0_off177_inb : ∀ (v750 : BitVec 32) (k0_hw52 : k0_chk52 v750), ∀ a, (k0_off177 v750) a + S1x8192.size a ≤ S8192x8192.size a := fun v750 k0_hw52 => k0_hw52.2

def k0_off178 (v759 : BitVec 32) : Fin 2 → Nat :=
  let c0_i32_467 : BitVec 32 := 0#32
  ![v759.toNat, 0]

def k0_chk53 (v759 : BitVec 32) : Prop :=
  (∀ a, (k0_off151 v759) a + S1x8192.size a ≤ S8192x8192.size a) ∧
  (∀ a, (k0_off178 v759) a + S1x8192.size a ≤ S8192x8192.size a)
instance k0_chk53.dec : ∀ (v759 : BitVec 32), Decidable (k0_chk53 v759) := fun v759 => decidable_of_iff' _ (Iff.of_eq (k0_chk53.eq_1 v759))
theorem k0_off151_inb : ∀ (v759 : BitVec 32) (k0_hw53 : k0_chk53 v759), ∀ a, (k0_off151 v759) a + S1x8192.size a ≤ S8192x8192.size a := fun v759 k0_hw53 => k0_hw53.1
theorem k0_off178_inb : ∀ (v759 : BitVec 32) (k0_hw53 : k0_chk53 v759), ∀ a, (k0_off178 v759) a + S1x8192.size a ≤ S8192x8192.size a := fun v759 k0_hw53 => k0_hw53.2

def k0_off179 (v768 : BitVec 32) : Fin 2 → Nat :=
  let c0_i32_471 : BitVec 32 := 0#32
  ![v768.toNat, 0]

def k0_chk54 (v768 : BitVec 32) : Prop :=
  (∀ a, (k0_off153 v768) a + S1x8192.size a ≤ S8192x8192.size a) ∧
  (∀ a, (k0_off179 v768) a + S1x8192.size a ≤ S8192x8192.size a)
instance k0_chk54.dec : ∀ (v768 : BitVec 32), Decidable (k0_chk54 v768) := fun v768 => decidable_of_iff' _ (Iff.of_eq (k0_chk54.eq_1 v768))
theorem k0_off153_inb : ∀ (v768 : BitVec 32) (k0_hw54 : k0_chk54 v768), ∀ a, (k0_off153 v768) a + S1x8192.size a ≤ S8192x8192.size a := fun v768 k0_hw54 => k0_hw54.1
theorem k0_off179_inb : ∀ (v768 : BitVec 32) (k0_hw54 : k0_chk54 v768), ∀ a, (k0_off179 v768) a + S1x8192.size a ≤ S8192x8192.size a := fun v768 k0_hw54 => k0_hw54.2

def k0_off180 (v777 : BitVec 32) : Fin 2 → Nat :=
  let c0_i32_475 : BitVec 32 := 0#32
  ![v777.toNat, 0]

def k0_chk55 (v777 : BitVec 32) : Prop :=
  (∀ a, (k0_off155 v777) a + S1x8192.size a ≤ S8192x8192.size a) ∧
  (∀ a, (k0_off180 v777) a + S1x8192.size a ≤ S8192x8192.size a)
instance k0_chk55.dec : ∀ (v777 : BitVec 32), Decidable (k0_chk55 v777) := fun v777 => decidable_of_iff' _ (Iff.of_eq (k0_chk55.eq_1 v777))
theorem k0_off155_inb : ∀ (v777 : BitVec 32) (k0_hw55 : k0_chk55 v777), ∀ a, (k0_off155 v777) a + S1x8192.size a ≤ S8192x8192.size a := fun v777 k0_hw55 => k0_hw55.1
theorem k0_off180_inb : ∀ (v777 : BitVec 32) (k0_hw55 : k0_chk55 v777), ∀ a, (k0_off180 v777) a + S1x8192.size a ≤ S8192x8192.size a := fun v777 k0_hw55 => k0_hw55.2

def k0_off181 (v786 : BitVec 32) : Fin 2 → Nat :=
  let c0_i32_479 : BitVec 32 := 0#32
  ![v786.toNat, 0]

def k0_chk56 (v786 : BitVec 32) : Prop :=
  (∀ a, (k0_off157 v786) a + S1x8192.size a ≤ S8192x8192.size a) ∧
  (∀ a, (k0_off181 v786) a + S1x8192.size a ≤ S8192x8192.size a)
instance k0_chk56.dec : ∀ (v786 : BitVec 32), Decidable (k0_chk56 v786) := fun v786 => decidable_of_iff' _ (Iff.of_eq (k0_chk56.eq_1 v786))
theorem k0_off157_inb : ∀ (v786 : BitVec 32) (k0_hw56 : k0_chk56 v786), ∀ a, (k0_off157 v786) a + S1x8192.size a ≤ S8192x8192.size a := fun v786 k0_hw56 => k0_hw56.1
theorem k0_off181_inb : ∀ (v786 : BitVec 32) (k0_hw56 : k0_chk56 v786), ∀ a, (k0_off181 v786) a + S1x8192.size a ≤ S8192x8192.size a := fun v786 k0_hw56 => k0_hw56.2

def k0_off182 (v795 : BitVec 32) : Fin 2 → Nat :=
  let c0_i32_483 : BitVec 32 := 0#32
  ![v795.toNat, 0]

def k0_chk57 (v795 : BitVec 32) : Prop :=
  (∀ a, (k0_off159 v795) a + S1x8192.size a ≤ S8192x8192.size a) ∧
  (∀ a, (k0_off182 v795) a + S1x8192.size a ≤ S8192x8192.size a)
instance k0_chk57.dec : ∀ (v795 : BitVec 32), Decidable (k0_chk57 v795) := fun v795 => decidable_of_iff' _ (Iff.of_eq (k0_chk57.eq_1 v795))
theorem k0_off159_inb : ∀ (v795 : BitVec 32) (k0_hw57 : k0_chk57 v795), ∀ a, (k0_off159 v795) a + S1x8192.size a ≤ S8192x8192.size a := fun v795 k0_hw57 => k0_hw57.1
theorem k0_off182_inb : ∀ (v795 : BitVec 32) (k0_hw57 : k0_chk57 v795), ∀ a, (k0_off182 v795) a + S1x8192.size a ≤ S8192x8192.size a := fun v795 k0_hw57 => k0_hw57.2

def k0_off183 (v804 : BitVec 32) : Fin 2 → Nat :=
  let c0_i32_487 : BitVec 32 := 0#32
  ![v804.toNat, 0]

def k0_chk58 (v804 : BitVec 32) : Prop :=
  (∀ a, (k0_off161 v804) a + S1x8192.size a ≤ S8192x8192.size a) ∧
  (∀ a, (k0_off183 v804) a + S1x8192.size a ≤ S8192x8192.size a)
instance k0_chk58.dec : ∀ (v804 : BitVec 32), Decidable (k0_chk58 v804) := fun v804 => decidable_of_iff' _ (Iff.of_eq (k0_chk58.eq_1 v804))
theorem k0_off161_inb : ∀ (v804 : BitVec 32) (k0_hw58 : k0_chk58 v804), ∀ a, (k0_off161 v804) a + S1x8192.size a ≤ S8192x8192.size a := fun v804 k0_hw58 => k0_hw58.1
theorem k0_off183_inb : ∀ (v804 : BitVec 32) (k0_hw58 : k0_chk58 v804), ∀ a, (k0_off183 v804) a + S1x8192.size a ≤ S8192x8192.size a := fun v804 k0_hw58 => k0_hw58.2

def k0_off184 (v813 : BitVec 32) : Fin 2 → Nat :=
  let c0_i32_491 : BitVec 32 := 0#32
  ![v813.toNat, 0]

def k0_chk59 (v813 : BitVec 32) : Prop :=
  (∀ a, (k0_off163 v813) a + S1x8192.size a ≤ S8192x8192.size a) ∧
  (∀ a, (k0_off184 v813) a + S1x8192.size a ≤ S8192x8192.size a)
instance k0_chk59.dec : ∀ (v813 : BitVec 32), Decidable (k0_chk59 v813) := fun v813 => decidable_of_iff' _ (Iff.of_eq (k0_chk59.eq_1 v813))
theorem k0_off163_inb : ∀ (v813 : BitVec 32) (k0_hw59 : k0_chk59 v813), ∀ a, (k0_off163 v813) a + S1x8192.size a ≤ S8192x8192.size a := fun v813 k0_hw59 => k0_hw59.1
theorem k0_off184_inb : ∀ (v813 : BitVec 32) (k0_hw59 : k0_chk59 v813), ∀ a, (k0_off184 v813) a + S1x8192.size a ≤ S8192x8192.size a := fun v813 k0_hw59 => k0_hw59.2

def k0_off185 (v822 : BitVec 32) : Fin 2 → Nat :=
  let c0_i32_495 : BitVec 32 := 0#32
  ![v822.toNat, 0]

def k0_chk60 (v822 : BitVec 32) : Prop :=
  (∀ a, (k0_off165 v822) a + S1x8192.size a ≤ S8192x8192.size a) ∧
  (∀ a, (k0_off185 v822) a + S1x8192.size a ≤ S8192x8192.size a)
instance k0_chk60.dec : ∀ (v822 : BitVec 32), Decidable (k0_chk60 v822) := fun v822 => decidable_of_iff' _ (Iff.of_eq (k0_chk60.eq_1 v822))
theorem k0_off165_inb : ∀ (v822 : BitVec 32) (k0_hw60 : k0_chk60 v822), ∀ a, (k0_off165 v822) a + S1x8192.size a ≤ S8192x8192.size a := fun v822 k0_hw60 => k0_hw60.1
theorem k0_off185_inb : ∀ (v822 : BitVec 32) (k0_hw60 : k0_chk60 v822), ∀ a, (k0_off185 v822) a + S1x8192.size a ≤ S8192x8192.size a := fun v822 k0_hw60 => k0_hw60.2

def k0_off186 (v831 : BitVec 32) : Fin 2 → Nat :=
  let c0_i32_499 : BitVec 32 := 0#32
  ![v831.toNat, 0]

def k0_chk61 (v831 : BitVec 32) : Prop :=
  (∀ a, (k0_off167 v831) a + S1x8192.size a ≤ S8192x8192.size a) ∧
  (∀ a, (k0_off186 v831) a + S1x8192.size a ≤ S8192x8192.size a)
instance k0_chk61.dec : ∀ (v831 : BitVec 32), Decidable (k0_chk61 v831) := fun v831 => decidable_of_iff' _ (Iff.of_eq (k0_chk61.eq_1 v831))
theorem k0_off167_inb : ∀ (v831 : BitVec 32) (k0_hw61 : k0_chk61 v831), ∀ a, (k0_off167 v831) a + S1x8192.size a ≤ S8192x8192.size a := fun v831 k0_hw61 => k0_hw61.1
theorem k0_off186_inb : ∀ (v831 : BitVec 32) (k0_hw61 : k0_chk61 v831), ∀ a, (k0_off186 v831) a + S1x8192.size a ≤ S8192x8192.size a := fun v831 k0_hw61 => k0_hw61.2

def k0_off187 (v840 : BitVec 32) : Fin 2 → Nat :=
  let c0_i32_503 : BitVec 32 := 0#32
  ![v840.toNat, 0]

def k0_chk62 (v840 : BitVec 32) : Prop :=
  (∀ a, (k0_off169 v840) a + S1x8192.size a ≤ S8192x8192.size a) ∧
  (∀ a, (k0_off187 v840) a + S1x8192.size a ≤ S8192x8192.size a)
instance k0_chk62.dec : ∀ (v840 : BitVec 32), Decidable (k0_chk62 v840) := fun v840 => decidable_of_iff' _ (Iff.of_eq (k0_chk62.eq_1 v840))
theorem k0_off169_inb : ∀ (v840 : BitVec 32) (k0_hw62 : k0_chk62 v840), ∀ a, (k0_off169 v840) a + S1x8192.size a ≤ S8192x8192.size a := fun v840 k0_hw62 => k0_hw62.1
theorem k0_off187_inb : ∀ (v840 : BitVec 32) (k0_hw62 : k0_chk62 v840), ∀ a, (k0_off187 v840) a + S1x8192.size a ≤ S8192x8192.size a := fun v840 k0_hw62 => k0_hw62.2

def k0_off188 (v849 : BitVec 32) : Fin 2 → Nat :=
  let c0_i32_507 : BitVec 32 := 0#32
  ![v849.toNat, 0]

def k0_chk63 (v849 : BitVec 32) : Prop :=
  (∀ a, (k0_off171 v849) a + S1x8192.size a ≤ S8192x8192.size a) ∧
  (∀ a, (k0_off188 v849) a + S1x8192.size a ≤ S8192x8192.size a)
instance k0_chk63.dec : ∀ (v849 : BitVec 32), Decidable (k0_chk63 v849) := fun v849 => decidable_of_iff' _ (Iff.of_eq (k0_chk63.eq_1 v849))
theorem k0_off171_inb : ∀ (v849 : BitVec 32) (k0_hw63 : k0_chk63 v849), ∀ a, (k0_off171 v849) a + S1x8192.size a ≤ S8192x8192.size a := fun v849 k0_hw63 => k0_hw63.1
theorem k0_off188_inb : ∀ (v849 : BitVec 32) (k0_hw63 : k0_chk63 v849), ∀ a, (k0_off188 v849) a + S1x8192.size a ≤ S8192x8192.size a := fun v849 k0_hw63 => k0_hw63.2

def k0_off189 (i : grid0.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v961 : BitVec 32 := Scalar.addi v0 c64_i32
  let v962 : Index := Scalar.indexCast v961
  ![v962.toNat]
def k0_off190 (v963 : BitVec 32) : Fin 2 → Nat :=
  let c0_i32_515 : BitVec 32 := 0#32
  ![v963.toNat, 0]

def k0_off191 (i : grid0.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v970 : BitVec 32 := Scalar.addi v0 c65_i32
  let v971 : Index := Scalar.indexCast v970
  ![v971.toNat]
def k0_off192 (v972 : BitVec 32) : Fin 2 → Nat :=
  let c0_i32_519 : BitVec 32 := 0#32
  ![v972.toNat, 0]

def k0_off193 (i : grid0.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v979 : BitVec 32 := Scalar.addi v0 c66_i32
  let v980 : Index := Scalar.indexCast v979
  ![v980.toNat]
def k0_off194 (v981 : BitVec 32) : Fin 2 → Nat :=
  let c0_i32_523 : BitVec 32 := 0#32
  ![v981.toNat, 0]

def k0_off195 (i : grid0.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v988 : BitVec 32 := Scalar.addi v0 c67_i32
  let v989 : Index := Scalar.indexCast v988
  ![v989.toNat]
def k0_off196 (v990 : BitVec 32) : Fin 2 → Nat :=
  let c0_i32_527 : BitVec 32 := 0#32
  ![v990.toNat, 0]

def k0_off197 (i : grid0.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v997 : BitVec 32 := Scalar.addi v0 c68_i32
  let v998 : Index := Scalar.indexCast v997
  ![v998.toNat]
def k0_off198 (v999 : BitVec 32) : Fin 2 → Nat :=
  let c0_i32_531 : BitVec 32 := 0#32
  ![v999.toNat, 0]

def k0_off199 (i : grid0.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v1006 : BitVec 32 := Scalar.addi v0 c69_i32
  let v1007 : Index := Scalar.indexCast v1006
  ![v1007.toNat]
def k0_off200 (v1008 : BitVec 32) : Fin 2 → Nat :=
  let c0_i32_535 : BitVec 32 := 0#32
  ![v1008.toNat, 0]

def k0_off201 (i : grid0.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v1015 : BitVec 32 := Scalar.addi v0 c70_i32
  let v1016 : Index := Scalar.indexCast v1015
  ![v1016.toNat]
def k0_off202 (v1017 : BitVec 32) : Fin 2 → Nat :=
  let c0_i32_539 : BitVec 32 := 0#32
  ![v1017.toNat, 0]

def k0_off203 (i : grid0.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v1024 : BitVec 32 := Scalar.addi v0 c71_i32
  let v1025 : Index := Scalar.indexCast v1024
  ![v1025.toNat]
def k0_off204 (v1026 : BitVec 32) : Fin 2 → Nat :=
  let c0_i32_543 : BitVec 32 := 0#32
  ![v1026.toNat, 0]

def k0_off205 (i : grid0.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v1033 : BitVec 32 := Scalar.addi v0 c72_i32
  let v1034 : Index := Scalar.indexCast v1033
  ![v1034.toNat]
def k0_off206 (v1035 : BitVec 32) : Fin 2 → Nat :=
  let c0_i32_547 : BitVec 32 := 0#32
  ![v1035.toNat, 0]

def k0_off207 (i : grid0.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v1042 : BitVec 32 := Scalar.addi v0 c73_i32
  let v1043 : Index := Scalar.indexCast v1042
  ![v1043.toNat]
def k0_off208 (v1044 : BitVec 32) : Fin 2 → Nat :=
  let c0_i32_551 : BitVec 32 := 0#32
  ![v1044.toNat, 0]

def k0_off209 (i : grid0.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v1051 : BitVec 32 := Scalar.addi v0 c74_i32
  let v1052 : Index := Scalar.indexCast v1051
  ![v1052.toNat]
def k0_off210 (v1053 : BitVec 32) : Fin 2 → Nat :=
  let c0_i32_555 : BitVec 32 := 0#32
  ![v1053.toNat, 0]

def k0_off211 (i : grid0.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v1060 : BitVec 32 := Scalar.addi v0 c75_i32
  let v1061 : Index := Scalar.indexCast v1060
  ![v1061.toNat]
def k0_off212 (v1062 : BitVec 32) : Fin 2 → Nat :=
  let c0_i32_559 : BitVec 32 := 0#32
  ![v1062.toNat, 0]

def k0_off213 (i : grid0.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v1069 : BitVec 32 := Scalar.addi v0 c76_i32
  let v1070 : Index := Scalar.indexCast v1069
  ![v1070.toNat]
def k0_off214 (v1071 : BitVec 32) : Fin 2 → Nat :=
  let c0_i32_563 : BitVec 32 := 0#32
  ![v1071.toNat, 0]

def k0_off215 (i : grid0.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v1078 : BitVec 32 := Scalar.addi v0 c77_i32
  let v1079 : Index := Scalar.indexCast v1078
  ![v1079.toNat]
def k0_off216 (v1080 : BitVec 32) : Fin 2 → Nat :=
  let c0_i32_567 : BitVec 32 := 0#32
  ![v1080.toNat, 0]

def k0_off217 (i : grid0.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v1087 : BitVec 32 := Scalar.addi v0 c78_i32
  let v1088 : Index := Scalar.indexCast v1087
  ![v1088.toNat]
def k0_off218 (v1089 : BitVec 32) : Fin 2 → Nat :=
  let c0_i32_571 : BitVec 32 := 0#32
  ![v1089.toNat, 0]

def k0_off219 (i : grid0.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v1096 : BitVec 32 := Scalar.addi v0 c79_i32
  let v1097 : Index := Scalar.indexCast v1096
  ![v1097.toNat]
def k0_off220 (v1098 : BitVec 32) : Fin 2 → Nat :=
  let c0_i32_575 : BitVec 32 := 0#32
  ![v1098.toNat, 0]

def k0_chk80 (v1098 : BitVec 32) : Prop :=
  (∀ a, (k0_off220 v1098) a + S1x8192.size a ≤ S8192x8192.size a)
instance k0_chk80.dec : ∀ (v1098 : BitVec 32), Decidable (k0_chk80 v1098) := fun v1098 => decidable_of_iff' _ (Iff.of_eq (k0_chk80.eq_1 v1098))
theorem k0_off220_inb : ∀ (v1098 : BitVec 32) (k0_hw80 : k0_chk80 v1098), ∀ a, (k0_off220 v1098) a + S1x8192.size a ≤ S8192x8192.size a := fun v1098 k0_hw80 => k0_hw80

def k0_off221 (v963 : BitVec 32) : Fin 2 → Nat :=
  let c0_i32_579 : BitVec 32 := 0#32
  ![v963.toNat, 0]

def k0_chk65 (v963 : BitVec 32) : Prop :=
  (∀ a, (k0_off190 v963) a + S1x8192.size a ≤ S8192x8192.size a) ∧
  (∀ a, (k0_off221 v963) a + S1x8192.size a ≤ S8192x8192.size a)
instance k0_chk65.dec : ∀ (v963 : BitVec 32), Decidable (k0_chk65 v963) := fun v963 => decidable_of_iff' _ (Iff.of_eq (k0_chk65.eq_1 v963))
theorem k0_off190_inb : ∀ (v963 : BitVec 32) (k0_hw65 : k0_chk65 v963), ∀ a, (k0_off190 v963) a + S1x8192.size a ≤ S8192x8192.size a := fun v963 k0_hw65 => k0_hw65.1
theorem k0_off221_inb : ∀ (v963 : BitVec 32) (k0_hw65 : k0_chk65 v963), ∀ a, (k0_off221 v963) a + S1x8192.size a ≤ S8192x8192.size a := fun v963 k0_hw65 => k0_hw65.2

def k0_off222 (v972 : BitVec 32) : Fin 2 → Nat :=
  let c0_i32_583 : BitVec 32 := 0#32
  ![v972.toNat, 0]

def k0_chk66 (v972 : BitVec 32) : Prop :=
  (∀ a, (k0_off192 v972) a + S1x8192.size a ≤ S8192x8192.size a) ∧
  (∀ a, (k0_off222 v972) a + S1x8192.size a ≤ S8192x8192.size a)
instance k0_chk66.dec : ∀ (v972 : BitVec 32), Decidable (k0_chk66 v972) := fun v972 => decidable_of_iff' _ (Iff.of_eq (k0_chk66.eq_1 v972))
theorem k0_off192_inb : ∀ (v972 : BitVec 32) (k0_hw66 : k0_chk66 v972), ∀ a, (k0_off192 v972) a + S1x8192.size a ≤ S8192x8192.size a := fun v972 k0_hw66 => k0_hw66.1
theorem k0_off222_inb : ∀ (v972 : BitVec 32) (k0_hw66 : k0_chk66 v972), ∀ a, (k0_off222 v972) a + S1x8192.size a ≤ S8192x8192.size a := fun v972 k0_hw66 => k0_hw66.2

def k0_off223 (v981 : BitVec 32) : Fin 2 → Nat :=
  let c0_i32_587 : BitVec 32 := 0#32
  ![v981.toNat, 0]

def k0_chk67 (v981 : BitVec 32) : Prop :=
  (∀ a, (k0_off194 v981) a + S1x8192.size a ≤ S8192x8192.size a) ∧
  (∀ a, (k0_off223 v981) a + S1x8192.size a ≤ S8192x8192.size a)
instance k0_chk67.dec : ∀ (v981 : BitVec 32), Decidable (k0_chk67 v981) := fun v981 => decidable_of_iff' _ (Iff.of_eq (k0_chk67.eq_1 v981))
theorem k0_off194_inb : ∀ (v981 : BitVec 32) (k0_hw67 : k0_chk67 v981), ∀ a, (k0_off194 v981) a + S1x8192.size a ≤ S8192x8192.size a := fun v981 k0_hw67 => k0_hw67.1
theorem k0_off223_inb : ∀ (v981 : BitVec 32) (k0_hw67 : k0_chk67 v981), ∀ a, (k0_off223 v981) a + S1x8192.size a ≤ S8192x8192.size a := fun v981 k0_hw67 => k0_hw67.2

def k0_off224 (v990 : BitVec 32) : Fin 2 → Nat :=
  let c0_i32_591 : BitVec 32 := 0#32
  ![v990.toNat, 0]

def k0_chk68 (v990 : BitVec 32) : Prop :=
  (∀ a, (k0_off196 v990) a + S1x8192.size a ≤ S8192x8192.size a) ∧
  (∀ a, (k0_off224 v990) a + S1x8192.size a ≤ S8192x8192.size a)
instance k0_chk68.dec : ∀ (v990 : BitVec 32), Decidable (k0_chk68 v990) := fun v990 => decidable_of_iff' _ (Iff.of_eq (k0_chk68.eq_1 v990))
theorem k0_off196_inb : ∀ (v990 : BitVec 32) (k0_hw68 : k0_chk68 v990), ∀ a, (k0_off196 v990) a + S1x8192.size a ≤ S8192x8192.size a := fun v990 k0_hw68 => k0_hw68.1
theorem k0_off224_inb : ∀ (v990 : BitVec 32) (k0_hw68 : k0_chk68 v990), ∀ a, (k0_off224 v990) a + S1x8192.size a ≤ S8192x8192.size a := fun v990 k0_hw68 => k0_hw68.2

def k0_off225 (v999 : BitVec 32) : Fin 2 → Nat :=
  let c0_i32_595 : BitVec 32 := 0#32
  ![v999.toNat, 0]

def k0_chk69 (v999 : BitVec 32) : Prop :=
  (∀ a, (k0_off198 v999) a + S1x8192.size a ≤ S8192x8192.size a) ∧
  (∀ a, (k0_off225 v999) a + S1x8192.size a ≤ S8192x8192.size a)
instance k0_chk69.dec : ∀ (v999 : BitVec 32), Decidable (k0_chk69 v999) := fun v999 => decidable_of_iff' _ (Iff.of_eq (k0_chk69.eq_1 v999))
theorem k0_off198_inb : ∀ (v999 : BitVec 32) (k0_hw69 : k0_chk69 v999), ∀ a, (k0_off198 v999) a + S1x8192.size a ≤ S8192x8192.size a := fun v999 k0_hw69 => k0_hw69.1
theorem k0_off225_inb : ∀ (v999 : BitVec 32) (k0_hw69 : k0_chk69 v999), ∀ a, (k0_off225 v999) a + S1x8192.size a ≤ S8192x8192.size a := fun v999 k0_hw69 => k0_hw69.2

def k0_off226 (v1008 : BitVec 32) : Fin 2 → Nat :=
  let c0_i32_599 : BitVec 32 := 0#32
  ![v1008.toNat, 0]

def k0_chk70 (v1008 : BitVec 32) : Prop :=
  (∀ a, (k0_off200 v1008) a + S1x8192.size a ≤ S8192x8192.size a) ∧
  (∀ a, (k0_off226 v1008) a + S1x8192.size a ≤ S8192x8192.size a)
instance k0_chk70.dec : ∀ (v1008 : BitVec 32), Decidable (k0_chk70 v1008) := fun v1008 => decidable_of_iff' _ (Iff.of_eq (k0_chk70.eq_1 v1008))
theorem k0_off200_inb : ∀ (v1008 : BitVec 32) (k0_hw70 : k0_chk70 v1008), ∀ a, (k0_off200 v1008) a + S1x8192.size a ≤ S8192x8192.size a := fun v1008 k0_hw70 => k0_hw70.1
theorem k0_off226_inb : ∀ (v1008 : BitVec 32) (k0_hw70 : k0_chk70 v1008), ∀ a, (k0_off226 v1008) a + S1x8192.size a ≤ S8192x8192.size a := fun v1008 k0_hw70 => k0_hw70.2

def k0_off227 (v1017 : BitVec 32) : Fin 2 → Nat :=
  let c0_i32_603 : BitVec 32 := 0#32
  ![v1017.toNat, 0]

def k0_chk71 (v1017 : BitVec 32) : Prop :=
  (∀ a, (k0_off202 v1017) a + S1x8192.size a ≤ S8192x8192.size a) ∧
  (∀ a, (k0_off227 v1017) a + S1x8192.size a ≤ S8192x8192.size a)
instance k0_chk71.dec : ∀ (v1017 : BitVec 32), Decidable (k0_chk71 v1017) := fun v1017 => decidable_of_iff' _ (Iff.of_eq (k0_chk71.eq_1 v1017))
theorem k0_off202_inb : ∀ (v1017 : BitVec 32) (k0_hw71 : k0_chk71 v1017), ∀ a, (k0_off202 v1017) a + S1x8192.size a ≤ S8192x8192.size a := fun v1017 k0_hw71 => k0_hw71.1
theorem k0_off227_inb : ∀ (v1017 : BitVec 32) (k0_hw71 : k0_chk71 v1017), ∀ a, (k0_off227 v1017) a + S1x8192.size a ≤ S8192x8192.size a := fun v1017 k0_hw71 => k0_hw71.2

def k0_off228 (v1026 : BitVec 32) : Fin 2 → Nat :=
  let c0_i32_607 : BitVec 32 := 0#32
  ![v1026.toNat, 0]

def k0_chk72 (v1026 : BitVec 32) : Prop :=
  (∀ a, (k0_off204 v1026) a + S1x8192.size a ≤ S8192x8192.size a) ∧
  (∀ a, (k0_off228 v1026) a + S1x8192.size a ≤ S8192x8192.size a)
instance k0_chk72.dec : ∀ (v1026 : BitVec 32), Decidable (k0_chk72 v1026) := fun v1026 => decidable_of_iff' _ (Iff.of_eq (k0_chk72.eq_1 v1026))
theorem k0_off204_inb : ∀ (v1026 : BitVec 32) (k0_hw72 : k0_chk72 v1026), ∀ a, (k0_off204 v1026) a + S1x8192.size a ≤ S8192x8192.size a := fun v1026 k0_hw72 => k0_hw72.1
theorem k0_off228_inb : ∀ (v1026 : BitVec 32) (k0_hw72 : k0_chk72 v1026), ∀ a, (k0_off228 v1026) a + S1x8192.size a ≤ S8192x8192.size a := fun v1026 k0_hw72 => k0_hw72.2

def k0_off229 (v1035 : BitVec 32) : Fin 2 → Nat :=
  let c0_i32_611 : BitVec 32 := 0#32
  ![v1035.toNat, 0]

def k0_chk73 (v1035 : BitVec 32) : Prop :=
  (∀ a, (k0_off206 v1035) a + S1x8192.size a ≤ S8192x8192.size a) ∧
  (∀ a, (k0_off229 v1035) a + S1x8192.size a ≤ S8192x8192.size a)
instance k0_chk73.dec : ∀ (v1035 : BitVec 32), Decidable (k0_chk73 v1035) := fun v1035 => decidable_of_iff' _ (Iff.of_eq (k0_chk73.eq_1 v1035))
theorem k0_off206_inb : ∀ (v1035 : BitVec 32) (k0_hw73 : k0_chk73 v1035), ∀ a, (k0_off206 v1035) a + S1x8192.size a ≤ S8192x8192.size a := fun v1035 k0_hw73 => k0_hw73.1
theorem k0_off229_inb : ∀ (v1035 : BitVec 32) (k0_hw73 : k0_chk73 v1035), ∀ a, (k0_off229 v1035) a + S1x8192.size a ≤ S8192x8192.size a := fun v1035 k0_hw73 => k0_hw73.2

def k0_off230 (v1044 : BitVec 32) : Fin 2 → Nat :=
  let c0_i32_615 : BitVec 32 := 0#32
  ![v1044.toNat, 0]

def k0_chk74 (v1044 : BitVec 32) : Prop :=
  (∀ a, (k0_off208 v1044) a + S1x8192.size a ≤ S8192x8192.size a) ∧
  (∀ a, (k0_off230 v1044) a + S1x8192.size a ≤ S8192x8192.size a)
instance k0_chk74.dec : ∀ (v1044 : BitVec 32), Decidable (k0_chk74 v1044) := fun v1044 => decidable_of_iff' _ (Iff.of_eq (k0_chk74.eq_1 v1044))
theorem k0_off208_inb : ∀ (v1044 : BitVec 32) (k0_hw74 : k0_chk74 v1044), ∀ a, (k0_off208 v1044) a + S1x8192.size a ≤ S8192x8192.size a := fun v1044 k0_hw74 => k0_hw74.1
theorem k0_off230_inb : ∀ (v1044 : BitVec 32) (k0_hw74 : k0_chk74 v1044), ∀ a, (k0_off230 v1044) a + S1x8192.size a ≤ S8192x8192.size a := fun v1044 k0_hw74 => k0_hw74.2

def k0_off231 (v1053 : BitVec 32) : Fin 2 → Nat :=
  let c0_i32_619 : BitVec 32 := 0#32
  ![v1053.toNat, 0]

def k0_chk75 (v1053 : BitVec 32) : Prop :=
  (∀ a, (k0_off210 v1053) a + S1x8192.size a ≤ S8192x8192.size a) ∧
  (∀ a, (k0_off231 v1053) a + S1x8192.size a ≤ S8192x8192.size a)
instance k0_chk75.dec : ∀ (v1053 : BitVec 32), Decidable (k0_chk75 v1053) := fun v1053 => decidable_of_iff' _ (Iff.of_eq (k0_chk75.eq_1 v1053))
theorem k0_off210_inb : ∀ (v1053 : BitVec 32) (k0_hw75 : k0_chk75 v1053), ∀ a, (k0_off210 v1053) a + S1x8192.size a ≤ S8192x8192.size a := fun v1053 k0_hw75 => k0_hw75.1
theorem k0_off231_inb : ∀ (v1053 : BitVec 32) (k0_hw75 : k0_chk75 v1053), ∀ a, (k0_off231 v1053) a + S1x8192.size a ≤ S8192x8192.size a := fun v1053 k0_hw75 => k0_hw75.2

def k0_off232 (v1062 : BitVec 32) : Fin 2 → Nat :=
  let c0_i32_623 : BitVec 32 := 0#32
  ![v1062.toNat, 0]

def k0_chk76 (v1062 : BitVec 32) : Prop :=
  (∀ a, (k0_off212 v1062) a + S1x8192.size a ≤ S8192x8192.size a) ∧
  (∀ a, (k0_off232 v1062) a + S1x8192.size a ≤ S8192x8192.size a)
instance k0_chk76.dec : ∀ (v1062 : BitVec 32), Decidable (k0_chk76 v1062) := fun v1062 => decidable_of_iff' _ (Iff.of_eq (k0_chk76.eq_1 v1062))
theorem k0_off212_inb : ∀ (v1062 : BitVec 32) (k0_hw76 : k0_chk76 v1062), ∀ a, (k0_off212 v1062) a + S1x8192.size a ≤ S8192x8192.size a := fun v1062 k0_hw76 => k0_hw76.1
theorem k0_off232_inb : ∀ (v1062 : BitVec 32) (k0_hw76 : k0_chk76 v1062), ∀ a, (k0_off232 v1062) a + S1x8192.size a ≤ S8192x8192.size a := fun v1062 k0_hw76 => k0_hw76.2

def k0_off233 (v1071 : BitVec 32) : Fin 2 → Nat :=
  let c0_i32_627 : BitVec 32 := 0#32
  ![v1071.toNat, 0]

def k0_chk77 (v1071 : BitVec 32) : Prop :=
  (∀ a, (k0_off214 v1071) a + S1x8192.size a ≤ S8192x8192.size a) ∧
  (∀ a, (k0_off233 v1071) a + S1x8192.size a ≤ S8192x8192.size a)
instance k0_chk77.dec : ∀ (v1071 : BitVec 32), Decidable (k0_chk77 v1071) := fun v1071 => decidable_of_iff' _ (Iff.of_eq (k0_chk77.eq_1 v1071))
theorem k0_off214_inb : ∀ (v1071 : BitVec 32) (k0_hw77 : k0_chk77 v1071), ∀ a, (k0_off214 v1071) a + S1x8192.size a ≤ S8192x8192.size a := fun v1071 k0_hw77 => k0_hw77.1
theorem k0_off233_inb : ∀ (v1071 : BitVec 32) (k0_hw77 : k0_chk77 v1071), ∀ a, (k0_off233 v1071) a + S1x8192.size a ≤ S8192x8192.size a := fun v1071 k0_hw77 => k0_hw77.2

def k0_off234 (v1080 : BitVec 32) : Fin 2 → Nat :=
  let c0_i32_631 : BitVec 32 := 0#32
  ![v1080.toNat, 0]

def k0_chk78 (v1080 : BitVec 32) : Prop :=
  (∀ a, (k0_off216 v1080) a + S1x8192.size a ≤ S8192x8192.size a) ∧
  (∀ a, (k0_off234 v1080) a + S1x8192.size a ≤ S8192x8192.size a)
instance k0_chk78.dec : ∀ (v1080 : BitVec 32), Decidable (k0_chk78 v1080) := fun v1080 => decidable_of_iff' _ (Iff.of_eq (k0_chk78.eq_1 v1080))
theorem k0_off216_inb : ∀ (v1080 : BitVec 32) (k0_hw78 : k0_chk78 v1080), ∀ a, (k0_off216 v1080) a + S1x8192.size a ≤ S8192x8192.size a := fun v1080 k0_hw78 => k0_hw78.1
theorem k0_off234_inb : ∀ (v1080 : BitVec 32) (k0_hw78 : k0_chk78 v1080), ∀ a, (k0_off234 v1080) a + S1x8192.size a ≤ S8192x8192.size a := fun v1080 k0_hw78 => k0_hw78.2

def k0_off235 (v1089 : BitVec 32) : Fin 2 → Nat :=
  let c0_i32_635 : BitVec 32 := 0#32
  ![v1089.toNat, 0]

def k0_chk79 (v1089 : BitVec 32) : Prop :=
  (∀ a, (k0_off218 v1089) a + S1x8192.size a ≤ S8192x8192.size a) ∧
  (∀ a, (k0_off235 v1089) a + S1x8192.size a ≤ S8192x8192.size a)
instance k0_chk79.dec : ∀ (v1089 : BitVec 32), Decidable (k0_chk79 v1089) := fun v1089 => decidable_of_iff' _ (Iff.of_eq (k0_chk79.eq_1 v1089))
theorem k0_off218_inb : ∀ (v1089 : BitVec 32) (k0_hw79 : k0_chk79 v1089), ∀ a, (k0_off218 v1089) a + S1x8192.size a ≤ S8192x8192.size a := fun v1089 k0_hw79 => k0_hw79.1
theorem k0_off235_inb : ∀ (v1089 : BitVec 32) (k0_hw79 : k0_chk79 v1089), ∀ a, (k0_off235 v1089) a + S1x8192.size a ≤ S8192x8192.size a := fun v1089 k0_hw79 => k0_hw79.2

def k0_off236 (i : grid0.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v1201 : BitVec 32 := Scalar.addi v0 c80_i32
  let v1202 : Index := Scalar.indexCast v1201
  ![v1202.toNat]
def k0_off237 (v1203 : BitVec 32) : Fin 2 → Nat :=
  let c0_i32_643 : BitVec 32 := 0#32
  ![v1203.toNat, 0]

def k0_off238 (i : grid0.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v1210 : BitVec 32 := Scalar.addi v0 c81_i32
  let v1211 : Index := Scalar.indexCast v1210
  ![v1211.toNat]
def k0_off239 (v1212 : BitVec 32) : Fin 2 → Nat :=
  let c0_i32_647 : BitVec 32 := 0#32
  ![v1212.toNat, 0]

def k0_off240 (i : grid0.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v1219 : BitVec 32 := Scalar.addi v0 c82_i32
  let v1220 : Index := Scalar.indexCast v1219
  ![v1220.toNat]
def k0_off241 (v1221 : BitVec 32) : Fin 2 → Nat :=
  let c0_i32_651 : BitVec 32 := 0#32
  ![v1221.toNat, 0]

def k0_off242 (i : grid0.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v1228 : BitVec 32 := Scalar.addi v0 c83_i32
  let v1229 : Index := Scalar.indexCast v1228
  ![v1229.toNat]
def k0_off243 (v1230 : BitVec 32) : Fin 2 → Nat :=
  let c0_i32_655 : BitVec 32 := 0#32
  ![v1230.toNat, 0]

def k0_off244 (i : grid0.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v1237 : BitVec 32 := Scalar.addi v0 c84_i32
  let v1238 : Index := Scalar.indexCast v1237
  ![v1238.toNat]
def k0_off245 (v1239 : BitVec 32) : Fin 2 → Nat :=
  let c0_i32_659 : BitVec 32 := 0#32
  ![v1239.toNat, 0]

def k0_off246 (i : grid0.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v1246 : BitVec 32 := Scalar.addi v0 c85_i32
  let v1247 : Index := Scalar.indexCast v1246
  ![v1247.toNat]
def k0_off247 (v1248 : BitVec 32) : Fin 2 → Nat :=
  let c0_i32_663 : BitVec 32 := 0#32
  ![v1248.toNat, 0]

def k0_off248 (i : grid0.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v1255 : BitVec 32 := Scalar.addi v0 c86_i32
  let v1256 : Index := Scalar.indexCast v1255
  ![v1256.toNat]
def k0_off249 (v1257 : BitVec 32) : Fin 2 → Nat :=
  let c0_i32_667 : BitVec 32 := 0#32
  ![v1257.toNat, 0]

def k0_off250 (i : grid0.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v1264 : BitVec 32 := Scalar.addi v0 c87_i32
  let v1265 : Index := Scalar.indexCast v1264
  ![v1265.toNat]
def k0_off251 (v1266 : BitVec 32) : Fin 2 → Nat :=
  let c0_i32_671 : BitVec 32 := 0#32
  ![v1266.toNat, 0]

def k0_off252 (i : grid0.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v1273 : BitVec 32 := Scalar.addi v0 c88_i32
  let v1274 : Index := Scalar.indexCast v1273
  ![v1274.toNat]
def k0_off253 (v1275 : BitVec 32) : Fin 2 → Nat :=
  let c0_i32_675 : BitVec 32 := 0#32
  ![v1275.toNat, 0]

def k0_off254 (i : grid0.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v1282 : BitVec 32 := Scalar.addi v0 c89_i32
  let v1283 : Index := Scalar.indexCast v1282
  ![v1283.toNat]
def k0_off255 (v1284 : BitVec 32) : Fin 2 → Nat :=
  let c0_i32_679 : BitVec 32 := 0#32
  ![v1284.toNat, 0]

def k0_off256 (i : grid0.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v1291 : BitVec 32 := Scalar.addi v0 c90_i32
  let v1292 : Index := Scalar.indexCast v1291
  ![v1292.toNat]
def k0_off257 (v1293 : BitVec 32) : Fin 2 → Nat :=
  let c0_i32_683 : BitVec 32 := 0#32
  ![v1293.toNat, 0]

def k0_off258 (i : grid0.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v1300 : BitVec 32 := Scalar.addi v0 c91_i32
  let v1301 : Index := Scalar.indexCast v1300
  ![v1301.toNat]
def k0_off259 (v1302 : BitVec 32) : Fin 2 → Nat :=
  let c0_i32_687 : BitVec 32 := 0#32
  ![v1302.toNat, 0]

def k0_off260 (i : grid0.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v1309 : BitVec 32 := Scalar.addi v0 c92_i32
  let v1310 : Index := Scalar.indexCast v1309
  ![v1310.toNat]
def k0_off261 (v1311 : BitVec 32) : Fin 2 → Nat :=
  let c0_i32_691 : BitVec 32 := 0#32
  ![v1311.toNat, 0]

def k0_off262 (i : grid0.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v1318 : BitVec 32 := Scalar.addi v0 c93_i32
  let v1319 : Index := Scalar.indexCast v1318
  ![v1319.toNat]
def k0_off263 (v1320 : BitVec 32) : Fin 2 → Nat :=
  let c0_i32_695 : BitVec 32 := 0#32
  ![v1320.toNat, 0]

def k0_off264 (i : grid0.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v1327 : BitVec 32 := Scalar.addi v0 c94_i32
  let v1328 : Index := Scalar.indexCast v1327
  ![v1328.toNat]
def k0_off265 (v1329 : BitVec 32) : Fin 2 → Nat :=
  let c0_i32_699 : BitVec 32 := 0#32
  ![v1329.toNat, 0]

def k0_off266 (i : grid0.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v1336 : BitVec 32 := Scalar.addi v0 c95_i32
  let v1337 : Index := Scalar.indexCast v1336
  ![v1337.toNat]
def k0_off267 (v1338 : BitVec 32) : Fin 2 → Nat :=
  let c0_i32_703 : BitVec 32 := 0#32
  ![v1338.toNat, 0]

def k0_chk96 (v1338 : BitVec 32) : Prop :=
  (∀ a, (k0_off267 v1338) a + S1x8192.size a ≤ S8192x8192.size a)
instance k0_chk96.dec : ∀ (v1338 : BitVec 32), Decidable (k0_chk96 v1338) := fun v1338 => decidable_of_iff' _ (Iff.of_eq (k0_chk96.eq_1 v1338))
theorem k0_off267_inb : ∀ (v1338 : BitVec 32) (k0_hw96 : k0_chk96 v1338), ∀ a, (k0_off267 v1338) a + S1x8192.size a ≤ S8192x8192.size a := fun v1338 k0_hw96 => k0_hw96

def k0_off268 (v1203 : BitVec 32) : Fin 2 → Nat :=
  let c0_i32_707 : BitVec 32 := 0#32
  ![v1203.toNat, 0]

def k0_chk81 (v1203 : BitVec 32) : Prop :=
  (∀ a, (k0_off237 v1203) a + S1x8192.size a ≤ S8192x8192.size a) ∧
  (∀ a, (k0_off268 v1203) a + S1x8192.size a ≤ S8192x8192.size a)
instance k0_chk81.dec : ∀ (v1203 : BitVec 32), Decidable (k0_chk81 v1203) := fun v1203 => decidable_of_iff' _ (Iff.of_eq (k0_chk81.eq_1 v1203))
theorem k0_off237_inb : ∀ (v1203 : BitVec 32) (k0_hw81 : k0_chk81 v1203), ∀ a, (k0_off237 v1203) a + S1x8192.size a ≤ S8192x8192.size a := fun v1203 k0_hw81 => k0_hw81.1
theorem k0_off268_inb : ∀ (v1203 : BitVec 32) (k0_hw81 : k0_chk81 v1203), ∀ a, (k0_off268 v1203) a + S1x8192.size a ≤ S8192x8192.size a := fun v1203 k0_hw81 => k0_hw81.2

def k0_off269 (v1212 : BitVec 32) : Fin 2 → Nat :=
  let c0_i32_711 : BitVec 32 := 0#32
  ![v1212.toNat, 0]

def k0_chk82 (v1212 : BitVec 32) : Prop :=
  (∀ a, (k0_off239 v1212) a + S1x8192.size a ≤ S8192x8192.size a) ∧
  (∀ a, (k0_off269 v1212) a + S1x8192.size a ≤ S8192x8192.size a)
instance k0_chk82.dec : ∀ (v1212 : BitVec 32), Decidable (k0_chk82 v1212) := fun v1212 => decidable_of_iff' _ (Iff.of_eq (k0_chk82.eq_1 v1212))
theorem k0_off239_inb : ∀ (v1212 : BitVec 32) (k0_hw82 : k0_chk82 v1212), ∀ a, (k0_off239 v1212) a + S1x8192.size a ≤ S8192x8192.size a := fun v1212 k0_hw82 => k0_hw82.1
theorem k0_off269_inb : ∀ (v1212 : BitVec 32) (k0_hw82 : k0_chk82 v1212), ∀ a, (k0_off269 v1212) a + S1x8192.size a ≤ S8192x8192.size a := fun v1212 k0_hw82 => k0_hw82.2

def k0_off270 (v1221 : BitVec 32) : Fin 2 → Nat :=
  let c0_i32_715 : BitVec 32 := 0#32
  ![v1221.toNat, 0]

def k0_chk83 (v1221 : BitVec 32) : Prop :=
  (∀ a, (k0_off241 v1221) a + S1x8192.size a ≤ S8192x8192.size a) ∧
  (∀ a, (k0_off270 v1221) a + S1x8192.size a ≤ S8192x8192.size a)
instance k0_chk83.dec : ∀ (v1221 : BitVec 32), Decidable (k0_chk83 v1221) := fun v1221 => decidable_of_iff' _ (Iff.of_eq (k0_chk83.eq_1 v1221))
theorem k0_off241_inb : ∀ (v1221 : BitVec 32) (k0_hw83 : k0_chk83 v1221), ∀ a, (k0_off241 v1221) a + S1x8192.size a ≤ S8192x8192.size a := fun v1221 k0_hw83 => k0_hw83.1
theorem k0_off270_inb : ∀ (v1221 : BitVec 32) (k0_hw83 : k0_chk83 v1221), ∀ a, (k0_off270 v1221) a + S1x8192.size a ≤ S8192x8192.size a := fun v1221 k0_hw83 => k0_hw83.2

def k0_off271 (v1230 : BitVec 32) : Fin 2 → Nat :=
  let c0_i32_719 : BitVec 32 := 0#32
  ![v1230.toNat, 0]

def k0_chk84 (v1230 : BitVec 32) : Prop :=
  (∀ a, (k0_off243 v1230) a + S1x8192.size a ≤ S8192x8192.size a) ∧
  (∀ a, (k0_off271 v1230) a + S1x8192.size a ≤ S8192x8192.size a)
instance k0_chk84.dec : ∀ (v1230 : BitVec 32), Decidable (k0_chk84 v1230) := fun v1230 => decidable_of_iff' _ (Iff.of_eq (k0_chk84.eq_1 v1230))
theorem k0_off243_inb : ∀ (v1230 : BitVec 32) (k0_hw84 : k0_chk84 v1230), ∀ a, (k0_off243 v1230) a + S1x8192.size a ≤ S8192x8192.size a := fun v1230 k0_hw84 => k0_hw84.1
theorem k0_off271_inb : ∀ (v1230 : BitVec 32) (k0_hw84 : k0_chk84 v1230), ∀ a, (k0_off271 v1230) a + S1x8192.size a ≤ S8192x8192.size a := fun v1230 k0_hw84 => k0_hw84.2

def k0_off272 (v1239 : BitVec 32) : Fin 2 → Nat :=
  let c0_i32_723 : BitVec 32 := 0#32
  ![v1239.toNat, 0]

def k0_chk85 (v1239 : BitVec 32) : Prop :=
  (∀ a, (k0_off245 v1239) a + S1x8192.size a ≤ S8192x8192.size a) ∧
  (∀ a, (k0_off272 v1239) a + S1x8192.size a ≤ S8192x8192.size a)
instance k0_chk85.dec : ∀ (v1239 : BitVec 32), Decidable (k0_chk85 v1239) := fun v1239 => decidable_of_iff' _ (Iff.of_eq (k0_chk85.eq_1 v1239))
theorem k0_off245_inb : ∀ (v1239 : BitVec 32) (k0_hw85 : k0_chk85 v1239), ∀ a, (k0_off245 v1239) a + S1x8192.size a ≤ S8192x8192.size a := fun v1239 k0_hw85 => k0_hw85.1
theorem k0_off272_inb : ∀ (v1239 : BitVec 32) (k0_hw85 : k0_chk85 v1239), ∀ a, (k0_off272 v1239) a + S1x8192.size a ≤ S8192x8192.size a := fun v1239 k0_hw85 => k0_hw85.2

def k0_off273 (v1248 : BitVec 32) : Fin 2 → Nat :=
  let c0_i32_727 : BitVec 32 := 0#32
  ![v1248.toNat, 0]

def k0_chk86 (v1248 : BitVec 32) : Prop :=
  (∀ a, (k0_off247 v1248) a + S1x8192.size a ≤ S8192x8192.size a) ∧
  (∀ a, (k0_off273 v1248) a + S1x8192.size a ≤ S8192x8192.size a)
instance k0_chk86.dec : ∀ (v1248 : BitVec 32), Decidable (k0_chk86 v1248) := fun v1248 => decidable_of_iff' _ (Iff.of_eq (k0_chk86.eq_1 v1248))
theorem k0_off247_inb : ∀ (v1248 : BitVec 32) (k0_hw86 : k0_chk86 v1248), ∀ a, (k0_off247 v1248) a + S1x8192.size a ≤ S8192x8192.size a := fun v1248 k0_hw86 => k0_hw86.1
theorem k0_off273_inb : ∀ (v1248 : BitVec 32) (k0_hw86 : k0_chk86 v1248), ∀ a, (k0_off273 v1248) a + S1x8192.size a ≤ S8192x8192.size a := fun v1248 k0_hw86 => k0_hw86.2

def k0_off274 (v1257 : BitVec 32) : Fin 2 → Nat :=
  let c0_i32_731 : BitVec 32 := 0#32
  ![v1257.toNat, 0]

def k0_chk87 (v1257 : BitVec 32) : Prop :=
  (∀ a, (k0_off249 v1257) a + S1x8192.size a ≤ S8192x8192.size a) ∧
  (∀ a, (k0_off274 v1257) a + S1x8192.size a ≤ S8192x8192.size a)
instance k0_chk87.dec : ∀ (v1257 : BitVec 32), Decidable (k0_chk87 v1257) := fun v1257 => decidable_of_iff' _ (Iff.of_eq (k0_chk87.eq_1 v1257))
theorem k0_off249_inb : ∀ (v1257 : BitVec 32) (k0_hw87 : k0_chk87 v1257), ∀ a, (k0_off249 v1257) a + S1x8192.size a ≤ S8192x8192.size a := fun v1257 k0_hw87 => k0_hw87.1
theorem k0_off274_inb : ∀ (v1257 : BitVec 32) (k0_hw87 : k0_chk87 v1257), ∀ a, (k0_off274 v1257) a + S1x8192.size a ≤ S8192x8192.size a := fun v1257 k0_hw87 => k0_hw87.2

def k0_off275 (v1266 : BitVec 32) : Fin 2 → Nat :=
  let c0_i32_735 : BitVec 32 := 0#32
  ![v1266.toNat, 0]

def k0_chk88 (v1266 : BitVec 32) : Prop :=
  (∀ a, (k0_off251 v1266) a + S1x8192.size a ≤ S8192x8192.size a) ∧
  (∀ a, (k0_off275 v1266) a + S1x8192.size a ≤ S8192x8192.size a)
instance k0_chk88.dec : ∀ (v1266 : BitVec 32), Decidable (k0_chk88 v1266) := fun v1266 => decidable_of_iff' _ (Iff.of_eq (k0_chk88.eq_1 v1266))
theorem k0_off251_inb : ∀ (v1266 : BitVec 32) (k0_hw88 : k0_chk88 v1266), ∀ a, (k0_off251 v1266) a + S1x8192.size a ≤ S8192x8192.size a := fun v1266 k0_hw88 => k0_hw88.1
theorem k0_off275_inb : ∀ (v1266 : BitVec 32) (k0_hw88 : k0_chk88 v1266), ∀ a, (k0_off275 v1266) a + S1x8192.size a ≤ S8192x8192.size a := fun v1266 k0_hw88 => k0_hw88.2

def k0_off276 (v1275 : BitVec 32) : Fin 2 → Nat :=
  let c0_i32_739 : BitVec 32 := 0#32
  ![v1275.toNat, 0]

def k0_chk89 (v1275 : BitVec 32) : Prop :=
  (∀ a, (k0_off253 v1275) a + S1x8192.size a ≤ S8192x8192.size a) ∧
  (∀ a, (k0_off276 v1275) a + S1x8192.size a ≤ S8192x8192.size a)
instance k0_chk89.dec : ∀ (v1275 : BitVec 32), Decidable (k0_chk89 v1275) := fun v1275 => decidable_of_iff' _ (Iff.of_eq (k0_chk89.eq_1 v1275))
theorem k0_off253_inb : ∀ (v1275 : BitVec 32) (k0_hw89 : k0_chk89 v1275), ∀ a, (k0_off253 v1275) a + S1x8192.size a ≤ S8192x8192.size a := fun v1275 k0_hw89 => k0_hw89.1
theorem k0_off276_inb : ∀ (v1275 : BitVec 32) (k0_hw89 : k0_chk89 v1275), ∀ a, (k0_off276 v1275) a + S1x8192.size a ≤ S8192x8192.size a := fun v1275 k0_hw89 => k0_hw89.2

def k0_off277 (v1284 : BitVec 32) : Fin 2 → Nat :=
  let c0_i32_743 : BitVec 32 := 0#32
  ![v1284.toNat, 0]

def k0_chk90 (v1284 : BitVec 32) : Prop :=
  (∀ a, (k0_off255 v1284) a + S1x8192.size a ≤ S8192x8192.size a) ∧
  (∀ a, (k0_off277 v1284) a + S1x8192.size a ≤ S8192x8192.size a)
instance k0_chk90.dec : ∀ (v1284 : BitVec 32), Decidable (k0_chk90 v1284) := fun v1284 => decidable_of_iff' _ (Iff.of_eq (k0_chk90.eq_1 v1284))
theorem k0_off255_inb : ∀ (v1284 : BitVec 32) (k0_hw90 : k0_chk90 v1284), ∀ a, (k0_off255 v1284) a + S1x8192.size a ≤ S8192x8192.size a := fun v1284 k0_hw90 => k0_hw90.1
theorem k0_off277_inb : ∀ (v1284 : BitVec 32) (k0_hw90 : k0_chk90 v1284), ∀ a, (k0_off277 v1284) a + S1x8192.size a ≤ S8192x8192.size a := fun v1284 k0_hw90 => k0_hw90.2

def k0_off278 (v1293 : BitVec 32) : Fin 2 → Nat :=
  let c0_i32_747 : BitVec 32 := 0#32
  ![v1293.toNat, 0]

def k0_chk91 (v1293 : BitVec 32) : Prop :=
  (∀ a, (k0_off257 v1293) a + S1x8192.size a ≤ S8192x8192.size a) ∧
  (∀ a, (k0_off278 v1293) a + S1x8192.size a ≤ S8192x8192.size a)
instance k0_chk91.dec : ∀ (v1293 : BitVec 32), Decidable (k0_chk91 v1293) := fun v1293 => decidable_of_iff' _ (Iff.of_eq (k0_chk91.eq_1 v1293))
theorem k0_off257_inb : ∀ (v1293 : BitVec 32) (k0_hw91 : k0_chk91 v1293), ∀ a, (k0_off257 v1293) a + S1x8192.size a ≤ S8192x8192.size a := fun v1293 k0_hw91 => k0_hw91.1
theorem k0_off278_inb : ∀ (v1293 : BitVec 32) (k0_hw91 : k0_chk91 v1293), ∀ a, (k0_off278 v1293) a + S1x8192.size a ≤ S8192x8192.size a := fun v1293 k0_hw91 => k0_hw91.2

def k0_off279 (v1302 : BitVec 32) : Fin 2 → Nat :=
  let c0_i32_751 : BitVec 32 := 0#32
  ![v1302.toNat, 0]

def k0_chk92 (v1302 : BitVec 32) : Prop :=
  (∀ a, (k0_off259 v1302) a + S1x8192.size a ≤ S8192x8192.size a) ∧
  (∀ a, (k0_off279 v1302) a + S1x8192.size a ≤ S8192x8192.size a)
instance k0_chk92.dec : ∀ (v1302 : BitVec 32), Decidable (k0_chk92 v1302) := fun v1302 => decidable_of_iff' _ (Iff.of_eq (k0_chk92.eq_1 v1302))
theorem k0_off259_inb : ∀ (v1302 : BitVec 32) (k0_hw92 : k0_chk92 v1302), ∀ a, (k0_off259 v1302) a + S1x8192.size a ≤ S8192x8192.size a := fun v1302 k0_hw92 => k0_hw92.1
theorem k0_off279_inb : ∀ (v1302 : BitVec 32) (k0_hw92 : k0_chk92 v1302), ∀ a, (k0_off279 v1302) a + S1x8192.size a ≤ S8192x8192.size a := fun v1302 k0_hw92 => k0_hw92.2

def k0_off280 (v1311 : BitVec 32) : Fin 2 → Nat :=
  let c0_i32_755 : BitVec 32 := 0#32
  ![v1311.toNat, 0]

def k0_chk93 (v1311 : BitVec 32) : Prop :=
  (∀ a, (k0_off261 v1311) a + S1x8192.size a ≤ S8192x8192.size a) ∧
  (∀ a, (k0_off280 v1311) a + S1x8192.size a ≤ S8192x8192.size a)
instance k0_chk93.dec : ∀ (v1311 : BitVec 32), Decidable (k0_chk93 v1311) := fun v1311 => decidable_of_iff' _ (Iff.of_eq (k0_chk93.eq_1 v1311))
theorem k0_off261_inb : ∀ (v1311 : BitVec 32) (k0_hw93 : k0_chk93 v1311), ∀ a, (k0_off261 v1311) a + S1x8192.size a ≤ S8192x8192.size a := fun v1311 k0_hw93 => k0_hw93.1
theorem k0_off280_inb : ∀ (v1311 : BitVec 32) (k0_hw93 : k0_chk93 v1311), ∀ a, (k0_off280 v1311) a + S1x8192.size a ≤ S8192x8192.size a := fun v1311 k0_hw93 => k0_hw93.2

def k0_off281 (v1320 : BitVec 32) : Fin 2 → Nat :=
  let c0_i32_759 : BitVec 32 := 0#32
  ![v1320.toNat, 0]

def k0_chk94 (v1320 : BitVec 32) : Prop :=
  (∀ a, (k0_off263 v1320) a + S1x8192.size a ≤ S8192x8192.size a) ∧
  (∀ a, (k0_off281 v1320) a + S1x8192.size a ≤ S8192x8192.size a)
instance k0_chk94.dec : ∀ (v1320 : BitVec 32), Decidable (k0_chk94 v1320) := fun v1320 => decidable_of_iff' _ (Iff.of_eq (k0_chk94.eq_1 v1320))
theorem k0_off263_inb : ∀ (v1320 : BitVec 32) (k0_hw94 : k0_chk94 v1320), ∀ a, (k0_off263 v1320) a + S1x8192.size a ≤ S8192x8192.size a := fun v1320 k0_hw94 => k0_hw94.1
theorem k0_off281_inb : ∀ (v1320 : BitVec 32) (k0_hw94 : k0_chk94 v1320), ∀ a, (k0_off281 v1320) a + S1x8192.size a ≤ S8192x8192.size a := fun v1320 k0_hw94 => k0_hw94.2

def k0_off282 (v1329 : BitVec 32) : Fin 2 → Nat :=
  let c0_i32_763 : BitVec 32 := 0#32
  ![v1329.toNat, 0]

def k0_chk95 (v1329 : BitVec 32) : Prop :=
  (∀ a, (k0_off265 v1329) a + S1x8192.size a ≤ S8192x8192.size a) ∧
  (∀ a, (k0_off282 v1329) a + S1x8192.size a ≤ S8192x8192.size a)
instance k0_chk95.dec : ∀ (v1329 : BitVec 32), Decidable (k0_chk95 v1329) := fun v1329 => decidable_of_iff' _ (Iff.of_eq (k0_chk95.eq_1 v1329))
theorem k0_off265_inb : ∀ (v1329 : BitVec 32) (k0_hw95 : k0_chk95 v1329), ∀ a, (k0_off265 v1329) a + S1x8192.size a ≤ S8192x8192.size a := fun v1329 k0_hw95 => k0_hw95.1
theorem k0_off282_inb : ∀ (v1329 : BitVec 32) (k0_hw95 : k0_chk95 v1329), ∀ a, (k0_off282 v1329) a + S1x8192.size a ≤ S8192x8192.size a := fun v1329 k0_hw95 => k0_hw95.2

def k0_off283 (i : grid0.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v1441 : BitVec 32 := Scalar.addi v0 c96_i32
  let v1442 : Index := Scalar.indexCast v1441
  ![v1442.toNat]
def k0_off284 (v1443 : BitVec 32) : Fin 2 → Nat :=
  let c0_i32_771 : BitVec 32 := 0#32
  ![v1443.toNat, 0]

def k0_off285 (i : grid0.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v1450 : BitVec 32 := Scalar.addi v0 c97_i32
  let v1451 : Index := Scalar.indexCast v1450
  ![v1451.toNat]
def k0_off286 (v1452 : BitVec 32) : Fin 2 → Nat :=
  let c0_i32_775 : BitVec 32 := 0#32
  ![v1452.toNat, 0]

def k0_off287 (i : grid0.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v1459 : BitVec 32 := Scalar.addi v0 c98_i32
  let v1460 : Index := Scalar.indexCast v1459
  ![v1460.toNat]
def k0_off288 (v1461 : BitVec 32) : Fin 2 → Nat :=
  let c0_i32_779 : BitVec 32 := 0#32
  ![v1461.toNat, 0]

def k0_off289 (i : grid0.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v1468 : BitVec 32 := Scalar.addi v0 c99_i32
  let v1469 : Index := Scalar.indexCast v1468
  ![v1469.toNat]
def k0_off290 (v1470 : BitVec 32) : Fin 2 → Nat :=
  let c0_i32_783 : BitVec 32 := 0#32
  ![v1470.toNat, 0]

def k0_off291 (i : grid0.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v1477 : BitVec 32 := Scalar.addi v0 c100_i32
  let v1478 : Index := Scalar.indexCast v1477
  ![v1478.toNat]
def k0_off292 (v1479 : BitVec 32) : Fin 2 → Nat :=
  let c0_i32_787 : BitVec 32 := 0#32
  ![v1479.toNat, 0]

def k0_off293 (i : grid0.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v1486 : BitVec 32 := Scalar.addi v0 c101_i32
  let v1487 : Index := Scalar.indexCast v1486
  ![v1487.toNat]
def k0_off294 (v1488 : BitVec 32) : Fin 2 → Nat :=
  let c0_i32_791 : BitVec 32 := 0#32
  ![v1488.toNat, 0]

def k0_off295 (i : grid0.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v1495 : BitVec 32 := Scalar.addi v0 c102_i32
  let v1496 : Index := Scalar.indexCast v1495
  ![v1496.toNat]
def k0_off296 (v1497 : BitVec 32) : Fin 2 → Nat :=
  let c0_i32_795 : BitVec 32 := 0#32
  ![v1497.toNat, 0]

def k0_off297 (i : grid0.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v1504 : BitVec 32 := Scalar.addi v0 c103_i32
  let v1505 : Index := Scalar.indexCast v1504
  ![v1505.toNat]
def k0_off298 (v1506 : BitVec 32) : Fin 2 → Nat :=
  let c0_i32_799 : BitVec 32 := 0#32
  ![v1506.toNat, 0]

def k0_off299 (i : grid0.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v1513 : BitVec 32 := Scalar.addi v0 c104_i32
  let v1514 : Index := Scalar.indexCast v1513
  ![v1514.toNat]
def k0_off300 (v1515 : BitVec 32) : Fin 2 → Nat :=
  let c0_i32_803 : BitVec 32 := 0#32
  ![v1515.toNat, 0]

def k0_off301 (i : grid0.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v1522 : BitVec 32 := Scalar.addi v0 c105_i32
  let v1523 : Index := Scalar.indexCast v1522
  ![v1523.toNat]
def k0_off302 (v1524 : BitVec 32) : Fin 2 → Nat :=
  let c0_i32_807 : BitVec 32 := 0#32
  ![v1524.toNat, 0]

def k0_off303 (i : grid0.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v1531 : BitVec 32 := Scalar.addi v0 c106_i32
  let v1532 : Index := Scalar.indexCast v1531
  ![v1532.toNat]
def k0_off304 (v1533 : BitVec 32) : Fin 2 → Nat :=
  let c0_i32_811 : BitVec 32 := 0#32
  ![v1533.toNat, 0]

def k0_off305 (i : grid0.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v1540 : BitVec 32 := Scalar.addi v0 c107_i32
  let v1541 : Index := Scalar.indexCast v1540
  ![v1541.toNat]
def k0_off306 (v1542 : BitVec 32) : Fin 2 → Nat :=
  let c0_i32_815 : BitVec 32 := 0#32
  ![v1542.toNat, 0]

def k0_off307 (i : grid0.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v1549 : BitVec 32 := Scalar.addi v0 c108_i32
  let v1550 : Index := Scalar.indexCast v1549
  ![v1550.toNat]
def k0_off308 (v1551 : BitVec 32) : Fin 2 → Nat :=
  let c0_i32_819 : BitVec 32 := 0#32
  ![v1551.toNat, 0]

def k0_off309 (i : grid0.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v1558 : BitVec 32 := Scalar.addi v0 c109_i32
  let v1559 : Index := Scalar.indexCast v1558
  ![v1559.toNat]
def k0_off310 (v1560 : BitVec 32) : Fin 2 → Nat :=
  let c0_i32_823 : BitVec 32 := 0#32
  ![v1560.toNat, 0]

def k0_off311 (i : grid0.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v1567 : BitVec 32 := Scalar.addi v0 c110_i32
  let v1568 : Index := Scalar.indexCast v1567
  ![v1568.toNat]
def k0_off312 (v1569 : BitVec 32) : Fin 2 → Nat :=
  let c0_i32_827 : BitVec 32 := 0#32
  ![v1569.toNat, 0]

def k0_off313 (i : grid0.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1576 : BitVec 32 := Scalar.addi v0 c111_i32
  let v1577 : Index := Scalar.indexCast v1576
  ![v1577.toNat]
def k0_off314 (v1578 : BitVec 32) : Fin 2 → Nat :=
  let c0_i32_831 : BitVec 32 := 0#32
  ![v1578.toNat, 0]

def k0_chk112 (v1578 : BitVec 32) : Prop :=
  (∀ a, (k0_off314 v1578) a + S1x8192.size a ≤ S8192x8192.size a)
instance k0_chk112.dec : ∀ (v1578 : BitVec 32), Decidable (k0_chk112 v1578) := fun v1578 => decidable_of_iff' _ (Iff.of_eq (k0_chk112.eq_1 v1578))
theorem k0_off314_inb : ∀ (v1578 : BitVec 32) (k0_hw112 : k0_chk112 v1578), ∀ a, (k0_off314 v1578) a + S1x8192.size a ≤ S8192x8192.size a := fun v1578 k0_hw112 => k0_hw112

def k0_off315 (v1443 : BitVec 32) : Fin 2 → Nat :=
  let c0_i32_835 : BitVec 32 := 0#32
  ![v1443.toNat, 0]

def k0_chk97 (v1443 : BitVec 32) : Prop :=
  (∀ a, (k0_off284 v1443) a + S1x8192.size a ≤ S8192x8192.size a) ∧
  (∀ a, (k0_off315 v1443) a + S1x8192.size a ≤ S8192x8192.size a)
instance k0_chk97.dec : ∀ (v1443 : BitVec 32), Decidable (k0_chk97 v1443) := fun v1443 => decidable_of_iff' _ (Iff.of_eq (k0_chk97.eq_1 v1443))
theorem k0_off284_inb : ∀ (v1443 : BitVec 32) (k0_hw97 : k0_chk97 v1443), ∀ a, (k0_off284 v1443) a + S1x8192.size a ≤ S8192x8192.size a := fun v1443 k0_hw97 => k0_hw97.1
theorem k0_off315_inb : ∀ (v1443 : BitVec 32) (k0_hw97 : k0_chk97 v1443), ∀ a, (k0_off315 v1443) a + S1x8192.size a ≤ S8192x8192.size a := fun v1443 k0_hw97 => k0_hw97.2

def k0_off316 (v1452 : BitVec 32) : Fin 2 → Nat :=
  let c0_i32_839 : BitVec 32 := 0#32
  ![v1452.toNat, 0]

def k0_chk98 (v1452 : BitVec 32) : Prop :=
  (∀ a, (k0_off286 v1452) a + S1x8192.size a ≤ S8192x8192.size a) ∧
  (∀ a, (k0_off316 v1452) a + S1x8192.size a ≤ S8192x8192.size a)
instance k0_chk98.dec : ∀ (v1452 : BitVec 32), Decidable (k0_chk98 v1452) := fun v1452 => decidable_of_iff' _ (Iff.of_eq (k0_chk98.eq_1 v1452))
theorem k0_off286_inb : ∀ (v1452 : BitVec 32) (k0_hw98 : k0_chk98 v1452), ∀ a, (k0_off286 v1452) a + S1x8192.size a ≤ S8192x8192.size a := fun v1452 k0_hw98 => k0_hw98.1
theorem k0_off316_inb : ∀ (v1452 : BitVec 32) (k0_hw98 : k0_chk98 v1452), ∀ a, (k0_off316 v1452) a + S1x8192.size a ≤ S8192x8192.size a := fun v1452 k0_hw98 => k0_hw98.2

def k0_off317 (v1461 : BitVec 32) : Fin 2 → Nat :=
  let c0_i32_843 : BitVec 32 := 0#32
  ![v1461.toNat, 0]

def k0_chk99 (v1461 : BitVec 32) : Prop :=
  (∀ a, (k0_off288 v1461) a + S1x8192.size a ≤ S8192x8192.size a) ∧
  (∀ a, (k0_off317 v1461) a + S1x8192.size a ≤ S8192x8192.size a)
instance k0_chk99.dec : ∀ (v1461 : BitVec 32), Decidable (k0_chk99 v1461) := fun v1461 => decidable_of_iff' _ (Iff.of_eq (k0_chk99.eq_1 v1461))
theorem k0_off288_inb : ∀ (v1461 : BitVec 32) (k0_hw99 : k0_chk99 v1461), ∀ a, (k0_off288 v1461) a + S1x8192.size a ≤ S8192x8192.size a := fun v1461 k0_hw99 => k0_hw99.1
theorem k0_off317_inb : ∀ (v1461 : BitVec 32) (k0_hw99 : k0_chk99 v1461), ∀ a, (k0_off317 v1461) a + S1x8192.size a ≤ S8192x8192.size a := fun v1461 k0_hw99 => k0_hw99.2

def k0_off318 (v1470 : BitVec 32) : Fin 2 → Nat :=
  let c0_i32_847 : BitVec 32 := 0#32
  ![v1470.toNat, 0]

def k0_chk100 (v1470 : BitVec 32) : Prop :=
  (∀ a, (k0_off290 v1470) a + S1x8192.size a ≤ S8192x8192.size a) ∧
  (∀ a, (k0_off318 v1470) a + S1x8192.size a ≤ S8192x8192.size a)
instance k0_chk100.dec : ∀ (v1470 : BitVec 32), Decidable (k0_chk100 v1470) := fun v1470 => decidable_of_iff' _ (Iff.of_eq (k0_chk100.eq_1 v1470))
theorem k0_off290_inb : ∀ (v1470 : BitVec 32) (k0_hw100 : k0_chk100 v1470), ∀ a, (k0_off290 v1470) a + S1x8192.size a ≤ S8192x8192.size a := fun v1470 k0_hw100 => k0_hw100.1
theorem k0_off318_inb : ∀ (v1470 : BitVec 32) (k0_hw100 : k0_chk100 v1470), ∀ a, (k0_off318 v1470) a + S1x8192.size a ≤ S8192x8192.size a := fun v1470 k0_hw100 => k0_hw100.2

def k0_off319 (v1479 : BitVec 32) : Fin 2 → Nat :=
  let c0_i32_851 : BitVec 32 := 0#32
  ![v1479.toNat, 0]

def k0_chk101 (v1479 : BitVec 32) : Prop :=
  (∀ a, (k0_off292 v1479) a + S1x8192.size a ≤ S8192x8192.size a) ∧
  (∀ a, (k0_off319 v1479) a + S1x8192.size a ≤ S8192x8192.size a)
instance k0_chk101.dec : ∀ (v1479 : BitVec 32), Decidable (k0_chk101 v1479) := fun v1479 => decidable_of_iff' _ (Iff.of_eq (k0_chk101.eq_1 v1479))
theorem k0_off292_inb : ∀ (v1479 : BitVec 32) (k0_hw101 : k0_chk101 v1479), ∀ a, (k0_off292 v1479) a + S1x8192.size a ≤ S8192x8192.size a := fun v1479 k0_hw101 => k0_hw101.1
theorem k0_off319_inb : ∀ (v1479 : BitVec 32) (k0_hw101 : k0_chk101 v1479), ∀ a, (k0_off319 v1479) a + S1x8192.size a ≤ S8192x8192.size a := fun v1479 k0_hw101 => k0_hw101.2

def k0_off320 (v1488 : BitVec 32) : Fin 2 → Nat :=
  let c0_i32_855 : BitVec 32 := 0#32
  ![v1488.toNat, 0]

def k0_chk102 (v1488 : BitVec 32) : Prop :=
  (∀ a, (k0_off294 v1488) a + S1x8192.size a ≤ S8192x8192.size a) ∧
  (∀ a, (k0_off320 v1488) a + S1x8192.size a ≤ S8192x8192.size a)
instance k0_chk102.dec : ∀ (v1488 : BitVec 32), Decidable (k0_chk102 v1488) := fun v1488 => decidable_of_iff' _ (Iff.of_eq (k0_chk102.eq_1 v1488))
theorem k0_off294_inb : ∀ (v1488 : BitVec 32) (k0_hw102 : k0_chk102 v1488), ∀ a, (k0_off294 v1488) a + S1x8192.size a ≤ S8192x8192.size a := fun v1488 k0_hw102 => k0_hw102.1
theorem k0_off320_inb : ∀ (v1488 : BitVec 32) (k0_hw102 : k0_chk102 v1488), ∀ a, (k0_off320 v1488) a + S1x8192.size a ≤ S8192x8192.size a := fun v1488 k0_hw102 => k0_hw102.2

def k0_off321 (v1497 : BitVec 32) : Fin 2 → Nat :=
  let c0_i32_859 : BitVec 32 := 0#32
  ![v1497.toNat, 0]

def k0_chk103 (v1497 : BitVec 32) : Prop :=
  (∀ a, (k0_off296 v1497) a + S1x8192.size a ≤ S8192x8192.size a) ∧
  (∀ a, (k0_off321 v1497) a + S1x8192.size a ≤ S8192x8192.size a)
instance k0_chk103.dec : ∀ (v1497 : BitVec 32), Decidable (k0_chk103 v1497) := fun v1497 => decidable_of_iff' _ (Iff.of_eq (k0_chk103.eq_1 v1497))
theorem k0_off296_inb : ∀ (v1497 : BitVec 32) (k0_hw103 : k0_chk103 v1497), ∀ a, (k0_off296 v1497) a + S1x8192.size a ≤ S8192x8192.size a := fun v1497 k0_hw103 => k0_hw103.1
theorem k0_off321_inb : ∀ (v1497 : BitVec 32) (k0_hw103 : k0_chk103 v1497), ∀ a, (k0_off321 v1497) a + S1x8192.size a ≤ S8192x8192.size a := fun v1497 k0_hw103 => k0_hw103.2

def k0_off322 (v1506 : BitVec 32) : Fin 2 → Nat :=
  let c0_i32_863 : BitVec 32 := 0#32
  ![v1506.toNat, 0]

def k0_chk104 (v1506 : BitVec 32) : Prop :=
  (∀ a, (k0_off298 v1506) a + S1x8192.size a ≤ S8192x8192.size a) ∧
  (∀ a, (k0_off322 v1506) a + S1x8192.size a ≤ S8192x8192.size a)
instance k0_chk104.dec : ∀ (v1506 : BitVec 32), Decidable (k0_chk104 v1506) := fun v1506 => decidable_of_iff' _ (Iff.of_eq (k0_chk104.eq_1 v1506))
theorem k0_off298_inb : ∀ (v1506 : BitVec 32) (k0_hw104 : k0_chk104 v1506), ∀ a, (k0_off298 v1506) a + S1x8192.size a ≤ S8192x8192.size a := fun v1506 k0_hw104 => k0_hw104.1
theorem k0_off322_inb : ∀ (v1506 : BitVec 32) (k0_hw104 : k0_chk104 v1506), ∀ a, (k0_off322 v1506) a + S1x8192.size a ≤ S8192x8192.size a := fun v1506 k0_hw104 => k0_hw104.2

def k0_off323 (v1515 : BitVec 32) : Fin 2 → Nat :=
  let c0_i32_867 : BitVec 32 := 0#32
  ![v1515.toNat, 0]

def k0_chk105 (v1515 : BitVec 32) : Prop :=
  (∀ a, (k0_off300 v1515) a + S1x8192.size a ≤ S8192x8192.size a) ∧
  (∀ a, (k0_off323 v1515) a + S1x8192.size a ≤ S8192x8192.size a)
instance k0_chk105.dec : ∀ (v1515 : BitVec 32), Decidable (k0_chk105 v1515) := fun v1515 => decidable_of_iff' _ (Iff.of_eq (k0_chk105.eq_1 v1515))
theorem k0_off300_inb : ∀ (v1515 : BitVec 32) (k0_hw105 : k0_chk105 v1515), ∀ a, (k0_off300 v1515) a + S1x8192.size a ≤ S8192x8192.size a := fun v1515 k0_hw105 => k0_hw105.1
theorem k0_off323_inb : ∀ (v1515 : BitVec 32) (k0_hw105 : k0_chk105 v1515), ∀ a, (k0_off323 v1515) a + S1x8192.size a ≤ S8192x8192.size a := fun v1515 k0_hw105 => k0_hw105.2

def k0_off324 (v1524 : BitVec 32) : Fin 2 → Nat :=
  let c0_i32_871 : BitVec 32 := 0#32
  ![v1524.toNat, 0]

def k0_chk106 (v1524 : BitVec 32) : Prop :=
  (∀ a, (k0_off302 v1524) a + S1x8192.size a ≤ S8192x8192.size a) ∧
  (∀ a, (k0_off324 v1524) a + S1x8192.size a ≤ S8192x8192.size a)
instance k0_chk106.dec : ∀ (v1524 : BitVec 32), Decidable (k0_chk106 v1524) := fun v1524 => decidable_of_iff' _ (Iff.of_eq (k0_chk106.eq_1 v1524))
theorem k0_off302_inb : ∀ (v1524 : BitVec 32) (k0_hw106 : k0_chk106 v1524), ∀ a, (k0_off302 v1524) a + S1x8192.size a ≤ S8192x8192.size a := fun v1524 k0_hw106 => k0_hw106.1
theorem k0_off324_inb : ∀ (v1524 : BitVec 32) (k0_hw106 : k0_chk106 v1524), ∀ a, (k0_off324 v1524) a + S1x8192.size a ≤ S8192x8192.size a := fun v1524 k0_hw106 => k0_hw106.2

def k0_off325 (v1533 : BitVec 32) : Fin 2 → Nat :=
  let c0_i32_875 : BitVec 32 := 0#32
  ![v1533.toNat, 0]

def k0_chk107 (v1533 : BitVec 32) : Prop :=
  (∀ a, (k0_off304 v1533) a + S1x8192.size a ≤ S8192x8192.size a) ∧
  (∀ a, (k0_off325 v1533) a + S1x8192.size a ≤ S8192x8192.size a)
instance k0_chk107.dec : ∀ (v1533 : BitVec 32), Decidable (k0_chk107 v1533) := fun v1533 => decidable_of_iff' _ (Iff.of_eq (k0_chk107.eq_1 v1533))
theorem k0_off304_inb : ∀ (v1533 : BitVec 32) (k0_hw107 : k0_chk107 v1533), ∀ a, (k0_off304 v1533) a + S1x8192.size a ≤ S8192x8192.size a := fun v1533 k0_hw107 => k0_hw107.1
theorem k0_off325_inb : ∀ (v1533 : BitVec 32) (k0_hw107 : k0_chk107 v1533), ∀ a, (k0_off325 v1533) a + S1x8192.size a ≤ S8192x8192.size a := fun v1533 k0_hw107 => k0_hw107.2

def k0_off326 (v1542 : BitVec 32) : Fin 2 → Nat :=
  let c0_i32_879 : BitVec 32 := 0#32
  ![v1542.toNat, 0]

def k0_chk108 (v1542 : BitVec 32) : Prop :=
  (∀ a, (k0_off306 v1542) a + S1x8192.size a ≤ S8192x8192.size a) ∧
  (∀ a, (k0_off326 v1542) a + S1x8192.size a ≤ S8192x8192.size a)
instance k0_chk108.dec : ∀ (v1542 : BitVec 32), Decidable (k0_chk108 v1542) := fun v1542 => decidable_of_iff' _ (Iff.of_eq (k0_chk108.eq_1 v1542))
theorem k0_off306_inb : ∀ (v1542 : BitVec 32) (k0_hw108 : k0_chk108 v1542), ∀ a, (k0_off306 v1542) a + S1x8192.size a ≤ S8192x8192.size a := fun v1542 k0_hw108 => k0_hw108.1
theorem k0_off326_inb : ∀ (v1542 : BitVec 32) (k0_hw108 : k0_chk108 v1542), ∀ a, (k0_off326 v1542) a + S1x8192.size a ≤ S8192x8192.size a := fun v1542 k0_hw108 => k0_hw108.2

def k0_off327 (v1551 : BitVec 32) : Fin 2 → Nat :=
  let c0_i32_883 : BitVec 32 := 0#32
  ![v1551.toNat, 0]

def k0_chk109 (v1551 : BitVec 32) : Prop :=
  (∀ a, (k0_off308 v1551) a + S1x8192.size a ≤ S8192x8192.size a) ∧
  (∀ a, (k0_off327 v1551) a + S1x8192.size a ≤ S8192x8192.size a)
instance k0_chk109.dec : ∀ (v1551 : BitVec 32), Decidable (k0_chk109 v1551) := fun v1551 => decidable_of_iff' _ (Iff.of_eq (k0_chk109.eq_1 v1551))
theorem k0_off308_inb : ∀ (v1551 : BitVec 32) (k0_hw109 : k0_chk109 v1551), ∀ a, (k0_off308 v1551) a + S1x8192.size a ≤ S8192x8192.size a := fun v1551 k0_hw109 => k0_hw109.1
theorem k0_off327_inb : ∀ (v1551 : BitVec 32) (k0_hw109 : k0_chk109 v1551), ∀ a, (k0_off327 v1551) a + S1x8192.size a ≤ S8192x8192.size a := fun v1551 k0_hw109 => k0_hw109.2

def k0_off328 (v1560 : BitVec 32) : Fin 2 → Nat :=
  let c0_i32_887 : BitVec 32 := 0#32
  ![v1560.toNat, 0]

def k0_chk110 (v1560 : BitVec 32) : Prop :=
  (∀ a, (k0_off310 v1560) a + S1x8192.size a ≤ S8192x8192.size a) ∧
  (∀ a, (k0_off328 v1560) a + S1x8192.size a ≤ S8192x8192.size a)
instance k0_chk110.dec : ∀ (v1560 : BitVec 32), Decidable (k0_chk110 v1560) := fun v1560 => decidable_of_iff' _ (Iff.of_eq (k0_chk110.eq_1 v1560))
theorem k0_off310_inb : ∀ (v1560 : BitVec 32) (k0_hw110 : k0_chk110 v1560), ∀ a, (k0_off310 v1560) a + S1x8192.size a ≤ S8192x8192.size a := fun v1560 k0_hw110 => k0_hw110.1
theorem k0_off328_inb : ∀ (v1560 : BitVec 32) (k0_hw110 : k0_chk110 v1560), ∀ a, (k0_off328 v1560) a + S1x8192.size a ≤ S8192x8192.size a := fun v1560 k0_hw110 => k0_hw110.2

def k0_off329 (v1569 : BitVec 32) : Fin 2 → Nat :=
  let c0_i32_891 : BitVec 32 := 0#32
  ![v1569.toNat, 0]

def k0_chk111 (v1569 : BitVec 32) : Prop :=
  (∀ a, (k0_off312 v1569) a + S1x8192.size a ≤ S8192x8192.size a) ∧
  (∀ a, (k0_off329 v1569) a + S1x8192.size a ≤ S8192x8192.size a)
instance k0_chk111.dec : ∀ (v1569 : BitVec 32), Decidable (k0_chk111 v1569) := fun v1569 => decidable_of_iff' _ (Iff.of_eq (k0_chk111.eq_1 v1569))
theorem k0_off312_inb : ∀ (v1569 : BitVec 32) (k0_hw111 : k0_chk111 v1569), ∀ a, (k0_off312 v1569) a + S1x8192.size a ≤ S8192x8192.size a := fun v1569 k0_hw111 => k0_hw111.1
theorem k0_off329_inb : ∀ (v1569 : BitVec 32) (k0_hw111 : k0_chk111 v1569), ∀ a, (k0_off329 v1569) a + S1x8192.size a ≤ S8192x8192.size a := fun v1569 k0_hw111 => k0_hw111.2

def k0_off330 (i : grid0.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1681 : BitVec 32 := Scalar.addi v0 c112_i32
  let v1682 : Index := Scalar.indexCast v1681
  ![v1682.toNat]
def k0_off331 (v1683 : BitVec 32) : Fin 2 → Nat :=
  let c0_i32_899 : BitVec 32 := 0#32
  ![v1683.toNat, 0]

def k0_off332 (i : grid0.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1690 : BitVec 32 := Scalar.addi v0 c113_i32
  let v1691 : Index := Scalar.indexCast v1690
  ![v1691.toNat]
def k0_off333 (v1692 : BitVec 32) : Fin 2 → Nat :=
  let c0_i32_903 : BitVec 32 := 0#32
  ![v1692.toNat, 0]

def k0_off334 (i : grid0.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1699 : BitVec 32 := Scalar.addi v0 c114_i32
  let v1700 : Index := Scalar.indexCast v1699
  ![v1700.toNat]
def k0_off335 (v1701 : BitVec 32) : Fin 2 → Nat :=
  let c0_i32_907 : BitVec 32 := 0#32
  ![v1701.toNat, 0]

def k0_off336 (i : grid0.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1708 : BitVec 32 := Scalar.addi v0 c115_i32
  let v1709 : Index := Scalar.indexCast v1708
  ![v1709.toNat]
def k0_off337 (v1710 : BitVec 32) : Fin 2 → Nat :=
  let c0_i32_911 : BitVec 32 := 0#32
  ![v1710.toNat, 0]

def k0_off338 (i : grid0.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1717 : BitVec 32 := Scalar.addi v0 c116_i32
  let v1718 : Index := Scalar.indexCast v1717
  ![v1718.toNat]
def k0_off339 (v1719 : BitVec 32) : Fin 2 → Nat :=
  let c0_i32_915 : BitVec 32 := 0#32
  ![v1719.toNat, 0]

def k0_off340 (i : grid0.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1726 : BitVec 32 := Scalar.addi v0 c117_i32
  let v1727 : Index := Scalar.indexCast v1726
  ![v1727.toNat]
def k0_off341 (v1728 : BitVec 32) : Fin 2 → Nat :=
  let c0_i32_919 : BitVec 32 := 0#32
  ![v1728.toNat, 0]

def k0_off342 (i : grid0.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1735 : BitVec 32 := Scalar.addi v0 c118_i32
  let v1736 : Index := Scalar.indexCast v1735
  ![v1736.toNat]
def k0_off343 (v1737 : BitVec 32) : Fin 2 → Nat :=
  let c0_i32_923 : BitVec 32 := 0#32
  ![v1737.toNat, 0]

def k0_off344 (i : grid0.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1744 : BitVec 32 := Scalar.addi v0 c119_i32
  let v1745 : Index := Scalar.indexCast v1744
  ![v1745.toNat]
def k0_off345 (v1746 : BitVec 32) : Fin 2 → Nat :=
  let c0_i32_927 : BitVec 32 := 0#32
  ![v1746.toNat, 0]

def k0_off346 (i : grid0.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1753 : BitVec 32 := Scalar.addi v0 c120_i32
  let v1754 : Index := Scalar.indexCast v1753
  ![v1754.toNat]
def k0_off347 (v1755 : BitVec 32) : Fin 2 → Nat :=
  let c0_i32_931 : BitVec 32 := 0#32
  ![v1755.toNat, 0]

def k0_off348 (i : grid0.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1762 : BitVec 32 := Scalar.addi v0 c121_i32
  let v1763 : Index := Scalar.indexCast v1762
  ![v1763.toNat]
def k0_off349 (v1764 : BitVec 32) : Fin 2 → Nat :=
  let c0_i32_935 : BitVec 32 := 0#32
  ![v1764.toNat, 0]

def k0_off350 (i : grid0.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1771 : BitVec 32 := Scalar.addi v0 c122_i32
  let v1772 : Index := Scalar.indexCast v1771
  ![v1772.toNat]
def k0_off351 (v1773 : BitVec 32) : Fin 2 → Nat :=
  let c0_i32_939 : BitVec 32 := 0#32
  ![v1773.toNat, 0]

def k0_off352 (i : grid0.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1780 : BitVec 32 := Scalar.addi v0 c123_i32
  let v1781 : Index := Scalar.indexCast v1780
  ![v1781.toNat]
def k0_off353 (v1782 : BitVec 32) : Fin 2 → Nat :=
  let c0_i32_943 : BitVec 32 := 0#32
  ![v1782.toNat, 0]

def k0_off354 (i : grid0.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1789 : BitVec 32 := Scalar.addi v0 c124_i32
  let v1790 : Index := Scalar.indexCast v1789
  ![v1790.toNat]
def k0_off355 (v1791 : BitVec 32) : Fin 2 → Nat :=
  let c0_i32_947 : BitVec 32 := 0#32
  ![v1791.toNat, 0]

def k0_off356 (i : grid0.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1798 : BitVec 32 := Scalar.addi v0 c125_i32
  let v1799 : Index := Scalar.indexCast v1798
  ![v1799.toNat]
def k0_off357 (v1800 : BitVec 32) : Fin 2 → Nat :=
  let c0_i32_951 : BitVec 32 := 0#32
  ![v1800.toNat, 0]

def k0_off358 (i : grid0.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1807 : BitVec 32 := Scalar.addi v0 c126_i32
  let v1808 : Index := Scalar.indexCast v1807
  ![v1808.toNat]
def k0_off359 (v1809 : BitVec 32) : Fin 2 → Nat :=
  let c0_i32_955 : BitVec 32 := 0#32
  ![v1809.toNat, 0]

def k0_off360 (i : grid0.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1816 : BitVec 32 := Scalar.addi v0 c127_i32
  let v1817 : Index := Scalar.indexCast v1816
  ![v1817.toNat]
def k0_off361 (v1818 : BitVec 32) : Fin 2 → Nat :=
  let c0_i32_959 : BitVec 32 := 0#32
  ![v1818.toNat, 0]

def k0_chk128 (v1818 : BitVec 32) : Prop :=
  (∀ a, (k0_off361 v1818) a + S1x8192.size a ≤ S8192x8192.size a)
instance k0_chk128.dec : ∀ (v1818 : BitVec 32), Decidable (k0_chk128 v1818) := fun v1818 => decidable_of_iff' _ (Iff.of_eq (k0_chk128.eq_1 v1818))
theorem k0_off361_inb : ∀ (v1818 : BitVec 32) (k0_hw128 : k0_chk128 v1818), ∀ a, (k0_off361 v1818) a + S1x8192.size a ≤ S8192x8192.size a := fun v1818 k0_hw128 => k0_hw128

def k0_off362 (v1683 : BitVec 32) : Fin 2 → Nat :=
  let c0_i32_963 : BitVec 32 := 0#32
  ![v1683.toNat, 0]

def k0_chk113 (v1683 : BitVec 32) : Prop :=
  (∀ a, (k0_off331 v1683) a + S1x8192.size a ≤ S8192x8192.size a) ∧
  (∀ a, (k0_off362 v1683) a + S1x8192.size a ≤ S8192x8192.size a)
instance k0_chk113.dec : ∀ (v1683 : BitVec 32), Decidable (k0_chk113 v1683) := fun v1683 => decidable_of_iff' _ (Iff.of_eq (k0_chk113.eq_1 v1683))
theorem k0_off331_inb : ∀ (v1683 : BitVec 32) (k0_hw113 : k0_chk113 v1683), ∀ a, (k0_off331 v1683) a + S1x8192.size a ≤ S8192x8192.size a := fun v1683 k0_hw113 => k0_hw113.1
theorem k0_off362_inb : ∀ (v1683 : BitVec 32) (k0_hw113 : k0_chk113 v1683), ∀ a, (k0_off362 v1683) a + S1x8192.size a ≤ S8192x8192.size a := fun v1683 k0_hw113 => k0_hw113.2

def k0_off363 (v1692 : BitVec 32) : Fin 2 → Nat :=
  let c0_i32_967 : BitVec 32 := 0#32
  ![v1692.toNat, 0]

def k0_chk114 (v1692 : BitVec 32) : Prop :=
  (∀ a, (k0_off333 v1692) a + S1x8192.size a ≤ S8192x8192.size a) ∧
  (∀ a, (k0_off363 v1692) a + S1x8192.size a ≤ S8192x8192.size a)
instance k0_chk114.dec : ∀ (v1692 : BitVec 32), Decidable (k0_chk114 v1692) := fun v1692 => decidable_of_iff' _ (Iff.of_eq (k0_chk114.eq_1 v1692))
theorem k0_off333_inb : ∀ (v1692 : BitVec 32) (k0_hw114 : k0_chk114 v1692), ∀ a, (k0_off333 v1692) a + S1x8192.size a ≤ S8192x8192.size a := fun v1692 k0_hw114 => k0_hw114.1
theorem k0_off363_inb : ∀ (v1692 : BitVec 32) (k0_hw114 : k0_chk114 v1692), ∀ a, (k0_off363 v1692) a + S1x8192.size a ≤ S8192x8192.size a := fun v1692 k0_hw114 => k0_hw114.2

def k0_off364 (v1701 : BitVec 32) : Fin 2 → Nat :=
  let c0_i32_971 : BitVec 32 := 0#32
  ![v1701.toNat, 0]

def k0_chk115 (v1701 : BitVec 32) : Prop :=
  (∀ a, (k0_off335 v1701) a + S1x8192.size a ≤ S8192x8192.size a) ∧
  (∀ a, (k0_off364 v1701) a + S1x8192.size a ≤ S8192x8192.size a)
instance k0_chk115.dec : ∀ (v1701 : BitVec 32), Decidable (k0_chk115 v1701) := fun v1701 => decidable_of_iff' _ (Iff.of_eq (k0_chk115.eq_1 v1701))
theorem k0_off335_inb : ∀ (v1701 : BitVec 32) (k0_hw115 : k0_chk115 v1701), ∀ a, (k0_off335 v1701) a + S1x8192.size a ≤ S8192x8192.size a := fun v1701 k0_hw115 => k0_hw115.1
theorem k0_off364_inb : ∀ (v1701 : BitVec 32) (k0_hw115 : k0_chk115 v1701), ∀ a, (k0_off364 v1701) a + S1x8192.size a ≤ S8192x8192.size a := fun v1701 k0_hw115 => k0_hw115.2

def k0_off365 (v1710 : BitVec 32) : Fin 2 → Nat :=
  let c0_i32_975 : BitVec 32 := 0#32
  ![v1710.toNat, 0]

def k0_chk116 (v1710 : BitVec 32) : Prop :=
  (∀ a, (k0_off337 v1710) a + S1x8192.size a ≤ S8192x8192.size a) ∧
  (∀ a, (k0_off365 v1710) a + S1x8192.size a ≤ S8192x8192.size a)
instance k0_chk116.dec : ∀ (v1710 : BitVec 32), Decidable (k0_chk116 v1710) := fun v1710 => decidable_of_iff' _ (Iff.of_eq (k0_chk116.eq_1 v1710))
theorem k0_off337_inb : ∀ (v1710 : BitVec 32) (k0_hw116 : k0_chk116 v1710), ∀ a, (k0_off337 v1710) a + S1x8192.size a ≤ S8192x8192.size a := fun v1710 k0_hw116 => k0_hw116.1
theorem k0_off365_inb : ∀ (v1710 : BitVec 32) (k0_hw116 : k0_chk116 v1710), ∀ a, (k0_off365 v1710) a + S1x8192.size a ≤ S8192x8192.size a := fun v1710 k0_hw116 => k0_hw116.2

def k0_off366 (v1719 : BitVec 32) : Fin 2 → Nat :=
  let c0_i32_979 : BitVec 32 := 0#32
  ![v1719.toNat, 0]

def k0_chk117 (v1719 : BitVec 32) : Prop :=
  (∀ a, (k0_off339 v1719) a + S1x8192.size a ≤ S8192x8192.size a) ∧
  (∀ a, (k0_off366 v1719) a + S1x8192.size a ≤ S8192x8192.size a)
instance k0_chk117.dec : ∀ (v1719 : BitVec 32), Decidable (k0_chk117 v1719) := fun v1719 => decidable_of_iff' _ (Iff.of_eq (k0_chk117.eq_1 v1719))
theorem k0_off339_inb : ∀ (v1719 : BitVec 32) (k0_hw117 : k0_chk117 v1719), ∀ a, (k0_off339 v1719) a + S1x8192.size a ≤ S8192x8192.size a := fun v1719 k0_hw117 => k0_hw117.1
theorem k0_off366_inb : ∀ (v1719 : BitVec 32) (k0_hw117 : k0_chk117 v1719), ∀ a, (k0_off366 v1719) a + S1x8192.size a ≤ S8192x8192.size a := fun v1719 k0_hw117 => k0_hw117.2

def k0_off367 (v1728 : BitVec 32) : Fin 2 → Nat :=
  let c0_i32_983 : BitVec 32 := 0#32
  ![v1728.toNat, 0]

def k0_chk118 (v1728 : BitVec 32) : Prop :=
  (∀ a, (k0_off341 v1728) a + S1x8192.size a ≤ S8192x8192.size a) ∧
  (∀ a, (k0_off367 v1728) a + S1x8192.size a ≤ S8192x8192.size a)
instance k0_chk118.dec : ∀ (v1728 : BitVec 32), Decidable (k0_chk118 v1728) := fun v1728 => decidable_of_iff' _ (Iff.of_eq (k0_chk118.eq_1 v1728))
theorem k0_off341_inb : ∀ (v1728 : BitVec 32) (k0_hw118 : k0_chk118 v1728), ∀ a, (k0_off341 v1728) a + S1x8192.size a ≤ S8192x8192.size a := fun v1728 k0_hw118 => k0_hw118.1
theorem k0_off367_inb : ∀ (v1728 : BitVec 32) (k0_hw118 : k0_chk118 v1728), ∀ a, (k0_off367 v1728) a + S1x8192.size a ≤ S8192x8192.size a := fun v1728 k0_hw118 => k0_hw118.2

def k0_off368 (v1737 : BitVec 32) : Fin 2 → Nat :=
  let c0_i32_987 : BitVec 32 := 0#32
  ![v1737.toNat, 0]

def k0_chk119 (v1737 : BitVec 32) : Prop :=
  (∀ a, (k0_off343 v1737) a + S1x8192.size a ≤ S8192x8192.size a) ∧
  (∀ a, (k0_off368 v1737) a + S1x8192.size a ≤ S8192x8192.size a)
instance k0_chk119.dec : ∀ (v1737 : BitVec 32), Decidable (k0_chk119 v1737) := fun v1737 => decidable_of_iff' _ (Iff.of_eq (k0_chk119.eq_1 v1737))
theorem k0_off343_inb : ∀ (v1737 : BitVec 32) (k0_hw119 : k0_chk119 v1737), ∀ a, (k0_off343 v1737) a + S1x8192.size a ≤ S8192x8192.size a := fun v1737 k0_hw119 => k0_hw119.1
theorem k0_off368_inb : ∀ (v1737 : BitVec 32) (k0_hw119 : k0_chk119 v1737), ∀ a, (k0_off368 v1737) a + S1x8192.size a ≤ S8192x8192.size a := fun v1737 k0_hw119 => k0_hw119.2

def k0_off369 (v1746 : BitVec 32) : Fin 2 → Nat :=
  let c0_i32_991 : BitVec 32 := 0#32
  ![v1746.toNat, 0]

def k0_chk120 (v1746 : BitVec 32) : Prop :=
  (∀ a, (k0_off345 v1746) a + S1x8192.size a ≤ S8192x8192.size a) ∧
  (∀ a, (k0_off369 v1746) a + S1x8192.size a ≤ S8192x8192.size a)
instance k0_chk120.dec : ∀ (v1746 : BitVec 32), Decidable (k0_chk120 v1746) := fun v1746 => decidable_of_iff' _ (Iff.of_eq (k0_chk120.eq_1 v1746))
theorem k0_off345_inb : ∀ (v1746 : BitVec 32) (k0_hw120 : k0_chk120 v1746), ∀ a, (k0_off345 v1746) a + S1x8192.size a ≤ S8192x8192.size a := fun v1746 k0_hw120 => k0_hw120.1
theorem k0_off369_inb : ∀ (v1746 : BitVec 32) (k0_hw120 : k0_chk120 v1746), ∀ a, (k0_off369 v1746) a + S1x8192.size a ≤ S8192x8192.size a := fun v1746 k0_hw120 => k0_hw120.2

def k0_off370 (v1755 : BitVec 32) : Fin 2 → Nat :=
  let c0_i32_995 : BitVec 32 := 0#32
  ![v1755.toNat, 0]

def k0_chk121 (v1755 : BitVec 32) : Prop :=
  (∀ a, (k0_off347 v1755) a + S1x8192.size a ≤ S8192x8192.size a) ∧
  (∀ a, (k0_off370 v1755) a + S1x8192.size a ≤ S8192x8192.size a)
instance k0_chk121.dec : ∀ (v1755 : BitVec 32), Decidable (k0_chk121 v1755) := fun v1755 => decidable_of_iff' _ (Iff.of_eq (k0_chk121.eq_1 v1755))
theorem k0_off347_inb : ∀ (v1755 : BitVec 32) (k0_hw121 : k0_chk121 v1755), ∀ a, (k0_off347 v1755) a + S1x8192.size a ≤ S8192x8192.size a := fun v1755 k0_hw121 => k0_hw121.1
theorem k0_off370_inb : ∀ (v1755 : BitVec 32) (k0_hw121 : k0_chk121 v1755), ∀ a, (k0_off370 v1755) a + S1x8192.size a ≤ S8192x8192.size a := fun v1755 k0_hw121 => k0_hw121.2

def k0_off371 (v1764 : BitVec 32) : Fin 2 → Nat :=
  let c0_i32_999 : BitVec 32 := 0#32
  ![v1764.toNat, 0]

def k0_chk122 (v1764 : BitVec 32) : Prop :=
  (∀ a, (k0_off349 v1764) a + S1x8192.size a ≤ S8192x8192.size a) ∧
  (∀ a, (k0_off371 v1764) a + S1x8192.size a ≤ S8192x8192.size a)
instance k0_chk122.dec : ∀ (v1764 : BitVec 32), Decidable (k0_chk122 v1764) := fun v1764 => decidable_of_iff' _ (Iff.of_eq (k0_chk122.eq_1 v1764))
theorem k0_off349_inb : ∀ (v1764 : BitVec 32) (k0_hw122 : k0_chk122 v1764), ∀ a, (k0_off349 v1764) a + S1x8192.size a ≤ S8192x8192.size a := fun v1764 k0_hw122 => k0_hw122.1
theorem k0_off371_inb : ∀ (v1764 : BitVec 32) (k0_hw122 : k0_chk122 v1764), ∀ a, (k0_off371 v1764) a + S1x8192.size a ≤ S8192x8192.size a := fun v1764 k0_hw122 => k0_hw122.2

def k0_off372 (v1773 : BitVec 32) : Fin 2 → Nat :=
  let c0_i32_1003 : BitVec 32 := 0#32
  ![v1773.toNat, 0]

def k0_chk123 (v1773 : BitVec 32) : Prop :=
  (∀ a, (k0_off351 v1773) a + S1x8192.size a ≤ S8192x8192.size a) ∧
  (∀ a, (k0_off372 v1773) a + S1x8192.size a ≤ S8192x8192.size a)
instance k0_chk123.dec : ∀ (v1773 : BitVec 32), Decidable (k0_chk123 v1773) := fun v1773 => decidable_of_iff' _ (Iff.of_eq (k0_chk123.eq_1 v1773))
theorem k0_off351_inb : ∀ (v1773 : BitVec 32) (k0_hw123 : k0_chk123 v1773), ∀ a, (k0_off351 v1773) a + S1x8192.size a ≤ S8192x8192.size a := fun v1773 k0_hw123 => k0_hw123.1
theorem k0_off372_inb : ∀ (v1773 : BitVec 32) (k0_hw123 : k0_chk123 v1773), ∀ a, (k0_off372 v1773) a + S1x8192.size a ≤ S8192x8192.size a := fun v1773 k0_hw123 => k0_hw123.2

def k0_off373 (v1782 : BitVec 32) : Fin 2 → Nat :=
  let c0_i32_1007 : BitVec 32 := 0#32
  ![v1782.toNat, 0]

def k0_chk124 (v1782 : BitVec 32) : Prop :=
  (∀ a, (k0_off353 v1782) a + S1x8192.size a ≤ S8192x8192.size a) ∧
  (∀ a, (k0_off373 v1782) a + S1x8192.size a ≤ S8192x8192.size a)
instance k0_chk124.dec : ∀ (v1782 : BitVec 32), Decidable (k0_chk124 v1782) := fun v1782 => decidable_of_iff' _ (Iff.of_eq (k0_chk124.eq_1 v1782))
theorem k0_off353_inb : ∀ (v1782 : BitVec 32) (k0_hw124 : k0_chk124 v1782), ∀ a, (k0_off353 v1782) a + S1x8192.size a ≤ S8192x8192.size a := fun v1782 k0_hw124 => k0_hw124.1
theorem k0_off373_inb : ∀ (v1782 : BitVec 32) (k0_hw124 : k0_chk124 v1782), ∀ a, (k0_off373 v1782) a + S1x8192.size a ≤ S8192x8192.size a := fun v1782 k0_hw124 => k0_hw124.2

def k0_off374 (v1791 : BitVec 32) : Fin 2 → Nat :=
  let c0_i32_1011 : BitVec 32 := 0#32
  ![v1791.toNat, 0]

def k0_chk125 (v1791 : BitVec 32) : Prop :=
  (∀ a, (k0_off355 v1791) a + S1x8192.size a ≤ S8192x8192.size a) ∧
  (∀ a, (k0_off374 v1791) a + S1x8192.size a ≤ S8192x8192.size a)
instance k0_chk125.dec : ∀ (v1791 : BitVec 32), Decidable (k0_chk125 v1791) := fun v1791 => decidable_of_iff' _ (Iff.of_eq (k0_chk125.eq_1 v1791))
theorem k0_off355_inb : ∀ (v1791 : BitVec 32) (k0_hw125 : k0_chk125 v1791), ∀ a, (k0_off355 v1791) a + S1x8192.size a ≤ S8192x8192.size a := fun v1791 k0_hw125 => k0_hw125.1
theorem k0_off374_inb : ∀ (v1791 : BitVec 32) (k0_hw125 : k0_chk125 v1791), ∀ a, (k0_off374 v1791) a + S1x8192.size a ≤ S8192x8192.size a := fun v1791 k0_hw125 => k0_hw125.2

def k0_off375 (v1800 : BitVec 32) : Fin 2 → Nat :=
  let c0_i32_1015 : BitVec 32 := 0#32
  ![v1800.toNat, 0]

def k0_chk126 (v1800 : BitVec 32) : Prop :=
  (∀ a, (k0_off357 v1800) a + S1x8192.size a ≤ S8192x8192.size a) ∧
  (∀ a, (k0_off375 v1800) a + S1x8192.size a ≤ S8192x8192.size a)
instance k0_chk126.dec : ∀ (v1800 : BitVec 32), Decidable (k0_chk126 v1800) := fun v1800 => decidable_of_iff' _ (Iff.of_eq (k0_chk126.eq_1 v1800))
theorem k0_off357_inb : ∀ (v1800 : BitVec 32) (k0_hw126 : k0_chk126 v1800), ∀ a, (k0_off357 v1800) a + S1x8192.size a ≤ S8192x8192.size a := fun v1800 k0_hw126 => k0_hw126.1
theorem k0_off375_inb : ∀ (v1800 : BitVec 32) (k0_hw126 : k0_chk126 v1800), ∀ a, (k0_off375 v1800) a + S1x8192.size a ≤ S8192x8192.size a := fun v1800 k0_hw126 => k0_hw126.2

def k0_off376 (v1809 : BitVec 32) : Fin 2 → Nat :=
  let c0_i32_1019 : BitVec 32 := 0#32
  ![v1809.toNat, 0]

def k0_chk127 (v1809 : BitVec 32) : Prop :=
  (∀ a, (k0_off359 v1809) a + S1x8192.size a ≤ S8192x8192.size a) ∧
  (∀ a, (k0_off376 v1809) a + S1x8192.size a ≤ S8192x8192.size a)
instance k0_chk127.dec : ∀ (v1809 : BitVec 32), Decidable (k0_chk127 v1809) := fun v1809 => decidable_of_iff' _ (Iff.of_eq (k0_chk127.eq_1 v1809))
theorem k0_off359_inb : ∀ (v1809 : BitVec 32) (k0_hw127 : k0_chk127 v1809), ∀ a, (k0_off359 v1809) a + S1x8192.size a ≤ S8192x8192.size a := fun v1809 k0_hw127 => k0_hw127.1
theorem k0_off376_inb : ∀ (v1809 : BitVec 32) (k0_hw127 : k0_chk127 v1809), ∀ a, (k0_off376 v1809) a + S1x8192.size a ≤ S8192x8192.size a := fun v1809 k0_hw127 => k0_hw127.2

def k0_off377 (i : grid0.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1921 : BitVec 32 := Scalar.addi v0 c128_i32
  let v1922 : Index := Scalar.indexCast v1921
  ![v1922.toNat]
def k0_off378 (v1923 : BitVec 32) : Fin 2 → Nat :=
  let c0_i32_1027 : BitVec 32 := 0#32
  ![v1923.toNat, 0]

def k0_off379 (i : grid0.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1930 : BitVec 32 := Scalar.addi v0 c129_i32
  let v1931 : Index := Scalar.indexCast v1930
  ![v1931.toNat]
def k0_off380 (v1932 : BitVec 32) : Fin 2 → Nat :=
  let c0_i32_1031 : BitVec 32 := 0#32
  ![v1932.toNat, 0]

def k0_off381 (i : grid0.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1939 : BitVec 32 := Scalar.addi v0 c130_i32
  let v1940 : Index := Scalar.indexCast v1939
  ![v1940.toNat]
def k0_off382 (v1941 : BitVec 32) : Fin 2 → Nat :=
  let c0_i32_1035 : BitVec 32 := 0#32
  ![v1941.toNat, 0]

def k0_off383 (i : grid0.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1948 : BitVec 32 := Scalar.addi v0 c131_i32
  let v1949 : Index := Scalar.indexCast v1948
  ![v1949.toNat]
def k0_off384 (v1950 : BitVec 32) : Fin 2 → Nat :=
  let c0_i32_1039 : BitVec 32 := 0#32
  ![v1950.toNat, 0]

def k0_off385 (i : grid0.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1957 : BitVec 32 := Scalar.addi v0 c132_i32
  let v1958 : Index := Scalar.indexCast v1957
  ![v1958.toNat]
def k0_off386 (v1959 : BitVec 32) : Fin 2 → Nat :=
  let c0_i32_1043 : BitVec 32 := 0#32
  ![v1959.toNat, 0]

def k0_off387 (i : grid0.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1966 : BitVec 32 := Scalar.addi v0 c133_i32
  let v1967 : Index := Scalar.indexCast v1966
  ![v1967.toNat]
def k0_off388 (v1968 : BitVec 32) : Fin 2 → Nat :=
  let c0_i32_1047 : BitVec 32 := 0#32
  ![v1968.toNat, 0]

def k0_off389 (i : grid0.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1975 : BitVec 32 := Scalar.addi v0 c134_i32
  let v1976 : Index := Scalar.indexCast v1975
  ![v1976.toNat]
def k0_off390 (v1977 : BitVec 32) : Fin 2 → Nat :=
  let c0_i32_1051 : BitVec 32 := 0#32
  ![v1977.toNat, 0]

def k0_off391 (i : grid0.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1984 : BitVec 32 := Scalar.addi v0 c135_i32
  let v1985 : Index := Scalar.indexCast v1984
  ![v1985.toNat]
def k0_off392 (v1986 : BitVec 32) : Fin 2 → Nat :=
  let c0_i32_1055 : BitVec 32 := 0#32
  ![v1986.toNat, 0]

def k0_off393 (i : grid0.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1993 : BitVec 32 := Scalar.addi v0 c136_i32
  let v1994 : Index := Scalar.indexCast v1993
  ![v1994.toNat]
def k0_off394 (v1995 : BitVec 32) : Fin 2 → Nat :=
  let c0_i32_1059 : BitVec 32 := 0#32
  ![v1995.toNat, 0]

def k0_off395 (i : grid0.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v2002 : BitVec 32 := Scalar.addi v0 c137_i32
  let v2003 : Index := Scalar.indexCast v2002
  ![v2003.toNat]
def k0_off396 (v2004 : BitVec 32) : Fin 2 → Nat :=
  let c0_i32_1063 : BitVec 32 := 0#32
  ![v2004.toNat, 0]

def k0_off397 (i : grid0.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v2011 : BitVec 32 := Scalar.addi v0 c138_i32
  let v2012 : Index := Scalar.indexCast v2011
  ![v2012.toNat]
def k0_off398 (v2013 : BitVec 32) : Fin 2 → Nat :=
  let c0_i32_1067 : BitVec 32 := 0#32
  ![v2013.toNat, 0]

def k0_off399 (i : grid0.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v2020 : BitVec 32 := Scalar.addi v0 c139_i32
  let v2021 : Index := Scalar.indexCast v2020
  ![v2021.toNat]
def k0_off400 (v2022 : BitVec 32) : Fin 2 → Nat :=
  let c0_i32_1071 : BitVec 32 := 0#32
  ![v2022.toNat, 0]

def k0_off401 (i : grid0.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v2029 : BitVec 32 := Scalar.addi v0 c140_i32
  let v2030 : Index := Scalar.indexCast v2029
  ![v2030.toNat]
def k0_off402 (v2031 : BitVec 32) : Fin 2 → Nat :=
  let c0_i32_1075 : BitVec 32 := 0#32
  ![v2031.toNat, 0]

def k0_off403 (i : grid0.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v2038 : BitVec 32 := Scalar.addi v0 c141_i32
  let v2039 : Index := Scalar.indexCast v2038
  ![v2039.toNat]
def k0_off404 (v2040 : BitVec 32) : Fin 2 → Nat :=
  let c0_i32_1079 : BitVec 32 := 0#32
  ![v2040.toNat, 0]

def k0_off405 (i : grid0.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v2047 : BitVec 32 := Scalar.addi v0 c142_i32
  let v2048 : Index := Scalar.indexCast v2047
  ![v2048.toNat]
def k0_off406 (v2049 : BitVec 32) : Fin 2 → Nat :=
  let c0_i32_1083 : BitVec 32 := 0#32
  ![v2049.toNat, 0]

def k0_off407 (i : grid0.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v2056 : BitVec 32 := Scalar.addi v0 c143_i32
  let v2057 : Index := Scalar.indexCast v2056
  ![v2057.toNat]
def k0_off408 (v2058 : BitVec 32) : Fin 2 → Nat :=
  let c0_i32_1087 : BitVec 32 := 0#32
  ![v2058.toNat, 0]

def k0_chk144 (v2058 : BitVec 32) : Prop :=
  (∀ a, (k0_off408 v2058) a + S1x8192.size a ≤ S8192x8192.size a)
instance k0_chk144.dec : ∀ (v2058 : BitVec 32), Decidable (k0_chk144 v2058) := fun v2058 => decidable_of_iff' _ (Iff.of_eq (k0_chk144.eq_1 v2058))
theorem k0_off408_inb : ∀ (v2058 : BitVec 32) (k0_hw144 : k0_chk144 v2058), ∀ a, (k0_off408 v2058) a + S1x8192.size a ≤ S8192x8192.size a := fun v2058 k0_hw144 => k0_hw144

def k0_off409 (v1923 : BitVec 32) : Fin 2 → Nat :=
  let c0_i32_1091 : BitVec 32 := 0#32
  ![v1923.toNat, 0]

def k0_chk129 (v1923 : BitVec 32) : Prop :=
  (∀ a, (k0_off378 v1923) a + S1x8192.size a ≤ S8192x8192.size a) ∧
  (∀ a, (k0_off409 v1923) a + S1x8192.size a ≤ S8192x8192.size a)
instance k0_chk129.dec : ∀ (v1923 : BitVec 32), Decidable (k0_chk129 v1923) := fun v1923 => decidable_of_iff' _ (Iff.of_eq (k0_chk129.eq_1 v1923))
theorem k0_off378_inb : ∀ (v1923 : BitVec 32) (k0_hw129 : k0_chk129 v1923), ∀ a, (k0_off378 v1923) a + S1x8192.size a ≤ S8192x8192.size a := fun v1923 k0_hw129 => k0_hw129.1
theorem k0_off409_inb : ∀ (v1923 : BitVec 32) (k0_hw129 : k0_chk129 v1923), ∀ a, (k0_off409 v1923) a + S1x8192.size a ≤ S8192x8192.size a := fun v1923 k0_hw129 => k0_hw129.2

def k0_off410 (v1932 : BitVec 32) : Fin 2 → Nat :=
  let c0_i32_1095 : BitVec 32 := 0#32
  ![v1932.toNat, 0]

def k0_chk130 (v1932 : BitVec 32) : Prop :=
  (∀ a, (k0_off380 v1932) a + S1x8192.size a ≤ S8192x8192.size a) ∧
  (∀ a, (k0_off410 v1932) a + S1x8192.size a ≤ S8192x8192.size a)
instance k0_chk130.dec : ∀ (v1932 : BitVec 32), Decidable (k0_chk130 v1932) := fun v1932 => decidable_of_iff' _ (Iff.of_eq (k0_chk130.eq_1 v1932))
theorem k0_off380_inb : ∀ (v1932 : BitVec 32) (k0_hw130 : k0_chk130 v1932), ∀ a, (k0_off380 v1932) a + S1x8192.size a ≤ S8192x8192.size a := fun v1932 k0_hw130 => k0_hw130.1
theorem k0_off410_inb : ∀ (v1932 : BitVec 32) (k0_hw130 : k0_chk130 v1932), ∀ a, (k0_off410 v1932) a + S1x8192.size a ≤ S8192x8192.size a := fun v1932 k0_hw130 => k0_hw130.2

def k0_off411 (v1941 : BitVec 32) : Fin 2 → Nat :=
  let c0_i32_1099 : BitVec 32 := 0#32
  ![v1941.toNat, 0]

def k0_chk131 (v1941 : BitVec 32) : Prop :=
  (∀ a, (k0_off382 v1941) a + S1x8192.size a ≤ S8192x8192.size a) ∧
  (∀ a, (k0_off411 v1941) a + S1x8192.size a ≤ S8192x8192.size a)
instance k0_chk131.dec : ∀ (v1941 : BitVec 32), Decidable (k0_chk131 v1941) := fun v1941 => decidable_of_iff' _ (Iff.of_eq (k0_chk131.eq_1 v1941))
theorem k0_off382_inb : ∀ (v1941 : BitVec 32) (k0_hw131 : k0_chk131 v1941), ∀ a, (k0_off382 v1941) a + S1x8192.size a ≤ S8192x8192.size a := fun v1941 k0_hw131 => k0_hw131.1
theorem k0_off411_inb : ∀ (v1941 : BitVec 32) (k0_hw131 : k0_chk131 v1941), ∀ a, (k0_off411 v1941) a + S1x8192.size a ≤ S8192x8192.size a := fun v1941 k0_hw131 => k0_hw131.2

def k0_off412 (v1950 : BitVec 32) : Fin 2 → Nat :=
  let c0_i32_1103 : BitVec 32 := 0#32
  ![v1950.toNat, 0]

def k0_chk132 (v1950 : BitVec 32) : Prop :=
  (∀ a, (k0_off384 v1950) a + S1x8192.size a ≤ S8192x8192.size a) ∧
  (∀ a, (k0_off412 v1950) a + S1x8192.size a ≤ S8192x8192.size a)
instance k0_chk132.dec : ∀ (v1950 : BitVec 32), Decidable (k0_chk132 v1950) := fun v1950 => decidable_of_iff' _ (Iff.of_eq (k0_chk132.eq_1 v1950))
theorem k0_off384_inb : ∀ (v1950 : BitVec 32) (k0_hw132 : k0_chk132 v1950), ∀ a, (k0_off384 v1950) a + S1x8192.size a ≤ S8192x8192.size a := fun v1950 k0_hw132 => k0_hw132.1
theorem k0_off412_inb : ∀ (v1950 : BitVec 32) (k0_hw132 : k0_chk132 v1950), ∀ a, (k0_off412 v1950) a + S1x8192.size a ≤ S8192x8192.size a := fun v1950 k0_hw132 => k0_hw132.2

def k0_off413 (v1959 : BitVec 32) : Fin 2 → Nat :=
  let c0_i32_1107 : BitVec 32 := 0#32
  ![v1959.toNat, 0]

def k0_chk133 (v1959 : BitVec 32) : Prop :=
  (∀ a, (k0_off386 v1959) a + S1x8192.size a ≤ S8192x8192.size a) ∧
  (∀ a, (k0_off413 v1959) a + S1x8192.size a ≤ S8192x8192.size a)
instance k0_chk133.dec : ∀ (v1959 : BitVec 32), Decidable (k0_chk133 v1959) := fun v1959 => decidable_of_iff' _ (Iff.of_eq (k0_chk133.eq_1 v1959))
theorem k0_off386_inb : ∀ (v1959 : BitVec 32) (k0_hw133 : k0_chk133 v1959), ∀ a, (k0_off386 v1959) a + S1x8192.size a ≤ S8192x8192.size a := fun v1959 k0_hw133 => k0_hw133.1
theorem k0_off413_inb : ∀ (v1959 : BitVec 32) (k0_hw133 : k0_chk133 v1959), ∀ a, (k0_off413 v1959) a + S1x8192.size a ≤ S8192x8192.size a := fun v1959 k0_hw133 => k0_hw133.2

def k0_off414 (v1968 : BitVec 32) : Fin 2 → Nat :=
  let c0_i32_1111 : BitVec 32 := 0#32
  ![v1968.toNat, 0]

def k0_chk134 (v1968 : BitVec 32) : Prop :=
  (∀ a, (k0_off388 v1968) a + S1x8192.size a ≤ S8192x8192.size a) ∧
  (∀ a, (k0_off414 v1968) a + S1x8192.size a ≤ S8192x8192.size a)
instance k0_chk134.dec : ∀ (v1968 : BitVec 32), Decidable (k0_chk134 v1968) := fun v1968 => decidable_of_iff' _ (Iff.of_eq (k0_chk134.eq_1 v1968))
theorem k0_off388_inb : ∀ (v1968 : BitVec 32) (k0_hw134 : k0_chk134 v1968), ∀ a, (k0_off388 v1968) a + S1x8192.size a ≤ S8192x8192.size a := fun v1968 k0_hw134 => k0_hw134.1
theorem k0_off414_inb : ∀ (v1968 : BitVec 32) (k0_hw134 : k0_chk134 v1968), ∀ a, (k0_off414 v1968) a + S1x8192.size a ≤ S8192x8192.size a := fun v1968 k0_hw134 => k0_hw134.2

def k0_off415 (v1977 : BitVec 32) : Fin 2 → Nat :=
  let c0_i32_1115 : BitVec 32 := 0#32
  ![v1977.toNat, 0]

def k0_chk135 (v1977 : BitVec 32) : Prop :=
  (∀ a, (k0_off390 v1977) a + S1x8192.size a ≤ S8192x8192.size a) ∧
  (∀ a, (k0_off415 v1977) a + S1x8192.size a ≤ S8192x8192.size a)
instance k0_chk135.dec : ∀ (v1977 : BitVec 32), Decidable (k0_chk135 v1977) := fun v1977 => decidable_of_iff' _ (Iff.of_eq (k0_chk135.eq_1 v1977))
theorem k0_off390_inb : ∀ (v1977 : BitVec 32) (k0_hw135 : k0_chk135 v1977), ∀ a, (k0_off390 v1977) a + S1x8192.size a ≤ S8192x8192.size a := fun v1977 k0_hw135 => k0_hw135.1
theorem k0_off415_inb : ∀ (v1977 : BitVec 32) (k0_hw135 : k0_chk135 v1977), ∀ a, (k0_off415 v1977) a + S1x8192.size a ≤ S8192x8192.size a := fun v1977 k0_hw135 => k0_hw135.2

def k0_off416 (v1986 : BitVec 32) : Fin 2 → Nat :=
  let c0_i32_1119 : BitVec 32 := 0#32
  ![v1986.toNat, 0]

def k0_chk136 (v1986 : BitVec 32) : Prop :=
  (∀ a, (k0_off392 v1986) a + S1x8192.size a ≤ S8192x8192.size a) ∧
  (∀ a, (k0_off416 v1986) a + S1x8192.size a ≤ S8192x8192.size a)
instance k0_chk136.dec : ∀ (v1986 : BitVec 32), Decidable (k0_chk136 v1986) := fun v1986 => decidable_of_iff' _ (Iff.of_eq (k0_chk136.eq_1 v1986))
theorem k0_off392_inb : ∀ (v1986 : BitVec 32) (k0_hw136 : k0_chk136 v1986), ∀ a, (k0_off392 v1986) a + S1x8192.size a ≤ S8192x8192.size a := fun v1986 k0_hw136 => k0_hw136.1
theorem k0_off416_inb : ∀ (v1986 : BitVec 32) (k0_hw136 : k0_chk136 v1986), ∀ a, (k0_off416 v1986) a + S1x8192.size a ≤ S8192x8192.size a := fun v1986 k0_hw136 => k0_hw136.2

def k0_off417 (v1995 : BitVec 32) : Fin 2 → Nat :=
  let c0_i32_1123 : BitVec 32 := 0#32
  ![v1995.toNat, 0]

def k0_chk137 (v1995 : BitVec 32) : Prop :=
  (∀ a, (k0_off394 v1995) a + S1x8192.size a ≤ S8192x8192.size a) ∧
  (∀ a, (k0_off417 v1995) a + S1x8192.size a ≤ S8192x8192.size a)
instance k0_chk137.dec : ∀ (v1995 : BitVec 32), Decidable (k0_chk137 v1995) := fun v1995 => decidable_of_iff' _ (Iff.of_eq (k0_chk137.eq_1 v1995))
theorem k0_off394_inb : ∀ (v1995 : BitVec 32) (k0_hw137 : k0_chk137 v1995), ∀ a, (k0_off394 v1995) a + S1x8192.size a ≤ S8192x8192.size a := fun v1995 k0_hw137 => k0_hw137.1
theorem k0_off417_inb : ∀ (v1995 : BitVec 32) (k0_hw137 : k0_chk137 v1995), ∀ a, (k0_off417 v1995) a + S1x8192.size a ≤ S8192x8192.size a := fun v1995 k0_hw137 => k0_hw137.2

def k0_off418 (v2004 : BitVec 32) : Fin 2 → Nat :=
  let c0_i32_1127 : BitVec 32 := 0#32
  ![v2004.toNat, 0]

def k0_chk138 (v2004 : BitVec 32) : Prop :=
  (∀ a, (k0_off396 v2004) a + S1x8192.size a ≤ S8192x8192.size a) ∧
  (∀ a, (k0_off418 v2004) a + S1x8192.size a ≤ S8192x8192.size a)
instance k0_chk138.dec : ∀ (v2004 : BitVec 32), Decidable (k0_chk138 v2004) := fun v2004 => decidable_of_iff' _ (Iff.of_eq (k0_chk138.eq_1 v2004))
theorem k0_off396_inb : ∀ (v2004 : BitVec 32) (k0_hw138 : k0_chk138 v2004), ∀ a, (k0_off396 v2004) a + S1x8192.size a ≤ S8192x8192.size a := fun v2004 k0_hw138 => k0_hw138.1
theorem k0_off418_inb : ∀ (v2004 : BitVec 32) (k0_hw138 : k0_chk138 v2004), ∀ a, (k0_off418 v2004) a + S1x8192.size a ≤ S8192x8192.size a := fun v2004 k0_hw138 => k0_hw138.2

def k0_off419 (v2013 : BitVec 32) : Fin 2 → Nat :=
  let c0_i32_1131 : BitVec 32 := 0#32
  ![v2013.toNat, 0]

def k0_chk139 (v2013 : BitVec 32) : Prop :=
  (∀ a, (k0_off398 v2013) a + S1x8192.size a ≤ S8192x8192.size a) ∧
  (∀ a, (k0_off419 v2013) a + S1x8192.size a ≤ S8192x8192.size a)
instance k0_chk139.dec : ∀ (v2013 : BitVec 32), Decidable (k0_chk139 v2013) := fun v2013 => decidable_of_iff' _ (Iff.of_eq (k0_chk139.eq_1 v2013))
theorem k0_off398_inb : ∀ (v2013 : BitVec 32) (k0_hw139 : k0_chk139 v2013), ∀ a, (k0_off398 v2013) a + S1x8192.size a ≤ S8192x8192.size a := fun v2013 k0_hw139 => k0_hw139.1
theorem k0_off419_inb : ∀ (v2013 : BitVec 32) (k0_hw139 : k0_chk139 v2013), ∀ a, (k0_off419 v2013) a + S1x8192.size a ≤ S8192x8192.size a := fun v2013 k0_hw139 => k0_hw139.2

def k0_off420 (v2022 : BitVec 32) : Fin 2 → Nat :=
  let c0_i32_1135 : BitVec 32 := 0#32
  ![v2022.toNat, 0]

def k0_chk140 (v2022 : BitVec 32) : Prop :=
  (∀ a, (k0_off400 v2022) a + S1x8192.size a ≤ S8192x8192.size a) ∧
  (∀ a, (k0_off420 v2022) a + S1x8192.size a ≤ S8192x8192.size a)
instance k0_chk140.dec : ∀ (v2022 : BitVec 32), Decidable (k0_chk140 v2022) := fun v2022 => decidable_of_iff' _ (Iff.of_eq (k0_chk140.eq_1 v2022))
theorem k0_off400_inb : ∀ (v2022 : BitVec 32) (k0_hw140 : k0_chk140 v2022), ∀ a, (k0_off400 v2022) a + S1x8192.size a ≤ S8192x8192.size a := fun v2022 k0_hw140 => k0_hw140.1
theorem k0_off420_inb : ∀ (v2022 : BitVec 32) (k0_hw140 : k0_chk140 v2022), ∀ a, (k0_off420 v2022) a + S1x8192.size a ≤ S8192x8192.size a := fun v2022 k0_hw140 => k0_hw140.2

def k0_off421 (v2031 : BitVec 32) : Fin 2 → Nat :=
  let c0_i32_1139 : BitVec 32 := 0#32
  ![v2031.toNat, 0]

def k0_chk141 (v2031 : BitVec 32) : Prop :=
  (∀ a, (k0_off402 v2031) a + S1x8192.size a ≤ S8192x8192.size a) ∧
  (∀ a, (k0_off421 v2031) a + S1x8192.size a ≤ S8192x8192.size a)
instance k0_chk141.dec : ∀ (v2031 : BitVec 32), Decidable (k0_chk141 v2031) := fun v2031 => decidable_of_iff' _ (Iff.of_eq (k0_chk141.eq_1 v2031))
theorem k0_off402_inb : ∀ (v2031 : BitVec 32) (k0_hw141 : k0_chk141 v2031), ∀ a, (k0_off402 v2031) a + S1x8192.size a ≤ S8192x8192.size a := fun v2031 k0_hw141 => k0_hw141.1
theorem k0_off421_inb : ∀ (v2031 : BitVec 32) (k0_hw141 : k0_chk141 v2031), ∀ a, (k0_off421 v2031) a + S1x8192.size a ≤ S8192x8192.size a := fun v2031 k0_hw141 => k0_hw141.2

def k0_off422 (v2040 : BitVec 32) : Fin 2 → Nat :=
  let c0_i32_1143 : BitVec 32 := 0#32
  ![v2040.toNat, 0]

def k0_chk142 (v2040 : BitVec 32) : Prop :=
  (∀ a, (k0_off404 v2040) a + S1x8192.size a ≤ S8192x8192.size a) ∧
  (∀ a, (k0_off422 v2040) a + S1x8192.size a ≤ S8192x8192.size a)
instance k0_chk142.dec : ∀ (v2040 : BitVec 32), Decidable (k0_chk142 v2040) := fun v2040 => decidable_of_iff' _ (Iff.of_eq (k0_chk142.eq_1 v2040))
theorem k0_off404_inb : ∀ (v2040 : BitVec 32) (k0_hw142 : k0_chk142 v2040), ∀ a, (k0_off404 v2040) a + S1x8192.size a ≤ S8192x8192.size a := fun v2040 k0_hw142 => k0_hw142.1
theorem k0_off422_inb : ∀ (v2040 : BitVec 32) (k0_hw142 : k0_chk142 v2040), ∀ a, (k0_off422 v2040) a + S1x8192.size a ≤ S8192x8192.size a := fun v2040 k0_hw142 => k0_hw142.2

def k0_off423 (v2049 : BitVec 32) : Fin 2 → Nat :=
  let c0_i32_1147 : BitVec 32 := 0#32
  ![v2049.toNat, 0]

def k0_chk143 (v2049 : BitVec 32) : Prop :=
  (∀ a, (k0_off406 v2049) a + S1x8192.size a ≤ S8192x8192.size a) ∧
  (∀ a, (k0_off423 v2049) a + S1x8192.size a ≤ S8192x8192.size a)
instance k0_chk143.dec : ∀ (v2049 : BitVec 32), Decidable (k0_chk143 v2049) := fun v2049 => decidable_of_iff' _ (Iff.of_eq (k0_chk143.eq_1 v2049))
theorem k0_off406_inb : ∀ (v2049 : BitVec 32) (k0_hw143 : k0_chk143 v2049), ∀ a, (k0_off406 v2049) a + S1x8192.size a ≤ S8192x8192.size a := fun v2049 k0_hw143 => k0_hw143.1
theorem k0_off423_inb : ∀ (v2049 : BitVec 32) (k0_hw143 : k0_chk143 v2049), ∀ a, (k0_off423 v2049) a + S1x8192.size a ≤ S8192x8192.size a := fun v2049 k0_hw143 => k0_hw143.2

def k0_off424 (i : grid0.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v2161 : BitVec 32 := Scalar.addi v0 c144_i32
  let v2162 : Index := Scalar.indexCast v2161
  ![v2162.toNat]
def k0_off425 (v2163 : BitVec 32) : Fin 2 → Nat :=
  let c0_i32_1155 : BitVec 32 := 0#32
  ![v2163.toNat, 0]

def k0_off426 (i : grid0.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v2170 : BitVec 32 := Scalar.addi v0 c145_i32
  let v2171 : Index := Scalar.indexCast v2170
  ![v2171.toNat]
def k0_off427 (v2172 : BitVec 32) : Fin 2 → Nat :=
  let c0_i32_1159 : BitVec 32 := 0#32
  ![v2172.toNat, 0]

def k0_off428 (i : grid0.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v2179 : BitVec 32 := Scalar.addi v0 c146_i32
  let v2180 : Index := Scalar.indexCast v2179
  ![v2180.toNat]
def k0_off429 (v2181 : BitVec 32) : Fin 2 → Nat :=
  let c0_i32_1163 : BitVec 32 := 0#32
  ![v2181.toNat, 0]

def k0_off430 (i : grid0.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v2188 : BitVec 32 := Scalar.addi v0 c147_i32
  let v2189 : Index := Scalar.indexCast v2188
  ![v2189.toNat]
def k0_off431 (v2190 : BitVec 32) : Fin 2 → Nat :=
  let c0_i32_1167 : BitVec 32 := 0#32
  ![v2190.toNat, 0]

def k0_off432 (i : grid0.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v2197 : BitVec 32 := Scalar.addi v0 c148_i32
  let v2198 : Index := Scalar.indexCast v2197
  ![v2198.toNat]
def k0_off433 (v2199 : BitVec 32) : Fin 2 → Nat :=
  let c0_i32_1171 : BitVec 32 := 0#32
  ![v2199.toNat, 0]

def k0_off434 (i : grid0.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v2206 : BitVec 32 := Scalar.addi v0 c149_i32
  let v2207 : Index := Scalar.indexCast v2206
  ![v2207.toNat]
def k0_off435 (v2208 : BitVec 32) : Fin 2 → Nat :=
  let c0_i32_1175 : BitVec 32 := 0#32
  ![v2208.toNat, 0]

def k0_off436 (i : grid0.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v2215 : BitVec 32 := Scalar.addi v0 c150_i32
  let v2216 : Index := Scalar.indexCast v2215
  ![v2216.toNat]
def k0_off437 (v2217 : BitVec 32) : Fin 2 → Nat :=
  let c0_i32_1179 : BitVec 32 := 0#32
  ![v2217.toNat, 0]

def k0_off438 (i : grid0.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v2224 : BitVec 32 := Scalar.addi v0 c151_i32
  let v2225 : Index := Scalar.indexCast v2224
  ![v2225.toNat]
def k0_off439 (v2226 : BitVec 32) : Fin 2 → Nat :=
  let c0_i32_1183 : BitVec 32 := 0#32
  ![v2226.toNat, 0]

def k0_off440 (i : grid0.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v2233 : BitVec 32 := Scalar.addi v0 c152_i32
  let v2234 : Index := Scalar.indexCast v2233
  ![v2234.toNat]
def k0_off441 (v2235 : BitVec 32) : Fin 2 → Nat :=
  let c0_i32_1187 : BitVec 32 := 0#32
  ![v2235.toNat, 0]

def k0_off442 (i : grid0.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v2242 : BitVec 32 := Scalar.addi v0 c153_i32
  let v2243 : Index := Scalar.indexCast v2242
  ![v2243.toNat]
def k0_off443 (v2244 : BitVec 32) : Fin 2 → Nat :=
  let c0_i32_1191 : BitVec 32 := 0#32
  ![v2244.toNat, 0]

def k0_off444 (i : grid0.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v2251 : BitVec 32 := Scalar.addi v0 c154_i32
  let v2252 : Index := Scalar.indexCast v2251
  ![v2252.toNat]
def k0_off445 (v2253 : BitVec 32) : Fin 2 → Nat :=
  let c0_i32_1195 : BitVec 32 := 0#32
  ![v2253.toNat, 0]

def k0_off446 (i : grid0.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v2260 : BitVec 32 := Scalar.addi v0 c155_i32
  let v2261 : Index := Scalar.indexCast v2260
  ![v2261.toNat]
def k0_off447 (v2262 : BitVec 32) : Fin 2 → Nat :=
  let c0_i32_1199 : BitVec 32 := 0#32
  ![v2262.toNat, 0]

def k0_off448 (i : grid0.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v2269 : BitVec 32 := Scalar.addi v0 c156_i32
  let v2270 : Index := Scalar.indexCast v2269
  ![v2270.toNat]
def k0_off449 (v2271 : BitVec 32) : Fin 2 → Nat :=
  let c0_i32_1203 : BitVec 32 := 0#32
  ![v2271.toNat, 0]

def k0_off450 (i : grid0.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v2278 : BitVec 32 := Scalar.addi v0 c157_i32
  let v2279 : Index := Scalar.indexCast v2278
  ![v2279.toNat]
def k0_off451 (v2280 : BitVec 32) : Fin 2 → Nat :=
  let c0_i32_1207 : BitVec 32 := 0#32
  ![v2280.toNat, 0]

def k0_off452 (i : grid0.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v2287 : BitVec 32 := Scalar.addi v0 c158_i32
  let v2288 : Index := Scalar.indexCast v2287
  ![v2288.toNat]
def k0_off453 (v2289 : BitVec 32) : Fin 2 → Nat :=
  let c0_i32_1211 : BitVec 32 := 0#32
  ![v2289.toNat, 0]

def k0_off454 (i : grid0.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v2296 : BitVec 32 := Scalar.addi v0 c159_i32
  let v2297 : Index := Scalar.indexCast v2296
  ![v2297.toNat]
def k0_off455 (v2298 : BitVec 32) : Fin 2 → Nat :=
  let c0_i32_1215 : BitVec 32 := 0#32
  ![v2298.toNat, 0]

def k0_chk160 (v2298 : BitVec 32) : Prop :=
  (∀ a, (k0_off455 v2298) a + S1x8192.size a ≤ S8192x8192.size a)
instance k0_chk160.dec : ∀ (v2298 : BitVec 32), Decidable (k0_chk160 v2298) := fun v2298 => decidable_of_iff' _ (Iff.of_eq (k0_chk160.eq_1 v2298))
theorem k0_off455_inb : ∀ (v2298 : BitVec 32) (k0_hw160 : k0_chk160 v2298), ∀ a, (k0_off455 v2298) a + S1x8192.size a ≤ S8192x8192.size a := fun v2298 k0_hw160 => k0_hw160

def k0_off456 (v2163 : BitVec 32) : Fin 2 → Nat :=
  let c0_i32_1219 : BitVec 32 := 0#32
  ![v2163.toNat, 0]

def k0_chk145 (v2163 : BitVec 32) : Prop :=
  (∀ a, (k0_off425 v2163) a + S1x8192.size a ≤ S8192x8192.size a) ∧
  (∀ a, (k0_off456 v2163) a + S1x8192.size a ≤ S8192x8192.size a)
instance k0_chk145.dec : ∀ (v2163 : BitVec 32), Decidable (k0_chk145 v2163) := fun v2163 => decidable_of_iff' _ (Iff.of_eq (k0_chk145.eq_1 v2163))
theorem k0_off425_inb : ∀ (v2163 : BitVec 32) (k0_hw145 : k0_chk145 v2163), ∀ a, (k0_off425 v2163) a + S1x8192.size a ≤ S8192x8192.size a := fun v2163 k0_hw145 => k0_hw145.1
theorem k0_off456_inb : ∀ (v2163 : BitVec 32) (k0_hw145 : k0_chk145 v2163), ∀ a, (k0_off456 v2163) a + S1x8192.size a ≤ S8192x8192.size a := fun v2163 k0_hw145 => k0_hw145.2

def k0_off457 (v2172 : BitVec 32) : Fin 2 → Nat :=
  let c0_i32_1223 : BitVec 32 := 0#32
  ![v2172.toNat, 0]

def k0_chk146 (v2172 : BitVec 32) : Prop :=
  (∀ a, (k0_off427 v2172) a + S1x8192.size a ≤ S8192x8192.size a) ∧
  (∀ a, (k0_off457 v2172) a + S1x8192.size a ≤ S8192x8192.size a)
instance k0_chk146.dec : ∀ (v2172 : BitVec 32), Decidable (k0_chk146 v2172) := fun v2172 => decidable_of_iff' _ (Iff.of_eq (k0_chk146.eq_1 v2172))
theorem k0_off427_inb : ∀ (v2172 : BitVec 32) (k0_hw146 : k0_chk146 v2172), ∀ a, (k0_off427 v2172) a + S1x8192.size a ≤ S8192x8192.size a := fun v2172 k0_hw146 => k0_hw146.1
theorem k0_off457_inb : ∀ (v2172 : BitVec 32) (k0_hw146 : k0_chk146 v2172), ∀ a, (k0_off457 v2172) a + S1x8192.size a ≤ S8192x8192.size a := fun v2172 k0_hw146 => k0_hw146.2

def k0_off458 (v2181 : BitVec 32) : Fin 2 → Nat :=
  let c0_i32_1227 : BitVec 32 := 0#32
  ![v2181.toNat, 0]

def k0_chk147 (v2181 : BitVec 32) : Prop :=
  (∀ a, (k0_off429 v2181) a + S1x8192.size a ≤ S8192x8192.size a) ∧
  (∀ a, (k0_off458 v2181) a + S1x8192.size a ≤ S8192x8192.size a)
instance k0_chk147.dec : ∀ (v2181 : BitVec 32), Decidable (k0_chk147 v2181) := fun v2181 => decidable_of_iff' _ (Iff.of_eq (k0_chk147.eq_1 v2181))
theorem k0_off429_inb : ∀ (v2181 : BitVec 32) (k0_hw147 : k0_chk147 v2181), ∀ a, (k0_off429 v2181) a + S1x8192.size a ≤ S8192x8192.size a := fun v2181 k0_hw147 => k0_hw147.1
theorem k0_off458_inb : ∀ (v2181 : BitVec 32) (k0_hw147 : k0_chk147 v2181), ∀ a, (k0_off458 v2181) a + S1x8192.size a ≤ S8192x8192.size a := fun v2181 k0_hw147 => k0_hw147.2

def k0_off459 (v2190 : BitVec 32) : Fin 2 → Nat :=
  let c0_i32_1231 : BitVec 32 := 0#32
  ![v2190.toNat, 0]

def k0_chk148 (v2190 : BitVec 32) : Prop :=
  (∀ a, (k0_off431 v2190) a + S1x8192.size a ≤ S8192x8192.size a) ∧
  (∀ a, (k0_off459 v2190) a + S1x8192.size a ≤ S8192x8192.size a)
instance k0_chk148.dec : ∀ (v2190 : BitVec 32), Decidable (k0_chk148 v2190) := fun v2190 => decidable_of_iff' _ (Iff.of_eq (k0_chk148.eq_1 v2190))
theorem k0_off431_inb : ∀ (v2190 : BitVec 32) (k0_hw148 : k0_chk148 v2190), ∀ a, (k0_off431 v2190) a + S1x8192.size a ≤ S8192x8192.size a := fun v2190 k0_hw148 => k0_hw148.1
theorem k0_off459_inb : ∀ (v2190 : BitVec 32) (k0_hw148 : k0_chk148 v2190), ∀ a, (k0_off459 v2190) a + S1x8192.size a ≤ S8192x8192.size a := fun v2190 k0_hw148 => k0_hw148.2

def k0_off460 (v2199 : BitVec 32) : Fin 2 → Nat :=
  let c0_i32_1235 : BitVec 32 := 0#32
  ![v2199.toNat, 0]

def k0_chk149 (v2199 : BitVec 32) : Prop :=
  (∀ a, (k0_off433 v2199) a + S1x8192.size a ≤ S8192x8192.size a) ∧
  (∀ a, (k0_off460 v2199) a + S1x8192.size a ≤ S8192x8192.size a)
instance k0_chk149.dec : ∀ (v2199 : BitVec 32), Decidable (k0_chk149 v2199) := fun v2199 => decidable_of_iff' _ (Iff.of_eq (k0_chk149.eq_1 v2199))
theorem k0_off433_inb : ∀ (v2199 : BitVec 32) (k0_hw149 : k0_chk149 v2199), ∀ a, (k0_off433 v2199) a + S1x8192.size a ≤ S8192x8192.size a := fun v2199 k0_hw149 => k0_hw149.1
theorem k0_off460_inb : ∀ (v2199 : BitVec 32) (k0_hw149 : k0_chk149 v2199), ∀ a, (k0_off460 v2199) a + S1x8192.size a ≤ S8192x8192.size a := fun v2199 k0_hw149 => k0_hw149.2

def k0_off461 (v2208 : BitVec 32) : Fin 2 → Nat :=
  let c0_i32_1239 : BitVec 32 := 0#32
  ![v2208.toNat, 0]

def k0_chk150 (v2208 : BitVec 32) : Prop :=
  (∀ a, (k0_off435 v2208) a + S1x8192.size a ≤ S8192x8192.size a) ∧
  (∀ a, (k0_off461 v2208) a + S1x8192.size a ≤ S8192x8192.size a)
instance k0_chk150.dec : ∀ (v2208 : BitVec 32), Decidable (k0_chk150 v2208) := fun v2208 => decidable_of_iff' _ (Iff.of_eq (k0_chk150.eq_1 v2208))
theorem k0_off435_inb : ∀ (v2208 : BitVec 32) (k0_hw150 : k0_chk150 v2208), ∀ a, (k0_off435 v2208) a + S1x8192.size a ≤ S8192x8192.size a := fun v2208 k0_hw150 => k0_hw150.1
theorem k0_off461_inb : ∀ (v2208 : BitVec 32) (k0_hw150 : k0_chk150 v2208), ∀ a, (k0_off461 v2208) a + S1x8192.size a ≤ S8192x8192.size a := fun v2208 k0_hw150 => k0_hw150.2

def k0_off462 (v2217 : BitVec 32) : Fin 2 → Nat :=
  let c0_i32_1243 : BitVec 32 := 0#32
  ![v2217.toNat, 0]

def k0_chk151 (v2217 : BitVec 32) : Prop :=
  (∀ a, (k0_off437 v2217) a + S1x8192.size a ≤ S8192x8192.size a) ∧
  (∀ a, (k0_off462 v2217) a + S1x8192.size a ≤ S8192x8192.size a)
instance k0_chk151.dec : ∀ (v2217 : BitVec 32), Decidable (k0_chk151 v2217) := fun v2217 => decidable_of_iff' _ (Iff.of_eq (k0_chk151.eq_1 v2217))
theorem k0_off437_inb : ∀ (v2217 : BitVec 32) (k0_hw151 : k0_chk151 v2217), ∀ a, (k0_off437 v2217) a + S1x8192.size a ≤ S8192x8192.size a := fun v2217 k0_hw151 => k0_hw151.1
theorem k0_off462_inb : ∀ (v2217 : BitVec 32) (k0_hw151 : k0_chk151 v2217), ∀ a, (k0_off462 v2217) a + S1x8192.size a ≤ S8192x8192.size a := fun v2217 k0_hw151 => k0_hw151.2

def k0_off463 (v2226 : BitVec 32) : Fin 2 → Nat :=
  let c0_i32_1247 : BitVec 32 := 0#32
  ![v2226.toNat, 0]

def k0_chk152 (v2226 : BitVec 32) : Prop :=
  (∀ a, (k0_off439 v2226) a + S1x8192.size a ≤ S8192x8192.size a) ∧
  (∀ a, (k0_off463 v2226) a + S1x8192.size a ≤ S8192x8192.size a)
instance k0_chk152.dec : ∀ (v2226 : BitVec 32), Decidable (k0_chk152 v2226) := fun v2226 => decidable_of_iff' _ (Iff.of_eq (k0_chk152.eq_1 v2226))
theorem k0_off439_inb : ∀ (v2226 : BitVec 32) (k0_hw152 : k0_chk152 v2226), ∀ a, (k0_off439 v2226) a + S1x8192.size a ≤ S8192x8192.size a := fun v2226 k0_hw152 => k0_hw152.1
theorem k0_off463_inb : ∀ (v2226 : BitVec 32) (k0_hw152 : k0_chk152 v2226), ∀ a, (k0_off463 v2226) a + S1x8192.size a ≤ S8192x8192.size a := fun v2226 k0_hw152 => k0_hw152.2

def k0_off464 (v2235 : BitVec 32) : Fin 2 → Nat :=
  let c0_i32_1251 : BitVec 32 := 0#32
  ![v2235.toNat, 0]

def k0_chk153 (v2235 : BitVec 32) : Prop :=
  (∀ a, (k0_off441 v2235) a + S1x8192.size a ≤ S8192x8192.size a) ∧
  (∀ a, (k0_off464 v2235) a + S1x8192.size a ≤ S8192x8192.size a)
instance k0_chk153.dec : ∀ (v2235 : BitVec 32), Decidable (k0_chk153 v2235) := fun v2235 => decidable_of_iff' _ (Iff.of_eq (k0_chk153.eq_1 v2235))
theorem k0_off441_inb : ∀ (v2235 : BitVec 32) (k0_hw153 : k0_chk153 v2235), ∀ a, (k0_off441 v2235) a + S1x8192.size a ≤ S8192x8192.size a := fun v2235 k0_hw153 => k0_hw153.1
theorem k0_off464_inb : ∀ (v2235 : BitVec 32) (k0_hw153 : k0_chk153 v2235), ∀ a, (k0_off464 v2235) a + S1x8192.size a ≤ S8192x8192.size a := fun v2235 k0_hw153 => k0_hw153.2

def k0_off465 (v2244 : BitVec 32) : Fin 2 → Nat :=
  let c0_i32_1255 : BitVec 32 := 0#32
  ![v2244.toNat, 0]

def k0_chk154 (v2244 : BitVec 32) : Prop :=
  (∀ a, (k0_off443 v2244) a + S1x8192.size a ≤ S8192x8192.size a) ∧
  (∀ a, (k0_off465 v2244) a + S1x8192.size a ≤ S8192x8192.size a)
instance k0_chk154.dec : ∀ (v2244 : BitVec 32), Decidable (k0_chk154 v2244) := fun v2244 => decidable_of_iff' _ (Iff.of_eq (k0_chk154.eq_1 v2244))
theorem k0_off443_inb : ∀ (v2244 : BitVec 32) (k0_hw154 : k0_chk154 v2244), ∀ a, (k0_off443 v2244) a + S1x8192.size a ≤ S8192x8192.size a := fun v2244 k0_hw154 => k0_hw154.1
theorem k0_off465_inb : ∀ (v2244 : BitVec 32) (k0_hw154 : k0_chk154 v2244), ∀ a, (k0_off465 v2244) a + S1x8192.size a ≤ S8192x8192.size a := fun v2244 k0_hw154 => k0_hw154.2

def k0_off466 (v2253 : BitVec 32) : Fin 2 → Nat :=
  let c0_i32_1259 : BitVec 32 := 0#32
  ![v2253.toNat, 0]

def k0_chk155 (v2253 : BitVec 32) : Prop :=
  (∀ a, (k0_off445 v2253) a + S1x8192.size a ≤ S8192x8192.size a) ∧
  (∀ a, (k0_off466 v2253) a + S1x8192.size a ≤ S8192x8192.size a)
instance k0_chk155.dec : ∀ (v2253 : BitVec 32), Decidable (k0_chk155 v2253) := fun v2253 => decidable_of_iff' _ (Iff.of_eq (k0_chk155.eq_1 v2253))
theorem k0_off445_inb : ∀ (v2253 : BitVec 32) (k0_hw155 : k0_chk155 v2253), ∀ a, (k0_off445 v2253) a + S1x8192.size a ≤ S8192x8192.size a := fun v2253 k0_hw155 => k0_hw155.1
theorem k0_off466_inb : ∀ (v2253 : BitVec 32) (k0_hw155 : k0_chk155 v2253), ∀ a, (k0_off466 v2253) a + S1x8192.size a ≤ S8192x8192.size a := fun v2253 k0_hw155 => k0_hw155.2

def k0_off467 (v2262 : BitVec 32) : Fin 2 → Nat :=
  let c0_i32_1263 : BitVec 32 := 0#32
  ![v2262.toNat, 0]

def k0_chk156 (v2262 : BitVec 32) : Prop :=
  (∀ a, (k0_off447 v2262) a + S1x8192.size a ≤ S8192x8192.size a) ∧
  (∀ a, (k0_off467 v2262) a + S1x8192.size a ≤ S8192x8192.size a)
instance k0_chk156.dec : ∀ (v2262 : BitVec 32), Decidable (k0_chk156 v2262) := fun v2262 => decidable_of_iff' _ (Iff.of_eq (k0_chk156.eq_1 v2262))
theorem k0_off447_inb : ∀ (v2262 : BitVec 32) (k0_hw156 : k0_chk156 v2262), ∀ a, (k0_off447 v2262) a + S1x8192.size a ≤ S8192x8192.size a := fun v2262 k0_hw156 => k0_hw156.1
theorem k0_off467_inb : ∀ (v2262 : BitVec 32) (k0_hw156 : k0_chk156 v2262), ∀ a, (k0_off467 v2262) a + S1x8192.size a ≤ S8192x8192.size a := fun v2262 k0_hw156 => k0_hw156.2

def k0_off468 (v2271 : BitVec 32) : Fin 2 → Nat :=
  let c0_i32_1267 : BitVec 32 := 0#32
  ![v2271.toNat, 0]

def k0_chk157 (v2271 : BitVec 32) : Prop :=
  (∀ a, (k0_off449 v2271) a + S1x8192.size a ≤ S8192x8192.size a) ∧
  (∀ a, (k0_off468 v2271) a + S1x8192.size a ≤ S8192x8192.size a)
instance k0_chk157.dec : ∀ (v2271 : BitVec 32), Decidable (k0_chk157 v2271) := fun v2271 => decidable_of_iff' _ (Iff.of_eq (k0_chk157.eq_1 v2271))
theorem k0_off449_inb : ∀ (v2271 : BitVec 32) (k0_hw157 : k0_chk157 v2271), ∀ a, (k0_off449 v2271) a + S1x8192.size a ≤ S8192x8192.size a := fun v2271 k0_hw157 => k0_hw157.1
theorem k0_off468_inb : ∀ (v2271 : BitVec 32) (k0_hw157 : k0_chk157 v2271), ∀ a, (k0_off468 v2271) a + S1x8192.size a ≤ S8192x8192.size a := fun v2271 k0_hw157 => k0_hw157.2

def k0_off469 (v2280 : BitVec 32) : Fin 2 → Nat :=
  let c0_i32_1271 : BitVec 32 := 0#32
  ![v2280.toNat, 0]

def k0_chk158 (v2280 : BitVec 32) : Prop :=
  (∀ a, (k0_off451 v2280) a + S1x8192.size a ≤ S8192x8192.size a) ∧
  (∀ a, (k0_off469 v2280) a + S1x8192.size a ≤ S8192x8192.size a)
instance k0_chk158.dec : ∀ (v2280 : BitVec 32), Decidable (k0_chk158 v2280) := fun v2280 => decidable_of_iff' _ (Iff.of_eq (k0_chk158.eq_1 v2280))
theorem k0_off451_inb : ∀ (v2280 : BitVec 32) (k0_hw158 : k0_chk158 v2280), ∀ a, (k0_off451 v2280) a + S1x8192.size a ≤ S8192x8192.size a := fun v2280 k0_hw158 => k0_hw158.1
theorem k0_off469_inb : ∀ (v2280 : BitVec 32) (k0_hw158 : k0_chk158 v2280), ∀ a, (k0_off469 v2280) a + S1x8192.size a ≤ S8192x8192.size a := fun v2280 k0_hw158 => k0_hw158.2

def k0_off470 (v2289 : BitVec 32) : Fin 2 → Nat :=
  let c0_i32_1275 : BitVec 32 := 0#32
  ![v2289.toNat, 0]

def k0_chk159 (v2289 : BitVec 32) : Prop :=
  (∀ a, (k0_off453 v2289) a + S1x8192.size a ≤ S8192x8192.size a) ∧
  (∀ a, (k0_off470 v2289) a + S1x8192.size a ≤ S8192x8192.size a)
instance k0_chk159.dec : ∀ (v2289 : BitVec 32), Decidable (k0_chk159 v2289) := fun v2289 => decidable_of_iff' _ (Iff.of_eq (k0_chk159.eq_1 v2289))
theorem k0_off453_inb : ∀ (v2289 : BitVec 32) (k0_hw159 : k0_chk159 v2289), ∀ a, (k0_off453 v2289) a + S1x8192.size a ≤ S8192x8192.size a := fun v2289 k0_hw159 => k0_hw159.1
theorem k0_off470_inb : ∀ (v2289 : BitVec 32) (k0_hw159 : k0_chk159 v2289), ∀ a, (k0_off470 v2289) a + S1x8192.size a ≤ S8192x8192.size a := fun v2289 k0_hw159 => k0_hw159.2

def k0_off471 (i : grid0.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v2401 : BitVec 32 := Scalar.addi v0 c160_i32
  let v2402 : Index := Scalar.indexCast v2401
  ![v2402.toNat]
def k0_off472 (v2403 : BitVec 32) : Fin 2 → Nat :=
  let c0_i32_1283 : BitVec 32 := 0#32
  ![v2403.toNat, 0]

def k0_off473 (i : grid0.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v2410 : BitVec 32 := Scalar.addi v0 c161_i32
  let v2411 : Index := Scalar.indexCast v2410
  ![v2411.toNat]
def k0_off474 (v2412 : BitVec 32) : Fin 2 → Nat :=
  let c0_i32_1287 : BitVec 32 := 0#32
  ![v2412.toNat, 0]

def k0_off475 (i : grid0.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v2419 : BitVec 32 := Scalar.addi v0 c162_i32
  let v2420 : Index := Scalar.indexCast v2419
  ![v2420.toNat]
def k0_off476 (v2421 : BitVec 32) : Fin 2 → Nat :=
  let c0_i32_1291 : BitVec 32 := 0#32
  ![v2421.toNat, 0]

def k0_off477 (i : grid0.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v2428 : BitVec 32 := Scalar.addi v0 c163_i32
  let v2429 : Index := Scalar.indexCast v2428
  ![v2429.toNat]
def k0_off478 (v2430 : BitVec 32) : Fin 2 → Nat :=
  let c0_i32_1295 : BitVec 32 := 0#32
  ![v2430.toNat, 0]

def k0_off479 (i : grid0.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v2437 : BitVec 32 := Scalar.addi v0 c164_i32
  let v2438 : Index := Scalar.indexCast v2437
  ![v2438.toNat]
def k0_off480 (v2439 : BitVec 32) : Fin 2 → Nat :=
  let c0_i32_1299 : BitVec 32 := 0#32
  ![v2439.toNat, 0]

def k0_off481 (i : grid0.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v2446 : BitVec 32 := Scalar.addi v0 c165_i32
  let v2447 : Index := Scalar.indexCast v2446
  ![v2447.toNat]
def k0_off482 (v2448 : BitVec 32) : Fin 2 → Nat :=
  let c0_i32_1303 : BitVec 32 := 0#32
  ![v2448.toNat, 0]

def k0_off483 (i : grid0.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v2455 : BitVec 32 := Scalar.addi v0 c166_i32
  let v2456 : Index := Scalar.indexCast v2455
  ![v2456.toNat]
def k0_off484 (v2457 : BitVec 32) : Fin 2 → Nat :=
  let c0_i32_1307 : BitVec 32 := 0#32
  ![v2457.toNat, 0]

def k0_off485 (i : grid0.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v2464 : BitVec 32 := Scalar.addi v0 c167_i32
  let v2465 : Index := Scalar.indexCast v2464
  ![v2465.toNat]
def k0_off486 (v2466 : BitVec 32) : Fin 2 → Nat :=
  let c0_i32_1311 : BitVec 32 := 0#32
  ![v2466.toNat, 0]

def k0_off487 (i : grid0.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v2473 : BitVec 32 := Scalar.addi v0 c168_i32
  let v2474 : Index := Scalar.indexCast v2473
  ![v2474.toNat]
def k0_off488 (v2475 : BitVec 32) : Fin 2 → Nat :=
  let c0_i32_1315 : BitVec 32 := 0#32
  ![v2475.toNat, 0]

def k0_off489 (i : grid0.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v2482 : BitVec 32 := Scalar.addi v0 c169_i32
  let v2483 : Index := Scalar.indexCast v2482
  ![v2483.toNat]
def k0_off490 (v2484 : BitVec 32) : Fin 2 → Nat :=
  let c0_i32_1319 : BitVec 32 := 0#32
  ![v2484.toNat, 0]

def k0_off491 (i : grid0.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v2491 : BitVec 32 := Scalar.addi v0 c170_i32
  let v2492 : Index := Scalar.indexCast v2491
  ![v2492.toNat]
def k0_off492 (v2493 : BitVec 32) : Fin 2 → Nat :=
  let c0_i32_1323 : BitVec 32 := 0#32
  ![v2493.toNat, 0]

def k0_off493 (i : grid0.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v2500 : BitVec 32 := Scalar.addi v0 c171_i32
  let v2501 : Index := Scalar.indexCast v2500
  ![v2501.toNat]
def k0_off494 (v2502 : BitVec 32) : Fin 2 → Nat :=
  let c0_i32_1327 : BitVec 32 := 0#32
  ![v2502.toNat, 0]

def k0_off495 (i : grid0.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v2509 : BitVec 32 := Scalar.addi v0 c172_i32
  let v2510 : Index := Scalar.indexCast v2509
  ![v2510.toNat]
def k0_off496 (v2511 : BitVec 32) : Fin 2 → Nat :=
  let c0_i32_1331 : BitVec 32 := 0#32
  ![v2511.toNat, 0]

def k0_off497 (i : grid0.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v2518 : BitVec 32 := Scalar.addi v0 c173_i32
  let v2519 : Index := Scalar.indexCast v2518
  ![v2519.toNat]
def k0_off498 (v2520 : BitVec 32) : Fin 2 → Nat :=
  let c0_i32_1335 : BitVec 32 := 0#32
  ![v2520.toNat, 0]

def k0_off499 (i : grid0.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v2527 : BitVec 32 := Scalar.addi v0 c174_i32
  let v2528 : Index := Scalar.indexCast v2527
  ![v2528.toNat]
def k0_off500 (v2529 : BitVec 32) : Fin 2 → Nat :=
  let c0_i32_1339 : BitVec 32 := 0#32
  ![v2529.toNat, 0]

def k0_off501 (i : grid0.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v2536 : BitVec 32 := Scalar.addi v0 c175_i32
  let v2537 : Index := Scalar.indexCast v2536
  ![v2537.toNat]
def k0_off502 (v2538 : BitVec 32) : Fin 2 → Nat :=
  let c0_i32_1343 : BitVec 32 := 0#32
  ![v2538.toNat, 0]

def k0_chk176 (v2538 : BitVec 32) : Prop :=
  (∀ a, (k0_off502 v2538) a + S1x8192.size a ≤ S8192x8192.size a)
instance k0_chk176.dec : ∀ (v2538 : BitVec 32), Decidable (k0_chk176 v2538) := fun v2538 => decidable_of_iff' _ (Iff.of_eq (k0_chk176.eq_1 v2538))
theorem k0_off502_inb : ∀ (v2538 : BitVec 32) (k0_hw176 : k0_chk176 v2538), ∀ a, (k0_off502 v2538) a + S1x8192.size a ≤ S8192x8192.size a := fun v2538 k0_hw176 => k0_hw176

def k0_off503 (v2403 : BitVec 32) : Fin 2 → Nat :=
  let c0_i32_1347 : BitVec 32 := 0#32
  ![v2403.toNat, 0]

def k0_chk161 (v2403 : BitVec 32) : Prop :=
  (∀ a, (k0_off472 v2403) a + S1x8192.size a ≤ S8192x8192.size a) ∧
  (∀ a, (k0_off503 v2403) a + S1x8192.size a ≤ S8192x8192.size a)
instance k0_chk161.dec : ∀ (v2403 : BitVec 32), Decidable (k0_chk161 v2403) := fun v2403 => decidable_of_iff' _ (Iff.of_eq (k0_chk161.eq_1 v2403))
theorem k0_off472_inb : ∀ (v2403 : BitVec 32) (k0_hw161 : k0_chk161 v2403), ∀ a, (k0_off472 v2403) a + S1x8192.size a ≤ S8192x8192.size a := fun v2403 k0_hw161 => k0_hw161.1
theorem k0_off503_inb : ∀ (v2403 : BitVec 32) (k0_hw161 : k0_chk161 v2403), ∀ a, (k0_off503 v2403) a + S1x8192.size a ≤ S8192x8192.size a := fun v2403 k0_hw161 => k0_hw161.2

def k0_off504 (v2412 : BitVec 32) : Fin 2 → Nat :=
  let c0_i32_1351 : BitVec 32 := 0#32
  ![v2412.toNat, 0]

def k0_chk162 (v2412 : BitVec 32) : Prop :=
  (∀ a, (k0_off474 v2412) a + S1x8192.size a ≤ S8192x8192.size a) ∧
  (∀ a, (k0_off504 v2412) a + S1x8192.size a ≤ S8192x8192.size a)
instance k0_chk162.dec : ∀ (v2412 : BitVec 32), Decidable (k0_chk162 v2412) := fun v2412 => decidable_of_iff' _ (Iff.of_eq (k0_chk162.eq_1 v2412))
theorem k0_off474_inb : ∀ (v2412 : BitVec 32) (k0_hw162 : k0_chk162 v2412), ∀ a, (k0_off474 v2412) a + S1x8192.size a ≤ S8192x8192.size a := fun v2412 k0_hw162 => k0_hw162.1
theorem k0_off504_inb : ∀ (v2412 : BitVec 32) (k0_hw162 : k0_chk162 v2412), ∀ a, (k0_off504 v2412) a + S1x8192.size a ≤ S8192x8192.size a := fun v2412 k0_hw162 => k0_hw162.2

def k0_off505 (v2421 : BitVec 32) : Fin 2 → Nat :=
  let c0_i32_1355 : BitVec 32 := 0#32
  ![v2421.toNat, 0]

def k0_chk163 (v2421 : BitVec 32) : Prop :=
  (∀ a, (k0_off476 v2421) a + S1x8192.size a ≤ S8192x8192.size a) ∧
  (∀ a, (k0_off505 v2421) a + S1x8192.size a ≤ S8192x8192.size a)
instance k0_chk163.dec : ∀ (v2421 : BitVec 32), Decidable (k0_chk163 v2421) := fun v2421 => decidable_of_iff' _ (Iff.of_eq (k0_chk163.eq_1 v2421))
theorem k0_off476_inb : ∀ (v2421 : BitVec 32) (k0_hw163 : k0_chk163 v2421), ∀ a, (k0_off476 v2421) a + S1x8192.size a ≤ S8192x8192.size a := fun v2421 k0_hw163 => k0_hw163.1
theorem k0_off505_inb : ∀ (v2421 : BitVec 32) (k0_hw163 : k0_chk163 v2421), ∀ a, (k0_off505 v2421) a + S1x8192.size a ≤ S8192x8192.size a := fun v2421 k0_hw163 => k0_hw163.2

def k0_off506 (v2430 : BitVec 32) : Fin 2 → Nat :=
  let c0_i32_1359 : BitVec 32 := 0#32
  ![v2430.toNat, 0]

def k0_chk164 (v2430 : BitVec 32) : Prop :=
  (∀ a, (k0_off478 v2430) a + S1x8192.size a ≤ S8192x8192.size a) ∧
  (∀ a, (k0_off506 v2430) a + S1x8192.size a ≤ S8192x8192.size a)
instance k0_chk164.dec : ∀ (v2430 : BitVec 32), Decidable (k0_chk164 v2430) := fun v2430 => decidable_of_iff' _ (Iff.of_eq (k0_chk164.eq_1 v2430))
theorem k0_off478_inb : ∀ (v2430 : BitVec 32) (k0_hw164 : k0_chk164 v2430), ∀ a, (k0_off478 v2430) a + S1x8192.size a ≤ S8192x8192.size a := fun v2430 k0_hw164 => k0_hw164.1
theorem k0_off506_inb : ∀ (v2430 : BitVec 32) (k0_hw164 : k0_chk164 v2430), ∀ a, (k0_off506 v2430) a + S1x8192.size a ≤ S8192x8192.size a := fun v2430 k0_hw164 => k0_hw164.2

def k0_off507 (v2439 : BitVec 32) : Fin 2 → Nat :=
  let c0_i32_1363 : BitVec 32 := 0#32
  ![v2439.toNat, 0]

def k0_chk165 (v2439 : BitVec 32) : Prop :=
  (∀ a, (k0_off480 v2439) a + S1x8192.size a ≤ S8192x8192.size a) ∧
  (∀ a, (k0_off507 v2439) a + S1x8192.size a ≤ S8192x8192.size a)
instance k0_chk165.dec : ∀ (v2439 : BitVec 32), Decidable (k0_chk165 v2439) := fun v2439 => decidable_of_iff' _ (Iff.of_eq (k0_chk165.eq_1 v2439))
theorem k0_off480_inb : ∀ (v2439 : BitVec 32) (k0_hw165 : k0_chk165 v2439), ∀ a, (k0_off480 v2439) a + S1x8192.size a ≤ S8192x8192.size a := fun v2439 k0_hw165 => k0_hw165.1
theorem k0_off507_inb : ∀ (v2439 : BitVec 32) (k0_hw165 : k0_chk165 v2439), ∀ a, (k0_off507 v2439) a + S1x8192.size a ≤ S8192x8192.size a := fun v2439 k0_hw165 => k0_hw165.2

def k0_off508 (v2448 : BitVec 32) : Fin 2 → Nat :=
  let c0_i32_1367 : BitVec 32 := 0#32
  ![v2448.toNat, 0]

def k0_chk166 (v2448 : BitVec 32) : Prop :=
  (∀ a, (k0_off482 v2448) a + S1x8192.size a ≤ S8192x8192.size a) ∧
  (∀ a, (k0_off508 v2448) a + S1x8192.size a ≤ S8192x8192.size a)
instance k0_chk166.dec : ∀ (v2448 : BitVec 32), Decidable (k0_chk166 v2448) := fun v2448 => decidable_of_iff' _ (Iff.of_eq (k0_chk166.eq_1 v2448))
theorem k0_off482_inb : ∀ (v2448 : BitVec 32) (k0_hw166 : k0_chk166 v2448), ∀ a, (k0_off482 v2448) a + S1x8192.size a ≤ S8192x8192.size a := fun v2448 k0_hw166 => k0_hw166.1
theorem k0_off508_inb : ∀ (v2448 : BitVec 32) (k0_hw166 : k0_chk166 v2448), ∀ a, (k0_off508 v2448) a + S1x8192.size a ≤ S8192x8192.size a := fun v2448 k0_hw166 => k0_hw166.2

def k0_off509 (v2457 : BitVec 32) : Fin 2 → Nat :=
  let c0_i32_1371 : BitVec 32 := 0#32
  ![v2457.toNat, 0]

def k0_chk167 (v2457 : BitVec 32) : Prop :=
  (∀ a, (k0_off484 v2457) a + S1x8192.size a ≤ S8192x8192.size a) ∧
  (∀ a, (k0_off509 v2457) a + S1x8192.size a ≤ S8192x8192.size a)
instance k0_chk167.dec : ∀ (v2457 : BitVec 32), Decidable (k0_chk167 v2457) := fun v2457 => decidable_of_iff' _ (Iff.of_eq (k0_chk167.eq_1 v2457))
theorem k0_off484_inb : ∀ (v2457 : BitVec 32) (k0_hw167 : k0_chk167 v2457), ∀ a, (k0_off484 v2457) a + S1x8192.size a ≤ S8192x8192.size a := fun v2457 k0_hw167 => k0_hw167.1
theorem k0_off509_inb : ∀ (v2457 : BitVec 32) (k0_hw167 : k0_chk167 v2457), ∀ a, (k0_off509 v2457) a + S1x8192.size a ≤ S8192x8192.size a := fun v2457 k0_hw167 => k0_hw167.2

def k0_off510 (v2466 : BitVec 32) : Fin 2 → Nat :=
  let c0_i32_1375 : BitVec 32 := 0#32
  ![v2466.toNat, 0]

def k0_chk168 (v2466 : BitVec 32) : Prop :=
  (∀ a, (k0_off486 v2466) a + S1x8192.size a ≤ S8192x8192.size a) ∧
  (∀ a, (k0_off510 v2466) a + S1x8192.size a ≤ S8192x8192.size a)
instance k0_chk168.dec : ∀ (v2466 : BitVec 32), Decidable (k0_chk168 v2466) := fun v2466 => decidable_of_iff' _ (Iff.of_eq (k0_chk168.eq_1 v2466))
theorem k0_off486_inb : ∀ (v2466 : BitVec 32) (k0_hw168 : k0_chk168 v2466), ∀ a, (k0_off486 v2466) a + S1x8192.size a ≤ S8192x8192.size a := fun v2466 k0_hw168 => k0_hw168.1
theorem k0_off510_inb : ∀ (v2466 : BitVec 32) (k0_hw168 : k0_chk168 v2466), ∀ a, (k0_off510 v2466) a + S1x8192.size a ≤ S8192x8192.size a := fun v2466 k0_hw168 => k0_hw168.2

def k0_off511 (v2475 : BitVec 32) : Fin 2 → Nat :=
  let c0_i32_1379 : BitVec 32 := 0#32
  ![v2475.toNat, 0]

def k0_chk169 (v2475 : BitVec 32) : Prop :=
  (∀ a, (k0_off488 v2475) a + S1x8192.size a ≤ S8192x8192.size a) ∧
  (∀ a, (k0_off511 v2475) a + S1x8192.size a ≤ S8192x8192.size a)
instance k0_chk169.dec : ∀ (v2475 : BitVec 32), Decidable (k0_chk169 v2475) := fun v2475 => decidable_of_iff' _ (Iff.of_eq (k0_chk169.eq_1 v2475))
theorem k0_off488_inb : ∀ (v2475 : BitVec 32) (k0_hw169 : k0_chk169 v2475), ∀ a, (k0_off488 v2475) a + S1x8192.size a ≤ S8192x8192.size a := fun v2475 k0_hw169 => k0_hw169.1
theorem k0_off511_inb : ∀ (v2475 : BitVec 32) (k0_hw169 : k0_chk169 v2475), ∀ a, (k0_off511 v2475) a + S1x8192.size a ≤ S8192x8192.size a := fun v2475 k0_hw169 => k0_hw169.2

def k0_off512 (v2484 : BitVec 32) : Fin 2 → Nat :=
  let c0_i32_1383 : BitVec 32 := 0#32
  ![v2484.toNat, 0]

def k0_chk170 (v2484 : BitVec 32) : Prop :=
  (∀ a, (k0_off490 v2484) a + S1x8192.size a ≤ S8192x8192.size a) ∧
  (∀ a, (k0_off512 v2484) a + S1x8192.size a ≤ S8192x8192.size a)
instance k0_chk170.dec : ∀ (v2484 : BitVec 32), Decidable (k0_chk170 v2484) := fun v2484 => decidable_of_iff' _ (Iff.of_eq (k0_chk170.eq_1 v2484))
theorem k0_off490_inb : ∀ (v2484 : BitVec 32) (k0_hw170 : k0_chk170 v2484), ∀ a, (k0_off490 v2484) a + S1x8192.size a ≤ S8192x8192.size a := fun v2484 k0_hw170 => k0_hw170.1
theorem k0_off512_inb : ∀ (v2484 : BitVec 32) (k0_hw170 : k0_chk170 v2484), ∀ a, (k0_off512 v2484) a + S1x8192.size a ≤ S8192x8192.size a := fun v2484 k0_hw170 => k0_hw170.2

def k0_off513 (v2493 : BitVec 32) : Fin 2 → Nat :=
  let c0_i32_1387 : BitVec 32 := 0#32
  ![v2493.toNat, 0]

def k0_chk171 (v2493 : BitVec 32) : Prop :=
  (∀ a, (k0_off492 v2493) a + S1x8192.size a ≤ S8192x8192.size a) ∧
  (∀ a, (k0_off513 v2493) a + S1x8192.size a ≤ S8192x8192.size a)
instance k0_chk171.dec : ∀ (v2493 : BitVec 32), Decidable (k0_chk171 v2493) := fun v2493 => decidable_of_iff' _ (Iff.of_eq (k0_chk171.eq_1 v2493))
theorem k0_off492_inb : ∀ (v2493 : BitVec 32) (k0_hw171 : k0_chk171 v2493), ∀ a, (k0_off492 v2493) a + S1x8192.size a ≤ S8192x8192.size a := fun v2493 k0_hw171 => k0_hw171.1
theorem k0_off513_inb : ∀ (v2493 : BitVec 32) (k0_hw171 : k0_chk171 v2493), ∀ a, (k0_off513 v2493) a + S1x8192.size a ≤ S8192x8192.size a := fun v2493 k0_hw171 => k0_hw171.2

def k0_off514 (v2502 : BitVec 32) : Fin 2 → Nat :=
  let c0_i32_1391 : BitVec 32 := 0#32
  ![v2502.toNat, 0]

def k0_chk172 (v2502 : BitVec 32) : Prop :=
  (∀ a, (k0_off494 v2502) a + S1x8192.size a ≤ S8192x8192.size a) ∧
  (∀ a, (k0_off514 v2502) a + S1x8192.size a ≤ S8192x8192.size a)
instance k0_chk172.dec : ∀ (v2502 : BitVec 32), Decidable (k0_chk172 v2502) := fun v2502 => decidable_of_iff' _ (Iff.of_eq (k0_chk172.eq_1 v2502))
theorem k0_off494_inb : ∀ (v2502 : BitVec 32) (k0_hw172 : k0_chk172 v2502), ∀ a, (k0_off494 v2502) a + S1x8192.size a ≤ S8192x8192.size a := fun v2502 k0_hw172 => k0_hw172.1
theorem k0_off514_inb : ∀ (v2502 : BitVec 32) (k0_hw172 : k0_chk172 v2502), ∀ a, (k0_off514 v2502) a + S1x8192.size a ≤ S8192x8192.size a := fun v2502 k0_hw172 => k0_hw172.2

def k0_off515 (v2511 : BitVec 32) : Fin 2 → Nat :=
  let c0_i32_1395 : BitVec 32 := 0#32
  ![v2511.toNat, 0]

def k0_chk173 (v2511 : BitVec 32) : Prop :=
  (∀ a, (k0_off496 v2511) a + S1x8192.size a ≤ S8192x8192.size a) ∧
  (∀ a, (k0_off515 v2511) a + S1x8192.size a ≤ S8192x8192.size a)
instance k0_chk173.dec : ∀ (v2511 : BitVec 32), Decidable (k0_chk173 v2511) := fun v2511 => decidable_of_iff' _ (Iff.of_eq (k0_chk173.eq_1 v2511))
theorem k0_off496_inb : ∀ (v2511 : BitVec 32) (k0_hw173 : k0_chk173 v2511), ∀ a, (k0_off496 v2511) a + S1x8192.size a ≤ S8192x8192.size a := fun v2511 k0_hw173 => k0_hw173.1
theorem k0_off515_inb : ∀ (v2511 : BitVec 32) (k0_hw173 : k0_chk173 v2511), ∀ a, (k0_off515 v2511) a + S1x8192.size a ≤ S8192x8192.size a := fun v2511 k0_hw173 => k0_hw173.2

def k0_off516 (v2520 : BitVec 32) : Fin 2 → Nat :=
  let c0_i32_1399 : BitVec 32 := 0#32
  ![v2520.toNat, 0]

def k0_chk174 (v2520 : BitVec 32) : Prop :=
  (∀ a, (k0_off498 v2520) a + S1x8192.size a ≤ S8192x8192.size a) ∧
  (∀ a, (k0_off516 v2520) a + S1x8192.size a ≤ S8192x8192.size a)
instance k0_chk174.dec : ∀ (v2520 : BitVec 32), Decidable (k0_chk174 v2520) := fun v2520 => decidable_of_iff' _ (Iff.of_eq (k0_chk174.eq_1 v2520))
theorem k0_off498_inb : ∀ (v2520 : BitVec 32) (k0_hw174 : k0_chk174 v2520), ∀ a, (k0_off498 v2520) a + S1x8192.size a ≤ S8192x8192.size a := fun v2520 k0_hw174 => k0_hw174.1
theorem k0_off516_inb : ∀ (v2520 : BitVec 32) (k0_hw174 : k0_chk174 v2520), ∀ a, (k0_off516 v2520) a + S1x8192.size a ≤ S8192x8192.size a := fun v2520 k0_hw174 => k0_hw174.2

def k0_off517 (v2529 : BitVec 32) : Fin 2 → Nat :=
  let c0_i32_1403 : BitVec 32 := 0#32
  ![v2529.toNat, 0]

def k0_chk175 (v2529 : BitVec 32) : Prop :=
  (∀ a, (k0_off500 v2529) a + S1x8192.size a ≤ S8192x8192.size a) ∧
  (∀ a, (k0_off517 v2529) a + S1x8192.size a ≤ S8192x8192.size a)
instance k0_chk175.dec : ∀ (v2529 : BitVec 32), Decidable (k0_chk175 v2529) := fun v2529 => decidable_of_iff' _ (Iff.of_eq (k0_chk175.eq_1 v2529))
theorem k0_off500_inb : ∀ (v2529 : BitVec 32) (k0_hw175 : k0_chk175 v2529), ∀ a, (k0_off500 v2529) a + S1x8192.size a ≤ S8192x8192.size a := fun v2529 k0_hw175 => k0_hw175.1
theorem k0_off517_inb : ∀ (v2529 : BitVec 32) (k0_hw175 : k0_chk175 v2529), ∀ a, (k0_off517 v2529) a + S1x8192.size a ≤ S8192x8192.size a := fun v2529 k0_hw175 => k0_hw175.2

def k0_off518 (i : grid0.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v2641 : BitVec 32 := Scalar.addi v0 c176_i32
  let v2642 : Index := Scalar.indexCast v2641
  ![v2642.toNat]
def k0_off519 (v2643 : BitVec 32) : Fin 2 → Nat :=
  let c0_i32_1411 : BitVec 32 := 0#32
  ![v2643.toNat, 0]

def k0_off520 (i : grid0.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v2650 : BitVec 32 := Scalar.addi v0 c177_i32
  let v2651 : Index := Scalar.indexCast v2650
  ![v2651.toNat]
def k0_off521 (v2652 : BitVec 32) : Fin 2 → Nat :=
  let c0_i32_1415 : BitVec 32 := 0#32
  ![v2652.toNat, 0]

def k0_off522 (i : grid0.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v2659 : BitVec 32 := Scalar.addi v0 c178_i32
  let v2660 : Index := Scalar.indexCast v2659
  ![v2660.toNat]
def k0_off523 (v2661 : BitVec 32) : Fin 2 → Nat :=
  let c0_i32_1419 : BitVec 32 := 0#32
  ![v2661.toNat, 0]

def k0_off524 (i : grid0.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v2668 : BitVec 32 := Scalar.addi v0 c179_i32
  let v2669 : Index := Scalar.indexCast v2668
  ![v2669.toNat]
def k0_off525 (v2670 : BitVec 32) : Fin 2 → Nat :=
  let c0_i32_1423 : BitVec 32 := 0#32
  ![v2670.toNat, 0]

def k0_off526 (i : grid0.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v2677 : BitVec 32 := Scalar.addi v0 c180_i32
  let v2678 : Index := Scalar.indexCast v2677
  ![v2678.toNat]
def k0_off527 (v2679 : BitVec 32) : Fin 2 → Nat :=
  let c0_i32_1427 : BitVec 32 := 0#32
  ![v2679.toNat, 0]

def k0_off528 (i : grid0.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v2686 : BitVec 32 := Scalar.addi v0 c181_i32
  let v2687 : Index := Scalar.indexCast v2686
  ![v2687.toNat]
def k0_off529 (v2688 : BitVec 32) : Fin 2 → Nat :=
  let c0_i32_1431 : BitVec 32 := 0#32
  ![v2688.toNat, 0]

def k0_off530 (i : grid0.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v2695 : BitVec 32 := Scalar.addi v0 c182_i32
  let v2696 : Index := Scalar.indexCast v2695
  ![v2696.toNat]
def k0_off531 (v2697 : BitVec 32) : Fin 2 → Nat :=
  let c0_i32_1435 : BitVec 32 := 0#32
  ![v2697.toNat, 0]

def k0_off532 (i : grid0.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v2704 : BitVec 32 := Scalar.addi v0 c183_i32
  let v2705 : Index := Scalar.indexCast v2704
  ![v2705.toNat]
def k0_off533 (v2706 : BitVec 32) : Fin 2 → Nat :=
  let c0_i32_1439 : BitVec 32 := 0#32
  ![v2706.toNat, 0]

def k0_off534 (i : grid0.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v2713 : BitVec 32 := Scalar.addi v0 c184_i32
  let v2714 : Index := Scalar.indexCast v2713
  ![v2714.toNat]
def k0_off535 (v2715 : BitVec 32) : Fin 2 → Nat :=
  let c0_i32_1443 : BitVec 32 := 0#32
  ![v2715.toNat, 0]

def k0_off536 (i : grid0.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v2722 : BitVec 32 := Scalar.addi v0 c185_i32
  let v2723 : Index := Scalar.indexCast v2722
  ![v2723.toNat]
def k0_off537 (v2724 : BitVec 32) : Fin 2 → Nat :=
  let c0_i32_1447 : BitVec 32 := 0#32
  ![v2724.toNat, 0]

def k0_off538 (i : grid0.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v2731 : BitVec 32 := Scalar.addi v0 c186_i32
  let v2732 : Index := Scalar.indexCast v2731
  ![v2732.toNat]
def k0_off539 (v2733 : BitVec 32) : Fin 2 → Nat :=
  let c0_i32_1451 : BitVec 32 := 0#32
  ![v2733.toNat, 0]

def k0_off540 (i : grid0.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v2740 : BitVec 32 := Scalar.addi v0 c187_i32
  let v2741 : Index := Scalar.indexCast v2740
  ![v2741.toNat]
def k0_off541 (v2742 : BitVec 32) : Fin 2 → Nat :=
  let c0_i32_1455 : BitVec 32 := 0#32
  ![v2742.toNat, 0]

def k0_off542 (i : grid0.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v2749 : BitVec 32 := Scalar.addi v0 c188_i32
  let v2750 : Index := Scalar.indexCast v2749
  ![v2750.toNat]
def k0_off543 (v2751 : BitVec 32) : Fin 2 → Nat :=
  let c0_i32_1459 : BitVec 32 := 0#32
  ![v2751.toNat, 0]

def k0_off544 (i : grid0.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v2758 : BitVec 32 := Scalar.addi v0 c189_i32
  let v2759 : Index := Scalar.indexCast v2758
  ![v2759.toNat]
def k0_off545 (v2760 : BitVec 32) : Fin 2 → Nat :=
  let c0_i32_1463 : BitVec 32 := 0#32
  ![v2760.toNat, 0]

def k0_off546 (i : grid0.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v2767 : BitVec 32 := Scalar.addi v0 c190_i32
  let v2768 : Index := Scalar.indexCast v2767
  ![v2768.toNat]
def k0_off547 (v2769 : BitVec 32) : Fin 2 → Nat :=
  let c0_i32_1467 : BitVec 32 := 0#32
  ![v2769.toNat, 0]

def k0_off548 (i : grid0.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v2776 : BitVec 32 := Scalar.addi v0 c191_i32
  let v2777 : Index := Scalar.indexCast v2776
  ![v2777.toNat]
def k0_off549 (v2778 : BitVec 32) : Fin 2 → Nat :=
  let c0_i32_1471 : BitVec 32 := 0#32
  ![v2778.toNat, 0]

def k0_chk192 (v2778 : BitVec 32) : Prop :=
  (∀ a, (k0_off549 v2778) a + S1x8192.size a ≤ S8192x8192.size a)
instance k0_chk192.dec : ∀ (v2778 : BitVec 32), Decidable (k0_chk192 v2778) := fun v2778 => decidable_of_iff' _ (Iff.of_eq (k0_chk192.eq_1 v2778))
theorem k0_off549_inb : ∀ (v2778 : BitVec 32) (k0_hw192 : k0_chk192 v2778), ∀ a, (k0_off549 v2778) a + S1x8192.size a ≤ S8192x8192.size a := fun v2778 k0_hw192 => k0_hw192

def k0_off550 (v2643 : BitVec 32) : Fin 2 → Nat :=
  let c0_i32_1475 : BitVec 32 := 0#32
  ![v2643.toNat, 0]

def k0_chk177 (v2643 : BitVec 32) : Prop :=
  (∀ a, (k0_off519 v2643) a + S1x8192.size a ≤ S8192x8192.size a) ∧
  (∀ a, (k0_off550 v2643) a + S1x8192.size a ≤ S8192x8192.size a)
instance k0_chk177.dec : ∀ (v2643 : BitVec 32), Decidable (k0_chk177 v2643) := fun v2643 => decidable_of_iff' _ (Iff.of_eq (k0_chk177.eq_1 v2643))
theorem k0_off519_inb : ∀ (v2643 : BitVec 32) (k0_hw177 : k0_chk177 v2643), ∀ a, (k0_off519 v2643) a + S1x8192.size a ≤ S8192x8192.size a := fun v2643 k0_hw177 => k0_hw177.1
theorem k0_off550_inb : ∀ (v2643 : BitVec 32) (k0_hw177 : k0_chk177 v2643), ∀ a, (k0_off550 v2643) a + S1x8192.size a ≤ S8192x8192.size a := fun v2643 k0_hw177 => k0_hw177.2

def k0_off551 (v2652 : BitVec 32) : Fin 2 → Nat :=
  let c0_i32_1479 : BitVec 32 := 0#32
  ![v2652.toNat, 0]

def k0_chk178 (v2652 : BitVec 32) : Prop :=
  (∀ a, (k0_off521 v2652) a + S1x8192.size a ≤ S8192x8192.size a) ∧
  (∀ a, (k0_off551 v2652) a + S1x8192.size a ≤ S8192x8192.size a)
instance k0_chk178.dec : ∀ (v2652 : BitVec 32), Decidable (k0_chk178 v2652) := fun v2652 => decidable_of_iff' _ (Iff.of_eq (k0_chk178.eq_1 v2652))
theorem k0_off521_inb : ∀ (v2652 : BitVec 32) (k0_hw178 : k0_chk178 v2652), ∀ a, (k0_off521 v2652) a + S1x8192.size a ≤ S8192x8192.size a := fun v2652 k0_hw178 => k0_hw178.1
theorem k0_off551_inb : ∀ (v2652 : BitVec 32) (k0_hw178 : k0_chk178 v2652), ∀ a, (k0_off551 v2652) a + S1x8192.size a ≤ S8192x8192.size a := fun v2652 k0_hw178 => k0_hw178.2

def k0_off552 (v2661 : BitVec 32) : Fin 2 → Nat :=
  let c0_i32_1483 : BitVec 32 := 0#32
  ![v2661.toNat, 0]

def k0_chk179 (v2661 : BitVec 32) : Prop :=
  (∀ a, (k0_off523 v2661) a + S1x8192.size a ≤ S8192x8192.size a) ∧
  (∀ a, (k0_off552 v2661) a + S1x8192.size a ≤ S8192x8192.size a)
instance k0_chk179.dec : ∀ (v2661 : BitVec 32), Decidable (k0_chk179 v2661) := fun v2661 => decidable_of_iff' _ (Iff.of_eq (k0_chk179.eq_1 v2661))
theorem k0_off523_inb : ∀ (v2661 : BitVec 32) (k0_hw179 : k0_chk179 v2661), ∀ a, (k0_off523 v2661) a + S1x8192.size a ≤ S8192x8192.size a := fun v2661 k0_hw179 => k0_hw179.1
theorem k0_off552_inb : ∀ (v2661 : BitVec 32) (k0_hw179 : k0_chk179 v2661), ∀ a, (k0_off552 v2661) a + S1x8192.size a ≤ S8192x8192.size a := fun v2661 k0_hw179 => k0_hw179.2

def k0_off553 (v2670 : BitVec 32) : Fin 2 → Nat :=
  let c0_i32_1487 : BitVec 32 := 0#32
  ![v2670.toNat, 0]

def k0_chk180 (v2670 : BitVec 32) : Prop :=
  (∀ a, (k0_off525 v2670) a + S1x8192.size a ≤ S8192x8192.size a) ∧
  (∀ a, (k0_off553 v2670) a + S1x8192.size a ≤ S8192x8192.size a)
instance k0_chk180.dec : ∀ (v2670 : BitVec 32), Decidable (k0_chk180 v2670) := fun v2670 => decidable_of_iff' _ (Iff.of_eq (k0_chk180.eq_1 v2670))
theorem k0_off525_inb : ∀ (v2670 : BitVec 32) (k0_hw180 : k0_chk180 v2670), ∀ a, (k0_off525 v2670) a + S1x8192.size a ≤ S8192x8192.size a := fun v2670 k0_hw180 => k0_hw180.1
theorem k0_off553_inb : ∀ (v2670 : BitVec 32) (k0_hw180 : k0_chk180 v2670), ∀ a, (k0_off553 v2670) a + S1x8192.size a ≤ S8192x8192.size a := fun v2670 k0_hw180 => k0_hw180.2

def k0_off554 (v2679 : BitVec 32) : Fin 2 → Nat :=
  let c0_i32_1491 : BitVec 32 := 0#32
  ![v2679.toNat, 0]

def k0_chk181 (v2679 : BitVec 32) : Prop :=
  (∀ a, (k0_off527 v2679) a + S1x8192.size a ≤ S8192x8192.size a) ∧
  (∀ a, (k0_off554 v2679) a + S1x8192.size a ≤ S8192x8192.size a)
instance k0_chk181.dec : ∀ (v2679 : BitVec 32), Decidable (k0_chk181 v2679) := fun v2679 => decidable_of_iff' _ (Iff.of_eq (k0_chk181.eq_1 v2679))
theorem k0_off527_inb : ∀ (v2679 : BitVec 32) (k0_hw181 : k0_chk181 v2679), ∀ a, (k0_off527 v2679) a + S1x8192.size a ≤ S8192x8192.size a := fun v2679 k0_hw181 => k0_hw181.1
theorem k0_off554_inb : ∀ (v2679 : BitVec 32) (k0_hw181 : k0_chk181 v2679), ∀ a, (k0_off554 v2679) a + S1x8192.size a ≤ S8192x8192.size a := fun v2679 k0_hw181 => k0_hw181.2

def k0_off555 (v2688 : BitVec 32) : Fin 2 → Nat :=
  let c0_i32_1495 : BitVec 32 := 0#32
  ![v2688.toNat, 0]

def k0_chk182 (v2688 : BitVec 32) : Prop :=
  (∀ a, (k0_off529 v2688) a + S1x8192.size a ≤ S8192x8192.size a) ∧
  (∀ a, (k0_off555 v2688) a + S1x8192.size a ≤ S8192x8192.size a)
instance k0_chk182.dec : ∀ (v2688 : BitVec 32), Decidable (k0_chk182 v2688) := fun v2688 => decidable_of_iff' _ (Iff.of_eq (k0_chk182.eq_1 v2688))
theorem k0_off529_inb : ∀ (v2688 : BitVec 32) (k0_hw182 : k0_chk182 v2688), ∀ a, (k0_off529 v2688) a + S1x8192.size a ≤ S8192x8192.size a := fun v2688 k0_hw182 => k0_hw182.1
theorem k0_off555_inb : ∀ (v2688 : BitVec 32) (k0_hw182 : k0_chk182 v2688), ∀ a, (k0_off555 v2688) a + S1x8192.size a ≤ S8192x8192.size a := fun v2688 k0_hw182 => k0_hw182.2

def k0_off556 (v2697 : BitVec 32) : Fin 2 → Nat :=
  let c0_i32_1499 : BitVec 32 := 0#32
  ![v2697.toNat, 0]

def k0_chk183 (v2697 : BitVec 32) : Prop :=
  (∀ a, (k0_off531 v2697) a + S1x8192.size a ≤ S8192x8192.size a) ∧
  (∀ a, (k0_off556 v2697) a + S1x8192.size a ≤ S8192x8192.size a)
instance k0_chk183.dec : ∀ (v2697 : BitVec 32), Decidable (k0_chk183 v2697) := fun v2697 => decidable_of_iff' _ (Iff.of_eq (k0_chk183.eq_1 v2697))
theorem k0_off531_inb : ∀ (v2697 : BitVec 32) (k0_hw183 : k0_chk183 v2697), ∀ a, (k0_off531 v2697) a + S1x8192.size a ≤ S8192x8192.size a := fun v2697 k0_hw183 => k0_hw183.1
theorem k0_off556_inb : ∀ (v2697 : BitVec 32) (k0_hw183 : k0_chk183 v2697), ∀ a, (k0_off556 v2697) a + S1x8192.size a ≤ S8192x8192.size a := fun v2697 k0_hw183 => k0_hw183.2

def k0_off557 (v2706 : BitVec 32) : Fin 2 → Nat :=
  let c0_i32_1503 : BitVec 32 := 0#32
  ![v2706.toNat, 0]

def k0_chk184 (v2706 : BitVec 32) : Prop :=
  (∀ a, (k0_off533 v2706) a + S1x8192.size a ≤ S8192x8192.size a) ∧
  (∀ a, (k0_off557 v2706) a + S1x8192.size a ≤ S8192x8192.size a)
instance k0_chk184.dec : ∀ (v2706 : BitVec 32), Decidable (k0_chk184 v2706) := fun v2706 => decidable_of_iff' _ (Iff.of_eq (k0_chk184.eq_1 v2706))
theorem k0_off533_inb : ∀ (v2706 : BitVec 32) (k0_hw184 : k0_chk184 v2706), ∀ a, (k0_off533 v2706) a + S1x8192.size a ≤ S8192x8192.size a := fun v2706 k0_hw184 => k0_hw184.1
theorem k0_off557_inb : ∀ (v2706 : BitVec 32) (k0_hw184 : k0_chk184 v2706), ∀ a, (k0_off557 v2706) a + S1x8192.size a ≤ S8192x8192.size a := fun v2706 k0_hw184 => k0_hw184.2

def k0_off558 (v2715 : BitVec 32) : Fin 2 → Nat :=
  let c0_i32_1507 : BitVec 32 := 0#32
  ![v2715.toNat, 0]

def k0_chk185 (v2715 : BitVec 32) : Prop :=
  (∀ a, (k0_off535 v2715) a + S1x8192.size a ≤ S8192x8192.size a) ∧
  (∀ a, (k0_off558 v2715) a + S1x8192.size a ≤ S8192x8192.size a)
instance k0_chk185.dec : ∀ (v2715 : BitVec 32), Decidable (k0_chk185 v2715) := fun v2715 => decidable_of_iff' _ (Iff.of_eq (k0_chk185.eq_1 v2715))
theorem k0_off535_inb : ∀ (v2715 : BitVec 32) (k0_hw185 : k0_chk185 v2715), ∀ a, (k0_off535 v2715) a + S1x8192.size a ≤ S8192x8192.size a := fun v2715 k0_hw185 => k0_hw185.1
theorem k0_off558_inb : ∀ (v2715 : BitVec 32) (k0_hw185 : k0_chk185 v2715), ∀ a, (k0_off558 v2715) a + S1x8192.size a ≤ S8192x8192.size a := fun v2715 k0_hw185 => k0_hw185.2

def k0_off559 (v2724 : BitVec 32) : Fin 2 → Nat :=
  let c0_i32_1511 : BitVec 32 := 0#32
  ![v2724.toNat, 0]

def k0_chk186 (v2724 : BitVec 32) : Prop :=
  (∀ a, (k0_off537 v2724) a + S1x8192.size a ≤ S8192x8192.size a) ∧
  (∀ a, (k0_off559 v2724) a + S1x8192.size a ≤ S8192x8192.size a)
instance k0_chk186.dec : ∀ (v2724 : BitVec 32), Decidable (k0_chk186 v2724) := fun v2724 => decidable_of_iff' _ (Iff.of_eq (k0_chk186.eq_1 v2724))
theorem k0_off537_inb : ∀ (v2724 : BitVec 32) (k0_hw186 : k0_chk186 v2724), ∀ a, (k0_off537 v2724) a + S1x8192.size a ≤ S8192x8192.size a := fun v2724 k0_hw186 => k0_hw186.1
theorem k0_off559_inb : ∀ (v2724 : BitVec 32) (k0_hw186 : k0_chk186 v2724), ∀ a, (k0_off559 v2724) a + S1x8192.size a ≤ S8192x8192.size a := fun v2724 k0_hw186 => k0_hw186.2

def k0_off560 (v2733 : BitVec 32) : Fin 2 → Nat :=
  let c0_i32_1515 : BitVec 32 := 0#32
  ![v2733.toNat, 0]

def k0_chk187 (v2733 : BitVec 32) : Prop :=
  (∀ a, (k0_off539 v2733) a + S1x8192.size a ≤ S8192x8192.size a) ∧
  (∀ a, (k0_off560 v2733) a + S1x8192.size a ≤ S8192x8192.size a)
instance k0_chk187.dec : ∀ (v2733 : BitVec 32), Decidable (k0_chk187 v2733) := fun v2733 => decidable_of_iff' _ (Iff.of_eq (k0_chk187.eq_1 v2733))
theorem k0_off539_inb : ∀ (v2733 : BitVec 32) (k0_hw187 : k0_chk187 v2733), ∀ a, (k0_off539 v2733) a + S1x8192.size a ≤ S8192x8192.size a := fun v2733 k0_hw187 => k0_hw187.1
theorem k0_off560_inb : ∀ (v2733 : BitVec 32) (k0_hw187 : k0_chk187 v2733), ∀ a, (k0_off560 v2733) a + S1x8192.size a ≤ S8192x8192.size a := fun v2733 k0_hw187 => k0_hw187.2

def k0_off561 (v2742 : BitVec 32) : Fin 2 → Nat :=
  let c0_i32_1519 : BitVec 32 := 0#32
  ![v2742.toNat, 0]

def k0_chk188 (v2742 : BitVec 32) : Prop :=
  (∀ a, (k0_off541 v2742) a + S1x8192.size a ≤ S8192x8192.size a) ∧
  (∀ a, (k0_off561 v2742) a + S1x8192.size a ≤ S8192x8192.size a)
instance k0_chk188.dec : ∀ (v2742 : BitVec 32), Decidable (k0_chk188 v2742) := fun v2742 => decidable_of_iff' _ (Iff.of_eq (k0_chk188.eq_1 v2742))
theorem k0_off541_inb : ∀ (v2742 : BitVec 32) (k0_hw188 : k0_chk188 v2742), ∀ a, (k0_off541 v2742) a + S1x8192.size a ≤ S8192x8192.size a := fun v2742 k0_hw188 => k0_hw188.1
theorem k0_off561_inb : ∀ (v2742 : BitVec 32) (k0_hw188 : k0_chk188 v2742), ∀ a, (k0_off561 v2742) a + S1x8192.size a ≤ S8192x8192.size a := fun v2742 k0_hw188 => k0_hw188.2

def k0_off562 (v2751 : BitVec 32) : Fin 2 → Nat :=
  let c0_i32_1523 : BitVec 32 := 0#32
  ![v2751.toNat, 0]

def k0_chk189 (v2751 : BitVec 32) : Prop :=
  (∀ a, (k0_off543 v2751) a + S1x8192.size a ≤ S8192x8192.size a) ∧
  (∀ a, (k0_off562 v2751) a + S1x8192.size a ≤ S8192x8192.size a)
instance k0_chk189.dec : ∀ (v2751 : BitVec 32), Decidable (k0_chk189 v2751) := fun v2751 => decidable_of_iff' _ (Iff.of_eq (k0_chk189.eq_1 v2751))
theorem k0_off543_inb : ∀ (v2751 : BitVec 32) (k0_hw189 : k0_chk189 v2751), ∀ a, (k0_off543 v2751) a + S1x8192.size a ≤ S8192x8192.size a := fun v2751 k0_hw189 => k0_hw189.1
theorem k0_off562_inb : ∀ (v2751 : BitVec 32) (k0_hw189 : k0_chk189 v2751), ∀ a, (k0_off562 v2751) a + S1x8192.size a ≤ S8192x8192.size a := fun v2751 k0_hw189 => k0_hw189.2

def k0_off563 (v2760 : BitVec 32) : Fin 2 → Nat :=
  let c0_i32_1527 : BitVec 32 := 0#32
  ![v2760.toNat, 0]

def k0_chk190 (v2760 : BitVec 32) : Prop :=
  (∀ a, (k0_off545 v2760) a + S1x8192.size a ≤ S8192x8192.size a) ∧
  (∀ a, (k0_off563 v2760) a + S1x8192.size a ≤ S8192x8192.size a)
instance k0_chk190.dec : ∀ (v2760 : BitVec 32), Decidable (k0_chk190 v2760) := fun v2760 => decidable_of_iff' _ (Iff.of_eq (k0_chk190.eq_1 v2760))
theorem k0_off545_inb : ∀ (v2760 : BitVec 32) (k0_hw190 : k0_chk190 v2760), ∀ a, (k0_off545 v2760) a + S1x8192.size a ≤ S8192x8192.size a := fun v2760 k0_hw190 => k0_hw190.1
theorem k0_off563_inb : ∀ (v2760 : BitVec 32) (k0_hw190 : k0_chk190 v2760), ∀ a, (k0_off563 v2760) a + S1x8192.size a ≤ S8192x8192.size a := fun v2760 k0_hw190 => k0_hw190.2

def k0_off564 (v2769 : BitVec 32) : Fin 2 → Nat :=
  let c0_i32_1531 : BitVec 32 := 0#32
  ![v2769.toNat, 0]

def k0_chk191 (v2769 : BitVec 32) : Prop :=
  (∀ a, (k0_off547 v2769) a + S1x8192.size a ≤ S8192x8192.size a) ∧
  (∀ a, (k0_off564 v2769) a + S1x8192.size a ≤ S8192x8192.size a)
instance k0_chk191.dec : ∀ (v2769 : BitVec 32), Decidable (k0_chk191 v2769) := fun v2769 => decidable_of_iff' _ (Iff.of_eq (k0_chk191.eq_1 v2769))
theorem k0_off547_inb : ∀ (v2769 : BitVec 32) (k0_hw191 : k0_chk191 v2769), ∀ a, (k0_off547 v2769) a + S1x8192.size a ≤ S8192x8192.size a := fun v2769 k0_hw191 => k0_hw191.1
theorem k0_off564_inb : ∀ (v2769 : BitVec 32) (k0_hw191 : k0_chk191 v2769), ∀ a, (k0_off564 v2769) a + S1x8192.size a ≤ S8192x8192.size a := fun v2769 k0_hw191 => k0_hw191.2

def k0_off565 (i : grid0.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v2881 : BitVec 32 := Scalar.addi v0 c192_i32
  let v2882 : Index := Scalar.indexCast v2881
  ![v2882.toNat]
def k0_off566 (v2883 : BitVec 32) : Fin 2 → Nat :=
  let c0_i32_1539 : BitVec 32 := 0#32
  ![v2883.toNat, 0]

def k0_off567 (i : grid0.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v2890 : BitVec 32 := Scalar.addi v0 c193_i32
  let v2891 : Index := Scalar.indexCast v2890
  ![v2891.toNat]
def k0_off568 (v2892 : BitVec 32) : Fin 2 → Nat :=
  let c0_i32_1543 : BitVec 32 := 0#32
  ![v2892.toNat, 0]

def k0_off569 (i : grid0.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v2899 : BitVec 32 := Scalar.addi v0 c194_i32
  let v2900 : Index := Scalar.indexCast v2899
  ![v2900.toNat]
def k0_off570 (v2901 : BitVec 32) : Fin 2 → Nat :=
  let c0_i32_1547 : BitVec 32 := 0#32
  ![v2901.toNat, 0]

def k0_off571 (i : grid0.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v2908 : BitVec 32 := Scalar.addi v0 c195_i32
  let v2909 : Index := Scalar.indexCast v2908
  ![v2909.toNat]
def k0_off572 (v2910 : BitVec 32) : Fin 2 → Nat :=
  let c0_i32_1551 : BitVec 32 := 0#32
  ![v2910.toNat, 0]

def k0_off573 (i : grid0.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v2917 : BitVec 32 := Scalar.addi v0 c196_i32
  let v2918 : Index := Scalar.indexCast v2917
  ![v2918.toNat]
def k0_off574 (v2919 : BitVec 32) : Fin 2 → Nat :=
  let c0_i32_1555 : BitVec 32 := 0#32
  ![v2919.toNat, 0]

def k0_off575 (i : grid0.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v2926 : BitVec 32 := Scalar.addi v0 c197_i32
  let v2927 : Index := Scalar.indexCast v2926
  ![v2927.toNat]
def k0_off576 (v2928 : BitVec 32) : Fin 2 → Nat :=
  let c0_i32_1559 : BitVec 32 := 0#32
  ![v2928.toNat, 0]

def k0_off577 (i : grid0.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v2935 : BitVec 32 := Scalar.addi v0 c198_i32
  let v2936 : Index := Scalar.indexCast v2935
  ![v2936.toNat]
def k0_off578 (v2937 : BitVec 32) : Fin 2 → Nat :=
  let c0_i32_1563 : BitVec 32 := 0#32
  ![v2937.toNat, 0]

def k0_off579 (i : grid0.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v2944 : BitVec 32 := Scalar.addi v0 c199_i32
  let v2945 : Index := Scalar.indexCast v2944
  ![v2945.toNat]
def k0_off580 (v2946 : BitVec 32) : Fin 2 → Nat :=
  let c0_i32_1567 : BitVec 32 := 0#32
  ![v2946.toNat, 0]

def k0_off581 (i : grid0.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v2953 : BitVec 32 := Scalar.addi v0 c200_i32
  let v2954 : Index := Scalar.indexCast v2953
  ![v2954.toNat]
def k0_off582 (v2955 : BitVec 32) : Fin 2 → Nat :=
  let c0_i32_1571 : BitVec 32 := 0#32
  ![v2955.toNat, 0]

def k0_off583 (i : grid0.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v2962 : BitVec 32 := Scalar.addi v0 c201_i32
  let v2963 : Index := Scalar.indexCast v2962
  ![v2963.toNat]
def k0_off584 (v2964 : BitVec 32) : Fin 2 → Nat :=
  let c0_i32_1575 : BitVec 32 := 0#32
  ![v2964.toNat, 0]

def k0_off585 (i : grid0.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v2971 : BitVec 32 := Scalar.addi v0 c202_i32
  let v2972 : Index := Scalar.indexCast v2971
  ![v2972.toNat]
def k0_off586 (v2973 : BitVec 32) : Fin 2 → Nat :=
  let c0_i32_1579 : BitVec 32 := 0#32
  ![v2973.toNat, 0]

def k0_off587 (i : grid0.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v2980 : BitVec 32 := Scalar.addi v0 c203_i32
  let v2981 : Index := Scalar.indexCast v2980
  ![v2981.toNat]
def k0_off588 (v2982 : BitVec 32) : Fin 2 → Nat :=
  let c0_i32_1583 : BitVec 32 := 0#32
  ![v2982.toNat, 0]

def k0_off589 (i : grid0.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v2989 : BitVec 32 := Scalar.addi v0 c204_i32
  let v2990 : Index := Scalar.indexCast v2989
  ![v2990.toNat]
def k0_off590 (v2991 : BitVec 32) : Fin 2 → Nat :=
  let c0_i32_1587 : BitVec 32 := 0#32
  ![v2991.toNat, 0]

def k0_off591 (i : grid0.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v2998 : BitVec 32 := Scalar.addi v0 c205_i32
  let v2999 : Index := Scalar.indexCast v2998
  ![v2999.toNat]
def k0_off592 (v3000 : BitVec 32) : Fin 2 → Nat :=
  let c0_i32_1591 : BitVec 32 := 0#32
  ![v3000.toNat, 0]

def k0_off593 (i : grid0.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v3007 : BitVec 32 := Scalar.addi v0 c206_i32
  let v3008 : Index := Scalar.indexCast v3007
  ![v3008.toNat]
def k0_off594 (v3009 : BitVec 32) : Fin 2 → Nat :=
  let c0_i32_1595 : BitVec 32 := 0#32
  ![v3009.toNat, 0]

def k0_off595 (i : grid0.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v3016 : BitVec 32 := Scalar.addi v0 c207_i32
  let v3017 : Index := Scalar.indexCast v3016
  ![v3017.toNat]
def k0_off596 (v3018 : BitVec 32) : Fin 2 → Nat :=
  let c0_i32_1599 : BitVec 32 := 0#32
  ![v3018.toNat, 0]

def k0_chk208 (v3018 : BitVec 32) : Prop :=
  (∀ a, (k0_off596 v3018) a + S1x8192.size a ≤ S8192x8192.size a)
instance k0_chk208.dec : ∀ (v3018 : BitVec 32), Decidable (k0_chk208 v3018) := fun v3018 => decidable_of_iff' _ (Iff.of_eq (k0_chk208.eq_1 v3018))
theorem k0_off596_inb : ∀ (v3018 : BitVec 32) (k0_hw208 : k0_chk208 v3018), ∀ a, (k0_off596 v3018) a + S1x8192.size a ≤ S8192x8192.size a := fun v3018 k0_hw208 => k0_hw208

def k0_off597 (v2883 : BitVec 32) : Fin 2 → Nat :=
  let c0_i32_1603 : BitVec 32 := 0#32
  ![v2883.toNat, 0]

def k0_chk193 (v2883 : BitVec 32) : Prop :=
  (∀ a, (k0_off566 v2883) a + S1x8192.size a ≤ S8192x8192.size a) ∧
  (∀ a, (k0_off597 v2883) a + S1x8192.size a ≤ S8192x8192.size a)
instance k0_chk193.dec : ∀ (v2883 : BitVec 32), Decidable (k0_chk193 v2883) := fun v2883 => decidable_of_iff' _ (Iff.of_eq (k0_chk193.eq_1 v2883))
theorem k0_off566_inb : ∀ (v2883 : BitVec 32) (k0_hw193 : k0_chk193 v2883), ∀ a, (k0_off566 v2883) a + S1x8192.size a ≤ S8192x8192.size a := fun v2883 k0_hw193 => k0_hw193.1
theorem k0_off597_inb : ∀ (v2883 : BitVec 32) (k0_hw193 : k0_chk193 v2883), ∀ a, (k0_off597 v2883) a + S1x8192.size a ≤ S8192x8192.size a := fun v2883 k0_hw193 => k0_hw193.2

def k0_off598 (v2892 : BitVec 32) : Fin 2 → Nat :=
  let c0_i32_1607 : BitVec 32 := 0#32
  ![v2892.toNat, 0]

def k0_chk194 (v2892 : BitVec 32) : Prop :=
  (∀ a, (k0_off568 v2892) a + S1x8192.size a ≤ S8192x8192.size a) ∧
  (∀ a, (k0_off598 v2892) a + S1x8192.size a ≤ S8192x8192.size a)
instance k0_chk194.dec : ∀ (v2892 : BitVec 32), Decidable (k0_chk194 v2892) := fun v2892 => decidable_of_iff' _ (Iff.of_eq (k0_chk194.eq_1 v2892))
theorem k0_off568_inb : ∀ (v2892 : BitVec 32) (k0_hw194 : k0_chk194 v2892), ∀ a, (k0_off568 v2892) a + S1x8192.size a ≤ S8192x8192.size a := fun v2892 k0_hw194 => k0_hw194.1
theorem k0_off598_inb : ∀ (v2892 : BitVec 32) (k0_hw194 : k0_chk194 v2892), ∀ a, (k0_off598 v2892) a + S1x8192.size a ≤ S8192x8192.size a := fun v2892 k0_hw194 => k0_hw194.2

def k0_off599 (v2901 : BitVec 32) : Fin 2 → Nat :=
  let c0_i32_1611 : BitVec 32 := 0#32
  ![v2901.toNat, 0]

def k0_chk195 (v2901 : BitVec 32) : Prop :=
  (∀ a, (k0_off570 v2901) a + S1x8192.size a ≤ S8192x8192.size a) ∧
  (∀ a, (k0_off599 v2901) a + S1x8192.size a ≤ S8192x8192.size a)
instance k0_chk195.dec : ∀ (v2901 : BitVec 32), Decidable (k0_chk195 v2901) := fun v2901 => decidable_of_iff' _ (Iff.of_eq (k0_chk195.eq_1 v2901))
theorem k0_off570_inb : ∀ (v2901 : BitVec 32) (k0_hw195 : k0_chk195 v2901), ∀ a, (k0_off570 v2901) a + S1x8192.size a ≤ S8192x8192.size a := fun v2901 k0_hw195 => k0_hw195.1
theorem k0_off599_inb : ∀ (v2901 : BitVec 32) (k0_hw195 : k0_chk195 v2901), ∀ a, (k0_off599 v2901) a + S1x8192.size a ≤ S8192x8192.size a := fun v2901 k0_hw195 => k0_hw195.2

def k0_off600 (v2910 : BitVec 32) : Fin 2 → Nat :=
  let c0_i32_1615 : BitVec 32 := 0#32
  ![v2910.toNat, 0]

def k0_chk196 (v2910 : BitVec 32) : Prop :=
  (∀ a, (k0_off572 v2910) a + S1x8192.size a ≤ S8192x8192.size a) ∧
  (∀ a, (k0_off600 v2910) a + S1x8192.size a ≤ S8192x8192.size a)
instance k0_chk196.dec : ∀ (v2910 : BitVec 32), Decidable (k0_chk196 v2910) := fun v2910 => decidable_of_iff' _ (Iff.of_eq (k0_chk196.eq_1 v2910))
theorem k0_off572_inb : ∀ (v2910 : BitVec 32) (k0_hw196 : k0_chk196 v2910), ∀ a, (k0_off572 v2910) a + S1x8192.size a ≤ S8192x8192.size a := fun v2910 k0_hw196 => k0_hw196.1
theorem k0_off600_inb : ∀ (v2910 : BitVec 32) (k0_hw196 : k0_chk196 v2910), ∀ a, (k0_off600 v2910) a + S1x8192.size a ≤ S8192x8192.size a := fun v2910 k0_hw196 => k0_hw196.2

def k0_off601 (v2919 : BitVec 32) : Fin 2 → Nat :=
  let c0_i32_1619 : BitVec 32 := 0#32
  ![v2919.toNat, 0]

def k0_chk197 (v2919 : BitVec 32) : Prop :=
  (∀ a, (k0_off574 v2919) a + S1x8192.size a ≤ S8192x8192.size a) ∧
  (∀ a, (k0_off601 v2919) a + S1x8192.size a ≤ S8192x8192.size a)
instance k0_chk197.dec : ∀ (v2919 : BitVec 32), Decidable (k0_chk197 v2919) := fun v2919 => decidable_of_iff' _ (Iff.of_eq (k0_chk197.eq_1 v2919))
theorem k0_off574_inb : ∀ (v2919 : BitVec 32) (k0_hw197 : k0_chk197 v2919), ∀ a, (k0_off574 v2919) a + S1x8192.size a ≤ S8192x8192.size a := fun v2919 k0_hw197 => k0_hw197.1
theorem k0_off601_inb : ∀ (v2919 : BitVec 32) (k0_hw197 : k0_chk197 v2919), ∀ a, (k0_off601 v2919) a + S1x8192.size a ≤ S8192x8192.size a := fun v2919 k0_hw197 => k0_hw197.2

def k0_off602 (v2928 : BitVec 32) : Fin 2 → Nat :=
  let c0_i32_1623 : BitVec 32 := 0#32
  ![v2928.toNat, 0]

def k0_chk198 (v2928 : BitVec 32) : Prop :=
  (∀ a, (k0_off576 v2928) a + S1x8192.size a ≤ S8192x8192.size a) ∧
  (∀ a, (k0_off602 v2928) a + S1x8192.size a ≤ S8192x8192.size a)
instance k0_chk198.dec : ∀ (v2928 : BitVec 32), Decidable (k0_chk198 v2928) := fun v2928 => decidable_of_iff' _ (Iff.of_eq (k0_chk198.eq_1 v2928))
theorem k0_off576_inb : ∀ (v2928 : BitVec 32) (k0_hw198 : k0_chk198 v2928), ∀ a, (k0_off576 v2928) a + S1x8192.size a ≤ S8192x8192.size a := fun v2928 k0_hw198 => k0_hw198.1
theorem k0_off602_inb : ∀ (v2928 : BitVec 32) (k0_hw198 : k0_chk198 v2928), ∀ a, (k0_off602 v2928) a + S1x8192.size a ≤ S8192x8192.size a := fun v2928 k0_hw198 => k0_hw198.2

def k0_off603 (v2937 : BitVec 32) : Fin 2 → Nat :=
  let c0_i32_1627 : BitVec 32 := 0#32
  ![v2937.toNat, 0]

def k0_chk199 (v2937 : BitVec 32) : Prop :=
  (∀ a, (k0_off578 v2937) a + S1x8192.size a ≤ S8192x8192.size a) ∧
  (∀ a, (k0_off603 v2937) a + S1x8192.size a ≤ S8192x8192.size a)
instance k0_chk199.dec : ∀ (v2937 : BitVec 32), Decidable (k0_chk199 v2937) := fun v2937 => decidable_of_iff' _ (Iff.of_eq (k0_chk199.eq_1 v2937))
theorem k0_off578_inb : ∀ (v2937 : BitVec 32) (k0_hw199 : k0_chk199 v2937), ∀ a, (k0_off578 v2937) a + S1x8192.size a ≤ S8192x8192.size a := fun v2937 k0_hw199 => k0_hw199.1
theorem k0_off603_inb : ∀ (v2937 : BitVec 32) (k0_hw199 : k0_chk199 v2937), ∀ a, (k0_off603 v2937) a + S1x8192.size a ≤ S8192x8192.size a := fun v2937 k0_hw199 => k0_hw199.2

def k0_off604 (v2946 : BitVec 32) : Fin 2 → Nat :=
  let c0_i32_1631 : BitVec 32 := 0#32
  ![v2946.toNat, 0]

def k0_chk200 (v2946 : BitVec 32) : Prop :=
  (∀ a, (k0_off580 v2946) a + S1x8192.size a ≤ S8192x8192.size a) ∧
  (∀ a, (k0_off604 v2946) a + S1x8192.size a ≤ S8192x8192.size a)
instance k0_chk200.dec : ∀ (v2946 : BitVec 32), Decidable (k0_chk200 v2946) := fun v2946 => decidable_of_iff' _ (Iff.of_eq (k0_chk200.eq_1 v2946))
theorem k0_off580_inb : ∀ (v2946 : BitVec 32) (k0_hw200 : k0_chk200 v2946), ∀ a, (k0_off580 v2946) a + S1x8192.size a ≤ S8192x8192.size a := fun v2946 k0_hw200 => k0_hw200.1
theorem k0_off604_inb : ∀ (v2946 : BitVec 32) (k0_hw200 : k0_chk200 v2946), ∀ a, (k0_off604 v2946) a + S1x8192.size a ≤ S8192x8192.size a := fun v2946 k0_hw200 => k0_hw200.2

def k0_off605 (v2955 : BitVec 32) : Fin 2 → Nat :=
  let c0_i32_1635 : BitVec 32 := 0#32
  ![v2955.toNat, 0]

def k0_chk201 (v2955 : BitVec 32) : Prop :=
  (∀ a, (k0_off582 v2955) a + S1x8192.size a ≤ S8192x8192.size a) ∧
  (∀ a, (k0_off605 v2955) a + S1x8192.size a ≤ S8192x8192.size a)
instance k0_chk201.dec : ∀ (v2955 : BitVec 32), Decidable (k0_chk201 v2955) := fun v2955 => decidable_of_iff' _ (Iff.of_eq (k0_chk201.eq_1 v2955))
theorem k0_off582_inb : ∀ (v2955 : BitVec 32) (k0_hw201 : k0_chk201 v2955), ∀ a, (k0_off582 v2955) a + S1x8192.size a ≤ S8192x8192.size a := fun v2955 k0_hw201 => k0_hw201.1
theorem k0_off605_inb : ∀ (v2955 : BitVec 32) (k0_hw201 : k0_chk201 v2955), ∀ a, (k0_off605 v2955) a + S1x8192.size a ≤ S8192x8192.size a := fun v2955 k0_hw201 => k0_hw201.2

def k0_off606 (v2964 : BitVec 32) : Fin 2 → Nat :=
  let c0_i32_1639 : BitVec 32 := 0#32
  ![v2964.toNat, 0]

def k0_chk202 (v2964 : BitVec 32) : Prop :=
  (∀ a, (k0_off584 v2964) a + S1x8192.size a ≤ S8192x8192.size a) ∧
  (∀ a, (k0_off606 v2964) a + S1x8192.size a ≤ S8192x8192.size a)
instance k0_chk202.dec : ∀ (v2964 : BitVec 32), Decidable (k0_chk202 v2964) := fun v2964 => decidable_of_iff' _ (Iff.of_eq (k0_chk202.eq_1 v2964))
theorem k0_off584_inb : ∀ (v2964 : BitVec 32) (k0_hw202 : k0_chk202 v2964), ∀ a, (k0_off584 v2964) a + S1x8192.size a ≤ S8192x8192.size a := fun v2964 k0_hw202 => k0_hw202.1
theorem k0_off606_inb : ∀ (v2964 : BitVec 32) (k0_hw202 : k0_chk202 v2964), ∀ a, (k0_off606 v2964) a + S1x8192.size a ≤ S8192x8192.size a := fun v2964 k0_hw202 => k0_hw202.2

def k0_off607 (v2973 : BitVec 32) : Fin 2 → Nat :=
  let c0_i32_1643 : BitVec 32 := 0#32
  ![v2973.toNat, 0]

def k0_chk203 (v2973 : BitVec 32) : Prop :=
  (∀ a, (k0_off586 v2973) a + S1x8192.size a ≤ S8192x8192.size a) ∧
  (∀ a, (k0_off607 v2973) a + S1x8192.size a ≤ S8192x8192.size a)
instance k0_chk203.dec : ∀ (v2973 : BitVec 32), Decidable (k0_chk203 v2973) := fun v2973 => decidable_of_iff' _ (Iff.of_eq (k0_chk203.eq_1 v2973))
theorem k0_off586_inb : ∀ (v2973 : BitVec 32) (k0_hw203 : k0_chk203 v2973), ∀ a, (k0_off586 v2973) a + S1x8192.size a ≤ S8192x8192.size a := fun v2973 k0_hw203 => k0_hw203.1
theorem k0_off607_inb : ∀ (v2973 : BitVec 32) (k0_hw203 : k0_chk203 v2973), ∀ a, (k0_off607 v2973) a + S1x8192.size a ≤ S8192x8192.size a := fun v2973 k0_hw203 => k0_hw203.2

def k0_off608 (v2982 : BitVec 32) : Fin 2 → Nat :=
  let c0_i32_1647 : BitVec 32 := 0#32
  ![v2982.toNat, 0]

def k0_chk204 (v2982 : BitVec 32) : Prop :=
  (∀ a, (k0_off588 v2982) a + S1x8192.size a ≤ S8192x8192.size a) ∧
  (∀ a, (k0_off608 v2982) a + S1x8192.size a ≤ S8192x8192.size a)
instance k0_chk204.dec : ∀ (v2982 : BitVec 32), Decidable (k0_chk204 v2982) := fun v2982 => decidable_of_iff' _ (Iff.of_eq (k0_chk204.eq_1 v2982))
theorem k0_off588_inb : ∀ (v2982 : BitVec 32) (k0_hw204 : k0_chk204 v2982), ∀ a, (k0_off588 v2982) a + S1x8192.size a ≤ S8192x8192.size a := fun v2982 k0_hw204 => k0_hw204.1
theorem k0_off608_inb : ∀ (v2982 : BitVec 32) (k0_hw204 : k0_chk204 v2982), ∀ a, (k0_off608 v2982) a + S1x8192.size a ≤ S8192x8192.size a := fun v2982 k0_hw204 => k0_hw204.2

def k0_off609 (v2991 : BitVec 32) : Fin 2 → Nat :=
  let c0_i32_1651 : BitVec 32 := 0#32
  ![v2991.toNat, 0]

def k0_chk205 (v2991 : BitVec 32) : Prop :=
  (∀ a, (k0_off590 v2991) a + S1x8192.size a ≤ S8192x8192.size a) ∧
  (∀ a, (k0_off609 v2991) a + S1x8192.size a ≤ S8192x8192.size a)
instance k0_chk205.dec : ∀ (v2991 : BitVec 32), Decidable (k0_chk205 v2991) := fun v2991 => decidable_of_iff' _ (Iff.of_eq (k0_chk205.eq_1 v2991))
theorem k0_off590_inb : ∀ (v2991 : BitVec 32) (k0_hw205 : k0_chk205 v2991), ∀ a, (k0_off590 v2991) a + S1x8192.size a ≤ S8192x8192.size a := fun v2991 k0_hw205 => k0_hw205.1
theorem k0_off609_inb : ∀ (v2991 : BitVec 32) (k0_hw205 : k0_chk205 v2991), ∀ a, (k0_off609 v2991) a + S1x8192.size a ≤ S8192x8192.size a := fun v2991 k0_hw205 => k0_hw205.2

def k0_off610 (v3000 : BitVec 32) : Fin 2 → Nat :=
  let c0_i32_1655 : BitVec 32 := 0#32
  ![v3000.toNat, 0]

def k0_chk206 (v3000 : BitVec 32) : Prop :=
  (∀ a, (k0_off592 v3000) a + S1x8192.size a ≤ S8192x8192.size a) ∧
  (∀ a, (k0_off610 v3000) a + S1x8192.size a ≤ S8192x8192.size a)
instance k0_chk206.dec : ∀ (v3000 : BitVec 32), Decidable (k0_chk206 v3000) := fun v3000 => decidable_of_iff' _ (Iff.of_eq (k0_chk206.eq_1 v3000))
theorem k0_off592_inb : ∀ (v3000 : BitVec 32) (k0_hw206 : k0_chk206 v3000), ∀ a, (k0_off592 v3000) a + S1x8192.size a ≤ S8192x8192.size a := fun v3000 k0_hw206 => k0_hw206.1
theorem k0_off610_inb : ∀ (v3000 : BitVec 32) (k0_hw206 : k0_chk206 v3000), ∀ a, (k0_off610 v3000) a + S1x8192.size a ≤ S8192x8192.size a := fun v3000 k0_hw206 => k0_hw206.2

def k0_off611 (v3009 : BitVec 32) : Fin 2 → Nat :=
  let c0_i32_1659 : BitVec 32 := 0#32
  ![v3009.toNat, 0]

def k0_chk207 (v3009 : BitVec 32) : Prop :=
  (∀ a, (k0_off594 v3009) a + S1x8192.size a ≤ S8192x8192.size a) ∧
  (∀ a, (k0_off611 v3009) a + S1x8192.size a ≤ S8192x8192.size a)
instance k0_chk207.dec : ∀ (v3009 : BitVec 32), Decidable (k0_chk207 v3009) := fun v3009 => decidable_of_iff' _ (Iff.of_eq (k0_chk207.eq_1 v3009))
theorem k0_off594_inb : ∀ (v3009 : BitVec 32) (k0_hw207 : k0_chk207 v3009), ∀ a, (k0_off594 v3009) a + S1x8192.size a ≤ S8192x8192.size a := fun v3009 k0_hw207 => k0_hw207.1
theorem k0_off611_inb : ∀ (v3009 : BitVec 32) (k0_hw207 : k0_chk207 v3009), ∀ a, (k0_off611 v3009) a + S1x8192.size a ≤ S8192x8192.size a := fun v3009 k0_hw207 => k0_hw207.2

def k0_off612 (i : grid0.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v3121 : BitVec 32 := Scalar.addi v0 c208_i32
  let v3122 : Index := Scalar.indexCast v3121
  ![v3122.toNat]
def k0_off613 (v3123 : BitVec 32) : Fin 2 → Nat :=
  let c0_i32_1667 : BitVec 32 := 0#32
  ![v3123.toNat, 0]

def k0_off614 (i : grid0.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v3130 : BitVec 32 := Scalar.addi v0 c209_i32
  let v3131 : Index := Scalar.indexCast v3130
  ![v3131.toNat]
def k0_off615 (v3132 : BitVec 32) : Fin 2 → Nat :=
  let c0_i32_1671 : BitVec 32 := 0#32
  ![v3132.toNat, 0]

def k0_off616 (i : grid0.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v3139 : BitVec 32 := Scalar.addi v0 c210_i32
  let v3140 : Index := Scalar.indexCast v3139
  ![v3140.toNat]
def k0_off617 (v3141 : BitVec 32) : Fin 2 → Nat :=
  let c0_i32_1675 : BitVec 32 := 0#32
  ![v3141.toNat, 0]

def k0_off618 (i : grid0.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v3148 : BitVec 32 := Scalar.addi v0 c211_i32
  let v3149 : Index := Scalar.indexCast v3148
  ![v3149.toNat]
def k0_off619 (v3150 : BitVec 32) : Fin 2 → Nat :=
  let c0_i32_1679 : BitVec 32 := 0#32
  ![v3150.toNat, 0]

def k0_off620 (i : grid0.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v3157 : BitVec 32 := Scalar.addi v0 c212_i32
  let v3158 : Index := Scalar.indexCast v3157
  ![v3158.toNat]
def k0_off621 (v3159 : BitVec 32) : Fin 2 → Nat :=
  let c0_i32_1683 : BitVec 32 := 0#32
  ![v3159.toNat, 0]

def k0_off622 (i : grid0.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v3166 : BitVec 32 := Scalar.addi v0 c213_i32
  let v3167 : Index := Scalar.indexCast v3166
  ![v3167.toNat]
def k0_off623 (v3168 : BitVec 32) : Fin 2 → Nat :=
  let c0_i32_1687 : BitVec 32 := 0#32
  ![v3168.toNat, 0]

def k0_off624 (i : grid0.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v3175 : BitVec 32 := Scalar.addi v0 c214_i32
  let v3176 : Index := Scalar.indexCast v3175
  ![v3176.toNat]
def k0_off625 (v3177 : BitVec 32) : Fin 2 → Nat :=
  let c0_i32_1691 : BitVec 32 := 0#32
  ![v3177.toNat, 0]

def k0_off626 (i : grid0.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v3184 : BitVec 32 := Scalar.addi v0 c215_i32
  let v3185 : Index := Scalar.indexCast v3184
  ![v3185.toNat]
def k0_off627 (v3186 : BitVec 32) : Fin 2 → Nat :=
  let c0_i32_1695 : BitVec 32 := 0#32
  ![v3186.toNat, 0]

def k0_off628 (i : grid0.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v3193 : BitVec 32 := Scalar.addi v0 c216_i32
  let v3194 : Index := Scalar.indexCast v3193
  ![v3194.toNat]
def k0_off629 (v3195 : BitVec 32) : Fin 2 → Nat :=
  let c0_i32_1699 : BitVec 32 := 0#32
  ![v3195.toNat, 0]

def k0_off630 (i : grid0.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v3202 : BitVec 32 := Scalar.addi v0 c217_i32
  let v3203 : Index := Scalar.indexCast v3202
  ![v3203.toNat]
def k0_off631 (v3204 : BitVec 32) : Fin 2 → Nat :=
  let c0_i32_1703 : BitVec 32 := 0#32
  ![v3204.toNat, 0]

def k0_off632 (i : grid0.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v3211 : BitVec 32 := Scalar.addi v0 c218_i32
  let v3212 : Index := Scalar.indexCast v3211
  ![v3212.toNat]
def k0_off633 (v3213 : BitVec 32) : Fin 2 → Nat :=
  let c0_i32_1707 : BitVec 32 := 0#32
  ![v3213.toNat, 0]

def k0_off634 (i : grid0.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v3220 : BitVec 32 := Scalar.addi v0 c219_i32
  let v3221 : Index := Scalar.indexCast v3220
  ![v3221.toNat]
def k0_off635 (v3222 : BitVec 32) : Fin 2 → Nat :=
  let c0_i32_1711 : BitVec 32 := 0#32
  ![v3222.toNat, 0]

def k0_off636 (i : grid0.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v3229 : BitVec 32 := Scalar.addi v0 c220_i32
  let v3230 : Index := Scalar.indexCast v3229
  ![v3230.toNat]
def k0_off637 (v3231 : BitVec 32) : Fin 2 → Nat :=
  let c0_i32_1715 : BitVec 32 := 0#32
  ![v3231.toNat, 0]

def k0_off638 (i : grid0.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v3238 : BitVec 32 := Scalar.addi v0 c221_i32
  let v3239 : Index := Scalar.indexCast v3238
  ![v3239.toNat]
def k0_off639 (v3240 : BitVec 32) : Fin 2 → Nat :=
  let c0_i32_1719 : BitVec 32 := 0#32
  ![v3240.toNat, 0]

def k0_off640 (i : grid0.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v3247 : BitVec 32 := Scalar.addi v0 c222_i32
  let v3248 : Index := Scalar.indexCast v3247
  ![v3248.toNat]
def k0_off641 (v3249 : BitVec 32) : Fin 2 → Nat :=
  let c0_i32_1723 : BitVec 32 := 0#32
  ![v3249.toNat, 0]

def k0_off642 (i : grid0.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v3256 : BitVec 32 := Scalar.addi v0 c223_i32
  let v3257 : Index := Scalar.indexCast v3256
  ![v3257.toNat]
def k0_off643 (v3258 : BitVec 32) : Fin 2 → Nat :=
  let c0_i32_1727 : BitVec 32 := 0#32
  ![v3258.toNat, 0]

def k0_chk224 (v3258 : BitVec 32) : Prop :=
  (∀ a, (k0_off643 v3258) a + S1x8192.size a ≤ S8192x8192.size a)
instance k0_chk224.dec : ∀ (v3258 : BitVec 32), Decidable (k0_chk224 v3258) := fun v3258 => decidable_of_iff' _ (Iff.of_eq (k0_chk224.eq_1 v3258))
theorem k0_off643_inb : ∀ (v3258 : BitVec 32) (k0_hw224 : k0_chk224 v3258), ∀ a, (k0_off643 v3258) a + S1x8192.size a ≤ S8192x8192.size a := fun v3258 k0_hw224 => k0_hw224

def k0_off644 (v3123 : BitVec 32) : Fin 2 → Nat :=
  let c0_i32_1731 : BitVec 32 := 0#32
  ![v3123.toNat, 0]

def k0_chk209 (v3123 : BitVec 32) : Prop :=
  (∀ a, (k0_off613 v3123) a + S1x8192.size a ≤ S8192x8192.size a) ∧
  (∀ a, (k0_off644 v3123) a + S1x8192.size a ≤ S8192x8192.size a)
instance k0_chk209.dec : ∀ (v3123 : BitVec 32), Decidable (k0_chk209 v3123) := fun v3123 => decidable_of_iff' _ (Iff.of_eq (k0_chk209.eq_1 v3123))
theorem k0_off613_inb : ∀ (v3123 : BitVec 32) (k0_hw209 : k0_chk209 v3123), ∀ a, (k0_off613 v3123) a + S1x8192.size a ≤ S8192x8192.size a := fun v3123 k0_hw209 => k0_hw209.1
theorem k0_off644_inb : ∀ (v3123 : BitVec 32) (k0_hw209 : k0_chk209 v3123), ∀ a, (k0_off644 v3123) a + S1x8192.size a ≤ S8192x8192.size a := fun v3123 k0_hw209 => k0_hw209.2

def k0_off645 (v3132 : BitVec 32) : Fin 2 → Nat :=
  let c0_i32_1735 : BitVec 32 := 0#32
  ![v3132.toNat, 0]

def k0_chk210 (v3132 : BitVec 32) : Prop :=
  (∀ a, (k0_off615 v3132) a + S1x8192.size a ≤ S8192x8192.size a) ∧
  (∀ a, (k0_off645 v3132) a + S1x8192.size a ≤ S8192x8192.size a)
instance k0_chk210.dec : ∀ (v3132 : BitVec 32), Decidable (k0_chk210 v3132) := fun v3132 => decidable_of_iff' _ (Iff.of_eq (k0_chk210.eq_1 v3132))
theorem k0_off615_inb : ∀ (v3132 : BitVec 32) (k0_hw210 : k0_chk210 v3132), ∀ a, (k0_off615 v3132) a + S1x8192.size a ≤ S8192x8192.size a := fun v3132 k0_hw210 => k0_hw210.1
theorem k0_off645_inb : ∀ (v3132 : BitVec 32) (k0_hw210 : k0_chk210 v3132), ∀ a, (k0_off645 v3132) a + S1x8192.size a ≤ S8192x8192.size a := fun v3132 k0_hw210 => k0_hw210.2

def k0_off646 (v3141 : BitVec 32) : Fin 2 → Nat :=
  let c0_i32_1739 : BitVec 32 := 0#32
  ![v3141.toNat, 0]

def k0_chk211 (v3141 : BitVec 32) : Prop :=
  (∀ a, (k0_off617 v3141) a + S1x8192.size a ≤ S8192x8192.size a) ∧
  (∀ a, (k0_off646 v3141) a + S1x8192.size a ≤ S8192x8192.size a)
instance k0_chk211.dec : ∀ (v3141 : BitVec 32), Decidable (k0_chk211 v3141) := fun v3141 => decidable_of_iff' _ (Iff.of_eq (k0_chk211.eq_1 v3141))
theorem k0_off617_inb : ∀ (v3141 : BitVec 32) (k0_hw211 : k0_chk211 v3141), ∀ a, (k0_off617 v3141) a + S1x8192.size a ≤ S8192x8192.size a := fun v3141 k0_hw211 => k0_hw211.1
theorem k0_off646_inb : ∀ (v3141 : BitVec 32) (k0_hw211 : k0_chk211 v3141), ∀ a, (k0_off646 v3141) a + S1x8192.size a ≤ S8192x8192.size a := fun v3141 k0_hw211 => k0_hw211.2

def k0_off647 (v3150 : BitVec 32) : Fin 2 → Nat :=
  let c0_i32_1743 : BitVec 32 := 0#32
  ![v3150.toNat, 0]

def k0_chk212 (v3150 : BitVec 32) : Prop :=
  (∀ a, (k0_off619 v3150) a + S1x8192.size a ≤ S8192x8192.size a) ∧
  (∀ a, (k0_off647 v3150) a + S1x8192.size a ≤ S8192x8192.size a)
instance k0_chk212.dec : ∀ (v3150 : BitVec 32), Decidable (k0_chk212 v3150) := fun v3150 => decidable_of_iff' _ (Iff.of_eq (k0_chk212.eq_1 v3150))
theorem k0_off619_inb : ∀ (v3150 : BitVec 32) (k0_hw212 : k0_chk212 v3150), ∀ a, (k0_off619 v3150) a + S1x8192.size a ≤ S8192x8192.size a := fun v3150 k0_hw212 => k0_hw212.1
theorem k0_off647_inb : ∀ (v3150 : BitVec 32) (k0_hw212 : k0_chk212 v3150), ∀ a, (k0_off647 v3150) a + S1x8192.size a ≤ S8192x8192.size a := fun v3150 k0_hw212 => k0_hw212.2

def k0_off648 (v3159 : BitVec 32) : Fin 2 → Nat :=
  let c0_i32_1747 : BitVec 32 := 0#32
  ![v3159.toNat, 0]

def k0_chk213 (v3159 : BitVec 32) : Prop :=
  (∀ a, (k0_off621 v3159) a + S1x8192.size a ≤ S8192x8192.size a) ∧
  (∀ a, (k0_off648 v3159) a + S1x8192.size a ≤ S8192x8192.size a)
instance k0_chk213.dec : ∀ (v3159 : BitVec 32), Decidable (k0_chk213 v3159) := fun v3159 => decidable_of_iff' _ (Iff.of_eq (k0_chk213.eq_1 v3159))
theorem k0_off621_inb : ∀ (v3159 : BitVec 32) (k0_hw213 : k0_chk213 v3159), ∀ a, (k0_off621 v3159) a + S1x8192.size a ≤ S8192x8192.size a := fun v3159 k0_hw213 => k0_hw213.1
theorem k0_off648_inb : ∀ (v3159 : BitVec 32) (k0_hw213 : k0_chk213 v3159), ∀ a, (k0_off648 v3159) a + S1x8192.size a ≤ S8192x8192.size a := fun v3159 k0_hw213 => k0_hw213.2

def k0_off649 (v3168 : BitVec 32) : Fin 2 → Nat :=
  let c0_i32_1751 : BitVec 32 := 0#32
  ![v3168.toNat, 0]

def k0_chk214 (v3168 : BitVec 32) : Prop :=
  (∀ a, (k0_off623 v3168) a + S1x8192.size a ≤ S8192x8192.size a) ∧
  (∀ a, (k0_off649 v3168) a + S1x8192.size a ≤ S8192x8192.size a)
instance k0_chk214.dec : ∀ (v3168 : BitVec 32), Decidable (k0_chk214 v3168) := fun v3168 => decidable_of_iff' _ (Iff.of_eq (k0_chk214.eq_1 v3168))
theorem k0_off623_inb : ∀ (v3168 : BitVec 32) (k0_hw214 : k0_chk214 v3168), ∀ a, (k0_off623 v3168) a + S1x8192.size a ≤ S8192x8192.size a := fun v3168 k0_hw214 => k0_hw214.1
theorem k0_off649_inb : ∀ (v3168 : BitVec 32) (k0_hw214 : k0_chk214 v3168), ∀ a, (k0_off649 v3168) a + S1x8192.size a ≤ S8192x8192.size a := fun v3168 k0_hw214 => k0_hw214.2

def k0_off650 (v3177 : BitVec 32) : Fin 2 → Nat :=
  let c0_i32_1755 : BitVec 32 := 0#32
  ![v3177.toNat, 0]

def k0_chk215 (v3177 : BitVec 32) : Prop :=
  (∀ a, (k0_off625 v3177) a + S1x8192.size a ≤ S8192x8192.size a) ∧
  (∀ a, (k0_off650 v3177) a + S1x8192.size a ≤ S8192x8192.size a)
instance k0_chk215.dec : ∀ (v3177 : BitVec 32), Decidable (k0_chk215 v3177) := fun v3177 => decidable_of_iff' _ (Iff.of_eq (k0_chk215.eq_1 v3177))
theorem k0_off625_inb : ∀ (v3177 : BitVec 32) (k0_hw215 : k0_chk215 v3177), ∀ a, (k0_off625 v3177) a + S1x8192.size a ≤ S8192x8192.size a := fun v3177 k0_hw215 => k0_hw215.1
theorem k0_off650_inb : ∀ (v3177 : BitVec 32) (k0_hw215 : k0_chk215 v3177), ∀ a, (k0_off650 v3177) a + S1x8192.size a ≤ S8192x8192.size a := fun v3177 k0_hw215 => k0_hw215.2

def k0_off651 (v3186 : BitVec 32) : Fin 2 → Nat :=
  let c0_i32_1759 : BitVec 32 := 0#32
  ![v3186.toNat, 0]

def k0_chk216 (v3186 : BitVec 32) : Prop :=
  (∀ a, (k0_off627 v3186) a + S1x8192.size a ≤ S8192x8192.size a) ∧
  (∀ a, (k0_off651 v3186) a + S1x8192.size a ≤ S8192x8192.size a)
instance k0_chk216.dec : ∀ (v3186 : BitVec 32), Decidable (k0_chk216 v3186) := fun v3186 => decidable_of_iff' _ (Iff.of_eq (k0_chk216.eq_1 v3186))
theorem k0_off627_inb : ∀ (v3186 : BitVec 32) (k0_hw216 : k0_chk216 v3186), ∀ a, (k0_off627 v3186) a + S1x8192.size a ≤ S8192x8192.size a := fun v3186 k0_hw216 => k0_hw216.1
theorem k0_off651_inb : ∀ (v3186 : BitVec 32) (k0_hw216 : k0_chk216 v3186), ∀ a, (k0_off651 v3186) a + S1x8192.size a ≤ S8192x8192.size a := fun v3186 k0_hw216 => k0_hw216.2

def k0_off652 (v3195 : BitVec 32) : Fin 2 → Nat :=
  let c0_i32_1763 : BitVec 32 := 0#32
  ![v3195.toNat, 0]

def k0_chk217 (v3195 : BitVec 32) : Prop :=
  (∀ a, (k0_off629 v3195) a + S1x8192.size a ≤ S8192x8192.size a) ∧
  (∀ a, (k0_off652 v3195) a + S1x8192.size a ≤ S8192x8192.size a)
instance k0_chk217.dec : ∀ (v3195 : BitVec 32), Decidable (k0_chk217 v3195) := fun v3195 => decidable_of_iff' _ (Iff.of_eq (k0_chk217.eq_1 v3195))
theorem k0_off629_inb : ∀ (v3195 : BitVec 32) (k0_hw217 : k0_chk217 v3195), ∀ a, (k0_off629 v3195) a + S1x8192.size a ≤ S8192x8192.size a := fun v3195 k0_hw217 => k0_hw217.1
theorem k0_off652_inb : ∀ (v3195 : BitVec 32) (k0_hw217 : k0_chk217 v3195), ∀ a, (k0_off652 v3195) a + S1x8192.size a ≤ S8192x8192.size a := fun v3195 k0_hw217 => k0_hw217.2

def k0_off653 (v3204 : BitVec 32) : Fin 2 → Nat :=
  let c0_i32_1767 : BitVec 32 := 0#32
  ![v3204.toNat, 0]

def k0_chk218 (v3204 : BitVec 32) : Prop :=
  (∀ a, (k0_off631 v3204) a + S1x8192.size a ≤ S8192x8192.size a) ∧
  (∀ a, (k0_off653 v3204) a + S1x8192.size a ≤ S8192x8192.size a)
instance k0_chk218.dec : ∀ (v3204 : BitVec 32), Decidable (k0_chk218 v3204) := fun v3204 => decidable_of_iff' _ (Iff.of_eq (k0_chk218.eq_1 v3204))
theorem k0_off631_inb : ∀ (v3204 : BitVec 32) (k0_hw218 : k0_chk218 v3204), ∀ a, (k0_off631 v3204) a + S1x8192.size a ≤ S8192x8192.size a := fun v3204 k0_hw218 => k0_hw218.1
theorem k0_off653_inb : ∀ (v3204 : BitVec 32) (k0_hw218 : k0_chk218 v3204), ∀ a, (k0_off653 v3204) a + S1x8192.size a ≤ S8192x8192.size a := fun v3204 k0_hw218 => k0_hw218.2

def k0_off654 (v3213 : BitVec 32) : Fin 2 → Nat :=
  let c0_i32_1771 : BitVec 32 := 0#32
  ![v3213.toNat, 0]

def k0_chk219 (v3213 : BitVec 32) : Prop :=
  (∀ a, (k0_off633 v3213) a + S1x8192.size a ≤ S8192x8192.size a) ∧
  (∀ a, (k0_off654 v3213) a + S1x8192.size a ≤ S8192x8192.size a)
instance k0_chk219.dec : ∀ (v3213 : BitVec 32), Decidable (k0_chk219 v3213) := fun v3213 => decidable_of_iff' _ (Iff.of_eq (k0_chk219.eq_1 v3213))
theorem k0_off633_inb : ∀ (v3213 : BitVec 32) (k0_hw219 : k0_chk219 v3213), ∀ a, (k0_off633 v3213) a + S1x8192.size a ≤ S8192x8192.size a := fun v3213 k0_hw219 => k0_hw219.1
theorem k0_off654_inb : ∀ (v3213 : BitVec 32) (k0_hw219 : k0_chk219 v3213), ∀ a, (k0_off654 v3213) a + S1x8192.size a ≤ S8192x8192.size a := fun v3213 k0_hw219 => k0_hw219.2

def k0_off655 (v3222 : BitVec 32) : Fin 2 → Nat :=
  let c0_i32_1775 : BitVec 32 := 0#32
  ![v3222.toNat, 0]

def k0_chk220 (v3222 : BitVec 32) : Prop :=
  (∀ a, (k0_off635 v3222) a + S1x8192.size a ≤ S8192x8192.size a) ∧
  (∀ a, (k0_off655 v3222) a + S1x8192.size a ≤ S8192x8192.size a)
instance k0_chk220.dec : ∀ (v3222 : BitVec 32), Decidable (k0_chk220 v3222) := fun v3222 => decidable_of_iff' _ (Iff.of_eq (k0_chk220.eq_1 v3222))
theorem k0_off635_inb : ∀ (v3222 : BitVec 32) (k0_hw220 : k0_chk220 v3222), ∀ a, (k0_off635 v3222) a + S1x8192.size a ≤ S8192x8192.size a := fun v3222 k0_hw220 => k0_hw220.1
theorem k0_off655_inb : ∀ (v3222 : BitVec 32) (k0_hw220 : k0_chk220 v3222), ∀ a, (k0_off655 v3222) a + S1x8192.size a ≤ S8192x8192.size a := fun v3222 k0_hw220 => k0_hw220.2

def k0_off656 (v3231 : BitVec 32) : Fin 2 → Nat :=
  let c0_i32_1779 : BitVec 32 := 0#32
  ![v3231.toNat, 0]

def k0_chk221 (v3231 : BitVec 32) : Prop :=
  (∀ a, (k0_off637 v3231) a + S1x8192.size a ≤ S8192x8192.size a) ∧
  (∀ a, (k0_off656 v3231) a + S1x8192.size a ≤ S8192x8192.size a)
instance k0_chk221.dec : ∀ (v3231 : BitVec 32), Decidable (k0_chk221 v3231) := fun v3231 => decidable_of_iff' _ (Iff.of_eq (k0_chk221.eq_1 v3231))
theorem k0_off637_inb : ∀ (v3231 : BitVec 32) (k0_hw221 : k0_chk221 v3231), ∀ a, (k0_off637 v3231) a + S1x8192.size a ≤ S8192x8192.size a := fun v3231 k0_hw221 => k0_hw221.1
theorem k0_off656_inb : ∀ (v3231 : BitVec 32) (k0_hw221 : k0_chk221 v3231), ∀ a, (k0_off656 v3231) a + S1x8192.size a ≤ S8192x8192.size a := fun v3231 k0_hw221 => k0_hw221.2

def k0_off657 (v3240 : BitVec 32) : Fin 2 → Nat :=
  let c0_i32_1783 : BitVec 32 := 0#32
  ![v3240.toNat, 0]

def k0_chk222 (v3240 : BitVec 32) : Prop :=
  (∀ a, (k0_off639 v3240) a + S1x8192.size a ≤ S8192x8192.size a) ∧
  (∀ a, (k0_off657 v3240) a + S1x8192.size a ≤ S8192x8192.size a)
instance k0_chk222.dec : ∀ (v3240 : BitVec 32), Decidable (k0_chk222 v3240) := fun v3240 => decidable_of_iff' _ (Iff.of_eq (k0_chk222.eq_1 v3240))
theorem k0_off639_inb : ∀ (v3240 : BitVec 32) (k0_hw222 : k0_chk222 v3240), ∀ a, (k0_off639 v3240) a + S1x8192.size a ≤ S8192x8192.size a := fun v3240 k0_hw222 => k0_hw222.1
theorem k0_off657_inb : ∀ (v3240 : BitVec 32) (k0_hw222 : k0_chk222 v3240), ∀ a, (k0_off657 v3240) a + S1x8192.size a ≤ S8192x8192.size a := fun v3240 k0_hw222 => k0_hw222.2

def k0_off658 (v3249 : BitVec 32) : Fin 2 → Nat :=
  let c0_i32_1787 : BitVec 32 := 0#32
  ![v3249.toNat, 0]

def k0_chk223 (v3249 : BitVec 32) : Prop :=
  (∀ a, (k0_off641 v3249) a + S1x8192.size a ≤ S8192x8192.size a) ∧
  (∀ a, (k0_off658 v3249) a + S1x8192.size a ≤ S8192x8192.size a)
instance k0_chk223.dec : ∀ (v3249 : BitVec 32), Decidable (k0_chk223 v3249) := fun v3249 => decidable_of_iff' _ (Iff.of_eq (k0_chk223.eq_1 v3249))
theorem k0_off641_inb : ∀ (v3249 : BitVec 32) (k0_hw223 : k0_chk223 v3249), ∀ a, (k0_off641 v3249) a + S1x8192.size a ≤ S8192x8192.size a := fun v3249 k0_hw223 => k0_hw223.1
theorem k0_off658_inb : ∀ (v3249 : BitVec 32) (k0_hw223 : k0_chk223 v3249), ∀ a, (k0_off658 v3249) a + S1x8192.size a ≤ S8192x8192.size a := fun v3249 k0_hw223 => k0_hw223.2

def k0_off659 (i : grid0.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v3361 : BitVec 32 := Scalar.addi v0 c224_i32
  let v3362 : Index := Scalar.indexCast v3361
  ![v3362.toNat]
def k0_off660 (v3363 : BitVec 32) : Fin 2 → Nat :=
  let c0_i32_1795 : BitVec 32 := 0#32
  ![v3363.toNat, 0]

def k0_off661 (i : grid0.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v3370 : BitVec 32 := Scalar.addi v0 c225_i32
  let v3371 : Index := Scalar.indexCast v3370
  ![v3371.toNat]
def k0_off662 (v3372 : BitVec 32) : Fin 2 → Nat :=
  let c0_i32_1799 : BitVec 32 := 0#32
  ![v3372.toNat, 0]

def k0_off663 (i : grid0.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v3379 : BitVec 32 := Scalar.addi v0 c226_i32
  let v3380 : Index := Scalar.indexCast v3379
  ![v3380.toNat]
def k0_off664 (v3381 : BitVec 32) : Fin 2 → Nat :=
  let c0_i32_1803 : BitVec 32 := 0#32
  ![v3381.toNat, 0]

def k0_off665 (i : grid0.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v3388 : BitVec 32 := Scalar.addi v0 c227_i32
  let v3389 : Index := Scalar.indexCast v3388
  ![v3389.toNat]
def k0_off666 (v3390 : BitVec 32) : Fin 2 → Nat :=
  let c0_i32_1807 : BitVec 32 := 0#32
  ![v3390.toNat, 0]

def k0_off667 (i : grid0.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v3397 : BitVec 32 := Scalar.addi v0 c228_i32
  let v3398 : Index := Scalar.indexCast v3397
  ![v3398.toNat]
def k0_off668 (v3399 : BitVec 32) : Fin 2 → Nat :=
  let c0_i32_1811 : BitVec 32 := 0#32
  ![v3399.toNat, 0]

def k0_off669 (i : grid0.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v3406 : BitVec 32 := Scalar.addi v0 c229_i32
  let v3407 : Index := Scalar.indexCast v3406
  ![v3407.toNat]
def k0_off670 (v3408 : BitVec 32) : Fin 2 → Nat :=
  let c0_i32_1815 : BitVec 32 := 0#32
  ![v3408.toNat, 0]

def k0_off671 (i : grid0.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v3415 : BitVec 32 := Scalar.addi v0 c230_i32
  let v3416 : Index := Scalar.indexCast v3415
  ![v3416.toNat]
def k0_off672 (v3417 : BitVec 32) : Fin 2 → Nat :=
  let c0_i32_1819 : BitVec 32 := 0#32
  ![v3417.toNat, 0]

def k0_off673 (i : grid0.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v3424 : BitVec 32 := Scalar.addi v0 c231_i32
  let v3425 : Index := Scalar.indexCast v3424
  ![v3425.toNat]
def k0_off674 (v3426 : BitVec 32) : Fin 2 → Nat :=
  let c0_i32_1823 : BitVec 32 := 0#32
  ![v3426.toNat, 0]

def k0_off675 (i : grid0.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v3433 : BitVec 32 := Scalar.addi v0 c232_i32
  let v3434 : Index := Scalar.indexCast v3433
  ![v3434.toNat]
def k0_off676 (v3435 : BitVec 32) : Fin 2 → Nat :=
  let c0_i32_1827 : BitVec 32 := 0#32
  ![v3435.toNat, 0]

def k0_off677 (i : grid0.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v3442 : BitVec 32 := Scalar.addi v0 c233_i32
  let v3443 : Index := Scalar.indexCast v3442
  ![v3443.toNat]
def k0_off678 (v3444 : BitVec 32) : Fin 2 → Nat :=
  let c0_i32_1831 : BitVec 32 := 0#32
  ![v3444.toNat, 0]

def k0_off679 (i : grid0.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v3451 : BitVec 32 := Scalar.addi v0 c234_i32
  let v3452 : Index := Scalar.indexCast v3451
  ![v3452.toNat]
def k0_off680 (v3453 : BitVec 32) : Fin 2 → Nat :=
  let c0_i32_1835 : BitVec 32 := 0#32
  ![v3453.toNat, 0]

def k0_off681 (i : grid0.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v3460 : BitVec 32 := Scalar.addi v0 c235_i32
  let v3461 : Index := Scalar.indexCast v3460
  ![v3461.toNat]
def k0_off682 (v3462 : BitVec 32) : Fin 2 → Nat :=
  let c0_i32_1839 : BitVec 32 := 0#32
  ![v3462.toNat, 0]

def k0_off683 (i : grid0.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v3469 : BitVec 32 := Scalar.addi v0 c236_i32
  let v3470 : Index := Scalar.indexCast v3469
  ![v3470.toNat]
def k0_off684 (v3471 : BitVec 32) : Fin 2 → Nat :=
  let c0_i32_1843 : BitVec 32 := 0#32
  ![v3471.toNat, 0]

def k0_off685 (i : grid0.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v3478 : BitVec 32 := Scalar.addi v0 c237_i32
  let v3479 : Index := Scalar.indexCast v3478
  ![v3479.toNat]
def k0_off686 (v3480 : BitVec 32) : Fin 2 → Nat :=
  let c0_i32_1847 : BitVec 32 := 0#32
  ![v3480.toNat, 0]

def k0_off687 (i : grid0.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v3487 : BitVec 32 := Scalar.addi v0 c238_i32
  let v3488 : Index := Scalar.indexCast v3487
  ![v3488.toNat]
def k0_off688 (v3489 : BitVec 32) : Fin 2 → Nat :=
  let c0_i32_1851 : BitVec 32 := 0#32
  ![v3489.toNat, 0]

def k0_off689 (i : grid0.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v3496 : BitVec 32 := Scalar.addi v0 c239_i32
  let v3497 : Index := Scalar.indexCast v3496
  ![v3497.toNat]
def k0_off690 (v3498 : BitVec 32) : Fin 2 → Nat :=
  let c0_i32_1855 : BitVec 32 := 0#32
  ![v3498.toNat, 0]

def k0_chk240 (v3498 : BitVec 32) : Prop :=
  (∀ a, (k0_off690 v3498) a + S1x8192.size a ≤ S8192x8192.size a)
instance k0_chk240.dec : ∀ (v3498 : BitVec 32), Decidable (k0_chk240 v3498) := fun v3498 => decidable_of_iff' _ (Iff.of_eq (k0_chk240.eq_1 v3498))
theorem k0_off690_inb : ∀ (v3498 : BitVec 32) (k0_hw240 : k0_chk240 v3498), ∀ a, (k0_off690 v3498) a + S1x8192.size a ≤ S8192x8192.size a := fun v3498 k0_hw240 => k0_hw240

def k0_off691 (v3363 : BitVec 32) : Fin 2 → Nat :=
  let c0_i32_1859 : BitVec 32 := 0#32
  ![v3363.toNat, 0]

def k0_chk225 (v3363 : BitVec 32) : Prop :=
  (∀ a, (k0_off660 v3363) a + S1x8192.size a ≤ S8192x8192.size a) ∧
  (∀ a, (k0_off691 v3363) a + S1x8192.size a ≤ S8192x8192.size a)
instance k0_chk225.dec : ∀ (v3363 : BitVec 32), Decidable (k0_chk225 v3363) := fun v3363 => decidable_of_iff' _ (Iff.of_eq (k0_chk225.eq_1 v3363))
theorem k0_off660_inb : ∀ (v3363 : BitVec 32) (k0_hw225 : k0_chk225 v3363), ∀ a, (k0_off660 v3363) a + S1x8192.size a ≤ S8192x8192.size a := fun v3363 k0_hw225 => k0_hw225.1
theorem k0_off691_inb : ∀ (v3363 : BitVec 32) (k0_hw225 : k0_chk225 v3363), ∀ a, (k0_off691 v3363) a + S1x8192.size a ≤ S8192x8192.size a := fun v3363 k0_hw225 => k0_hw225.2

def k0_off692 (v3372 : BitVec 32) : Fin 2 → Nat :=
  let c0_i32_1863 : BitVec 32 := 0#32
  ![v3372.toNat, 0]

def k0_chk226 (v3372 : BitVec 32) : Prop :=
  (∀ a, (k0_off662 v3372) a + S1x8192.size a ≤ S8192x8192.size a) ∧
  (∀ a, (k0_off692 v3372) a + S1x8192.size a ≤ S8192x8192.size a)
instance k0_chk226.dec : ∀ (v3372 : BitVec 32), Decidable (k0_chk226 v3372) := fun v3372 => decidable_of_iff' _ (Iff.of_eq (k0_chk226.eq_1 v3372))
theorem k0_off662_inb : ∀ (v3372 : BitVec 32) (k0_hw226 : k0_chk226 v3372), ∀ a, (k0_off662 v3372) a + S1x8192.size a ≤ S8192x8192.size a := fun v3372 k0_hw226 => k0_hw226.1
theorem k0_off692_inb : ∀ (v3372 : BitVec 32) (k0_hw226 : k0_chk226 v3372), ∀ a, (k0_off692 v3372) a + S1x8192.size a ≤ S8192x8192.size a := fun v3372 k0_hw226 => k0_hw226.2

def k0_off693 (v3381 : BitVec 32) : Fin 2 → Nat :=
  let c0_i32_1867 : BitVec 32 := 0#32
  ![v3381.toNat, 0]

def k0_chk227 (v3381 : BitVec 32) : Prop :=
  (∀ a, (k0_off664 v3381) a + S1x8192.size a ≤ S8192x8192.size a) ∧
  (∀ a, (k0_off693 v3381) a + S1x8192.size a ≤ S8192x8192.size a)
instance k0_chk227.dec : ∀ (v3381 : BitVec 32), Decidable (k0_chk227 v3381) := fun v3381 => decidable_of_iff' _ (Iff.of_eq (k0_chk227.eq_1 v3381))
theorem k0_off664_inb : ∀ (v3381 : BitVec 32) (k0_hw227 : k0_chk227 v3381), ∀ a, (k0_off664 v3381) a + S1x8192.size a ≤ S8192x8192.size a := fun v3381 k0_hw227 => k0_hw227.1
theorem k0_off693_inb : ∀ (v3381 : BitVec 32) (k0_hw227 : k0_chk227 v3381), ∀ a, (k0_off693 v3381) a + S1x8192.size a ≤ S8192x8192.size a := fun v3381 k0_hw227 => k0_hw227.2

def k0_off694 (v3390 : BitVec 32) : Fin 2 → Nat :=
  let c0_i32_1871 : BitVec 32 := 0#32
  ![v3390.toNat, 0]

def k0_chk228 (v3390 : BitVec 32) : Prop :=
  (∀ a, (k0_off666 v3390) a + S1x8192.size a ≤ S8192x8192.size a) ∧
  (∀ a, (k0_off694 v3390) a + S1x8192.size a ≤ S8192x8192.size a)
instance k0_chk228.dec : ∀ (v3390 : BitVec 32), Decidable (k0_chk228 v3390) := fun v3390 => decidable_of_iff' _ (Iff.of_eq (k0_chk228.eq_1 v3390))
theorem k0_off666_inb : ∀ (v3390 : BitVec 32) (k0_hw228 : k0_chk228 v3390), ∀ a, (k0_off666 v3390) a + S1x8192.size a ≤ S8192x8192.size a := fun v3390 k0_hw228 => k0_hw228.1
theorem k0_off694_inb : ∀ (v3390 : BitVec 32) (k0_hw228 : k0_chk228 v3390), ∀ a, (k0_off694 v3390) a + S1x8192.size a ≤ S8192x8192.size a := fun v3390 k0_hw228 => k0_hw228.2

def k0_off695 (v3399 : BitVec 32) : Fin 2 → Nat :=
  let c0_i32_1875 : BitVec 32 := 0#32
  ![v3399.toNat, 0]

def k0_chk229 (v3399 : BitVec 32) : Prop :=
  (∀ a, (k0_off668 v3399) a + S1x8192.size a ≤ S8192x8192.size a) ∧
  (∀ a, (k0_off695 v3399) a + S1x8192.size a ≤ S8192x8192.size a)
instance k0_chk229.dec : ∀ (v3399 : BitVec 32), Decidable (k0_chk229 v3399) := fun v3399 => decidable_of_iff' _ (Iff.of_eq (k0_chk229.eq_1 v3399))
theorem k0_off668_inb : ∀ (v3399 : BitVec 32) (k0_hw229 : k0_chk229 v3399), ∀ a, (k0_off668 v3399) a + S1x8192.size a ≤ S8192x8192.size a := fun v3399 k0_hw229 => k0_hw229.1
theorem k0_off695_inb : ∀ (v3399 : BitVec 32) (k0_hw229 : k0_chk229 v3399), ∀ a, (k0_off695 v3399) a + S1x8192.size a ≤ S8192x8192.size a := fun v3399 k0_hw229 => k0_hw229.2

def k0_off696 (v3408 : BitVec 32) : Fin 2 → Nat :=
  let c0_i32_1879 : BitVec 32 := 0#32
  ![v3408.toNat, 0]

def k0_chk230 (v3408 : BitVec 32) : Prop :=
  (∀ a, (k0_off670 v3408) a + S1x8192.size a ≤ S8192x8192.size a) ∧
  (∀ a, (k0_off696 v3408) a + S1x8192.size a ≤ S8192x8192.size a)
instance k0_chk230.dec : ∀ (v3408 : BitVec 32), Decidable (k0_chk230 v3408) := fun v3408 => decidable_of_iff' _ (Iff.of_eq (k0_chk230.eq_1 v3408))
theorem k0_off670_inb : ∀ (v3408 : BitVec 32) (k0_hw230 : k0_chk230 v3408), ∀ a, (k0_off670 v3408) a + S1x8192.size a ≤ S8192x8192.size a := fun v3408 k0_hw230 => k0_hw230.1
theorem k0_off696_inb : ∀ (v3408 : BitVec 32) (k0_hw230 : k0_chk230 v3408), ∀ a, (k0_off696 v3408) a + S1x8192.size a ≤ S8192x8192.size a := fun v3408 k0_hw230 => k0_hw230.2

def k0_off697 (v3417 : BitVec 32) : Fin 2 → Nat :=
  let c0_i32_1883 : BitVec 32 := 0#32
  ![v3417.toNat, 0]

def k0_chk231 (v3417 : BitVec 32) : Prop :=
  (∀ a, (k0_off672 v3417) a + S1x8192.size a ≤ S8192x8192.size a) ∧
  (∀ a, (k0_off697 v3417) a + S1x8192.size a ≤ S8192x8192.size a)
instance k0_chk231.dec : ∀ (v3417 : BitVec 32), Decidable (k0_chk231 v3417) := fun v3417 => decidable_of_iff' _ (Iff.of_eq (k0_chk231.eq_1 v3417))
theorem k0_off672_inb : ∀ (v3417 : BitVec 32) (k0_hw231 : k0_chk231 v3417), ∀ a, (k0_off672 v3417) a + S1x8192.size a ≤ S8192x8192.size a := fun v3417 k0_hw231 => k0_hw231.1
theorem k0_off697_inb : ∀ (v3417 : BitVec 32) (k0_hw231 : k0_chk231 v3417), ∀ a, (k0_off697 v3417) a + S1x8192.size a ≤ S8192x8192.size a := fun v3417 k0_hw231 => k0_hw231.2

def k0_off698 (v3426 : BitVec 32) : Fin 2 → Nat :=
  let c0_i32_1887 : BitVec 32 := 0#32
  ![v3426.toNat, 0]

def k0_chk232 (v3426 : BitVec 32) : Prop :=
  (∀ a, (k0_off674 v3426) a + S1x8192.size a ≤ S8192x8192.size a) ∧
  (∀ a, (k0_off698 v3426) a + S1x8192.size a ≤ S8192x8192.size a)
instance k0_chk232.dec : ∀ (v3426 : BitVec 32), Decidable (k0_chk232 v3426) := fun v3426 => decidable_of_iff' _ (Iff.of_eq (k0_chk232.eq_1 v3426))
theorem k0_off674_inb : ∀ (v3426 : BitVec 32) (k0_hw232 : k0_chk232 v3426), ∀ a, (k0_off674 v3426) a + S1x8192.size a ≤ S8192x8192.size a := fun v3426 k0_hw232 => k0_hw232.1
theorem k0_off698_inb : ∀ (v3426 : BitVec 32) (k0_hw232 : k0_chk232 v3426), ∀ a, (k0_off698 v3426) a + S1x8192.size a ≤ S8192x8192.size a := fun v3426 k0_hw232 => k0_hw232.2

def k0_off699 (v3435 : BitVec 32) : Fin 2 → Nat :=
  let c0_i32_1891 : BitVec 32 := 0#32
  ![v3435.toNat, 0]

def k0_chk233 (v3435 : BitVec 32) : Prop :=
  (∀ a, (k0_off676 v3435) a + S1x8192.size a ≤ S8192x8192.size a) ∧
  (∀ a, (k0_off699 v3435) a + S1x8192.size a ≤ S8192x8192.size a)
instance k0_chk233.dec : ∀ (v3435 : BitVec 32), Decidable (k0_chk233 v3435) := fun v3435 => decidable_of_iff' _ (Iff.of_eq (k0_chk233.eq_1 v3435))
theorem k0_off676_inb : ∀ (v3435 : BitVec 32) (k0_hw233 : k0_chk233 v3435), ∀ a, (k0_off676 v3435) a + S1x8192.size a ≤ S8192x8192.size a := fun v3435 k0_hw233 => k0_hw233.1
theorem k0_off699_inb : ∀ (v3435 : BitVec 32) (k0_hw233 : k0_chk233 v3435), ∀ a, (k0_off699 v3435) a + S1x8192.size a ≤ S8192x8192.size a := fun v3435 k0_hw233 => k0_hw233.2

def k0_off700 (v3444 : BitVec 32) : Fin 2 → Nat :=
  let c0_i32_1895 : BitVec 32 := 0#32
  ![v3444.toNat, 0]

def k0_chk234 (v3444 : BitVec 32) : Prop :=
  (∀ a, (k0_off678 v3444) a + S1x8192.size a ≤ S8192x8192.size a) ∧
  (∀ a, (k0_off700 v3444) a + S1x8192.size a ≤ S8192x8192.size a)
instance k0_chk234.dec : ∀ (v3444 : BitVec 32), Decidable (k0_chk234 v3444) := fun v3444 => decidable_of_iff' _ (Iff.of_eq (k0_chk234.eq_1 v3444))
theorem k0_off678_inb : ∀ (v3444 : BitVec 32) (k0_hw234 : k0_chk234 v3444), ∀ a, (k0_off678 v3444) a + S1x8192.size a ≤ S8192x8192.size a := fun v3444 k0_hw234 => k0_hw234.1
theorem k0_off700_inb : ∀ (v3444 : BitVec 32) (k0_hw234 : k0_chk234 v3444), ∀ a, (k0_off700 v3444) a + S1x8192.size a ≤ S8192x8192.size a := fun v3444 k0_hw234 => k0_hw234.2

def k0_off701 (v3453 : BitVec 32) : Fin 2 → Nat :=
  let c0_i32_1899 : BitVec 32 := 0#32
  ![v3453.toNat, 0]

def k0_chk235 (v3453 : BitVec 32) : Prop :=
  (∀ a, (k0_off680 v3453) a + S1x8192.size a ≤ S8192x8192.size a) ∧
  (∀ a, (k0_off701 v3453) a + S1x8192.size a ≤ S8192x8192.size a)
instance k0_chk235.dec : ∀ (v3453 : BitVec 32), Decidable (k0_chk235 v3453) := fun v3453 => decidable_of_iff' _ (Iff.of_eq (k0_chk235.eq_1 v3453))
theorem k0_off680_inb : ∀ (v3453 : BitVec 32) (k0_hw235 : k0_chk235 v3453), ∀ a, (k0_off680 v3453) a + S1x8192.size a ≤ S8192x8192.size a := fun v3453 k0_hw235 => k0_hw235.1
theorem k0_off701_inb : ∀ (v3453 : BitVec 32) (k0_hw235 : k0_chk235 v3453), ∀ a, (k0_off701 v3453) a + S1x8192.size a ≤ S8192x8192.size a := fun v3453 k0_hw235 => k0_hw235.2

def k0_off702 (v3462 : BitVec 32) : Fin 2 → Nat :=
  let c0_i32_1903 : BitVec 32 := 0#32
  ![v3462.toNat, 0]

def k0_chk236 (v3462 : BitVec 32) : Prop :=
  (∀ a, (k0_off682 v3462) a + S1x8192.size a ≤ S8192x8192.size a) ∧
  (∀ a, (k0_off702 v3462) a + S1x8192.size a ≤ S8192x8192.size a)
instance k0_chk236.dec : ∀ (v3462 : BitVec 32), Decidable (k0_chk236 v3462) := fun v3462 => decidable_of_iff' _ (Iff.of_eq (k0_chk236.eq_1 v3462))
theorem k0_off682_inb : ∀ (v3462 : BitVec 32) (k0_hw236 : k0_chk236 v3462), ∀ a, (k0_off682 v3462) a + S1x8192.size a ≤ S8192x8192.size a := fun v3462 k0_hw236 => k0_hw236.1
theorem k0_off702_inb : ∀ (v3462 : BitVec 32) (k0_hw236 : k0_chk236 v3462), ∀ a, (k0_off702 v3462) a + S1x8192.size a ≤ S8192x8192.size a := fun v3462 k0_hw236 => k0_hw236.2

def k0_off703 (v3471 : BitVec 32) : Fin 2 → Nat :=
  let c0_i32_1907 : BitVec 32 := 0#32
  ![v3471.toNat, 0]

def k0_chk237 (v3471 : BitVec 32) : Prop :=
  (∀ a, (k0_off684 v3471) a + S1x8192.size a ≤ S8192x8192.size a) ∧
  (∀ a, (k0_off703 v3471) a + S1x8192.size a ≤ S8192x8192.size a)
instance k0_chk237.dec : ∀ (v3471 : BitVec 32), Decidable (k0_chk237 v3471) := fun v3471 => decidable_of_iff' _ (Iff.of_eq (k0_chk237.eq_1 v3471))
theorem k0_off684_inb : ∀ (v3471 : BitVec 32) (k0_hw237 : k0_chk237 v3471), ∀ a, (k0_off684 v3471) a + S1x8192.size a ≤ S8192x8192.size a := fun v3471 k0_hw237 => k0_hw237.1
theorem k0_off703_inb : ∀ (v3471 : BitVec 32) (k0_hw237 : k0_chk237 v3471), ∀ a, (k0_off703 v3471) a + S1x8192.size a ≤ S8192x8192.size a := fun v3471 k0_hw237 => k0_hw237.2

def k0_off704 (v3480 : BitVec 32) : Fin 2 → Nat :=
  let c0_i32_1911 : BitVec 32 := 0#32
  ![v3480.toNat, 0]

def k0_chk238 (v3480 : BitVec 32) : Prop :=
  (∀ a, (k0_off686 v3480) a + S1x8192.size a ≤ S8192x8192.size a) ∧
  (∀ a, (k0_off704 v3480) a + S1x8192.size a ≤ S8192x8192.size a)
instance k0_chk238.dec : ∀ (v3480 : BitVec 32), Decidable (k0_chk238 v3480) := fun v3480 => decidable_of_iff' _ (Iff.of_eq (k0_chk238.eq_1 v3480))
theorem k0_off686_inb : ∀ (v3480 : BitVec 32) (k0_hw238 : k0_chk238 v3480), ∀ a, (k0_off686 v3480) a + S1x8192.size a ≤ S8192x8192.size a := fun v3480 k0_hw238 => k0_hw238.1
theorem k0_off704_inb : ∀ (v3480 : BitVec 32) (k0_hw238 : k0_chk238 v3480), ∀ a, (k0_off704 v3480) a + S1x8192.size a ≤ S8192x8192.size a := fun v3480 k0_hw238 => k0_hw238.2

def k0_off705 (v3489 : BitVec 32) : Fin 2 → Nat :=
  let c0_i32_1915 : BitVec 32 := 0#32
  ![v3489.toNat, 0]

def k0_chk239 (v3489 : BitVec 32) : Prop :=
  (∀ a, (k0_off688 v3489) a + S1x8192.size a ≤ S8192x8192.size a) ∧
  (∀ a, (k0_off705 v3489) a + S1x8192.size a ≤ S8192x8192.size a)
instance k0_chk239.dec : ∀ (v3489 : BitVec 32), Decidable (k0_chk239 v3489) := fun v3489 => decidable_of_iff' _ (Iff.of_eq (k0_chk239.eq_1 v3489))
theorem k0_off688_inb : ∀ (v3489 : BitVec 32) (k0_hw239 : k0_chk239 v3489), ∀ a, (k0_off688 v3489) a + S1x8192.size a ≤ S8192x8192.size a := fun v3489 k0_hw239 => k0_hw239.1
theorem k0_off705_inb : ∀ (v3489 : BitVec 32) (k0_hw239 : k0_chk239 v3489), ∀ a, (k0_off705 v3489) a + S1x8192.size a ≤ S8192x8192.size a := fun v3489 k0_hw239 => k0_hw239.2

def k0_off706 (i : grid0.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v3601 : BitVec 32 := Scalar.addi v0 c240_i32
  let v3602 : Index := Scalar.indexCast v3601
  ![v3602.toNat]
def k0_off707 (v3603 : BitVec 32) : Fin 2 → Nat :=
  let c0_i32_1923 : BitVec 32 := 0#32
  ![v3603.toNat, 0]

def k0_off708 (i : grid0.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v3610 : BitVec 32 := Scalar.addi v0 c241_i32
  let v3611 : Index := Scalar.indexCast v3610
  ![v3611.toNat]
def k0_off709 (v3612 : BitVec 32) : Fin 2 → Nat :=
  let c0_i32_1927 : BitVec 32 := 0#32
  ![v3612.toNat, 0]

def k0_off710 (i : grid0.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v3619 : BitVec 32 := Scalar.addi v0 c242_i32
  let v3620 : Index := Scalar.indexCast v3619
  ![v3620.toNat]
def k0_off711 (v3621 : BitVec 32) : Fin 2 → Nat :=
  let c0_i32_1931 : BitVec 32 := 0#32
  ![v3621.toNat, 0]

def k0_off712 (i : grid0.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v3628 : BitVec 32 := Scalar.addi v0 c243_i32
  let v3629 : Index := Scalar.indexCast v3628
  ![v3629.toNat]
def k0_off713 (v3630 : BitVec 32) : Fin 2 → Nat :=
  let c0_i32_1935 : BitVec 32 := 0#32
  ![v3630.toNat, 0]

def k0_off714 (i : grid0.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v3637 : BitVec 32 := Scalar.addi v0 c244_i32
  let v3638 : Index := Scalar.indexCast v3637
  ![v3638.toNat]
def k0_off715 (v3639 : BitVec 32) : Fin 2 → Nat :=
  let c0_i32_1939 : BitVec 32 := 0#32
  ![v3639.toNat, 0]

def k0_off716 (i : grid0.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v3646 : BitVec 32 := Scalar.addi v0 c245_i32
  let v3647 : Index := Scalar.indexCast v3646
  ![v3647.toNat]
def k0_off717 (v3648 : BitVec 32) : Fin 2 → Nat :=
  let c0_i32_1943 : BitVec 32 := 0#32
  ![v3648.toNat, 0]

def k0_off718 (i : grid0.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v3655 : BitVec 32 := Scalar.addi v0 c246_i32
  let v3656 : Index := Scalar.indexCast v3655
  ![v3656.toNat]
def k0_off719 (v3657 : BitVec 32) : Fin 2 → Nat :=
  let c0_i32_1947 : BitVec 32 := 0#32
  ![v3657.toNat, 0]

def k0_off720 (i : grid0.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v3664 : BitVec 32 := Scalar.addi v0 c247_i32
  let v3665 : Index := Scalar.indexCast v3664
  ![v3665.toNat]
def k0_off721 (v3666 : BitVec 32) : Fin 2 → Nat :=
  let c0_i32_1951 : BitVec 32 := 0#32
  ![v3666.toNat, 0]

def k0_off722 (i : grid0.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v3673 : BitVec 32 := Scalar.addi v0 c248_i32
  let v3674 : Index := Scalar.indexCast v3673
  ![v3674.toNat]
def k0_off723 (v3675 : BitVec 32) : Fin 2 → Nat :=
  let c0_i32_1955 : BitVec 32 := 0#32
  ![v3675.toNat, 0]

def k0_off724 (i : grid0.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v3682 : BitVec 32 := Scalar.addi v0 c249_i32
  let v3683 : Index := Scalar.indexCast v3682
  ![v3683.toNat]
def k0_off725 (v3684 : BitVec 32) : Fin 2 → Nat :=
  let c0_i32_1959 : BitVec 32 := 0#32
  ![v3684.toNat, 0]

def k0_off726 (i : grid0.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v3691 : BitVec 32 := Scalar.addi v0 c250_i32
  let v3692 : Index := Scalar.indexCast v3691
  ![v3692.toNat]
def k0_off727 (v3693 : BitVec 32) : Fin 2 → Nat :=
  let c0_i32_1963 : BitVec 32 := 0#32
  ![v3693.toNat, 0]

def k0_off728 (i : grid0.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v3700 : BitVec 32 := Scalar.addi v0 c251_i32
  let v3701 : Index := Scalar.indexCast v3700
  ![v3701.toNat]
def k0_off729 (v3702 : BitVec 32) : Fin 2 → Nat :=
  let c0_i32_1967 : BitVec 32 := 0#32
  ![v3702.toNat, 0]

def k0_off730 (i : grid0.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v3709 : BitVec 32 := Scalar.addi v0 c252_i32
  let v3710 : Index := Scalar.indexCast v3709
  ![v3710.toNat]
def k0_off731 (v3711 : BitVec 32) : Fin 2 → Nat :=
  let c0_i32_1971 : BitVec 32 := 0#32
  ![v3711.toNat, 0]

def k0_off732 (i : grid0.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v3718 : BitVec 32 := Scalar.addi v0 c253_i32
  let v3719 : Index := Scalar.indexCast v3718
  ![v3719.toNat]
def k0_off733 (v3720 : BitVec 32) : Fin 2 → Nat :=
  let c0_i32_1975 : BitVec 32 := 0#32
  ![v3720.toNat, 0]

def k0_off734 (i : grid0.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v3727 : BitVec 32 := Scalar.addi v0 c254_i32
  let v3728 : Index := Scalar.indexCast v3727
  ![v3728.toNat]
def k0_off735 (v3729 : BitVec 32) : Fin 2 → Nat :=
  let c0_i32_1979 : BitVec 32 := 0#32
  ![v3729.toNat, 0]

def k0_off736 (i : grid0.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v3736 : BitVec 32 := Scalar.addi v0 c255_i32
  let v3737 : Index := Scalar.indexCast v3736
  ![v3737.toNat]
def k0_off737 (v3738 : BitVec 32) : Fin 2 → Nat :=
  let c0_i32_1983 : BitVec 32 := 0#32
  ![v3738.toNat, 0]

def k0_chk256 (v3738 : BitVec 32) : Prop :=
  (∀ a, (k0_off737 v3738) a + S1x8192.size a ≤ S8192x8192.size a)
instance k0_chk256.dec : ∀ (v3738 : BitVec 32), Decidable (k0_chk256 v3738) := fun v3738 => decidable_of_iff' _ (Iff.of_eq (k0_chk256.eq_1 v3738))
theorem k0_off737_inb : ∀ (v3738 : BitVec 32) (k0_hw256 : k0_chk256 v3738), ∀ a, (k0_off737 v3738) a + S1x8192.size a ≤ S8192x8192.size a := fun v3738 k0_hw256 => k0_hw256

def k0_off738 (v3603 : BitVec 32) : Fin 2 → Nat :=
  let c0_i32_1987 : BitVec 32 := 0#32
  ![v3603.toNat, 0]

def k0_chk241 (v3603 : BitVec 32) : Prop :=
  (∀ a, (k0_off707 v3603) a + S1x8192.size a ≤ S8192x8192.size a) ∧
  (∀ a, (k0_off738 v3603) a + S1x8192.size a ≤ S8192x8192.size a)
instance k0_chk241.dec : ∀ (v3603 : BitVec 32), Decidable (k0_chk241 v3603) := fun v3603 => decidable_of_iff' _ (Iff.of_eq (k0_chk241.eq_1 v3603))
theorem k0_off707_inb : ∀ (v3603 : BitVec 32) (k0_hw241 : k0_chk241 v3603), ∀ a, (k0_off707 v3603) a + S1x8192.size a ≤ S8192x8192.size a := fun v3603 k0_hw241 => k0_hw241.1
theorem k0_off738_inb : ∀ (v3603 : BitVec 32) (k0_hw241 : k0_chk241 v3603), ∀ a, (k0_off738 v3603) a + S1x8192.size a ≤ S8192x8192.size a := fun v3603 k0_hw241 => k0_hw241.2

def k0_off739 (v3612 : BitVec 32) : Fin 2 → Nat :=
  let c0_i32_1991 : BitVec 32 := 0#32
  ![v3612.toNat, 0]

def k0_chk242 (v3612 : BitVec 32) : Prop :=
  (∀ a, (k0_off709 v3612) a + S1x8192.size a ≤ S8192x8192.size a) ∧
  (∀ a, (k0_off739 v3612) a + S1x8192.size a ≤ S8192x8192.size a)
instance k0_chk242.dec : ∀ (v3612 : BitVec 32), Decidable (k0_chk242 v3612) := fun v3612 => decidable_of_iff' _ (Iff.of_eq (k0_chk242.eq_1 v3612))
theorem k0_off709_inb : ∀ (v3612 : BitVec 32) (k0_hw242 : k0_chk242 v3612), ∀ a, (k0_off709 v3612) a + S1x8192.size a ≤ S8192x8192.size a := fun v3612 k0_hw242 => k0_hw242.1
theorem k0_off739_inb : ∀ (v3612 : BitVec 32) (k0_hw242 : k0_chk242 v3612), ∀ a, (k0_off739 v3612) a + S1x8192.size a ≤ S8192x8192.size a := fun v3612 k0_hw242 => k0_hw242.2

def k0_off740 (v3621 : BitVec 32) : Fin 2 → Nat :=
  let c0_i32_1995 : BitVec 32 := 0#32
  ![v3621.toNat, 0]

def k0_chk243 (v3621 : BitVec 32) : Prop :=
  (∀ a, (k0_off711 v3621) a + S1x8192.size a ≤ S8192x8192.size a) ∧
  (∀ a, (k0_off740 v3621) a + S1x8192.size a ≤ S8192x8192.size a)
instance k0_chk243.dec : ∀ (v3621 : BitVec 32), Decidable (k0_chk243 v3621) := fun v3621 => decidable_of_iff' _ (Iff.of_eq (k0_chk243.eq_1 v3621))
theorem k0_off711_inb : ∀ (v3621 : BitVec 32) (k0_hw243 : k0_chk243 v3621), ∀ a, (k0_off711 v3621) a + S1x8192.size a ≤ S8192x8192.size a := fun v3621 k0_hw243 => k0_hw243.1
theorem k0_off740_inb : ∀ (v3621 : BitVec 32) (k0_hw243 : k0_chk243 v3621), ∀ a, (k0_off740 v3621) a + S1x8192.size a ≤ S8192x8192.size a := fun v3621 k0_hw243 => k0_hw243.2

def k0_off741 (v3630 : BitVec 32) : Fin 2 → Nat :=
  let c0_i32_1999 : BitVec 32 := 0#32
  ![v3630.toNat, 0]

def k0_chk244 (v3630 : BitVec 32) : Prop :=
  (∀ a, (k0_off713 v3630) a + S1x8192.size a ≤ S8192x8192.size a) ∧
  (∀ a, (k0_off741 v3630) a + S1x8192.size a ≤ S8192x8192.size a)
instance k0_chk244.dec : ∀ (v3630 : BitVec 32), Decidable (k0_chk244 v3630) := fun v3630 => decidable_of_iff' _ (Iff.of_eq (k0_chk244.eq_1 v3630))
theorem k0_off713_inb : ∀ (v3630 : BitVec 32) (k0_hw244 : k0_chk244 v3630), ∀ a, (k0_off713 v3630) a + S1x8192.size a ≤ S8192x8192.size a := fun v3630 k0_hw244 => k0_hw244.1
theorem k0_off741_inb : ∀ (v3630 : BitVec 32) (k0_hw244 : k0_chk244 v3630), ∀ a, (k0_off741 v3630) a + S1x8192.size a ≤ S8192x8192.size a := fun v3630 k0_hw244 => k0_hw244.2

def k0_off742 (v3639 : BitVec 32) : Fin 2 → Nat :=
  let c0_i32_2003 : BitVec 32 := 0#32
  ![v3639.toNat, 0]

def k0_chk245 (v3639 : BitVec 32) : Prop :=
  (∀ a, (k0_off715 v3639) a + S1x8192.size a ≤ S8192x8192.size a) ∧
  (∀ a, (k0_off742 v3639) a + S1x8192.size a ≤ S8192x8192.size a)
instance k0_chk245.dec : ∀ (v3639 : BitVec 32), Decidable (k0_chk245 v3639) := fun v3639 => decidable_of_iff' _ (Iff.of_eq (k0_chk245.eq_1 v3639))
theorem k0_off715_inb : ∀ (v3639 : BitVec 32) (k0_hw245 : k0_chk245 v3639), ∀ a, (k0_off715 v3639) a + S1x8192.size a ≤ S8192x8192.size a := fun v3639 k0_hw245 => k0_hw245.1
theorem k0_off742_inb : ∀ (v3639 : BitVec 32) (k0_hw245 : k0_chk245 v3639), ∀ a, (k0_off742 v3639) a + S1x8192.size a ≤ S8192x8192.size a := fun v3639 k0_hw245 => k0_hw245.2

def k0_off743 (v3648 : BitVec 32) : Fin 2 → Nat :=
  let c0_i32_2007 : BitVec 32 := 0#32
  ![v3648.toNat, 0]

def k0_chk246 (v3648 : BitVec 32) : Prop :=
  (∀ a, (k0_off717 v3648) a + S1x8192.size a ≤ S8192x8192.size a) ∧
  (∀ a, (k0_off743 v3648) a + S1x8192.size a ≤ S8192x8192.size a)
instance k0_chk246.dec : ∀ (v3648 : BitVec 32), Decidable (k0_chk246 v3648) := fun v3648 => decidable_of_iff' _ (Iff.of_eq (k0_chk246.eq_1 v3648))
theorem k0_off717_inb : ∀ (v3648 : BitVec 32) (k0_hw246 : k0_chk246 v3648), ∀ a, (k0_off717 v3648) a + S1x8192.size a ≤ S8192x8192.size a := fun v3648 k0_hw246 => k0_hw246.1
theorem k0_off743_inb : ∀ (v3648 : BitVec 32) (k0_hw246 : k0_chk246 v3648), ∀ a, (k0_off743 v3648) a + S1x8192.size a ≤ S8192x8192.size a := fun v3648 k0_hw246 => k0_hw246.2

def k0_off744 (v3657 : BitVec 32) : Fin 2 → Nat :=
  let c0_i32_2011 : BitVec 32 := 0#32
  ![v3657.toNat, 0]

def k0_chk247 (v3657 : BitVec 32) : Prop :=
  (∀ a, (k0_off719 v3657) a + S1x8192.size a ≤ S8192x8192.size a) ∧
  (∀ a, (k0_off744 v3657) a + S1x8192.size a ≤ S8192x8192.size a)
instance k0_chk247.dec : ∀ (v3657 : BitVec 32), Decidable (k0_chk247 v3657) := fun v3657 => decidable_of_iff' _ (Iff.of_eq (k0_chk247.eq_1 v3657))
theorem k0_off719_inb : ∀ (v3657 : BitVec 32) (k0_hw247 : k0_chk247 v3657), ∀ a, (k0_off719 v3657) a + S1x8192.size a ≤ S8192x8192.size a := fun v3657 k0_hw247 => k0_hw247.1
theorem k0_off744_inb : ∀ (v3657 : BitVec 32) (k0_hw247 : k0_chk247 v3657), ∀ a, (k0_off744 v3657) a + S1x8192.size a ≤ S8192x8192.size a := fun v3657 k0_hw247 => k0_hw247.2

def k0_off745 (v3666 : BitVec 32) : Fin 2 → Nat :=
  let c0_i32_2015 : BitVec 32 := 0#32
  ![v3666.toNat, 0]

def k0_chk248 (v3666 : BitVec 32) : Prop :=
  (∀ a, (k0_off721 v3666) a + S1x8192.size a ≤ S8192x8192.size a) ∧
  (∀ a, (k0_off745 v3666) a + S1x8192.size a ≤ S8192x8192.size a)
instance k0_chk248.dec : ∀ (v3666 : BitVec 32), Decidable (k0_chk248 v3666) := fun v3666 => decidable_of_iff' _ (Iff.of_eq (k0_chk248.eq_1 v3666))
theorem k0_off721_inb : ∀ (v3666 : BitVec 32) (k0_hw248 : k0_chk248 v3666), ∀ a, (k0_off721 v3666) a + S1x8192.size a ≤ S8192x8192.size a := fun v3666 k0_hw248 => k0_hw248.1
theorem k0_off745_inb : ∀ (v3666 : BitVec 32) (k0_hw248 : k0_chk248 v3666), ∀ a, (k0_off745 v3666) a + S1x8192.size a ≤ S8192x8192.size a := fun v3666 k0_hw248 => k0_hw248.2

def k0_off746 (v3675 : BitVec 32) : Fin 2 → Nat :=
  let c0_i32_2019 : BitVec 32 := 0#32
  ![v3675.toNat, 0]

def k0_chk249 (v3675 : BitVec 32) : Prop :=
  (∀ a, (k0_off723 v3675) a + S1x8192.size a ≤ S8192x8192.size a) ∧
  (∀ a, (k0_off746 v3675) a + S1x8192.size a ≤ S8192x8192.size a)
instance k0_chk249.dec : ∀ (v3675 : BitVec 32), Decidable (k0_chk249 v3675) := fun v3675 => decidable_of_iff' _ (Iff.of_eq (k0_chk249.eq_1 v3675))
theorem k0_off723_inb : ∀ (v3675 : BitVec 32) (k0_hw249 : k0_chk249 v3675), ∀ a, (k0_off723 v3675) a + S1x8192.size a ≤ S8192x8192.size a := fun v3675 k0_hw249 => k0_hw249.1
theorem k0_off746_inb : ∀ (v3675 : BitVec 32) (k0_hw249 : k0_chk249 v3675), ∀ a, (k0_off746 v3675) a + S1x8192.size a ≤ S8192x8192.size a := fun v3675 k0_hw249 => k0_hw249.2

def k0_off747 (v3684 : BitVec 32) : Fin 2 → Nat :=
  let c0_i32_2023 : BitVec 32 := 0#32
  ![v3684.toNat, 0]

def k0_chk250 (v3684 : BitVec 32) : Prop :=
  (∀ a, (k0_off725 v3684) a + S1x8192.size a ≤ S8192x8192.size a) ∧
  (∀ a, (k0_off747 v3684) a + S1x8192.size a ≤ S8192x8192.size a)
instance k0_chk250.dec : ∀ (v3684 : BitVec 32), Decidable (k0_chk250 v3684) := fun v3684 => decidable_of_iff' _ (Iff.of_eq (k0_chk250.eq_1 v3684))
theorem k0_off725_inb : ∀ (v3684 : BitVec 32) (k0_hw250 : k0_chk250 v3684), ∀ a, (k0_off725 v3684) a + S1x8192.size a ≤ S8192x8192.size a := fun v3684 k0_hw250 => k0_hw250.1
theorem k0_off747_inb : ∀ (v3684 : BitVec 32) (k0_hw250 : k0_chk250 v3684), ∀ a, (k0_off747 v3684) a + S1x8192.size a ≤ S8192x8192.size a := fun v3684 k0_hw250 => k0_hw250.2

def k0_off748 (v3693 : BitVec 32) : Fin 2 → Nat :=
  let c0_i32_2027 : BitVec 32 := 0#32
  ![v3693.toNat, 0]

def k0_chk251 (v3693 : BitVec 32) : Prop :=
  (∀ a, (k0_off727 v3693) a + S1x8192.size a ≤ S8192x8192.size a) ∧
  (∀ a, (k0_off748 v3693) a + S1x8192.size a ≤ S8192x8192.size a)
instance k0_chk251.dec : ∀ (v3693 : BitVec 32), Decidable (k0_chk251 v3693) := fun v3693 => decidable_of_iff' _ (Iff.of_eq (k0_chk251.eq_1 v3693))
theorem k0_off727_inb : ∀ (v3693 : BitVec 32) (k0_hw251 : k0_chk251 v3693), ∀ a, (k0_off727 v3693) a + S1x8192.size a ≤ S8192x8192.size a := fun v3693 k0_hw251 => k0_hw251.1
theorem k0_off748_inb : ∀ (v3693 : BitVec 32) (k0_hw251 : k0_chk251 v3693), ∀ a, (k0_off748 v3693) a + S1x8192.size a ≤ S8192x8192.size a := fun v3693 k0_hw251 => k0_hw251.2

def k0_off749 (v3702 : BitVec 32) : Fin 2 → Nat :=
  let c0_i32_2031 : BitVec 32 := 0#32
  ![v3702.toNat, 0]

def k0_chk252 (v3702 : BitVec 32) : Prop :=
  (∀ a, (k0_off729 v3702) a + S1x8192.size a ≤ S8192x8192.size a) ∧
  (∀ a, (k0_off749 v3702) a + S1x8192.size a ≤ S8192x8192.size a)
instance k0_chk252.dec : ∀ (v3702 : BitVec 32), Decidable (k0_chk252 v3702) := fun v3702 => decidable_of_iff' _ (Iff.of_eq (k0_chk252.eq_1 v3702))
theorem k0_off729_inb : ∀ (v3702 : BitVec 32) (k0_hw252 : k0_chk252 v3702), ∀ a, (k0_off729 v3702) a + S1x8192.size a ≤ S8192x8192.size a := fun v3702 k0_hw252 => k0_hw252.1
theorem k0_off749_inb : ∀ (v3702 : BitVec 32) (k0_hw252 : k0_chk252 v3702), ∀ a, (k0_off749 v3702) a + S1x8192.size a ≤ S8192x8192.size a := fun v3702 k0_hw252 => k0_hw252.2

def k0_off750 (v3711 : BitVec 32) : Fin 2 → Nat :=
  let c0_i32_2035 : BitVec 32 := 0#32
  ![v3711.toNat, 0]

def k0_chk253 (v3711 : BitVec 32) : Prop :=
  (∀ a, (k0_off731 v3711) a + S1x8192.size a ≤ S8192x8192.size a) ∧
  (∀ a, (k0_off750 v3711) a + S1x8192.size a ≤ S8192x8192.size a)
instance k0_chk253.dec : ∀ (v3711 : BitVec 32), Decidable (k0_chk253 v3711) := fun v3711 => decidable_of_iff' _ (Iff.of_eq (k0_chk253.eq_1 v3711))
theorem k0_off731_inb : ∀ (v3711 : BitVec 32) (k0_hw253 : k0_chk253 v3711), ∀ a, (k0_off731 v3711) a + S1x8192.size a ≤ S8192x8192.size a := fun v3711 k0_hw253 => k0_hw253.1
theorem k0_off750_inb : ∀ (v3711 : BitVec 32) (k0_hw253 : k0_chk253 v3711), ∀ a, (k0_off750 v3711) a + S1x8192.size a ≤ S8192x8192.size a := fun v3711 k0_hw253 => k0_hw253.2

def k0_off751 (v3720 : BitVec 32) : Fin 2 → Nat :=
  let c0_i32_2039 : BitVec 32 := 0#32
  ![v3720.toNat, 0]

def k0_chk254 (v3720 : BitVec 32) : Prop :=
  (∀ a, (k0_off733 v3720) a + S1x8192.size a ≤ S8192x8192.size a) ∧
  (∀ a, (k0_off751 v3720) a + S1x8192.size a ≤ S8192x8192.size a)
instance k0_chk254.dec : ∀ (v3720 : BitVec 32), Decidable (k0_chk254 v3720) := fun v3720 => decidable_of_iff' _ (Iff.of_eq (k0_chk254.eq_1 v3720))
theorem k0_off733_inb : ∀ (v3720 : BitVec 32) (k0_hw254 : k0_chk254 v3720), ∀ a, (k0_off733 v3720) a + S1x8192.size a ≤ S8192x8192.size a := fun v3720 k0_hw254 => k0_hw254.1
theorem k0_off751_inb : ∀ (v3720 : BitVec 32) (k0_hw254 : k0_chk254 v3720), ∀ a, (k0_off751 v3720) a + S1x8192.size a ≤ S8192x8192.size a := fun v3720 k0_hw254 => k0_hw254.2

def k0_off752 (v3729 : BitVec 32) : Fin 2 → Nat :=
  let c0_i32_2043 : BitVec 32 := 0#32
  ![v3729.toNat, 0]

def k0_chk255 (v3729 : BitVec 32) : Prop :=
  (∀ a, (k0_off735 v3729) a + S1x8192.size a ≤ S8192x8192.size a) ∧
  (∀ a, (k0_off752 v3729) a + S1x8192.size a ≤ S8192x8192.size a)
instance k0_chk255.dec : ∀ (v3729 : BitVec 32), Decidable (k0_chk255 v3729) := fun v3729 => decidable_of_iff' _ (Iff.of_eq (k0_chk255.eq_1 v3729))
theorem k0_off735_inb : ∀ (v3729 : BitVec 32) (k0_hw255 : k0_chk255 v3729), ∀ a, (k0_off735 v3729) a + S1x8192.size a ≤ S8192x8192.size a := fun v3729 k0_hw255 => k0_hw255.1
theorem k0_off752_inb : ∀ (v3729 : BitVec 32) (k0_hw255 : k0_chk255 v3729), ∀ a, (k0_off752 v3729) a + S1x8192.size a ≤ S8192x8192.size a := fun v3729 k0_hw255 => k0_hw255.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S8x512_S4096 : S8x512.ShapeCasts S4096
  numel1_S1 : S1.numel = 1
  inb_S16_S1_0 : ∀ a, (![0] : Fin 1 → Nat) a + S1.size a ≤ S16.size a
  squeezes_S1_S_ : S1.Squeezes S_
  inb_S256x8192_S1x8192_0_0 : ∀ a, (![0, 0] : Fin 2 → Nat) a + S1x8192.size a ≤ S256x8192.size a
  squeezes_S1x8192_S8192 : S1x8192.Squeezes S8192
  inb_S16_S1_1 : ∀ a, (![1] : Fin 1 → Nat) a + S1.size a ≤ S16.size a
  inb_S256x8192_S1x8192_1_0 : ∀ a, (![1, 0] : Fin 2 → Nat) a + S1x8192.size a ≤ S256x8192.size a
  inb_S16_S1_2 : ∀ a, (![2] : Fin 1 → Nat) a + S1.size a ≤ S16.size a
  inb_S256x8192_S1x8192_2_0 : ∀ a, (![2, 0] : Fin 2 → Nat) a + S1x8192.size a ≤ S256x8192.size a
  inb_S16_S1_3 : ∀ a, (![3] : Fin 1 → Nat) a + S1.size a ≤ S16.size a
  inb_S256x8192_S1x8192_3_0 : ∀ a, (![3, 0] : Fin 2 → Nat) a + S1x8192.size a ≤ S256x8192.size a
  inb_S16_S1_4 : ∀ a, (![4] : Fin 1 → Nat) a + S1.size a ≤ S16.size a
  inb_S256x8192_S1x8192_4_0 : ∀ a, (![4, 0] : Fin 2 → Nat) a + S1x8192.size a ≤ S256x8192.size a
  inb_S16_S1_5 : ∀ a, (![5] : Fin 1 → Nat) a + S1.size a ≤ S16.size a
  inb_S256x8192_S1x8192_5_0 : ∀ a, (![5, 0] : Fin 2 → Nat) a + S1x8192.size a ≤ S256x8192.size a
  inb_S16_S1_6 : ∀ a, (![6] : Fin 1 → Nat) a + S1.size a ≤ S16.size a
  inb_S256x8192_S1x8192_6_0 : ∀ a, (![6, 0] : Fin 2 → Nat) a + S1x8192.size a ≤ S256x8192.size a
  inb_S16_S1_7 : ∀ a, (![7] : Fin 1 → Nat) a + S1.size a ≤ S16.size a
  inb_S256x8192_S1x8192_7_0 : ∀ a, (![7, 0] : Fin 2 → Nat) a + S1x8192.size a ≤ S256x8192.size a
  inb_S16_S1_8 : ∀ a, (![8] : Fin 1 → Nat) a + S1.size a ≤ S16.size a
  inb_S256x8192_S1x8192_8_0 : ∀ a, (![8, 0] : Fin 2 → Nat) a + S1x8192.size a ≤ S256x8192.size a
  inb_S16_S1_9 : ∀ a, (![9] : Fin 1 → Nat) a + S1.size a ≤ S16.size a
  inb_S256x8192_S1x8192_9_0 : ∀ a, (![9, 0] : Fin 2 → Nat) a + S1x8192.size a ≤ S256x8192.size a
  inb_S16_S1_10 : ∀ a, (![10] : Fin 1 → Nat) a + S1.size a ≤ S16.size a
  inb_S256x8192_S1x8192_10_0 : ∀ a, (![10, 0] : Fin 2 → Nat) a + S1x8192.size a ≤ S256x8192.size a
  inb_S16_S1_11 : ∀ a, (![11] : Fin 1 → Nat) a + S1.size a ≤ S16.size a
  inb_S256x8192_S1x8192_11_0 : ∀ a, (![11, 0] : Fin 2 → Nat) a + S1x8192.size a ≤ S256x8192.size a
  inb_S16_S1_12 : ∀ a, (![12] : Fin 1 → Nat) a + S1.size a ≤ S16.size a
  inb_S256x8192_S1x8192_12_0 : ∀ a, (![12, 0] : Fin 2 → Nat) a + S1x8192.size a ≤ S256x8192.size a
  inb_S16_S1_13 : ∀ a, (![13] : Fin 1 → Nat) a + S1.size a ≤ S16.size a
  inb_S256x8192_S1x8192_13_0 : ∀ a, (![13, 0] : Fin 2 → Nat) a + S1x8192.size a ≤ S256x8192.size a
  inb_S16_S1_14 : ∀ a, (![14] : Fin 1 → Nat) a + S1.size a ≤ S16.size a
  inb_S256x8192_S1x8192_14_0 : ∀ a, (![14, 0] : Fin 2 → Nat) a + S1x8192.size a ≤ S256x8192.size a
  inb_S16_S1_15 : ∀ a, (![15] : Fin 1 → Nat) a + S1.size a ≤ S16.size a
  inb_S256x8192_S1x8192_15_0 : ∀ a, (![15, 0] : Fin 2 → Nat) a + S1x8192.size a ≤ S256x8192.size a
  inb_S256x8192_S1x8192_16_0 : ∀ a, (![16, 0] : Fin 2 → Nat) a + S1x8192.size a ≤ S256x8192.size a
  inb_S256x8192_S1x8192_17_0 : ∀ a, (![17, 0] : Fin 2 → Nat) a + S1x8192.size a ≤ S256x8192.size a
  inb_S256x8192_S1x8192_18_0 : ∀ a, (![18, 0] : Fin 2 → Nat) a + S1x8192.size a ≤ S256x8192.size a
  inb_S256x8192_S1x8192_19_0 : ∀ a, (![19, 0] : Fin 2 → Nat) a + S1x8192.size a ≤ S256x8192.size a
  inb_S256x8192_S1x8192_20_0 : ∀ a, (![20, 0] : Fin 2 → Nat) a + S1x8192.size a ≤ S256x8192.size a
  inb_S256x8192_S1x8192_21_0 : ∀ a, (![21, 0] : Fin 2 → Nat) a + S1x8192.size a ≤ S256x8192.size a
  inb_S256x8192_S1x8192_22_0 : ∀ a, (![22, 0] : Fin 2 → Nat) a + S1x8192.size a ≤ S256x8192.size a
  inb_S256x8192_S1x8192_23_0 : ∀ a, (![23, 0] : Fin 2 → Nat) a + S1x8192.size a ≤ S256x8192.size a
  inb_S256x8192_S1x8192_24_0 : ∀ a, (![24, 0] : Fin 2 → Nat) a + S1x8192.size a ≤ S256x8192.size a
  inb_S256x8192_S1x8192_25_0 : ∀ a, (![25, 0] : Fin 2 → Nat) a + S1x8192.size a ≤ S256x8192.size a
  inb_S256x8192_S1x8192_26_0 : ∀ a, (![26, 0] : Fin 2 → Nat) a + S1x8192.size a ≤ S256x8192.size a
  inb_S256x8192_S1x8192_27_0 : ∀ a, (![27, 0] : Fin 2 → Nat) a + S1x8192.size a ≤ S256x8192.size a
  inb_S256x8192_S1x8192_28_0 : ∀ a, (![28, 0] : Fin 2 → Nat) a + S1x8192.size a ≤ S256x8192.size a
  inb_S256x8192_S1x8192_29_0 : ∀ a, (![29, 0] : Fin 2 → Nat) a + S1x8192.size a ≤ S256x8192.size a
  inb_S256x8192_S1x8192_30_0 : ∀ a, (![30, 0] : Fin 2 → Nat) a + S1x8192.size a ≤ S256x8192.size a
  inb_S256x8192_S1x8192_31_0 : ∀ a, (![31, 0] : Fin 2 → Nat) a + S1x8192.size a ≤ S256x8192.size a
  inb_S256x8192_S1x8192_32_0 : ∀ a, (![32, 0] : Fin 2 → Nat) a + S1x8192.size a ≤ S256x8192.size a
  inb_S256x8192_S1x8192_33_0 : ∀ a, (![33, 0] : Fin 2 → Nat) a + S1x8192.size a ≤ S256x8192.size a
  inb_S256x8192_S1x8192_34_0 : ∀ a, (![34, 0] : Fin 2 → Nat) a + S1x8192.size a ≤ S256x8192.size a
  inb_S256x8192_S1x8192_35_0 : ∀ a, (![35, 0] : Fin 2 → Nat) a + S1x8192.size a ≤ S256x8192.size a
  inb_S256x8192_S1x8192_36_0 : ∀ a, (![36, 0] : Fin 2 → Nat) a + S1x8192.size a ≤ S256x8192.size a
  inb_S256x8192_S1x8192_37_0 : ∀ a, (![37, 0] : Fin 2 → Nat) a + S1x8192.size a ≤ S256x8192.size a
  inb_S256x8192_S1x8192_38_0 : ∀ a, (![38, 0] : Fin 2 → Nat) a + S1x8192.size a ≤ S256x8192.size a
  inb_S256x8192_S1x8192_39_0 : ∀ a, (![39, 0] : Fin 2 → Nat) a + S1x8192.size a ≤ S256x8192.size a
  inb_S256x8192_S1x8192_40_0 : ∀ a, (![40, 0] : Fin 2 → Nat) a + S1x8192.size a ≤ S256x8192.size a
  inb_S256x8192_S1x8192_41_0 : ∀ a, (![41, 0] : Fin 2 → Nat) a + S1x8192.size a ≤ S256x8192.size a
  inb_S256x8192_S1x8192_42_0 : ∀ a, (![42, 0] : Fin 2 → Nat) a + S1x8192.size a ≤ S256x8192.size a
  inb_S256x8192_S1x8192_43_0 : ∀ a, (![43, 0] : Fin 2 → Nat) a + S1x8192.size a ≤ S256x8192.size a
  inb_S256x8192_S1x8192_44_0 : ∀ a, (![44, 0] : Fin 2 → Nat) a + S1x8192.size a ≤ S256x8192.size a
  inb_S256x8192_S1x8192_45_0 : ∀ a, (![45, 0] : Fin 2 → Nat) a + S1x8192.size a ≤ S256x8192.size a
  inb_S256x8192_S1x8192_46_0 : ∀ a, (![46, 0] : Fin 2 → Nat) a + S1x8192.size a ≤ S256x8192.size a
  inb_S256x8192_S1x8192_47_0 : ∀ a, (![47, 0] : Fin 2 → Nat) a + S1x8192.size a ≤ S256x8192.size a
  inb_S256x8192_S1x8192_48_0 : ∀ a, (![48, 0] : Fin 2 → Nat) a + S1x8192.size a ≤ S256x8192.size a
  inb_S256x8192_S1x8192_49_0 : ∀ a, (![49, 0] : Fin 2 → Nat) a + S1x8192.size a ≤ S256x8192.size a
  inb_S256x8192_S1x8192_50_0 : ∀ a, (![50, 0] : Fin 2 → Nat) a + S1x8192.size a ≤ S256x8192.size a
  inb_S256x8192_S1x8192_51_0 : ∀ a, (![51, 0] : Fin 2 → Nat) a + S1x8192.size a ≤ S256x8192.size a
  inb_S256x8192_S1x8192_52_0 : ∀ a, (![52, 0] : Fin 2 → Nat) a + S1x8192.size a ≤ S256x8192.size a
  inb_S256x8192_S1x8192_53_0 : ∀ a, (![53, 0] : Fin 2 → Nat) a + S1x8192.size a ≤ S256x8192.size a
  inb_S256x8192_S1x8192_54_0 : ∀ a, (![54, 0] : Fin 2 → Nat) a + S1x8192.size a ≤ S256x8192.size a
  inb_S256x8192_S1x8192_55_0 : ∀ a, (![55, 0] : Fin 2 → Nat) a + S1x8192.size a ≤ S256x8192.size a
  inb_S256x8192_S1x8192_56_0 : ∀ a, (![56, 0] : Fin 2 → Nat) a + S1x8192.size a ≤ S256x8192.size a
  inb_S256x8192_S1x8192_57_0 : ∀ a, (![57, 0] : Fin 2 → Nat) a + S1x8192.size a ≤ S256x8192.size a
  inb_S256x8192_S1x8192_58_0 : ∀ a, (![58, 0] : Fin 2 → Nat) a + S1x8192.size a ≤ S256x8192.size a
  inb_S256x8192_S1x8192_59_0 : ∀ a, (![59, 0] : Fin 2 → Nat) a + S1x8192.size a ≤ S256x8192.size a
  inb_S256x8192_S1x8192_60_0 : ∀ a, (![60, 0] : Fin 2 → Nat) a + S1x8192.size a ≤ S256x8192.size a
  inb_S256x8192_S1x8192_61_0 : ∀ a, (![61, 0] : Fin 2 → Nat) a + S1x8192.size a ≤ S256x8192.size a
  inb_S256x8192_S1x8192_62_0 : ∀ a, (![62, 0] : Fin 2 → Nat) a + S1x8192.size a ≤ S256x8192.size a
  inb_S256x8192_S1x8192_63_0 : ∀ a, (![63, 0] : Fin 2 → Nat) a + S1x8192.size a ≤ S256x8192.size a
  inb_S256x8192_S1x8192_64_0 : ∀ a, (![64, 0] : Fin 2 → Nat) a + S1x8192.size a ≤ S256x8192.size a
  inb_S256x8192_S1x8192_65_0 : ∀ a, (![65, 0] : Fin 2 → Nat) a + S1x8192.size a ≤ S256x8192.size a
  inb_S256x8192_S1x8192_66_0 : ∀ a, (![66, 0] : Fin 2 → Nat) a + S1x8192.size a ≤ S256x8192.size a
  inb_S256x8192_S1x8192_67_0 : ∀ a, (![67, 0] : Fin 2 → Nat) a + S1x8192.size a ≤ S256x8192.size a
  inb_S256x8192_S1x8192_68_0 : ∀ a, (![68, 0] : Fin 2 → Nat) a + S1x8192.size a ≤ S256x8192.size a
  inb_S256x8192_S1x8192_69_0 : ∀ a, (![69, 0] : Fin 2 → Nat) a + S1x8192.size a ≤ S256x8192.size a
  inb_S256x8192_S1x8192_70_0 : ∀ a, (![70, 0] : Fin 2 → Nat) a + S1x8192.size a ≤ S256x8192.size a
  inb_S256x8192_S1x8192_71_0 : ∀ a, (![71, 0] : Fin 2 → Nat) a + S1x8192.size a ≤ S256x8192.size a
  inb_S256x8192_S1x8192_72_0 : ∀ a, (![72, 0] : Fin 2 → Nat) a + S1x8192.size a ≤ S256x8192.size a
  inb_S256x8192_S1x8192_73_0 : ∀ a, (![73, 0] : Fin 2 → Nat) a + S1x8192.size a ≤ S256x8192.size a
  inb_S256x8192_S1x8192_74_0 : ∀ a, (![74, 0] : Fin 2 → Nat) a + S1x8192.size a ≤ S256x8192.size a
  inb_S256x8192_S1x8192_75_0 : ∀ a, (![75, 0] : Fin 2 → Nat) a + S1x8192.size a ≤ S256x8192.size a
  inb_S256x8192_S1x8192_76_0 : ∀ a, (![76, 0] : Fin 2 → Nat) a + S1x8192.size a ≤ S256x8192.size a
  inb_S256x8192_S1x8192_77_0 : ∀ a, (![77, 0] : Fin 2 → Nat) a + S1x8192.size a ≤ S256x8192.size a
  inb_S256x8192_S1x8192_78_0 : ∀ a, (![78, 0] : Fin 2 → Nat) a + S1x8192.size a ≤ S256x8192.size a
  inb_S256x8192_S1x8192_79_0 : ∀ a, (![79, 0] : Fin 2 → Nat) a + S1x8192.size a ≤ S256x8192.size a
  inb_S256x8192_S1x8192_80_0 : ∀ a, (![80, 0] : Fin 2 → Nat) a + S1x8192.size a ≤ S256x8192.size a
  inb_S256x8192_S1x8192_81_0 : ∀ a, (![81, 0] : Fin 2 → Nat) a + S1x8192.size a ≤ S256x8192.size a
  inb_S256x8192_S1x8192_82_0 : ∀ a, (![82, 0] : Fin 2 → Nat) a + S1x8192.size a ≤ S256x8192.size a
  inb_S256x8192_S1x8192_83_0 : ∀ a, (![83, 0] : Fin 2 → Nat) a + S1x8192.size a ≤ S256x8192.size a
  inb_S256x8192_S1x8192_84_0 : ∀ a, (![84, 0] : Fin 2 → Nat) a + S1x8192.size a ≤ S256x8192.size a
  inb_S256x8192_S1x8192_85_0 : ∀ a, (![85, 0] : Fin 2 → Nat) a + S1x8192.size a ≤ S256x8192.size a
  inb_S256x8192_S1x8192_86_0 : ∀ a, (![86, 0] : Fin 2 → Nat) a + S1x8192.size a ≤ S256x8192.size a
  inb_S256x8192_S1x8192_87_0 : ∀ a, (![87, 0] : Fin 2 → Nat) a + S1x8192.size a ≤ S256x8192.size a
  inb_S256x8192_S1x8192_88_0 : ∀ a, (![88, 0] : Fin 2 → Nat) a + S1x8192.size a ≤ S256x8192.size a
  inb_S256x8192_S1x8192_89_0 : ∀ a, (![89, 0] : Fin 2 → Nat) a + S1x8192.size a ≤ S256x8192.size a
  inb_S256x8192_S1x8192_90_0 : ∀ a, (![90, 0] : Fin 2 → Nat) a + S1x8192.size a ≤ S256x8192.size a
  inb_S256x8192_S1x8192_91_0 : ∀ a, (![91, 0] : Fin 2 → Nat) a + S1x8192.size a ≤ S256x8192.size a
  inb_S256x8192_S1x8192_92_0 : ∀ a, (![92, 0] : Fin 2 → Nat) a + S1x8192.size a ≤ S256x8192.size a
  inb_S256x8192_S1x8192_93_0 : ∀ a, (![93, 0] : Fin 2 → Nat) a + S1x8192.size a ≤ S256x8192.size a
  inb_S256x8192_S1x8192_94_0 : ∀ a, (![94, 0] : Fin 2 → Nat) a + S1x8192.size a ≤ S256x8192.size a
  inb_S256x8192_S1x8192_95_0 : ∀ a, (![95, 0] : Fin 2 → Nat) a + S1x8192.size a ≤ S256x8192.size a
  inb_S256x8192_S1x8192_96_0 : ∀ a, (![96, 0] : Fin 2 → Nat) a + S1x8192.size a ≤ S256x8192.size a
  inb_S256x8192_S1x8192_97_0 : ∀ a, (![97, 0] : Fin 2 → Nat) a + S1x8192.size a ≤ S256x8192.size a
  inb_S256x8192_S1x8192_98_0 : ∀ a, (![98, 0] : Fin 2 → Nat) a + S1x8192.size a ≤ S256x8192.size a
  inb_S256x8192_S1x8192_99_0 : ∀ a, (![99, 0] : Fin 2 → Nat) a + S1x8192.size a ≤ S256x8192.size a
  inb_S256x8192_S1x8192_100_0 : ∀ a, (![100, 0] : Fin 2 → Nat) a + S1x8192.size a ≤ S256x8192.size a
  inb_S256x8192_S1x8192_101_0 : ∀ a, (![101, 0] : Fin 2 → Nat) a + S1x8192.size a ≤ S256x8192.size a
  inb_S256x8192_S1x8192_102_0 : ∀ a, (![102, 0] : Fin 2 → Nat) a + S1x8192.size a ≤ S256x8192.size a
  inb_S256x8192_S1x8192_103_0 : ∀ a, (![103, 0] : Fin 2 → Nat) a + S1x8192.size a ≤ S256x8192.size a
  inb_S256x8192_S1x8192_104_0 : ∀ a, (![104, 0] : Fin 2 → Nat) a + S1x8192.size a ≤ S256x8192.size a
  inb_S256x8192_S1x8192_105_0 : ∀ a, (![105, 0] : Fin 2 → Nat) a + S1x8192.size a ≤ S256x8192.size a
  inb_S256x8192_S1x8192_106_0 : ∀ a, (![106, 0] : Fin 2 → Nat) a + S1x8192.size a ≤ S256x8192.size a
  inb_S256x8192_S1x8192_107_0 : ∀ a, (![107, 0] : Fin 2 → Nat) a + S1x8192.size a ≤ S256x8192.size a
  inb_S256x8192_S1x8192_108_0 : ∀ a, (![108, 0] : Fin 2 → Nat) a + S1x8192.size a ≤ S256x8192.size a
  inb_S256x8192_S1x8192_109_0 : ∀ a, (![109, 0] : Fin 2 → Nat) a + S1x8192.size a ≤ S256x8192.size a
  inb_S256x8192_S1x8192_110_0 : ∀ a, (![110, 0] : Fin 2 → Nat) a + S1x8192.size a ≤ S256x8192.size a
  inb_S256x8192_S1x8192_111_0 : ∀ a, (![111, 0] : Fin 2 → Nat) a + S1x8192.size a ≤ S256x8192.size a
  inb_S256x8192_S1x8192_112_0 : ∀ a, (![112, 0] : Fin 2 → Nat) a + S1x8192.size a ≤ S256x8192.size a
  inb_S256x8192_S1x8192_113_0 : ∀ a, (![113, 0] : Fin 2 → Nat) a + S1x8192.size a ≤ S256x8192.size a
  inb_S256x8192_S1x8192_114_0 : ∀ a, (![114, 0] : Fin 2 → Nat) a + S1x8192.size a ≤ S256x8192.size a
  inb_S256x8192_S1x8192_115_0 : ∀ a, (![115, 0] : Fin 2 → Nat) a + S1x8192.size a ≤ S256x8192.size a
  inb_S256x8192_S1x8192_116_0 : ∀ a, (![116, 0] : Fin 2 → Nat) a + S1x8192.size a ≤ S256x8192.size a
  inb_S256x8192_S1x8192_117_0 : ∀ a, (![117, 0] : Fin 2 → Nat) a + S1x8192.size a ≤ S256x8192.size a
  inb_S256x8192_S1x8192_118_0 : ∀ a, (![118, 0] : Fin 2 → Nat) a + S1x8192.size a ≤ S256x8192.size a
  inb_S256x8192_S1x8192_119_0 : ∀ a, (![119, 0] : Fin 2 → Nat) a + S1x8192.size a ≤ S256x8192.size a
  inb_S256x8192_S1x8192_120_0 : ∀ a, (![120, 0] : Fin 2 → Nat) a + S1x8192.size a ≤ S256x8192.size a
  inb_S256x8192_S1x8192_121_0 : ∀ a, (![121, 0] : Fin 2 → Nat) a + S1x8192.size a ≤ S256x8192.size a
  inb_S256x8192_S1x8192_122_0 : ∀ a, (![122, 0] : Fin 2 → Nat) a + S1x8192.size a ≤ S256x8192.size a
  inb_S256x8192_S1x8192_123_0 : ∀ a, (![123, 0] : Fin 2 → Nat) a + S1x8192.size a ≤ S256x8192.size a
  inb_S256x8192_S1x8192_124_0 : ∀ a, (![124, 0] : Fin 2 → Nat) a + S1x8192.size a ≤ S256x8192.size a
  inb_S256x8192_S1x8192_125_0 : ∀ a, (![125, 0] : Fin 2 → Nat) a + S1x8192.size a ≤ S256x8192.size a
  inb_S256x8192_S1x8192_126_0 : ∀ a, (![126, 0] : Fin 2 → Nat) a + S1x8192.size a ≤ S256x8192.size a
  inb_S256x8192_S1x8192_127_0 : ∀ a, (![127, 0] : Fin 2 → Nat) a + S1x8192.size a ≤ S256x8192.size a
  inb_S256x8192_S1x8192_128_0 : ∀ a, (![128, 0] : Fin 2 → Nat) a + S1x8192.size a ≤ S256x8192.size a
  inb_S256x8192_S1x8192_129_0 : ∀ a, (![129, 0] : Fin 2 → Nat) a + S1x8192.size a ≤ S256x8192.size a
  inb_S256x8192_S1x8192_130_0 : ∀ a, (![130, 0] : Fin 2 → Nat) a + S1x8192.size a ≤ S256x8192.size a
  inb_S256x8192_S1x8192_131_0 : ∀ a, (![131, 0] : Fin 2 → Nat) a + S1x8192.size a ≤ S256x8192.size a
  inb_S256x8192_S1x8192_132_0 : ∀ a, (![132, 0] : Fin 2 → Nat) a + S1x8192.size a ≤ S256x8192.size a
  inb_S256x8192_S1x8192_133_0 : ∀ a, (![133, 0] : Fin 2 → Nat) a + S1x8192.size a ≤ S256x8192.size a
  inb_S256x8192_S1x8192_134_0 : ∀ a, (![134, 0] : Fin 2 → Nat) a + S1x8192.size a ≤ S256x8192.size a
  inb_S256x8192_S1x8192_135_0 : ∀ a, (![135, 0] : Fin 2 → Nat) a + S1x8192.size a ≤ S256x8192.size a
  inb_S256x8192_S1x8192_136_0 : ∀ a, (![136, 0] : Fin 2 → Nat) a + S1x8192.size a ≤ S256x8192.size a
  inb_S256x8192_S1x8192_137_0 : ∀ a, (![137, 0] : Fin 2 → Nat) a + S1x8192.size a ≤ S256x8192.size a
  inb_S256x8192_S1x8192_138_0 : ∀ a, (![138, 0] : Fin 2 → Nat) a + S1x8192.size a ≤ S256x8192.size a
  inb_S256x8192_S1x8192_139_0 : ∀ a, (![139, 0] : Fin 2 → Nat) a + S1x8192.size a ≤ S256x8192.size a
  inb_S256x8192_S1x8192_140_0 : ∀ a, (![140, 0] : Fin 2 → Nat) a + S1x8192.size a ≤ S256x8192.size a
  inb_S256x8192_S1x8192_141_0 : ∀ a, (![141, 0] : Fin 2 → Nat) a + S1x8192.size a ≤ S256x8192.size a
  inb_S256x8192_S1x8192_142_0 : ∀ a, (![142, 0] : Fin 2 → Nat) a + S1x8192.size a ≤ S256x8192.size a
  inb_S256x8192_S1x8192_143_0 : ∀ a, (![143, 0] : Fin 2 → Nat) a + S1x8192.size a ≤ S256x8192.size a
  inb_S256x8192_S1x8192_144_0 : ∀ a, (![144, 0] : Fin 2 → Nat) a + S1x8192.size a ≤ S256x8192.size a
  inb_S256x8192_S1x8192_145_0 : ∀ a, (![145, 0] : Fin 2 → Nat) a + S1x8192.size a ≤ S256x8192.size a
  inb_S256x8192_S1x8192_146_0 : ∀ a, (![146, 0] : Fin 2 → Nat) a + S1x8192.size a ≤ S256x8192.size a
  inb_S256x8192_S1x8192_147_0 : ∀ a, (![147, 0] : Fin 2 → Nat) a + S1x8192.size a ≤ S256x8192.size a
  inb_S256x8192_S1x8192_148_0 : ∀ a, (![148, 0] : Fin 2 → Nat) a + S1x8192.size a ≤ S256x8192.size a
  inb_S256x8192_S1x8192_149_0 : ∀ a, (![149, 0] : Fin 2 → Nat) a + S1x8192.size a ≤ S256x8192.size a
  inb_S256x8192_S1x8192_150_0 : ∀ a, (![150, 0] : Fin 2 → Nat) a + S1x8192.size a ≤ S256x8192.size a
  inb_S256x8192_S1x8192_151_0 : ∀ a, (![151, 0] : Fin 2 → Nat) a + S1x8192.size a ≤ S256x8192.size a
  inb_S256x8192_S1x8192_152_0 : ∀ a, (![152, 0] : Fin 2 → Nat) a + S1x8192.size a ≤ S256x8192.size a
  inb_S256x8192_S1x8192_153_0 : ∀ a, (![153, 0] : Fin 2 → Nat) a + S1x8192.size a ≤ S256x8192.size a
  inb_S256x8192_S1x8192_154_0 : ∀ a, (![154, 0] : Fin 2 → Nat) a + S1x8192.size a ≤ S256x8192.size a
  inb_S256x8192_S1x8192_155_0 : ∀ a, (![155, 0] : Fin 2 → Nat) a + S1x8192.size a ≤ S256x8192.size a
  inb_S256x8192_S1x8192_156_0 : ∀ a, (![156, 0] : Fin 2 → Nat) a + S1x8192.size a ≤ S256x8192.size a
  inb_S256x8192_S1x8192_157_0 : ∀ a, (![157, 0] : Fin 2 → Nat) a + S1x8192.size a ≤ S256x8192.size a
  inb_S256x8192_S1x8192_158_0 : ∀ a, (![158, 0] : Fin 2 → Nat) a + S1x8192.size a ≤ S256x8192.size a
  inb_S256x8192_S1x8192_159_0 : ∀ a, (![159, 0] : Fin 2 → Nat) a + S1x8192.size a ≤ S256x8192.size a
  inb_S256x8192_S1x8192_160_0 : ∀ a, (![160, 0] : Fin 2 → Nat) a + S1x8192.size a ≤ S256x8192.size a
  inb_S256x8192_S1x8192_161_0 : ∀ a, (![161, 0] : Fin 2 → Nat) a + S1x8192.size a ≤ S256x8192.size a
  inb_S256x8192_S1x8192_162_0 : ∀ a, (![162, 0] : Fin 2 → Nat) a + S1x8192.size a ≤ S256x8192.size a
  inb_S256x8192_S1x8192_163_0 : ∀ a, (![163, 0] : Fin 2 → Nat) a + S1x8192.size a ≤ S256x8192.size a
  inb_S256x8192_S1x8192_164_0 : ∀ a, (![164, 0] : Fin 2 → Nat) a + S1x8192.size a ≤ S256x8192.size a
  inb_S256x8192_S1x8192_165_0 : ∀ a, (![165, 0] : Fin 2 → Nat) a + S1x8192.size a ≤ S256x8192.size a
  inb_S256x8192_S1x8192_166_0 : ∀ a, (![166, 0] : Fin 2 → Nat) a + S1x8192.size a ≤ S256x8192.size a
  inb_S256x8192_S1x8192_167_0 : ∀ a, (![167, 0] : Fin 2 → Nat) a + S1x8192.size a ≤ S256x8192.size a
  inb_S256x8192_S1x8192_168_0 : ∀ a, (![168, 0] : Fin 2 → Nat) a + S1x8192.size a ≤ S256x8192.size a
  inb_S256x8192_S1x8192_169_0 : ∀ a, (![169, 0] : Fin 2 → Nat) a + S1x8192.size a ≤ S256x8192.size a
  inb_S256x8192_S1x8192_170_0 : ∀ a, (![170, 0] : Fin 2 → Nat) a + S1x8192.size a ≤ S256x8192.size a
  inb_S256x8192_S1x8192_171_0 : ∀ a, (![171, 0] : Fin 2 → Nat) a + S1x8192.size a ≤ S256x8192.size a
  inb_S256x8192_S1x8192_172_0 : ∀ a, (![172, 0] : Fin 2 → Nat) a + S1x8192.size a ≤ S256x8192.size a
  inb_S256x8192_S1x8192_173_0 : ∀ a, (![173, 0] : Fin 2 → Nat) a + S1x8192.size a ≤ S256x8192.size a
  inb_S256x8192_S1x8192_174_0 : ∀ a, (![174, 0] : Fin 2 → Nat) a + S1x8192.size a ≤ S256x8192.size a
  inb_S256x8192_S1x8192_175_0 : ∀ a, (![175, 0] : Fin 2 → Nat) a + S1x8192.size a ≤ S256x8192.size a
  inb_S256x8192_S1x8192_176_0 : ∀ a, (![176, 0] : Fin 2 → Nat) a + S1x8192.size a ≤ S256x8192.size a
  inb_S256x8192_S1x8192_177_0 : ∀ a, (![177, 0] : Fin 2 → Nat) a + S1x8192.size a ≤ S256x8192.size a
  inb_S256x8192_S1x8192_178_0 : ∀ a, (![178, 0] : Fin 2 → Nat) a + S1x8192.size a ≤ S256x8192.size a
  inb_S256x8192_S1x8192_179_0 : ∀ a, (![179, 0] : Fin 2 → Nat) a + S1x8192.size a ≤ S256x8192.size a
  inb_S256x8192_S1x8192_180_0 : ∀ a, (![180, 0] : Fin 2 → Nat) a + S1x8192.size a ≤ S256x8192.size a
  inb_S256x8192_S1x8192_181_0 : ∀ a, (![181, 0] : Fin 2 → Nat) a + S1x8192.size a ≤ S256x8192.size a
  inb_S256x8192_S1x8192_182_0 : ∀ a, (![182, 0] : Fin 2 → Nat) a + S1x8192.size a ≤ S256x8192.size a
  inb_S256x8192_S1x8192_183_0 : ∀ a, (![183, 0] : Fin 2 → Nat) a + S1x8192.size a ≤ S256x8192.size a
  inb_S256x8192_S1x8192_184_0 : ∀ a, (![184, 0] : Fin 2 → Nat) a + S1x8192.size a ≤ S256x8192.size a
  inb_S256x8192_S1x8192_185_0 : ∀ a, (![185, 0] : Fin 2 → Nat) a + S1x8192.size a ≤ S256x8192.size a
  inb_S256x8192_S1x8192_186_0 : ∀ a, (![186, 0] : Fin 2 → Nat) a + S1x8192.size a ≤ S256x8192.size a
  inb_S256x8192_S1x8192_187_0 : ∀ a, (![187, 0] : Fin 2 → Nat) a + S1x8192.size a ≤ S256x8192.size a
  inb_S256x8192_S1x8192_188_0 : ∀ a, (![188, 0] : Fin 2 → Nat) a + S1x8192.size a ≤ S256x8192.size a
  inb_S256x8192_S1x8192_189_0 : ∀ a, (![189, 0] : Fin 2 → Nat) a + S1x8192.size a ≤ S256x8192.size a
  inb_S256x8192_S1x8192_190_0 : ∀ a, (![190, 0] : Fin 2 → Nat) a + S1x8192.size a ≤ S256x8192.size a
  inb_S256x8192_S1x8192_191_0 : ∀ a, (![191, 0] : Fin 2 → Nat) a + S1x8192.size a ≤ S256x8192.size a
  inb_S256x8192_S1x8192_192_0 : ∀ a, (![192, 0] : Fin 2 → Nat) a + S1x8192.size a ≤ S256x8192.size a
  inb_S256x8192_S1x8192_193_0 : ∀ a, (![193, 0] : Fin 2 → Nat) a + S1x8192.size a ≤ S256x8192.size a
  inb_S256x8192_S1x8192_194_0 : ∀ a, (![194, 0] : Fin 2 → Nat) a + S1x8192.size a ≤ S256x8192.size a
  inb_S256x8192_S1x8192_195_0 : ∀ a, (![195, 0] : Fin 2 → Nat) a + S1x8192.size a ≤ S256x8192.size a
  inb_S256x8192_S1x8192_196_0 : ∀ a, (![196, 0] : Fin 2 → Nat) a + S1x8192.size a ≤ S256x8192.size a
  inb_S256x8192_S1x8192_197_0 : ∀ a, (![197, 0] : Fin 2 → Nat) a + S1x8192.size a ≤ S256x8192.size a
  inb_S256x8192_S1x8192_198_0 : ∀ a, (![198, 0] : Fin 2 → Nat) a + S1x8192.size a ≤ S256x8192.size a
  inb_S256x8192_S1x8192_199_0 : ∀ a, (![199, 0] : Fin 2 → Nat) a + S1x8192.size a ≤ S256x8192.size a
  inb_S256x8192_S1x8192_200_0 : ∀ a, (![200, 0] : Fin 2 → Nat) a + S1x8192.size a ≤ S256x8192.size a
  inb_S256x8192_S1x8192_201_0 : ∀ a, (![201, 0] : Fin 2 → Nat) a + S1x8192.size a ≤ S256x8192.size a
  inb_S256x8192_S1x8192_202_0 : ∀ a, (![202, 0] : Fin 2 → Nat) a + S1x8192.size a ≤ S256x8192.size a
  inb_S256x8192_S1x8192_203_0 : ∀ a, (![203, 0] : Fin 2 → Nat) a + S1x8192.size a ≤ S256x8192.size a
  inb_S256x8192_S1x8192_204_0 : ∀ a, (![204, 0] : Fin 2 → Nat) a + S1x8192.size a ≤ S256x8192.size a
  inb_S256x8192_S1x8192_205_0 : ∀ a, (![205, 0] : Fin 2 → Nat) a + S1x8192.size a ≤ S256x8192.size a
  inb_S256x8192_S1x8192_206_0 : ∀ a, (![206, 0] : Fin 2 → Nat) a + S1x8192.size a ≤ S256x8192.size a
  inb_S256x8192_S1x8192_207_0 : ∀ a, (![207, 0] : Fin 2 → Nat) a + S1x8192.size a ≤ S256x8192.size a
  inb_S256x8192_S1x8192_208_0 : ∀ a, (![208, 0] : Fin 2 → Nat) a + S1x8192.size a ≤ S256x8192.size a
  inb_S256x8192_S1x8192_209_0 : ∀ a, (![209, 0] : Fin 2 → Nat) a + S1x8192.size a ≤ S256x8192.size a
  inb_S256x8192_S1x8192_210_0 : ∀ a, (![210, 0] : Fin 2 → Nat) a + S1x8192.size a ≤ S256x8192.size a
  inb_S256x8192_S1x8192_211_0 : ∀ a, (![211, 0] : Fin 2 → Nat) a + S1x8192.size a ≤ S256x8192.size a
  inb_S256x8192_S1x8192_212_0 : ∀ a, (![212, 0] : Fin 2 → Nat) a + S1x8192.size a ≤ S256x8192.size a
  inb_S256x8192_S1x8192_213_0 : ∀ a, (![213, 0] : Fin 2 → Nat) a + S1x8192.size a ≤ S256x8192.size a
  inb_S256x8192_S1x8192_214_0 : ∀ a, (![214, 0] : Fin 2 → Nat) a + S1x8192.size a ≤ S256x8192.size a
  inb_S256x8192_S1x8192_215_0 : ∀ a, (![215, 0] : Fin 2 → Nat) a + S1x8192.size a ≤ S256x8192.size a
  inb_S256x8192_S1x8192_216_0 : ∀ a, (![216, 0] : Fin 2 → Nat) a + S1x8192.size a ≤ S256x8192.size a
  inb_S256x8192_S1x8192_217_0 : ∀ a, (![217, 0] : Fin 2 → Nat) a + S1x8192.size a ≤ S256x8192.size a
  inb_S256x8192_S1x8192_218_0 : ∀ a, (![218, 0] : Fin 2 → Nat) a + S1x8192.size a ≤ S256x8192.size a
  inb_S256x8192_S1x8192_219_0 : ∀ a, (![219, 0] : Fin 2 → Nat) a + S1x8192.size a ≤ S256x8192.size a
  inb_S256x8192_S1x8192_220_0 : ∀ a, (![220, 0] : Fin 2 → Nat) a + S1x8192.size a ≤ S256x8192.size a
  inb_S256x8192_S1x8192_221_0 : ∀ a, (![221, 0] : Fin 2 → Nat) a + S1x8192.size a ≤ S256x8192.size a
  inb_S256x8192_S1x8192_222_0 : ∀ a, (![222, 0] : Fin 2 → Nat) a + S1x8192.size a ≤ S256x8192.size a
  inb_S256x8192_S1x8192_223_0 : ∀ a, (![223, 0] : Fin 2 → Nat) a + S1x8192.size a ≤ S256x8192.size a
  inb_S256x8192_S1x8192_224_0 : ∀ a, (![224, 0] : Fin 2 → Nat) a + S1x8192.size a ≤ S256x8192.size a
  inb_S256x8192_S1x8192_225_0 : ∀ a, (![225, 0] : Fin 2 → Nat) a + S1x8192.size a ≤ S256x8192.size a
  inb_S256x8192_S1x8192_226_0 : ∀ a, (![226, 0] : Fin 2 → Nat) a + S1x8192.size a ≤ S256x8192.size a
  inb_S256x8192_S1x8192_227_0 : ∀ a, (![227, 0] : Fin 2 → Nat) a + S1x8192.size a ≤ S256x8192.size a
  inb_S256x8192_S1x8192_228_0 : ∀ a, (![228, 0] : Fin 2 → Nat) a + S1x8192.size a ≤ S256x8192.size a
  inb_S256x8192_S1x8192_229_0 : ∀ a, (![229, 0] : Fin 2 → Nat) a + S1x8192.size a ≤ S256x8192.size a
  inb_S256x8192_S1x8192_230_0 : ∀ a, (![230, 0] : Fin 2 → Nat) a + S1x8192.size a ≤ S256x8192.size a
  inb_S256x8192_S1x8192_231_0 : ∀ a, (![231, 0] : Fin 2 → Nat) a + S1x8192.size a ≤ S256x8192.size a
  inb_S256x8192_S1x8192_232_0 : ∀ a, (![232, 0] : Fin 2 → Nat) a + S1x8192.size a ≤ S256x8192.size a
  inb_S256x8192_S1x8192_233_0 : ∀ a, (![233, 0] : Fin 2 → Nat) a + S1x8192.size a ≤ S256x8192.size a
  inb_S256x8192_S1x8192_234_0 : ∀ a, (![234, 0] : Fin 2 → Nat) a + S1x8192.size a ≤ S256x8192.size a
  inb_S256x8192_S1x8192_235_0 : ∀ a, (![235, 0] : Fin 2 → Nat) a + S1x8192.size a ≤ S256x8192.size a
  inb_S256x8192_S1x8192_236_0 : ∀ a, (![236, 0] : Fin 2 → Nat) a + S1x8192.size a ≤ S256x8192.size a
  inb_S256x8192_S1x8192_237_0 : ∀ a, (![237, 0] : Fin 2 → Nat) a + S1x8192.size a ≤ S256x8192.size a
  inb_S256x8192_S1x8192_238_0 : ∀ a, (![238, 0] : Fin 2 → Nat) a + S1x8192.size a ≤ S256x8192.size a
  inb_S256x8192_S1x8192_239_0 : ∀ a, (![239, 0] : Fin 2 → Nat) a + S1x8192.size a ≤ S256x8192.size a
  inb_S256x8192_S1x8192_240_0 : ∀ a, (![240, 0] : Fin 2 → Nat) a + S1x8192.size a ≤ S256x8192.size a
  inb_S256x8192_S1x8192_241_0 : ∀ a, (![241, 0] : Fin 2 → Nat) a + S1x8192.size a ≤ S256x8192.size a
  inb_S256x8192_S1x8192_242_0 : ∀ a, (![242, 0] : Fin 2 → Nat) a + S1x8192.size a ≤ S256x8192.size a
  inb_S256x8192_S1x8192_243_0 : ∀ a, (![243, 0] : Fin 2 → Nat) a + S1x8192.size a ≤ S256x8192.size a
  inb_S256x8192_S1x8192_244_0 : ∀ a, (![244, 0] : Fin 2 → Nat) a + S1x8192.size a ≤ S256x8192.size a
  inb_S256x8192_S1x8192_245_0 : ∀ a, (![245, 0] : Fin 2 → Nat) a + S1x8192.size a ≤ S256x8192.size a
  inb_S256x8192_S1x8192_246_0 : ∀ a, (![246, 0] : Fin 2 → Nat) a + S1x8192.size a ≤ S256x8192.size a
  inb_S256x8192_S1x8192_247_0 : ∀ a, (![247, 0] : Fin 2 → Nat) a + S1x8192.size a ≤ S256x8192.size a
  inb_S256x8192_S1x8192_248_0 : ∀ a, (![248, 0] : Fin 2 → Nat) a + S1x8192.size a ≤ S256x8192.size a
  inb_S256x8192_S1x8192_249_0 : ∀ a, (![249, 0] : Fin 2 → Nat) a + S1x8192.size a ≤ S256x8192.size a
  inb_S256x8192_S1x8192_250_0 : ∀ a, (![250, 0] : Fin 2 → Nat) a + S1x8192.size a ≤ S256x8192.size a
  inb_S256x8192_S1x8192_251_0 : ∀ a, (![251, 0] : Fin 2 → Nat) a + S1x8192.size a ≤ S256x8192.size a
  inb_S256x8192_S1x8192_252_0 : ∀ a, (![252, 0] : Fin 2 → Nat) a + S1x8192.size a ≤ S256x8192.size a
  inb_S256x8192_S1x8192_253_0 : ∀ a, (![253, 0] : Fin 2 → Nat) a + S1x8192.size a ≤ S256x8192.size a
  inb_S256x8192_S1x8192_254_0 : ∀ a, (![254, 0] : Fin 2 → Nat) a + S1x8192.size a ≤ S256x8192.size a
  inb_S256x8192_S1x8192_255_0 : ∀ a, (![255, 0] : Fin 2 → Nat) a + S1x8192.size a ≤ S256x8192.size a
  shapeCasts_S4096x8192_S8x512x8192 : S4096x8192.ShapeCasts S8x512x8192
  hcc0_scratch0 : 2 + S16.numel ≤ 18
  hrank0 : 0 < grid0.rank
  k0_off1_inb : ∀ i : grid0.Coords, ∀ a, (k0_off1 i) a + S1.size a ≤ S4096.size a
  k0_off3_inb : ∀ i : grid0.Coords, ∀ a, (k0_off3 i) a + S1.size a ≤ S4096.size a
  k0_off5_inb : ∀ i : grid0.Coords, ∀ a, (k0_off5 i) a + S1.size a ≤ S4096.size a
  k0_off7_inb : ∀ i : grid0.Coords, ∀ a, (k0_off7 i) a + S1.size a ≤ S4096.size a
  k0_off9_inb : ∀ i : grid0.Coords, ∀ a, (k0_off9 i) a + S1.size a ≤ S4096.size a
  k0_off11_inb : ∀ i : grid0.Coords, ∀ a, (k0_off11 i) a + S1.size a ≤ S4096.size a
  k0_off13_inb : ∀ i : grid0.Coords, ∀ a, (k0_off13 i) a + S1.size a ≤ S4096.size a
  k0_off15_inb : ∀ i : grid0.Coords, ∀ a, (k0_off15 i) a + S1.size a ≤ S4096.size a
  k0_off17_inb : ∀ i : grid0.Coords, ∀ a, (k0_off17 i) a + S1.size a ≤ S4096.size a
  k0_off19_inb : ∀ i : grid0.Coords, ∀ a, (k0_off19 i) a + S1.size a ≤ S4096.size a
  k0_off21_inb : ∀ i : grid0.Coords, ∀ a, (k0_off21 i) a + S1.size a ≤ S4096.size a
  k0_off23_inb : ∀ i : grid0.Coords, ∀ a, (k0_off23 i) a + S1.size a ≤ S4096.size a
  k0_off25_inb : ∀ i : grid0.Coords, ∀ a, (k0_off25 i) a + S1.size a ≤ S4096.size a
  k0_off27_inb : ∀ i : grid0.Coords, ∀ a, (k0_off27 i) a + S1.size a ≤ S4096.size a
  k0_off29_inb : ∀ i : grid0.Coords, ∀ a, (k0_off29 i) a + S1.size a ≤ S4096.size a
  k0_off31_inb : ∀ i : grid0.Coords, ∀ a, (k0_off31 i) a + S1.size a ≤ S4096.size a
  k0_off48_inb : ∀ i : grid0.Coords, ∀ a, (k0_off48 i) a + S1.size a ≤ S4096.size a
  k0_off50_inb : ∀ i : grid0.Coords, ∀ a, (k0_off50 i) a + S1.size a ≤ S4096.size a
  k0_off52_inb : ∀ i : grid0.Coords, ∀ a, (k0_off52 i) a + S1.size a ≤ S4096.size a
  k0_off54_inb : ∀ i : grid0.Coords, ∀ a, (k0_off54 i) a + S1.size a ≤ S4096.size a
  k0_off56_inb : ∀ i : grid0.Coords, ∀ a, (k0_off56 i) a + S1.size a ≤ S4096.size a
  k0_off58_inb : ∀ i : grid0.Coords, ∀ a, (k0_off58 i) a + S1.size a ≤ S4096.size a
  k0_off60_inb : ∀ i : grid0.Coords, ∀ a, (k0_off60 i) a + S1.size a ≤ S4096.size a
  k0_off62_inb : ∀ i : grid0.Coords, ∀ a, (k0_off62 i) a + S1.size a ≤ S4096.size a
  k0_off64_inb : ∀ i : grid0.Coords, ∀ a, (k0_off64 i) a + S1.size a ≤ S4096.size a
  k0_off66_inb : ∀ i : grid0.Coords, ∀ a, (k0_off66 i) a + S1.size a ≤ S4096.size a
  k0_off68_inb : ∀ i : grid0.Coords, ∀ a, (k0_off68 i) a + S1.size a ≤ S4096.size a
  k0_off70_inb : ∀ i : grid0.Coords, ∀ a, (k0_off70 i) a + S1.size a ≤ S4096.size a
  k0_off72_inb : ∀ i : grid0.Coords, ∀ a, (k0_off72 i) a + S1.size a ≤ S4096.size a
  k0_off74_inb : ∀ i : grid0.Coords, ∀ a, (k0_off74 i) a + S1.size a ≤ S4096.size a
  k0_off76_inb : ∀ i : grid0.Coords, ∀ a, (k0_off76 i) a + S1.size a ≤ S4096.size a
  k0_off78_inb : ∀ i : grid0.Coords, ∀ a, (k0_off78 i) a + S1.size a ≤ S4096.size a
  k0_off95_inb : ∀ i : grid0.Coords, ∀ a, (k0_off95 i) a + S1.size a ≤ S4096.size a
  k0_off97_inb : ∀ i : grid0.Coords, ∀ a, (k0_off97 i) a + S1.size a ≤ S4096.size a
  k0_off99_inb : ∀ i : grid0.Coords, ∀ a, (k0_off99 i) a + S1.size a ≤ S4096.size a
  k0_off101_inb : ∀ i : grid0.Coords, ∀ a, (k0_off101 i) a + S1.size a ≤ S4096.size a
  k0_off103_inb : ∀ i : grid0.Coords, ∀ a, (k0_off103 i) a + S1.size a ≤ S4096.size a
  k0_off105_inb : ∀ i : grid0.Coords, ∀ a, (k0_off105 i) a + S1.size a ≤ S4096.size a
  k0_off107_inb : ∀ i : grid0.Coords, ∀ a, (k0_off107 i) a + S1.size a ≤ S4096.size a
  k0_off109_inb : ∀ i : grid0.Coords, ∀ a, (k0_off109 i) a + S1.size a ≤ S4096.size a
  k0_off111_inb : ∀ i : grid0.Coords, ∀ a, (k0_off111 i) a + S1.size a ≤ S4096.size a
  k0_off113_inb : ∀ i : grid0.Coords, ∀ a, (k0_off113 i) a + S1.size a ≤ S4096.size a
  k0_off115_inb : ∀ i : grid0.Coords, ∀ a, (k0_off115 i) a + S1.size a ≤ S4096.size a
  k0_off117_inb : ∀ i : grid0.Coords, ∀ a, (k0_off117 i) a + S1.size a ≤ S4096.size a
  k0_off119_inb : ∀ i : grid0.Coords, ∀ a, (k0_off119 i) a + S1.size a ≤ S4096.size a
  k0_off121_inb : ∀ i : grid0.Coords, ∀ a, (k0_off121 i) a + S1.size a ≤ S4096.size a
  k0_off123_inb : ∀ i : grid0.Coords, ∀ a, (k0_off123 i) a + S1.size a ≤ S4096.size a
  k0_off125_inb : ∀ i : grid0.Coords, ∀ a, (k0_off125 i) a + S1.size a ≤ S4096.size a
  k0_off142_inb : ∀ i : grid0.Coords, ∀ a, (k0_off142 i) a + S1.size a ≤ S4096.size a
  k0_off144_inb : ∀ i : grid0.Coords, ∀ a, (k0_off144 i) a + S1.size a ≤ S4096.size a
  k0_off146_inb : ∀ i : grid0.Coords, ∀ a, (k0_off146 i) a + S1.size a ≤ S4096.size a
  k0_off148_inb : ∀ i : grid0.Coords, ∀ a, (k0_off148 i) a + S1.size a ≤ S4096.size a
  k0_off150_inb : ∀ i : grid0.Coords, ∀ a, (k0_off150 i) a + S1.size a ≤ S4096.size a
  k0_off152_inb : ∀ i : grid0.Coords, ∀ a, (k0_off152 i) a + S1.size a ≤ S4096.size a
  k0_off154_inb : ∀ i : grid0.Coords, ∀ a, (k0_off154 i) a + S1.size a ≤ S4096.size a
  k0_off156_inb : ∀ i : grid0.Coords, ∀ a, (k0_off156 i) a + S1.size a ≤ S4096.size a
  k0_off158_inb : ∀ i : grid0.Coords, ∀ a, (k0_off158 i) a + S1.size a ≤ S4096.size a
  k0_off160_inb : ∀ i : grid0.Coords, ∀ a, (k0_off160 i) a + S1.size a ≤ S4096.size a
  k0_off162_inb : ∀ i : grid0.Coords, ∀ a, (k0_off162 i) a + S1.size a ≤ S4096.size a
  k0_off164_inb : ∀ i : grid0.Coords, ∀ a, (k0_off164 i) a + S1.size a ≤ S4096.size a
  k0_off166_inb : ∀ i : grid0.Coords, ∀ a, (k0_off166 i) a + S1.size a ≤ S4096.size a
  k0_off168_inb : ∀ i : grid0.Coords, ∀ a, (k0_off168 i) a + S1.size a ≤ S4096.size a
  k0_off170_inb : ∀ i : grid0.Coords, ∀ a, (k0_off170 i) a + S1.size a ≤ S4096.size a
  k0_off172_inb : ∀ i : grid0.Coords, ∀ a, (k0_off172 i) a + S1.size a ≤ S4096.size a
  k0_off189_inb : ∀ i : grid0.Coords, ∀ a, (k0_off189 i) a + S1.size a ≤ S4096.size a
  k0_off191_inb : ∀ i : grid0.Coords, ∀ a, (k0_off191 i) a + S1.size a ≤ S4096.size a
  k0_off193_inb : ∀ i : grid0.Coords, ∀ a, (k0_off193 i) a + S1.size a ≤ S4096.size a
  k0_off195_inb : ∀ i : grid0.Coords, ∀ a, (k0_off195 i) a + S1.size a ≤ S4096.size a
  k0_off197_inb : ∀ i : grid0.Coords, ∀ a, (k0_off197 i) a + S1.size a ≤ S4096.size a
  k0_off199_inb : ∀ i : grid0.Coords, ∀ a, (k0_off199 i) a + S1.size a ≤ S4096.size a
  k0_off201_inb : ∀ i : grid0.Coords, ∀ a, (k0_off201 i) a + S1.size a ≤ S4096.size a
  k0_off203_inb : ∀ i : grid0.Coords, ∀ a, (k0_off203 i) a + S1.size a ≤ S4096.size a
  k0_off205_inb : ∀ i : grid0.Coords, ∀ a, (k0_off205 i) a + S1.size a ≤ S4096.size a
  k0_off207_inb : ∀ i : grid0.Coords, ∀ a, (k0_off207 i) a + S1.size a ≤ S4096.size a
  k0_off209_inb : ∀ i : grid0.Coords, ∀ a, (k0_off209 i) a + S1.size a ≤ S4096.size a
  k0_off211_inb : ∀ i : grid0.Coords, ∀ a, (k0_off211 i) a + S1.size a ≤ S4096.size a
  k0_off213_inb : ∀ i : grid0.Coords, ∀ a, (k0_off213 i) a + S1.size a ≤ S4096.size a
  k0_off215_inb : ∀ i : grid0.Coords, ∀ a, (k0_off215 i) a + S1.size a ≤ S4096.size a
  k0_off217_inb : ∀ i : grid0.Coords, ∀ a, (k0_off217 i) a + S1.size a ≤ S4096.size a
  k0_off219_inb : ∀ i : grid0.Coords, ∀ a, (k0_off219 i) a + S1.size a ≤ S4096.size a
  k0_off236_inb : ∀ i : grid0.Coords, ∀ a, (k0_off236 i) a + S1.size a ≤ S4096.size a
  k0_off238_inb : ∀ i : grid0.Coords, ∀ a, (k0_off238 i) a + S1.size a ≤ S4096.size a
  k0_off240_inb : ∀ i : grid0.Coords, ∀ a, (k0_off240 i) a + S1.size a ≤ S4096.size a
  k0_off242_inb : ∀ i : grid0.Coords, ∀ a, (k0_off242 i) a + S1.size a ≤ S4096.size a
  k0_off244_inb : ∀ i : grid0.Coords, ∀ a, (k0_off244 i) a + S1.size a ≤ S4096.size a
  k0_off246_inb : ∀ i : grid0.Coords, ∀ a, (k0_off246 i) a + S1.size a ≤ S4096.size a
  k0_off248_inb : ∀ i : grid0.Coords, ∀ a, (k0_off248 i) a + S1.size a ≤ S4096.size a
  k0_off250_inb : ∀ i : grid0.Coords, ∀ a, (k0_off250 i) a + S1.size a ≤ S4096.size a
  k0_off252_inb : ∀ i : grid0.Coords, ∀ a, (k0_off252 i) a + S1.size a ≤ S4096.size a
  k0_off254_inb : ∀ i : grid0.Coords, ∀ a, (k0_off254 i) a + S1.size a ≤ S4096.size a
  k0_off256_inb : ∀ i : grid0.Coords, ∀ a, (k0_off256 i) a + S1.size a ≤ S4096.size a
  k0_off258_inb : ∀ i : grid0.Coords, ∀ a, (k0_off258 i) a + S1.size a ≤ S4096.size a
  k0_off260_inb : ∀ i : grid0.Coords, ∀ a, (k0_off260 i) a + S1.size a ≤ S4096.size a
  k0_off262_inb : ∀ i : grid0.Coords, ∀ a, (k0_off262 i) a + S1.size a ≤ S4096.size a
  k0_off264_inb : ∀ i : grid0.Coords, ∀ a, (k0_off264 i) a + S1.size a ≤ S4096.size a
  k0_off266_inb : ∀ i : grid0.Coords, ∀ a, (k0_off266 i) a + S1.size a ≤ S4096.size a
  k0_off283_inb : ∀ i : grid0.Coords, ∀ a, (k0_off283 i) a + S1.size a ≤ S4096.size a
  k0_off285_inb : ∀ i : grid0.Coords, ∀ a, (k0_off285 i) a + S1.size a ≤ S4096.size a
  k0_off287_inb : ∀ i : grid0.Coords, ∀ a, (k0_off287 i) a + S1.size a ≤ S4096.size a
  k0_off289_inb : ∀ i : grid0.Coords, ∀ a, (k0_off289 i) a + S1.size a ≤ S4096.size a
  k0_off291_inb : ∀ i : grid0.Coords, ∀ a, (k0_off291 i) a + S1.size a ≤ S4096.size a
  k0_off293_inb : ∀ i : grid0.Coords, ∀ a, (k0_off293 i) a + S1.size a ≤ S4096.size a
  k0_off295_inb : ∀ i : grid0.Coords, ∀ a, (k0_off295 i) a + S1.size a ≤ S4096.size a
  k0_off297_inb : ∀ i : grid0.Coords, ∀ a, (k0_off297 i) a + S1.size a ≤ S4096.size a
  k0_off299_inb : ∀ i : grid0.Coords, ∀ a, (k0_off299 i) a + S1.size a ≤ S4096.size a
  k0_off301_inb : ∀ i : grid0.Coords, ∀ a, (k0_off301 i) a + S1.size a ≤ S4096.size a
  k0_off303_inb : ∀ i : grid0.Coords, ∀ a, (k0_off303 i) a + S1.size a ≤ S4096.size a
  k0_off305_inb : ∀ i : grid0.Coords, ∀ a, (k0_off305 i) a + S1.size a ≤ S4096.size a
  k0_off307_inb : ∀ i : grid0.Coords, ∀ a, (k0_off307 i) a + S1.size a ≤ S4096.size a
  k0_off309_inb : ∀ i : grid0.Coords, ∀ a, (k0_off309 i) a + S1.size a ≤ S4096.size a
  k0_off311_inb : ∀ i : grid0.Coords, ∀ a, (k0_off311 i) a + S1.size a ≤ S4096.size a
  k0_off313_inb : ∀ i : grid0.Coords, ∀ a, (k0_off313 i) a + S1.size a ≤ S4096.size a
  k0_off330_inb : ∀ i : grid0.Coords, ∀ a, (k0_off330 i) a + S1.size a ≤ S4096.size a
  k0_off332_inb : ∀ i : grid0.Coords, ∀ a, (k0_off332 i) a + S1.size a ≤ S4096.size a
  k0_off334_inb : ∀ i : grid0.Coords, ∀ a, (k0_off334 i) a + S1.size a ≤ S4096.size a
  k0_off336_inb : ∀ i : grid0.Coords, ∀ a, (k0_off336 i) a + S1.size a ≤ S4096.size a
  k0_off338_inb : ∀ i : grid0.Coords, ∀ a, (k0_off338 i) a + S1.size a ≤ S4096.size a
  k0_off340_inb : ∀ i : grid0.Coords, ∀ a, (k0_off340 i) a + S1.size a ≤ S4096.size a
  k0_off342_inb : ∀ i : grid0.Coords, ∀ a, (k0_off342 i) a + S1.size a ≤ S4096.size a
  k0_off344_inb : ∀ i : grid0.Coords, ∀ a, (k0_off344 i) a + S1.size a ≤ S4096.size a
  k0_off346_inb : ∀ i : grid0.Coords, ∀ a, (k0_off346 i) a + S1.size a ≤ S4096.size a
  k0_off348_inb : ∀ i : grid0.Coords, ∀ a, (k0_off348 i) a + S1.size a ≤ S4096.size a
  k0_off350_inb : ∀ i : grid0.Coords, ∀ a, (k0_off350 i) a + S1.size a ≤ S4096.size a
  k0_off352_inb : ∀ i : grid0.Coords, ∀ a, (k0_off352 i) a + S1.size a ≤ S4096.size a
  k0_off354_inb : ∀ i : grid0.Coords, ∀ a, (k0_off354 i) a + S1.size a ≤ S4096.size a
  k0_off356_inb : ∀ i : grid0.Coords, ∀ a, (k0_off356 i) a + S1.size a ≤ S4096.size a
  k0_off358_inb : ∀ i : grid0.Coords, ∀ a, (k0_off358 i) a + S1.size a ≤ S4096.size a
  k0_off360_inb : ∀ i : grid0.Coords, ∀ a, (k0_off360 i) a + S1.size a ≤ S4096.size a
  k0_off377_inb : ∀ i : grid0.Coords, ∀ a, (k0_off377 i) a + S1.size a ≤ S4096.size a
  k0_off379_inb : ∀ i : grid0.Coords, ∀ a, (k0_off379 i) a + S1.size a ≤ S4096.size a
  k0_off381_inb : ∀ i : grid0.Coords, ∀ a, (k0_off381 i) a + S1.size a ≤ S4096.size a
  k0_off383_inb : ∀ i : grid0.Coords, ∀ a, (k0_off383 i) a + S1.size a ≤ S4096.size a
  k0_off385_inb : ∀ i : grid0.Coords, ∀ a, (k0_off385 i) a + S1.size a ≤ S4096.size a
  k0_off387_inb : ∀ i : grid0.Coords, ∀ a, (k0_off387 i) a + S1.size a ≤ S4096.size a
  k0_off389_inb : ∀ i : grid0.Coords, ∀ a, (k0_off389 i) a + S1.size a ≤ S4096.size a
  k0_off391_inb : ∀ i : grid0.Coords, ∀ a, (k0_off391 i) a + S1.size a ≤ S4096.size a
  k0_off393_inb : ∀ i : grid0.Coords, ∀ a, (k0_off393 i) a + S1.size a ≤ S4096.size a
  k0_off395_inb : ∀ i : grid0.Coords, ∀ a, (k0_off395 i) a + S1.size a ≤ S4096.size a
  k0_off397_inb : ∀ i : grid0.Coords, ∀ a, (k0_off397 i) a + S1.size a ≤ S4096.size a
  k0_off399_inb : ∀ i : grid0.Coords, ∀ a, (k0_off399 i) a + S1.size a ≤ S4096.size a
  k0_off401_inb : ∀ i : grid0.Coords, ∀ a, (k0_off401 i) a + S1.size a ≤ S4096.size a
  k0_off403_inb : ∀ i : grid0.Coords, ∀ a, (k0_off403 i) a + S1.size a ≤ S4096.size a
  k0_off405_inb : ∀ i : grid0.Coords, ∀ a, (k0_off405 i) a + S1.size a ≤ S4096.size a
  k0_off407_inb : ∀ i : grid0.Coords, ∀ a, (k0_off407 i) a + S1.size a ≤ S4096.size a
  k0_off424_inb : ∀ i : grid0.Coords, ∀ a, (k0_off424 i) a + S1.size a ≤ S4096.size a
  k0_off426_inb : ∀ i : grid0.Coords, ∀ a, (k0_off426 i) a + S1.size a ≤ S4096.size a
  k0_off428_inb : ∀ i : grid0.Coords, ∀ a, (k0_off428 i) a + S1.size a ≤ S4096.size a
  k0_off430_inb : ∀ i : grid0.Coords, ∀ a, (k0_off430 i) a + S1.size a ≤ S4096.size a
  k0_off432_inb : ∀ i : grid0.Coords, ∀ a, (k0_off432 i) a + S1.size a ≤ S4096.size a
  k0_off434_inb : ∀ i : grid0.Coords, ∀ a, (k0_off434 i) a + S1.size a ≤ S4096.size a
  k0_off436_inb : ∀ i : grid0.Coords, ∀ a, (k0_off436 i) a + S1.size a ≤ S4096.size a
  k0_off438_inb : ∀ i : grid0.Coords, ∀ a, (k0_off438 i) a + S1.size a ≤ S4096.size a
  k0_off440_inb : ∀ i : grid0.Coords, ∀ a, (k0_off440 i) a + S1.size a ≤ S4096.size a
  k0_off442_inb : ∀ i : grid0.Coords, ∀ a, (k0_off442 i) a + S1.size a ≤ S4096.size a
  k0_off444_inb : ∀ i : grid0.Coords, ∀ a, (k0_off444 i) a + S1.size a ≤ S4096.size a
  k0_off446_inb : ∀ i : grid0.Coords, ∀ a, (k0_off446 i) a + S1.size a ≤ S4096.size a
  k0_off448_inb : ∀ i : grid0.Coords, ∀ a, (k0_off448 i) a + S1.size a ≤ S4096.size a
  k0_off450_inb : ∀ i : grid0.Coords, ∀ a, (k0_off450 i) a + S1.size a ≤ S4096.size a
  k0_off452_inb : ∀ i : grid0.Coords, ∀ a, (k0_off452 i) a + S1.size a ≤ S4096.size a
  k0_off454_inb : ∀ i : grid0.Coords, ∀ a, (k0_off454 i) a + S1.size a ≤ S4096.size a
  k0_off471_inb : ∀ i : grid0.Coords, ∀ a, (k0_off471 i) a + S1.size a ≤ S4096.size a
  k0_off473_inb : ∀ i : grid0.Coords, ∀ a, (k0_off473 i) a + S1.size a ≤ S4096.size a
  k0_off475_inb : ∀ i : grid0.Coords, ∀ a, (k0_off475 i) a + S1.size a ≤ S4096.size a
  k0_off477_inb : ∀ i : grid0.Coords, ∀ a, (k0_off477 i) a + S1.size a ≤ S4096.size a
  k0_off479_inb : ∀ i : grid0.Coords, ∀ a, (k0_off479 i) a + S1.size a ≤ S4096.size a
  k0_off481_inb : ∀ i : grid0.Coords, ∀ a, (k0_off481 i) a + S1.size a ≤ S4096.size a
  k0_off483_inb : ∀ i : grid0.Coords, ∀ a, (k0_off483 i) a + S1.size a ≤ S4096.size a
  k0_off485_inb : ∀ i : grid0.Coords, ∀ a, (k0_off485 i) a + S1.size a ≤ S4096.size a
  k0_off487_inb : ∀ i : grid0.Coords, ∀ a, (k0_off487 i) a + S1.size a ≤ S4096.size a
  k0_off489_inb : ∀ i : grid0.Coords, ∀ a, (k0_off489 i) a + S1.size a ≤ S4096.size a
  k0_off491_inb : ∀ i : grid0.Coords, ∀ a, (k0_off491 i) a + S1.size a ≤ S4096.size a
  k0_off493_inb : ∀ i : grid0.Coords, ∀ a, (k0_off493 i) a + S1.size a ≤ S4096.size a
  k0_off495_inb : ∀ i : grid0.Coords, ∀ a, (k0_off495 i) a + S1.size a ≤ S4096.size a
  k0_off497_inb : ∀ i : grid0.Coords, ∀ a, (k0_off497 i) a + S1.size a ≤ S4096.size a
  k0_off499_inb : ∀ i : grid0.Coords, ∀ a, (k0_off499 i) a + S1.size a ≤ S4096.size a
  k0_off501_inb : ∀ i : grid0.Coords, ∀ a, (k0_off501 i) a + S1.size a ≤ S4096.size a
  k0_off518_inb : ∀ i : grid0.Coords, ∀ a, (k0_off518 i) a + S1.size a ≤ S4096.size a
  k0_off520_inb : ∀ i : grid0.Coords, ∀ a, (k0_off520 i) a + S1.size a ≤ S4096.size a
  k0_off522_inb : ∀ i : grid0.Coords, ∀ a, (k0_off522 i) a + S1.size a ≤ S4096.size a
  k0_off524_inb : ∀ i : grid0.Coords, ∀ a, (k0_off524 i) a + S1.size a ≤ S4096.size a
  k0_off526_inb : ∀ i : grid0.Coords, ∀ a, (k0_off526 i) a + S1.size a ≤ S4096.size a
  k0_off528_inb : ∀ i : grid0.Coords, ∀ a, (k0_off528 i) a + S1.size a ≤ S4096.size a
  k0_off530_inb : ∀ i : grid0.Coords, ∀ a, (k0_off530 i) a + S1.size a ≤ S4096.size a
  k0_off532_inb : ∀ i : grid0.Coords, ∀ a, (k0_off532 i) a + S1.size a ≤ S4096.size a
  k0_off534_inb : ∀ i : grid0.Coords, ∀ a, (k0_off534 i) a + S1.size a ≤ S4096.size a
  k0_off536_inb : ∀ i : grid0.Coords, ∀ a, (k0_off536 i) a + S1.size a ≤ S4096.size a
  k0_off538_inb : ∀ i : grid0.Coords, ∀ a, (k0_off538 i) a + S1.size a ≤ S4096.size a
  k0_off540_inb : ∀ i : grid0.Coords, ∀ a, (k0_off540 i) a + S1.size a ≤ S4096.size a
  k0_off542_inb : ∀ i : grid0.Coords, ∀ a, (k0_off542 i) a + S1.size a ≤ S4096.size a
  k0_off544_inb : ∀ i : grid0.Coords, ∀ a, (k0_off544 i) a + S1.size a ≤ S4096.size a
  k0_off546_inb : ∀ i : grid0.Coords, ∀ a, (k0_off546 i) a + S1.size a ≤ S4096.size a
  k0_off548_inb : ∀ i : grid0.Coords, ∀ a, (k0_off548 i) a + S1.size a ≤ S4096.size a
  k0_off565_inb : ∀ i : grid0.Coords, ∀ a, (k0_off565 i) a + S1.size a ≤ S4096.size a
  k0_off567_inb : ∀ i : grid0.Coords, ∀ a, (k0_off567 i) a + S1.size a ≤ S4096.size a
  k0_off569_inb : ∀ i : grid0.Coords, ∀ a, (k0_off569 i) a + S1.size a ≤ S4096.size a
  k0_off571_inb : ∀ i : grid0.Coords, ∀ a, (k0_off571 i) a + S1.size a ≤ S4096.size a
  k0_off573_inb : ∀ i : grid0.Coords, ∀ a, (k0_off573 i) a + S1.size a ≤ S4096.size a
  k0_off575_inb : ∀ i : grid0.Coords, ∀ a, (k0_off575 i) a + S1.size a ≤ S4096.size a
  k0_off577_inb : ∀ i : grid0.Coords, ∀ a, (k0_off577 i) a + S1.size a ≤ S4096.size a
  k0_off579_inb : ∀ i : grid0.Coords, ∀ a, (k0_off579 i) a + S1.size a ≤ S4096.size a
  k0_off581_inb : ∀ i : grid0.Coords, ∀ a, (k0_off581 i) a + S1.size a ≤ S4096.size a
  k0_off583_inb : ∀ i : grid0.Coords, ∀ a, (k0_off583 i) a + S1.size a ≤ S4096.size a
  k0_off585_inb : ∀ i : grid0.Coords, ∀ a, (k0_off585 i) a + S1.size a ≤ S4096.size a
  k0_off587_inb : ∀ i : grid0.Coords, ∀ a, (k0_off587 i) a + S1.size a ≤ S4096.size a
  k0_off589_inb : ∀ i : grid0.Coords, ∀ a, (k0_off589 i) a + S1.size a ≤ S4096.size a
  k0_off591_inb : ∀ i : grid0.Coords, ∀ a, (k0_off591 i) a + S1.size a ≤ S4096.size a
  k0_off593_inb : ∀ i : grid0.Coords, ∀ a, (k0_off593 i) a + S1.size a ≤ S4096.size a
  k0_off595_inb : ∀ i : grid0.Coords, ∀ a, (k0_off595 i) a + S1.size a ≤ S4096.size a
  k0_off612_inb : ∀ i : grid0.Coords, ∀ a, (k0_off612 i) a + S1.size a ≤ S4096.size a
  k0_off614_inb : ∀ i : grid0.Coords, ∀ a, (k0_off614 i) a + S1.size a ≤ S4096.size a
  k0_off616_inb : ∀ i : grid0.Coords, ∀ a, (k0_off616 i) a + S1.size a ≤ S4096.size a
  k0_off618_inb : ∀ i : grid0.Coords, ∀ a, (k0_off618 i) a + S1.size a ≤ S4096.size a
  k0_off620_inb : ∀ i : grid0.Coords, ∀ a, (k0_off620 i) a + S1.size a ≤ S4096.size a
  k0_off622_inb : ∀ i : grid0.Coords, ∀ a, (k0_off622 i) a + S1.size a ≤ S4096.size a
  k0_off624_inb : ∀ i : grid0.Coords, ∀ a, (k0_off624 i) a + S1.size a ≤ S4096.size a
  k0_off626_inb : ∀ i : grid0.Coords, ∀ a, (k0_off626 i) a + S1.size a ≤ S4096.size a
  k0_off628_inb : ∀ i : grid0.Coords, ∀ a, (k0_off628 i) a + S1.size a ≤ S4096.size a
  k0_off630_inb : ∀ i : grid0.Coords, ∀ a, (k0_off630 i) a + S1.size a ≤ S4096.size a
  k0_off632_inb : ∀ i : grid0.Coords, ∀ a, (k0_off632 i) a + S1.size a ≤ S4096.size a
  k0_off634_inb : ∀ i : grid0.Coords, ∀ a, (k0_off634 i) a + S1.size a ≤ S4096.size a
  k0_off636_inb : ∀ i : grid0.Coords, ∀ a, (k0_off636 i) a + S1.size a ≤ S4096.size a
  k0_off638_inb : ∀ i : grid0.Coords, ∀ a, (k0_off638 i) a + S1.size a ≤ S4096.size a
  k0_off640_inb : ∀ i : grid0.Coords, ∀ a, (k0_off640 i) a + S1.size a ≤ S4096.size a
  k0_off642_inb : ∀ i : grid0.Coords, ∀ a, (k0_off642 i) a + S1.size a ≤ S4096.size a
  k0_off659_inb : ∀ i : grid0.Coords, ∀ a, (k0_off659 i) a + S1.size a ≤ S4096.size a
  k0_off661_inb : ∀ i : grid0.Coords, ∀ a, (k0_off661 i) a + S1.size a ≤ S4096.size a
  k0_off663_inb : ∀ i : grid0.Coords, ∀ a, (k0_off663 i) a + S1.size a ≤ S4096.size a
  k0_off665_inb : ∀ i : grid0.Coords, ∀ a, (k0_off665 i) a + S1.size a ≤ S4096.size a
  k0_off667_inb : ∀ i : grid0.Coords, ∀ a, (k0_off667 i) a + S1.size a ≤ S4096.size a
  k0_off669_inb : ∀ i : grid0.Coords, ∀ a, (k0_off669 i) a + S1.size a ≤ S4096.size a
  k0_off671_inb : ∀ i : grid0.Coords, ∀ a, (k0_off671 i) a + S1.size a ≤ S4096.size a
  k0_off673_inb : ∀ i : grid0.Coords, ∀ a, (k0_off673 i) a + S1.size a ≤ S4096.size a
  k0_off675_inb : ∀ i : grid0.Coords, ∀ a, (k0_off675 i) a + S1.size a ≤ S4096.size a
  k0_off677_inb : ∀ i : grid0.Coords, ∀ a, (k0_off677 i) a + S1.size a ≤ S4096.size a
  k0_off679_inb : ∀ i : grid0.Coords, ∀ a, (k0_off679 i) a + S1.size a ≤ S4096.size a
  k0_off681_inb : ∀ i : grid0.Coords, ∀ a, (k0_off681 i) a + S1.size a ≤ S4096.size a
  k0_off683_inb : ∀ i : grid0.Coords, ∀ a, (k0_off683 i) a + S1.size a ≤ S4096.size a
  k0_off685_inb : ∀ i : grid0.Coords, ∀ a, (k0_off685 i) a + S1.size a ≤ S4096.size a
  k0_off687_inb : ∀ i : grid0.Coords, ∀ a, (k0_off687 i) a + S1.size a ≤ S4096.size a
  k0_off689_inb : ∀ i : grid0.Coords, ∀ a, (k0_off689 i) a + S1.size a ≤ S4096.size a
  k0_off706_inb : ∀ i : grid0.Coords, ∀ a, (k0_off706 i) a + S1.size a ≤ S4096.size a
  k0_off708_inb : ∀ i : grid0.Coords, ∀ a, (k0_off708 i) a + S1.size a ≤ S4096.size a
  k0_off710_inb : ∀ i : grid0.Coords, ∀ a, (k0_off710 i) a + S1.size a ≤ S4096.size a
  k0_off712_inb : ∀ i : grid0.Coords, ∀ a, (k0_off712 i) a + S1.size a ≤ S4096.size a
  k0_off714_inb : ∀ i : grid0.Coords, ∀ a, (k0_off714 i) a + S1.size a ≤ S4096.size a
  k0_off716_inb : ∀ i : grid0.Coords, ∀ a, (k0_off716 i) a + S1.size a ≤ S4096.size a
  k0_off718_inb : ∀ i : grid0.Coords, ∀ a, (k0_off718 i) a + S1.size a ≤ S4096.size a
  k0_off720_inb : ∀ i : grid0.Coords, ∀ a, (k0_off720 i) a + S1.size a ≤ S4096.size a
  k0_off722_inb : ∀ i : grid0.Coords, ∀ a, (k0_off722 i) a + S1.size a ≤ S4096.size a
  k0_off724_inb : ∀ i : grid0.Coords, ∀ a, (k0_off724 i) a + S1.size a ≤ S4096.size a
  k0_off726_inb : ∀ i : grid0.Coords, ∀ a, (k0_off726 i) a + S1.size a ≤ S4096.size a
  k0_off728_inb : ∀ i : grid0.Coords, ∀ a, (k0_off728 i) a + S1.size a ≤ S4096.size a
  k0_off730_inb : ∀ i : grid0.Coords, ∀ a, (k0_off730 i) a + S1.size a ≤ S4096.size a
  k0_off732_inb : ∀ i : grid0.Coords, ∀ a, (k0_off732 i) a + S1.size a ≤ S4096.size a
  k0_off734_inb : ∀ i : grid0.Coords, ∀ a, (k0_off734 i) a + S1.size a ≤ S4096.size a
  k0_off736_inb : ∀ i : grid0.Coords, ∀ a, (k0_off736 i) a + S1.size a ≤ S4096.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S256x8192.size a ≤ S4096x8192.size a
  hwx0_0 : ∀ i : grid0.Coords, EltTy.bits .f32 = 32 ∨ (Rect.block (s := S4096x8192) S256x8192.size (cc0_transform_1 i) (hinb0_0 i)).WholeWords (EltTy.packing .f32)

variable [Facts₀]

abbrev cc0_scratch0 : DmaSems sig S16 := SemArray.consecutive 2 S16 hcc0_scratch0

abbrev spec0_0 : Pipeline.WinSpec sig grid0.rank :=
  Pipeline.WinSpec.ofSpec (Memref.whole main_v1) S256x8192.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S8x512 : Shape := ⟨2, ![8, 512]⟩
abbrev S8192x8192 : Shape := ⟨2, ![8192, 8192]⟩
abbrev S8x512x1 : Shape := ⟨3, ![8, 512, 1]⟩
abbrev S1x1x8192 : Shape := ⟨3, ![1, 1, 8192]⟩
abbrev S8x512x8192 : Shape := ⟨3, ![8, 512, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8x512, .i32⟩
  | .hbm, ⟨1, _⟩ => ⟨S8192x8192, .f32⟩
  | .hbm, ⟨2, _⟩ => ⟨S8x512x1, .i32⟩
  | .hbm, ⟨3, _⟩ => ⟨S1x1x8192, .i32⟩
  | .hbm, ⟨4, _⟩ => ⟨S8x512x8192, .i32⟩
  | .hbm, ⟨5, _⟩ => ⟨S8x512x8192, .i32⟩
  | .hbm, ⟨6, _⟩ => ⟨S8x512x8192, .i1⟩
  | .hbm, ⟨7, _⟩ => ⟨S8x512x8192, .f32⟩
  | .hbm, ⟨8, _⟩ => ⟨S8x512x8192, .f32⟩
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S8x512_S8x512x1_0_1 : S8x512.BroadcastsInDim S8x512x1 (![0, 1] : Fin 2 → Fin S8x512x1.rank)
  bcast_S8x512x1_S8x512x8192_0_1_2 : S8x512x1.BroadcastsInDim S8x512x8192 (![0, 1, 2] : Fin 3 → Fin S8x512x8192.rank)
  bcast_S1x1x8192_S8x512x8192_0_1_2 : S1x1x8192.BroadcastsInDim S8x512x8192 (![0, 1, 2] : Fin 3 → Fin S8x512x8192.rank)
  dot_S8x512x8192_S8192x8192_S8x512x8192_2_0_01_1_n_n_wf : DotDims.WF S8x512x8192 S8192x8192 S8x512x8192 [2] [0] [0, 1] [1] [] []

variable [Facts₀]

def dot_S8x512x8192_S8192x8192_S8x512x8192_2_0_01_1_n_n : DotDims S8x512x8192 S8192x8192 S8x512x8192 where
  lhsContracting := [2]
  rhsContracting := [0]
  lhsNonContracting := [0, 1]
  rhsNonContracting := [1]
  lhsBatch := []
  rhsBatch := []
  wf := dot_S8x512x8192_S8192x8192_S8x512x8192_2_0_01_1_n_n_wf

class Facts : Prop extends Facts₀ where

variable [Facts]
-- ==== Proof.PreDecode.lean ====
/-
  Reading the precondition: the printed predicate is the conjunction of "every entry of W is finite" and "every word of
  inputs lies in [0, 8192) as a signed number"; all ones means both hold entry by entry.
-/
import proofs.«408184_j41532333752647_1_alg».proof.Pre_finite_inputs
import proofs.«408184_j41532333752647_1_alg».proof.Proof.Gen.Pre_finite_inputs
import Idealize.ShloMosaic.Lib.ReduceAll
import Idealize.ShloMosaic.Lib.StableHlo.Predicate
import Idealize.ShloMosaic.PureOps.Ideal

noncomputable section

namespace Cert.PreDecode

open Idealize.ShloMosaic

variable {F : FTy → Type} [FloatOps F]

/-- The rank-0 shape has exactly one index. -/
private instance : Subsingleton Cert.Pre_finite_inputs.S_.Idx := ⟨fun a b => funext fun d => d.elim0⟩

/-- A word that is at least 0 and below 8192 when read signed has its top bit clear, so its unsigned reading is the
    same number and is below 8192. -/
private theorem toNat_lt_of_range (v : BitVec 32) (h0 : IntOp.cmpi .sge v (0#32) = 1#1)
    (h1 : IntOp.cmpi .slt v (8192#32) = 1#1) : v.toNat < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  have hv := v.isLt
  unfold BitVec.toInt at h0 h1
  split at h1 <;> omega

/-- Under the precondition every index word, read unsigned, is below 8192 (it names a row of the table). -/
theorem idx_lt (inp : IVec Cert.Pre_finite_inputs.S8x512 32) (w : FVec F Cert.Pre_finite_inputs.S8192x8192 .f32)
    (h : Cert.Pre_finite_inputs.fn (F := F) inp w = fun _ => 1#1) (i : Cert.Pre_finite_inputs.S8x512.Idx) :
    (inp i).toNat < 8192 := by
  -- the predicate's one element is 1: both conjuncts are; the second is the "all" over the index words
  have e := congrFun h (fun a => a.elim0)
  dsimp only [Cert.Pre_finite_inputs.fn] at e
  obtain ⟨-, e9⟩ := IntOp.andi_eq_one.1 e
  -- an "all" that is 1 is 1 at every index; there it is the conjunction of the two signed comparisons of word i
  have e8 := Host.reduce_andi_all _ _ _ _ _ e9 i
  obtain ⟨h0, h1⟩ := IntOp.andi_eq_one.1 e8
  exact toNat_lt_of_range _ h0 h1

/-- Under the precondition, at the exact reals, every entry of the table is a real number. -/
theorem w_finite (inp : IVec Cert.Pre_finite_inputs.S8x512 32) (w : FVec Ideal Cert.Pre_finite_inputs.S8192x8192 .f32)
    (h : Cert.Pre_finite_inputs.fn (F := Ideal) inp w = fun _ => 1#1) (j : Cert.Pre_finite_inputs.S8192x8192.Idx) :
    ∃ x : ℝ, w j = (x : EReal) := by
  -- the first conjunct is the "all" over the table of |W[j]| < +∞
  have e := congrFun h (fun a => a.elim0)
  dsimp only [Cert.Pre_finite_inputs.fn] at e
  obtain ⟨e3, -⟩ := IntOp.andi_eq_one.1 e
  have e2 := Host.reduce_andi_all _ _ _ _ _ e3 j
  -- at the exact reals |x| is max x (-x), the comparison is the order's, and the constant's pattern denotes +∞
  have e2' : Ideal.cmp .olt (max (w j) (-(w j))) (Ideal.ofBits .f32 0x7F800000#32) = 1#1 := e2
  have ht : Ideal.ofBits .f32 0x7F800000#32 = ⊤ := by simp [Ideal.ofBits, Ideal.ieee]
  rw [ht] at e2'
  simp only [Ideal.cmp] at e2'
  rw [StableHlo.Predicate.ofBool_eq_one_iff, decide_eq_true_eq] at e2'
  -- max x (-x) < +∞ fails at both infinities (one of x, -x is +∞ there), so x is a real
  generalize w j = x at e2' ⊢
  induction x using EReal.rec with
  | bot => simp at e2'
  | coe x => exact ⟨x, rfl⟩
  | top => simp at e2'

end Cert.PreDecode

end
-- ==== Proof.Spec.lean ====
/-
  What both programs compute, as one function of the argument arrays: a row gather.

  `inputs` is an [8, 512] array of 32-bit words, each naming a row of the [8192, 8192] table `W`; the result is the
  [8, 512, 8192] array whose entry (b, s, k) is `W[inputs[b, s], k]`. A word is read as a row number through
  `rowOf` (its unsigned value reduced below 8192, so that the function is total; under the certificate's
  precondition every word is below 8192 already and the reduction does nothing).
  `blockRows` is the same rows as grid point `t` of the kernel sees them: the [256, 8192] block whose row `r` is
  the table's row named by word `256 t + r` of the flattened index list.
-/
import Idealize.ShloMosaic.PureOps.Ideal
import Idealize.ShloMosaic.Lib.ValueIdx

namespace Cert.GatherSpec

open Idealize.ShloMosaic Idealize.ShloMosaic.ValueIdx

/-- The table row a word names. -/
def rowOf (v : BitVec 32) : Fin 8192 := ⟨v.toNat % 8192, Nat.mod_lt _ (by decide)⟩

theorem rowOf_val_of_lt (v : BitVec 32) (h : v.toNat < 8192) : (rowOf v).val = v.toNat := Nat.mod_eq_of_lt h

/-- Entry (b, s, k) of the gathered array is entry k of the table's row `inputs[b, s]`. -/
def gathered {α : Type} (inp : (⟨2, ![8, 512]⟩ : Shape).Idx → BitVec 32) (w : (⟨2, ![8192, 8192]⟩ : Shape).Idx → α) :
    (⟨3, ![8, 512, 8192]⟩ : Shape).Idx → α :=
  fun j => w (ix2 (rowOf (inp (ix2 (j 0) (j 1)))) (j 2))

/-- The flattened [4096, 8192] form: entry (n, k) is entry k of the row word n of the flat list names. -/
def gatheredFlat {α : Type} (ids : (⟨1, ![4096]⟩ : Shape).Idx → BitVec 32) (w : (⟨2, ![8192, 8192]⟩ : Shape).Idx → α) :
    (⟨2, ![4096, 8192]⟩ : Shape).Idx → α :=
  fun j => w (ix2 (rowOf (ids (ix1 (j 0)))) (j 1))

/-- Row r of the block grid point t fills is the table's row named by word 256 t + r. -/
def blockRows {α : Type} (t : Fin 16) (ids : (⟨1, ![4096]⟩ : Shape).Idx → BitVec 32) (w : (⟨2, ![8192, 8192]⟩ : Shape).Idx → α) :
    (⟨2, ![256, 8192]⟩ : Shape).Idx → α :=
  fun y => w (ix2 (rowOf (ids (ix1 ⟨256 * t.val + (y 0).val, by have := (y 0).isLt; have := t.isLt; simp at *; omega⟩))) (y 1))

end Cert.GatherSpec
-- ==== Proof.RefValue.lean ====
/-
  The reference at the exact reals: one-hot rows times the table is the gather.
-/
import proofs.«408184_j41532333752647_1_alg».proof.Defs
import proofs.«408184_j41532333752647_1_alg».proof.Proof.Gen.ReferenceIdeal
import proofs.«408184_j41532333752647_1_alg».proof.Proof.Gen.ReferenceIdeal.Run
import proofs.«408184_j41532333752647_1_alg».proof.Proof.Gen.ReferenceIdeal.Read
import proofs.«408184_j41532333752647_1_alg».proof.Proof.Gen.Pre_finite_inputs
import proofs.«408184_j41532333752647_1_alg».proof.Proof.Spec
import proofs.«408184_j41532333752647_1_alg».proof.Proof.PreDecode

noncomputable section

namespace Cert.ReferenceIdeal.RefValue

open Idealize.ShloMosaic Idealize.ShloMosaic.TcCoe Idealize.SL.Sem
open Cert.ReferenceIdeal Cert.ReferenceIdeal.Gen

/-- The bit 1 converts to the real 1. -/
private theorem uitofp_one : FloatOps.uitofp (F := Ideal) .f32 (1#1 : BitVec 1) = (1 : EReal) := by
  show (((1#1 : BitVec 1).toNat : ℝ) : EReal) = 1
  simp

/-- The bit 0 converts to the real 0. -/
private theorem uitofp_zero : FloatOps.uitofp (F := Ideal) .f32 (0#1 : BitVec 1) = (0 : EReal) := by
  show (((0#1 : BitVec 1).toNat : ℝ) : EReal) = 0
  simp

/-- The one-hot factor of the contraction at (b, s, k): the two broadcasts read the index word at (b, s) and the iota
    reads k, so the factor is the bit "inputs[b, s] = k" as a real. -/
private theorem onehot_apply (x0 : (⟨S8x512, .i32⟩ : BufTy).Contents (Elt Ideal)) (i : S8x512x8192.Idx) (k : Fin 8192) :
    Read.val_main_v0 (F := Ideal) x0 (Read.lidx_main_v1 i k)
      = FloatOps.uitofp (F := Ideal) .f32 (IntOp.cmpi .eq (x0 (ValueIdx.ix2 (i 0) (i 1))) (BitVec.ofNat 32 k.val)) := by
  rw [Read.val_main_v0_apply, Read.val_main_call0_v4_apply, Read.val_main_call0_v2_apply, Read.val_main_call0_v0_apply,
    Read.val_main_call0_v3_apply, Read.val_main_call0_v1_apply]
  have ei : Read.idx_main_call0_v0 (Read.idx_main_call0_v2 (Read.lidx_main_v1 i k)) = ValueIdx.ix2 (i 0) (i 1) :=
    funext fun a => Fin.ext (by match a with | ⟨0, _⟩ => rfl | ⟨1, _⟩ => rfl)
  rw [ei]
  rfl

/-- With every index word below 8192, the contraction over k of onehot(inputs[b, s])[k] * W[k, n] has one term that is
    not zero, k = inputs[b, s], where the factor is 1: the sum is W[inputs[b, s], n]. (0 * x = 0 and 1 * x = x hold for
    every extended real x, so nothing is asked of the table's entries here.) -/
private theorem val_eq (x0 : (⟨S8x512, .i32⟩ : BufTy).Contents (Elt Ideal)) (x1 : (⟨S8192x8192, .f32⟩ : BufTy).Contents (Elt Ideal))
    (hlt : ∀ i : S8x512.Idx, (x0 i).toNat < 8192) :
    Read.val_main_v1 (F := Ideal) x0 x1 = Cert.GatherSpec.gathered x0 x1 := by
  funext i
  rw [Read.val_main_v1_apply]
  have hv : (x0 (ValueIdx.ix2 (i 0) (i 1))).toNat < 8192 := hlt _
  generalize hvdef : x0 (ValueIdx.ix2 (i 0) (i 1)) = v at hv
  -- the row the word names, written back as a 32-bit word, is the word
  have hrow : BitVec.ofNat 32 (Cert.GatherSpec.rowOf v).val = v := by
    rw [Cert.GatherSpec.rowOf_val_of_lt v hv]
    apply BitVec.eq_of_toNat_eq
    rw [BitVec.toNat_ofNat]
    exact Nat.mod_eq_of_lt v.isLt
  rw [Finset.sum_eq_single (Cert.GatherSpec.rowOf v)]
  · -- the term k = inputs[b, s]: the factor is 1 and the table is read at (inputs[b, s], n)
    rw [onehot_apply, hvdef, hrow, IntOp.cmpi_eq.2 rfl, uitofp_one]
    rw [one_mul]
    show x1 _ = x1 (ValueIdx.ix2 (Cert.GatherSpec.rowOf (x0 (ValueIdx.ix2 (i 0) (i 1)))) (i 2))
    rw [hvdef]
    refine congrArg x1 ?_
    exact funext fun a => Fin.ext (by match a with | ⟨0, _⟩ => rfl | ⟨1, _⟩ => rfl)
  · -- every other k: the word is not k (both are below 8192, so equal words would name the same row), the factor is 0
    intro k _ hne
    rw [onehot_apply, hvdef]
    have hz : IntOp.cmpi .eq v (BitVec.ofNat 32 k.val) = 0#1 := by
      apply ValueIdx.eq_zero_of_ne_one
      intro h1
      rw [IntOp.cmpi_eq] at h1
      apply hne
      apply Fin.ext
      rw [Cert.GatherSpec.rowOf_val_of_lt v hv, h1, BitVec.toNat_ofNat]
      exact (Nat.mod_eq_of_lt (lt_trans k.isLt (by decide))).symm
    rw [hz, uitofp_zero, zero_mul]
  · intro h
    exact absurd (Finset.mem_univ _) h

/-- Under the precondition the reference runs to the end, leaves its arguments as they were, and its result is the
    gather of the table's rows by the index words. -/
theorem run_gathered (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ (fun r => ∀ c : Dev nD,
      r.2.mem ((c.tc : Thread nD τ).loc main_v1)
          = Cert.GatherSpec.gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Cert.ReferenceIdeal.Value.run (F := Ideal) m ρ)
  -- the run's term for the result is the contraction stage; the precondition bounds every index word
  rw [Read.val_main_v1_eq]
  exact val_eq _ _ (fun i => Cert.PreDecode.idx_lt _ _ (hpre c) i)

end Cert.ReferenceIdeal.RefValue

end
-- ==== Proof.LibRowFill.lean ====
/-
  A rank-2 buffer filled one whole row at a time.

  A buffer of shape [R, C] is written by R unmasked writes, the j-th through the one-row rectangle at row j (offsets
  (j, 0), sizes (1, C)) of a vector `P j` of length C, handed to the write as a [1, C] payload through the row-major
  re-indexing of [C] as [1, C] (which is how a squeezed one-row slice of a memref presents a rank-1 transfer's payload).
  Whatever the buffer held before and in whichever order the rows were written, it then reads `P (row) (column)`
  everywhere: every entry lies in exactly one row's rectangle, and that rectangle's payload at the entry is `P` there.
-/
import Idealize.ShloMosaic.Lib.Writes
import Idealize.ShloMosaic.Lib.WritesUnit
import Idealize.ShloMosaic.Lib.ValueIdx

noncomputable section

namespace Idealize.ShloMosaic.RowFill

open Idealize.ShloMosaic Idealize.ShloMosaic.ValueIdx

variable {sig : RefSig} {κ : Kind} {sp : Space} {e : EltTy} {Val : EltTy → Type} {R C : Nat}

/-- Row j, all C columns, lies inside the [R, C] shape. -/
theorem rowInb (j : Fin R) : ∀ a, (![j.val, 0] : Fin 2 → Nat) a + (![1, C] : Fin 2 → Nat) a ≤ (⟨2, ![R, C]⟩ : Shape).size a :=
  Rect.inb₂ (show j.val + 1 ≤ R from j.isLt) (show 0 + C ≤ C from (Nat.zero_add C).le)

/-- The one-row rectangle at row j. -/
abbrev rowRect (j : Fin R) : Rect (⟨2, ![R, C]⟩ : Shape) := Rect.unit (s := ⟨2, ![R, C]⟩) ![j.val, 0] ![1, C] (rowInb j)

/-- A [1, C] index, re-indexed row-major to [C], is its column. -/
theorem reshape_row (hq : (⟨1, ![C]⟩ : Shape).numel = (⟨2, ![1, C]⟩ : Shape).numel) (x : (⟨2, ![1, C]⟩ : Shape).Idx) :
    (Shape.reshapeEquiv hq).symm x = ix1 (n := C) (x 1) := by
  rw [Equiv.symm_apply_eq]
  have h1 := Shape.reshapeEquiv_cons_one (n := 1) (d := ![C]) hq (ix1 (n := C) (x 1))
  rw [h1]
  funext a
  match a with
  | ⟨0, _⟩ => exact Fin.ext (by have h : (x 0).val < 1 := (x 0).isLt; show (x 0).val = 0; omega)
  | ⟨1, _⟩ => rfl

/-- The piece that writes the vector p into row j. -/
abbrev rowPiece (hq : (⟨1, ![C]⟩ : Shape).numel = (⟨2, ![1, C]⟩ : Shape).numel) (j : Fin R)
    (p : (⟨1, ![C]⟩ : Shape).Idx → Val e) : View.Piece Val (⟨2, ![R, C]⟩ : Shape) e :=
  ⟨rowRect j, fun x => p ((Shape.reshapeEquiv hq).symm x)⟩

/-- After every row j has been written with `P j` (in any order of a list that names every row), the buffer reads
    `P (y 0)` at column `y 1`, whatever it held before. -/
theorem read_rows (v : View sig κ sp (⟨2, ![R, C]⟩ : Shape) e) (f : v.ty.Contents Val)
    (hq : (⟨1, ![C]⟩ : Shape).numel = (⟨2, ![1, C]⟩ : Shape).numel)
    (P : Fin R → (⟨1, ![C]⟩ : Shape).Idx → Val e) (js : List (Fin R)) (hjs : ∀ j, j ∈ js) :
    v.read Val (v.writes Val f (js.map fun j => rowPiece hq j (P j))) = fun y => P (y 0) (ix1 (n := C) (y 1)) := by
  funext y
  refine View.read_writes_apply_of_pieces v f (fun y => P (y 0) (ix1 (n := C) (y 1))) _ ?_ y ?_
  · intro p hp x
    obtain ⟨j, -, rfl⟩ := List.mem_map.mp hp
    show P j ((Shape.reshapeEquiv hq).symm x) = P (((rowRect j).emb x) 0) (ix1 (n := C) (((rowRect j).emb x) 1))
    rw [reshape_row hq x]
    have h0 : ((rowRect (C := C) j).emb x) 0 = j := Fin.ext (by
      have h : (x 0).val < 1 := (x 0).isLt
      show j.val + 1 * (x 0).val = j.val
      omega)
    have h1 : ((rowRect (C := C) j).emb x) 1 = x 1 := Fin.ext (by
      show 0 + 1 * (x 1).val = (x 1).val
      omega)
    rw [h0, h1]
  · have hy0 : (y 0).val < R := (y 0).isLt
    refine ⟨rowPiece (R := R) hq ⟨(y 0).val, hy0⟩ (P ⟨(y 0).val, hy0⟩), List.mem_map.mpr ⟨⟨(y 0).val, hy0⟩, hjs _, rfl⟩, ?_⟩
    show y ∈ (rowRect (R := R) (C := C) ⟨(y 0).val, hy0⟩).set
    refine Rect.mem_set_unit.mpr ?_
    intro a
    match a with
    | ⟨0, _⟩ => exact ⟨le_refl _, Nat.lt_succ_self _⟩
    | ⟨1, _⟩ => exact ⟨Nat.zero_le _, by have h : (y 1).val < C := (y 1).isLt; show (y 1).val < 0 + C; omega⟩

/-- The same writes as a transfer into a squeezed one-row slice makes them: row j written through the rank-1 view of the
    row (the one-row slice re-indexed to [C]) with the vector `P j` itself, the rows of the list last first. -/
def fillRows (v : View sig κ sp (⟨2, ![R, C]⟩ : Shape) e) (hq : (⟨1, ![C]⟩ : Shape).numel = (⟨2, ![1, C]⟩ : Shape).numel)
    (f : v.ty.Contents Val) (P : Fin R → (⟨1, ![C]⟩ : Shape).Idx → Val e) : List (Fin R) → v.ty.Contents Val
  | [] => f
  | j :: js => ((v.slice (rowRect j)).reshape (⟨1, ![C]⟩ : Shape) hq).write Val (fillRows v hq f P js) (P j) Finset.univ

/-- Writing through the re-indexed view is writing the re-indexed payload through the slice: the rows are pieces. -/
theorem fillRows_eq_writes (v : View sig κ sp (⟨2, ![R, C]⟩ : Shape) e) (hq : (⟨1, ![C]⟩ : Shape).numel = (⟨2, ![1, C]⟩ : Shape).numel)
    (f : v.ty.Contents Val) (P : Fin R → (⟨1, ![C]⟩ : Shape).Idx → Val e) (js : List (Fin R)) :
    fillRows v hq f P js = v.writes Val f (js.map fun j => rowPiece hq j (P j)) := by
  induction js with
  | nil => rfl
  | cons j js ih =>
    rw [List.map_cons, View.writes_cons, ← ih]
    exact View.write_reshape_univ (v.slice (rowRect j)) hq _ (P j)

/-- So once every row is in the list the buffer reads `P (row) (column)`. -/
theorem read_fillRows (v : View sig κ sp (⟨2, ![R, C]⟩ : Shape) e) (f : v.ty.Contents Val)
    (hq : (⟨1, ![C]⟩ : Shape).numel = (⟨2, ![1, C]⟩ : Shape).numel)
    (P : Fin R → (⟨1, ![C]⟩ : Shape).Idx → Val e) (js : List (Fin R)) (hjs : ∀ j, j ∈ js) :
    v.read Val (fillRows v hq f P js) = fun y => P (y 0) (ix1 (n := C) (y 1)) := by
  rw [fillRows_eq_writes]
  exact read_rows v f hq P js hjs

/-- Row j as a rank-1 view of C entries: the one-row slice at (j, 0), re-indexed. -/
abbrev rowView (v : View sig κ sp (⟨2, ![R, C]⟩ : Shape) e) (hq : (⟨1, ![C]⟩ : Shape).numel = (⟨2, ![1, C]⟩ : Shape).numel)
    (j : Fin R) : View sig κ sp (⟨1, ![C]⟩ : Shape) e :=
  (v.slice (rowRect j)).reshape (⟨1, ![C]⟩ : Shape) hq

/-- Entry x of row j is entry (j, x) of the buffer. -/
theorem rowView_emb (v : View sig κ sp (⟨2, ![R, C]⟩ : Shape) e) (hq : (⟨1, ![C]⟩ : Shape).numel = (⟨2, ![1, C]⟩ : Shape).numel)
    (j : Fin R) (y : (⟨2, ![R, C]⟩ : Shape).Idx) (hy : (y 0).val = j.val) :
    (rowView v hq j).emb (ix1 (n := C) (y 1)) = v.emb y := by
  show v.emb ((rowRect j).emb (Shape.reshapeEquiv hq (ix1 (n := C) (y 1)))) = v.emb y
  refine congrArg v.emb (funext fun a => Fin.ext ?_)
  rw [Shape.reshapeEquiv_cons_one (n := 1) (d := ![C])]
  match a with
  | ⟨0, _⟩ => show j.val + 1 * 0 = (y 0).val; omega
  | ⟨1, _⟩ => show 0 + 1 * (y 1).val = (y 1).val; omega

/-- A row written whole through its own view, over any contents, reads the written vector on that row. -/
theorem read_row_written (v : View sig κ sp (⟨2, ![R, C]⟩ : Shape) e) (hq : (⟨1, ![C]⟩ : Shape).numel = (⟨2, ![1, C]⟩ : Shape).numel)
    (j : Fin R) (f : (rowView v hq j).ty.Contents Val) (p : (⟨1, ![C]⟩ : Shape).Idx → Val e)
    (y : (⟨2, ![R, C]⟩ : Shape).Idx) (hy : (y 0).val = j.val) :
    v.read Val ((rowView v hq j).writes Val f [⟨Rect.whole (⟨1, ![C]⟩ : Shape), p⟩]) y = p (ix1 (n := C) (y 1)) := by
  have hr := View.read_writes_cons_emb (rowView v hq j) f (Rect.whole (⟨1, ![C]⟩ : Shape)) p [] (ix1 (n := C) (y 1))
  have he : (Rect.whole (⟨1, ![C]⟩ : Shape)).emb (ix1 (n := C) (y 1)) = ix1 (n := C) (y 1) :=
    funext fun a => Fin.ext (by show 0 + 1 * _ = _; omega)
  rw [he] at hr
  rw [← hr, View.read_apply, View.read_apply, rowView_emb v hq j y hy]

end Idealize.ShloMosaic.RowFill

end
-- ==== Proof.LibRowRes.lean ====
/-
  A whole rank-2 buffer held row by row.

  The elements of an [R, C] buffer are the disjoint union of its R rows, row k being the elements under the one-row
  slice at (k, 0) of sizes (1, C) (read as a vector of C entries through the squeeze of that slice). So the buffer held
  whole is the separating conjunction of its rows held each by its own elements, at the same contents (`rows_split`),
  and rows held at R different contents are the buffer held whole at contents that agree with the k-th on row k
  (`rows_join`). The conjunction is written as a chain from row k on (`rowsFrom`), one row at its head, so that a proof
  can take the rows off one by one.
-/
import Idealize.ShloMosaic.Rules.PointsTo
import Idealize.ShloMosaic.Lib.Memref
import Idealize.ShloMosaic.Lib.Pipeline.Kit
import proofs.«408184_j41532333752647_1_alg».proof.Proof.LibRowFill

noncomputable section

namespace Idealize.ShloMosaic.RowFill

open Idealize.SL Idealize.SL.RA Idealize.SL.BI
open scoped Idealize.SL.BI
open Idealize.SL.BI.BIBase Idealize.SL.BI.Laws Idealize.SL.ProofMode Idealize.SL.Sem
open Idealize.ShloMosaic.ValueIdx

variable {nD : Nat} {τ : Topo} {sig : RefSig} {Val : EltTy → Type}
variable {Ix : Type} [DecidableEq Ix] {Name : Type} [DecidableEq Name] {U : Type} [URA U] {Lvl : Type}
variable {κ : Kind} {sp : Space} {e : EltTy} {R C : Nat}

local notation "𝕄" => MT nD τ sig Ix Val Name U Lvl

/-- Row k of an [R, C] memref, as a vector of C entries: the one-row slice at (k, 0), its unit axis squeezed. -/
abbrev rowM (m : Memref sig κ sp (⟨2, ![R, C]⟩ : Shape) e) (hsq : (⟨2, ![1, C]⟩ : Shape).Squeezes (⟨1, ![C]⟩ : Shape))
    (k : Nat) (hk : k < R) : Memref sig κ sp (⟨1, ![C]⟩ : Shape) e :=
  (m.slice (Rect.unit (s := ⟨2, ![R, C]⟩) ![k, 0] ![1, C] (rowInb (R := R) (C := C) ⟨k, hk⟩)) (fun _ => rfl)).squeeze (⟨1, ![C]⟩ : Shape) hsq

/-- Row k held by its own elements at contents f. -/
abbrev rowRes (c : Thread nD τ) (m : Memref sig c.2.kind sp (⟨2, ![R, C]⟩ : Shape) e)
    (hsq : (⟨2, ![1, C]⟩ : Shape).Squeezes (⟨1, ![C]⟩ : Shape)) (q : PosShare TreeShare) (f : Buf Val (m.view.loc c))
    (k : Nat) (hk : k < R) : sProp 𝕄 :=
  (rowM m hsq k hk).view.loc c ↦[(rowM m hsq k hk).view.set]{q} f

/-- The separating conjunction of `Φ k` for the rows k, k + 1, …, R − 1, row k at its head. -/
def rowsFrom (Φ : (k : Nat) → k < R → sProp 𝕄) (k : Nat) : sProp 𝕄 :=
  if h : k < R then iprop(Φ k h ∗ rowsFrom Φ (k + 1)) else BI.emp
termination_by R - k

/-- One row comes off the head. -/
theorem rowsFrom_lt (Φ : (k : Nat) → k < R → sProp 𝕄) (k : Nat) (h : k < R) :
    rowsFrom Φ k = iprop(Φ k h ∗ rowsFrom Φ (k + 1)) := by
  rw [rowsFrom, dif_pos h]

/-- Past the last row nothing is left. -/
theorem rowsFrom_ge (Φ : (k : Nat) → k < R → sProp 𝕄) (k : Nat) (h : ¬ k < R) : rowsFrom Φ k = BI.emp := by
  rw [rowsFrom, dif_neg h]

/-- The chain from row k on is the conjunction over the rows from k on. -/
private theorem rowsFrom_eq_bigSep (Φ : (k : Nat) → k < R → sProp 𝕄) :
    ∀ (n k : Nat), R - k = n →
      rowsFrom Φ k = bigSep ((Finset.univ : Finset (Fin R)).filter fun j => k ≤ j.val) (fun j => Φ j.val j.isLt)
  | 0, k, hn => by
    have hk : ¬ k < R := by omega
    have he : ((Finset.univ : Finset (Fin R)).filter fun j => k ≤ j.val) = ∅ :=
      Finset.filter_eq_empty_iff.mpr fun j _ hj => by have := j.isLt; omega
    rw [rowsFrom_ge Φ k hk, he, bigSep_empty]
  | n + 1, k, hn => by
    have hk : k < R := by omega
    have hins : ((Finset.univ : Finset (Fin R)).filter fun j => k ≤ j.val)
        = insert (⟨k, hk⟩ : Fin R) ((Finset.univ : Finset (Fin R)).filter fun j => k + 1 ≤ j.val) := by
      ext j
      simp only [Finset.mem_filter, Finset.mem_univ, true_and, Finset.mem_insert, Fin.ext_iff]
      omega
    have hnot : (⟨k, hk⟩ : Fin R) ∉ (Finset.univ : Finset (Fin R)).filter fun j => k + 1 ≤ j.val := by
      simp only [Finset.mem_filter, Finset.mem_univ, true_and]
      omega
    rw [rowsFrom_lt Φ k hk, rowsFrom_eq_bigSep Φ n (k + 1) (by omega), hins, bigSep_insert hnot]
    rfl

/-- The whole chain is the conjunction over all rows. -/
private theorem rowsFrom_zero (Φ : (k : Nat) → k < R → sProp 𝕄) :
    rowsFrom Φ 0 = bigSep (Finset.univ : Finset (Fin R)) (fun j => Φ j.val j.isLt) := by
  rw [rowsFrom_eq_bigSep Φ (R - 0) 0 rfl]
  congr 1
  exact Finset.filter_true_of_mem fun j _ => Nat.zero_le _

/-- Row k's elements are the one-row rectangle's, under the buffer's embedding. -/
private theorem rowSet_eq (m : Memref sig κ sp (⟨2, ![R, C]⟩ : Shape) e) (hsq : (⟨2, ![1, C]⟩ : Shape).Squeezes (⟨1, ![C]⟩ : Shape))
    (j : Fin R) : ((rowM m hsq j.val j.isLt).view.set : Finset m.view.ty.Idx) = (rowRect (R := R) (C := C) j).set.map m.view.emb := by
  show ((m.view.slice (rowRect (R := R) (C := C) j)).reshape (⟨1, ![C]⟩ : Shape) hsq.numel_eq).set = _
  rw [View.set_reshape, View.set_slice]

/-- Membership in row j, through the rectangle. -/
private theorem mem_rowSet (m : Memref sig κ sp (⟨2, ![R, C]⟩ : Shape) e) (hsq : (⟨2, ![1, C]⟩ : Shape).Squeezes (⟨1, ![C]⟩ : Shape))
    (j : Fin R) (i : m.view.ty.Idx) :
    i ∈ ((rowM m hsq j.val j.isLt).view.set : Finset m.view.ty.Idx) ↔ i ∈ (rowRect (R := R) (C := C) j).set.map m.view.emb :=
  Iff.of_eq (congrArg (fun S : Finset m.view.ty.Idx => i ∈ S) (rowSet_eq m hsq j))

/-- Two different rows share no element: their rectangles are apart on the row axis. -/
private theorem rows_disjoint (m : Memref sig κ sp (⟨2, ![R, C]⟩ : Shape) e) (hsq : (⟨2, ![1, C]⟩ : Shape).Squeezes (⟨1, ![C]⟩ : Shape))
    (j j' : Fin R) (hne : j ≠ j') : Disjoint (rowM m hsq j.val j.isLt).view.set (rowM m hsq j'.val j'.isLt).view.set := by
  rw [rowSet_eq, rowSet_eq, Finset.disjoint_map]
  refine Rect.unit_disjoint (0 : Fin 2) ?_
  have : j.val ≠ j'.val := fun h => hne (Fin.ext h)
  show j.val + 1 ≤ j'.val ∨ j'.val + 1 ≤ j.val
  omega

/-- Every element under the memref is in the row its first coordinate names. -/
private theorem rows_cover (m : Memref sig κ sp (⟨2, ![R, C]⟩ : Shape) e) (hsq : (⟨2, ![1, C]⟩ : Shape).Squeezes (⟨1, ![C]⟩ : Shape)) :
    (Finset.univ : Finset (Fin R)).biUnion (fun j => (rowM m hsq j.val j.isLt).view.set) = m.view.set := by
  ext i
  simp only [Finset.mem_biUnion, Finset.mem_univ, true_and]
  constructor
  · rintro ⟨j, hj⟩
    obtain ⟨y, -, rfl⟩ := Finset.mem_map.mp ((mem_rowSet m hsq j i).mp hj)
    exact m.view.emb_mem_set y
  · intro hi
    obtain ⟨y, -, rfl⟩ := Finset.mem_map.mp hi
    have hy0 : (y 0).val < R := (y 0).isLt
    refine ⟨⟨(y 0).val, hy0⟩, (mem_rowSet m hsq ⟨(y 0).val, hy0⟩ _).mpr ?_⟩
    refine Finset.mem_map_of_mem _ (Rect.mem_set_unit.mpr fun a => ?_)
    match a with
    | ⟨0, _⟩ => exact ⟨le_refl _, Nat.lt_succ_self _⟩
    | ⟨1, _⟩ => exact ⟨Nat.zero_le _, by have h : (y 1).val < C := (y 1).isLt; show (y 1).val < 0 + C; omega⟩

/-- A whole [R, C] buffer held at contents f is its rows held each by its own elements at f. -/
theorem rows_split (c : Thread nD τ) (m : Memref sig c.2.kind sp (⟨2, ![R, C]⟩ : Shape) e) (hm : m.IsWhole)
    (hsq : (⟨2, ![1, C]⟩ : Shape).Squeezes (⟨1, ![C]⟩ : Shape)) (q : PosShare TreeShare) (f : Buf Val (m.view.loc c)) :
    (m.view.loc c ↦{q} f : sProp 𝕄)
      ⊢ rowsFrom (fun k hk => (rowRes c m hsq q f k hk : sProp 𝕄)) 0 := by
  rw [rowsFrom_zero]
  have hb : (m.view.loc c ↦[(Finset.univ : Finset (Fin R)).biUnion fun j => ((rowM m hsq j.val j.isLt).view.set : Finset m.view.ty.Idx)]{q} f : sProp 𝕄)
      = bigSep (Finset.univ : Finset (Fin R)) fun j => (m.view.loc c ↦[((rowM m hsq j.val j.isLt).view.set : Finset m.view.ty.Idx)]{q} f : sProp 𝕄) :=
    pointsTo_biUnion _ _ (fun j _ j' _ hne => rows_disjoint m hsq j j' hne)
  rw [rows_cover m hsq, hm.set_eq_univ] at hb
  exact Entails.of_eq hb

/-- Rows held at contents `g k` each are the buffer held whole at contents that read, on row k, as `g k` reads. -/
theorem rows_join (c : Thread nD τ) (m : Memref sig c.2.kind sp (⟨2, ![R, C]⟩ : Shape) e) (hm : m.IsWhole)
    (hsq : (⟨2, ![1, C]⟩ : Shape).Squeezes (⟨1, ![C]⟩ : Shape)) (q : PosShare TreeShare)
    (g : (k : Nat) → k < R → Buf Val (m.view.loc c)) :
    rowsFrom (fun k hk => (rowRes c m hsq q (g k hk) k hk : sProp 𝕄)) 0
      ⊢ (iprop(∃ f : Buf Val (m.view.loc c),
          ⌜∀ (y : (⟨2, ![R, C]⟩ : Shape).Idx), m.view.read Val f y = m.view.read Val (g (y 0).val (y 0).isLt) y⌝
          ∗ (m.view.loc c ↦{q} f)) : sProp 𝕄) := by
  rw [rowsFrom_zero]
  -- some contents to start the join from (it is only used when there is no row at all)
  have f₀ : Buf Val (m.view.loc c) := by
    by_cases h : 0 < R
    · exact g 0 h
    · exact fun i => False.elim (by
        have hi : i ∈ m.view.set := hm.set_eq_univ ▸ Finset.mem_univ i
        obtain ⟨y, -, -⟩ := Finset.mem_map.mp hi
        exact h (Nat.lt_of_le_of_lt (Nat.zero_le _) (y 0).isLt))
  have hj : (bigSep (Finset.univ : Finset (Fin R))
        (fun j => (m.view.loc c ↦[((rowM m hsq j.val j.isLt).view.set : Finset m.view.ty.Idx)]{q} g j.val j.isLt : sProp 𝕄)))
      ⊢ (iprop(∃ g' : Buf Val (m.view.loc c),
          ⌜∀ t ∈ (Finset.univ : Finset (Fin R)), ∀ i ∈ ((rowM m hsq t.val t.isLt).view.set : Finset m.view.ty.Idx), g' i = g t.val t.isLt i⌝
          ∗ (m.view.loc c ↦[(Finset.univ : Finset (Fin R)).biUnion fun j => ((rowM m hsq j.val j.isLt).view.set : Finset m.view.ty.Idx)]{q} g')) : sProp 𝕄) :=
    pointsTo_biUnion_join _ _ _ f₀ (fun j _ j' _ hne => rows_disjoint m hsq j j' hne)
  rw [rows_cover m hsq, hm.set_eq_univ] at hj
  refine hj.trans ?_
  iintro ⟨%f, %hf, H⟩
  iexists f
  isplitr
  · ipureintro
    intro y
    rw [View.read_apply, View.read_apply]
    refine congrArg _ (hf ⟨(y 0).val, (y 0).isLt⟩ (Finset.mem_univ _) (m.view.emb y) ?_)
    refine (mem_rowSet m hsq ⟨(y 0).val, (y 0).isLt⟩ _).mpr (Finset.mem_map_of_mem _ (Rect.mem_set_unit.mpr fun a => ?_))
    match a with
    | ⟨0, _⟩ => exact ⟨le_refl _, Nat.lt_succ_self _⟩
    | ⟨1, _⟩ => exact ⟨Nat.zero_le _, by have h : (y 1).val < C := (y 1).isLt; show (y 1).val < 0 + C; omega⟩
  · iexact H

end Idealize.ShloMosaic.RowFill

end
-- ==== Proof.RowsIdeal.lean ====
/-
  What one grid point of the gather leaves in its output block, as mathematics.

  At grid point t the kernel reads, for j = 0 … 255, word `256 t + j` of the flattened index list (32-bit arithmetic that
  does not wrap, since 256 · 15 + 255 < 4096) and copies row `word` of the table into row j of the [256, 8192] block.
  Written as 256 one-row writes over whatever the block held, the block then reads, at (r, k), entry k of the table's
  row named by word `256 t + r`: every entry lies in exactly one of the rows, all of them are written, and nothing is
  read back in between.
-/
import proofs.«408184_j41532333752647_1_alg».proof.Proof.Gen.KernelIdeal
import proofs.«408184_j41532333752647_1_alg».proof.Proof.Gen.KernelIdeal.Launch
import proofs.«408184_j41532333752647_1_alg».proof.Proof.Spec
import proofs.«408184_j41532333752647_1_alg».proof.Proof.LibRowFill
import Idealize.ShloMosaic.Lib.Pipeline.Kit

noncomputable section

namespace Cert.KernelIdeal.Rows

open Cert.KernelIdeal Cert.KernelIdeal.Gen
open Idealize.ShloMosaic Idealize.ShloMosaic.TcCoe Idealize.ShloMosaic.ValueIdx
open Facts₀ Facts

variable {F : FTy → Type} [FloatOps F]

abbrev Bf (c : Dev nD) {sp : Space} {S : Shape} {e : EltTy} (M : Memref sig .tc sp S e) : Type := Buf (Elt F) (M.view.loc (c : Thread nD τ))

/-- A word below 8192 names a row of the table: the one-row rectangle at that row lies inside it. -/
theorem row_inb (v : BitVec 32) (h : v.toNat < 8192) :
    ∀ a : Fin 2, (![v.toNat, 0] : Fin 2 → Nat) a + S1x8192.size a ≤ S8192x8192.size a := by
  intro a
  fin_cases a
  · show v.toNat + 1 ≤ 8192; omega
  · show 0 + 8192 ≤ 8192; omega

/-- Position `256 t + j` of the index list, as the kernel computes it in 32-bit words. -/
abbrev pos (i : grid0.Coords) (j : Fin 256) : Index :=
  Scalar.indexCast (Scalar.addi (Scalar.muli (BitVec.ofNat 32 (i 0).val) 256#32) (BitVec.ofNat 32 j.val))

/-- The 32-bit arithmetic does not wrap. -/
theorem pos_toNat (i : grid0.Coords) (j : Fin 256) : (pos i j).toNat = 256 * (i 0).val + j.val := by
  have hi : (i 0).val < 16 := (i 0).isLt
  have hj := j.isLt
  show (BitVec.ofNat 32 (i 0).val * 256#32 + BitVec.ofNat 32 j.val).toNat = _
  rw [BitVec.toNat_add, BitVec.toNat_mul, BitVec.toNat_ofNat, BitVec.toNat_ofNat, BitVec.toNat_ofNat]
  omega

/-- The position is inside the list of 4096 words. -/
theorem pos_inb (i : grid0.Coords) (j : Fin 256) : ∀ a, (![(pos i j).toNat] : Fin 1 → Nat) a + S1.size a ≤ S4096.size a := by
  intro a
  have hi : (i 0).val < 16 := (i 0).isLt
  have hj := j.isLt
  fin_cases a
  show (pos i j).toNat + 1 ≤ 4096
  rw [pos_toNat]; omega

/-- The word the point reads at place j of its 256, as the body's scalar load reads it off the index list. -/
def wordAt (c : Dev nD) (i : grid0.Coords) (ids : Bf (F := F) c (Memref.whole main_v0)) (j : Fin 256) : Elt F .i32 :=
  View.readAt (Elt F) (Memref.whole main_v0).view (Rect.unit (s := S4096) ![(pos i j).toNat] S1.size (pos_inb i j)).toLoadRect ids
    (Shape.Idx.first (show 0 < S1.numel by decide))

/-- It is word `256 t + j` of the list. -/
theorem wordAt_eq (c : Dev nD) (i : grid0.Coords) (ids : Bf (F := F) c (Memref.whole main_v0)) (j : Fin 256)
    (h : 256 * (i 0).val + j.val < 4096) :
    wordAt c i ids j = ids (ix1 (⟨256 * (i 0).val + j.val, h⟩ : Fin 4096)) := by
  unfold wordAt
  rw [View.readAt_apply]
  show ids _ = ids _
  refine congrArg ids (funext fun a => Fin.ext ?_)
  match a with
  | ⟨0, _⟩ =>
    have h0 : ∀ x : S1.Idx, (x 0).val = 0 := fun x => by
      have h : (x 0).val < 1 := (x 0).isLt
      omega
    show (pos i j).toNat + 1 * ((Shape.Idx.first (show 0 < S1.numel by decide) : S1.Idx) 0).val = 256 * (i 0).val + j.val
    rw [h0, pos_toNat]; omega

/-- Row `v` of the table as the copy's source view reads it: a vector of 8192 entries. -/
def rowVec (c : Dev nD) (w : Bf (F := F) c (Memref.whole main_arg1)) (v : BitVec 32) (hv : v.toNat < 8192) : S8192.Idx → Elt F .f32 :=
  ReadAs.same.apply (View.read (Elt F)
    (((Memref.whole main_arg1).slice (Rect.unit (s := S8192x8192) ![v.toNat, 0] S1x8192.size (row_inb v hv)) (fun _ => rfl)).squeeze
      S8192 Facts₀.squeezes_S1x8192_S8192).view w)

/-- Entry k of it is the table's entry (v, k). -/
theorem rowVec_apply (c : Dev nD) (w : Bf (F := F) c (Memref.whole main_arg1)) (v : BitVec 32) (hv : v.toNat < 8192) (x : S8192.Idx) :
    rowVec c w v hv x = w (ix2 (⟨v.toNat, hv⟩ : Fin 8192) (⟨(x 0).val, (x 0).isLt⟩ : Fin 8192)) := by
  unfold rowVec
  dsimp only [ReadAs.apply]
  rw [View.read_apply]
  simp only [cast_eq]
  refine congrArg w (funext fun a => Fin.ext ?_)
  simp only [Memref.view_squeeze, Memref.view_slice, Memref.view_whole, View.emb_reshape, View.emb_slice, View.emb_whole,
    Function.Embedding.trans_apply, Function.Embedding.refl_apply, Equiv.coe_toEmbedding]
  rw [Shape.reshapeEquiv_cons_one (n := 1) (d := ![8192])]
  match a with
  | ⟨0, _⟩ => show v.toNat + 1 * 0 = v.toNat; omega
  | ⟨1, _⟩ => show 0 + 1 * (x 0).val = (x 0).val; omega

/-- The word at place j names a row of the table when every word of the list does. -/
theorem wordAt_lt (c : Dev nD) (i : grid0.Coords) (ids : Bf (F := F) c (Memref.whole main_v0)) (hids : ∀ n, (ids n).toNat < 8192)
    (j : Fin 256) : (wordAt c i ids j).toNat < 8192 := by
  have hi : (i 0).val < 16 := (i 0).isLt
  have hj := j.isLt
  rw [wordAt_eq c i ids j (by omega)]
  exact hids _

/-- The vector the point copies into row j of its block: the table's row named by its j-th word. -/
def payload (c : Dev nD) (i : grid0.Coords) (ids : Bf (F := F) c (Memref.whole main_v0)) (hids : ∀ n, (ids n).toNat < 8192)
    (w : Bf (F := F) c (Memref.whole main_arg1)) (j : Fin 256) : S8192.Idx → Elt F .f32 :=
  rowVec c w (wordAt c i ids j) (wordAt_lt c i ids hids j)

/-- A vector of 8192 entries and a one-row [1, 8192] payload have as many entries. -/
theorem hq : (⟨1, ![8192]⟩ : Shape).numel = (⟨2, ![1, 8192]⟩ : Shape).numel := by decide

/-- Row k of the block after its copy has landed: the row's own view written whole with the table's row named by the
    point's k-th word, over what the buffer held. -/
def rowAfter (c : Dev nD) (i : grid0.Coords) (M3 : Memref sig .tc .vmem S256x8192 .f32) (ids : Bf (F := F) c (Memref.whole main_v0))
    (hids : ∀ n, (ids n).toNat < 8192) (w : Bf (F := F) c (Memref.whole main_arg1))
    (f3 : (RowFill.rowView (R := 256) (C := 8192) M3.view hq ⟨0, by decide⟩).ty.Contents (Elt F)) (k : Nat) (hk : k < 256) :
    (RowFill.rowView (R := 256) (C := 8192) M3.view hq ⟨k, hk⟩).ty.Contents (Elt F) :=
  (RowFill.rowView (R := 256) (C := 8192) M3.view hq ⟨k, hk⟩).writes (Elt F) f3
    [⟨Rect.whole (⟨1, ![8192]⟩ : Shape), payload c i ids hids w ⟨k, hk⟩⟩]

/-- The grid has one axis: a point's coordinate is its number. -/
theorem coords_val : ∀ t : Fin grid0.N, ((grid0.coords t) 0).val = t.val := by decide

/-- Read through the block's memref on row (y 0), the landed row is the point's row of the gather. -/
theorem read_rowAfter (c : Dev nD) (t : Fin grid0.N) (ht : t.val < 16) (M3 : Memref sig .tc .vmem S256x8192 .f32)
    (ids : Bf (F := F) c (Memref.whole main_v0)) (hids : ∀ n, (ids n).toNat < 8192) (w : Bf (F := F) c (Memref.whole main_arg1))
    (f3 : (RowFill.rowView (R := 256) (C := 8192) M3.view hq ⟨0, by decide⟩).ty.Contents (Elt F)) (y : S256x8192.Idx) :
    M3.view.read (Elt F) (rowAfter c (grid0.coords t) M3 ids hids w f3 (y 0).val (y 0).isLt) y
      = Cert.GatherSpec.blockRows (⟨t.val, ht⟩ : Fin 16) ids w y := by
  have hy : (y 0).val < 256 := (y 0).isLt
  have hlt : 256 * ((grid0.coords t) 0).val + (y 0).val < 4096 := by rw [coords_val]; omega
  unfold rowAfter
  rw [RowFill.read_row_written M3.view hq ⟨(y 0).val, hy⟩ f3 _ y rfl]
  show rowVec c w (wordAt c (grid0.coords t) ids ⟨(y 0).val, hy⟩) _ (ix1 (n := 8192) (y 1)) = _
  rw [rowVec_apply]
  unfold Cert.GatherSpec.blockRows
  refine congrArg w (funext fun a => Fin.ext ?_)
  match a with
  | ⟨0, _⟩ =>
    show (wordAt c (grid0.coords t) ids ⟨(y 0).val, hy⟩).toNat = (Cert.GatherSpec.rowOf _).val
    rw [wordAt_eq c (grid0.coords t) ids ⟨(y 0).val, hy⟩ hlt, Cert.GatherSpec.rowOf_val_of_lt _ (hids _)]
    have e : (ix1 (⟨256 * ((grid0.coords t) 0).val + (y 0).val, hlt⟩ : Fin 4096) : (⟨1, ![4096]⟩ : Shape).Idx)
        = ix1 (⟨256 * t.val + (y 0).val, by omega⟩ : Fin 4096) := by
      refine congrArg ix1 (Fin.ext ?_)
      show 256 * ((grid0.coords t) 0).val + (y 0).val = 256 * t.val + (y 0).val
      rw [coords_val]
    exact congrArg (fun n => (ids n).toNat) e
  | ⟨1, _⟩ => rfl

end Cert.KernelIdeal.Rows

end
-- ==== Proof.BodyIdeal.lean ====
import proofs.«408184_j41532333752647_1_alg».proof.Proof.Gen.KernelIdeal
import proofs.«408184_j41532333752647_1_alg».proof.Proof.Gen.KernelIdeal.Skeleton
import proofs.«408184_j41532333752647_1_alg».proof.Proof.Gen.KernelIdeal.Launch
import proofs.«408184_j41532333752647_1_alg».proof.Proof.Spec
import proofs.«408184_j41532333752647_1_alg».proof.Proof.LibRowRes
import proofs.«408184_j41532333752647_1_alg».proof.Proof.RowsIdeal
import Idealize.ShloMosaic.Lib.Tactic
import Idealize.ShloMosaic.Lib.Pipeline.Kit

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

open Facts₀ Facts

/-- The kernel's own semaphores on each core: its sixteen scratch DMA semaphores, cells 2 to 17 of the pool (the
    staging buffers' two come first). -/
abbrev osem : Fin 16 → SemLoc sig := fun | 0 => .dma 2 | 1 => .dma 3 | 2 => .dma 4 | 3 => .dma 5 | 4 => .dma 6 | 5 => .dma 7 | 6 => .dma 8 | 7 => .dma 9 | 8 => .dma 10 | 9 => .dma 11 | 10 => .dma 12 | 11 => .dma 13 | 12 => .dma 14 | 13 => .dma 15 | 14 => .dma 16 | 15 => .dma 17 | ⟨_ + 16, h⟩ => absurd h (Nat.not_lt.2 (Nat.le_add_left _ _))

/-- The sixteen counters at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0)

/-- The grid point as a number below 16. -/
abbrev pointOf (t : Fin grid0.N) : Fin 16 := ⟨t.val, by have := N_0; omega⟩

/-- The table held under read token n: one token per semaphore cell, so that sixteen copies can read it at once. -/
abbrev tok (c : Dev nD) (n : Fin 18) (w : Bf (F := F) c (Memref.whole main_arg1)) : sProp 𝕄 :=
  (Memref.whole main_arg1).view.loc (c : Thread nD τ) ↦{Transfers.shareTok fullShare 18 n} w

/-- The table held whole is what is left after eighteen read tokens, and the tokens (cells 0 to 17; the copies use 2 to 17). -/
theorem toks_iff (c : Dev nD) (w : Bf (F := F) c (Memref.whole main_arg1)) :
    (pt c (Memref.whole main_arg1) w : sProp 𝕄)
      ⊣⊢ iprop(((Memref.whole main_arg1).view.loc (c : Thread nD τ) ↦{Transfers.shareDrop fullShare 18} w)
          ∗ tok c 0 w ∗ tok c 1 w ∗ tok c 2 w ∗ tok c 3 w ∗ tok c 4 w ∗ tok c 5 w ∗ tok c 6 w ∗ tok c 7 w ∗ tok c 8 w ∗ tok c 9 w ∗ tok c 10 w ∗ tok c 11 w ∗ tok c 12 w ∗ tok c 13 w ∗ tok c 14 w ∗ tok c 15 w ∗ tok c 16 w ∗ tok c 17 w) := by
  have h : (pt c (Memref.whole main_arg1) w : sProp 𝕄)
      ⊣⊢ iprop(((Memref.whole main_arg1).view.loc (c : Thread nD τ) ↦{Transfers.shareDrop fullShare 18} w)
          ∗ bigSep Finset.univ (fun n : Fin 18 => tok c n w)) := Transfers.pointsTo_toks fullShare 18
  rw [bigSep_univ_eq_bigSepL (List.finRange 18) (by decide) (by decide)] at h
  exact h

/-- One more row off the chain, by number (the tactics below take the rows off and put them back one at a time), -/
theorem rows_off (Φ : (k : Nat) → k < 256 → sProp 𝕄) (k : Nat) (h : k < 256) :
    RowFill.rowsFrom Φ k ⊢ iprop(Φ k h ∗ RowFill.rowsFrom Φ (k + 1)) := Entails.of_eq (RowFill.rowsFrom_lt Φ k h)

/-- and back on. -/
theorem rows_on (Φ : (k : Nat) → k < 256 → sProp 𝕄) (k : Nat) (h : k < 256) :
    iprop(Φ k h ∗ RowFill.rowsFrom Φ (k + 1)) ⊢ RowFill.rowsFrom Φ k := Entails.of_eq (RowFill.rowsFrom_lt Φ k h).symm

/-- Past row 255 the chain is empty. -/
theorem rows_end (Φ : (k : Nat) → k < 256 → sProp 𝕄) : (BI.emp : sProp 𝕄) ⊢ RowFill.rowsFrom Φ 256 :=
  Entails.of_eq (RowFill.rowsFrom_ge Φ 256 (by decide)).symm

open Lean Elab Tactic in
/-- Take the 256 rows off the chain `Hrows`, naming row k `Rk`. -/
elab "rows_intro" : tactic => do
  for k in [0:256] do
    let s := s!"(ihave Hrow := (rows_off _ {k} (by decide)) $$ Hrows; icases Hrow with ⟨R{k}, Hrows⟩)"
    match Parser.runParserCategory (← getEnv) `tactic s with
    | .ok stx => evalTactic stx
    | .error e => throwError e

open Lean Elab Tactic in
/-- Put the 256 rows back: the goal is the chain from row 0, row k is `Rk`. -/
elab "rows_exact" : tactic => do
  for k in [0:256] do
    let s := s!"(iapply (rows_on _ {k} (by decide)); isplitl [R{k}]; (iexact R{k}))"
    match Parser.runParserCategory (← getEnv) `tactic s with
    | .ok stx => evalTactic stx
    | .error e => throwError e

/-- Once every copy has landed: the rows, each at what its copy left, are the block held whole, and through the block's
    memref it reads the point's rows of the gather. -/
theorem block_of_rows (c : Dev nD) (t : Fin grid0.N) (M3 : Memref sig .tc .vmem S256x8192 .f32) (h3 : M3.IsWhole)
    (ids : Bf (F := F) c (Memref.whole main_v0)) (hids : ∀ n, (ids n).toNat < 8192)
    (w : Bf (F := F) c (Memref.whole main_arg1)) (f3 : Bf (F := F) c M3) :
    RowFill.rowsFrom (fun k hk => (RowFill.rowRes (c : Thread nD τ) M3 Facts₀.squeezes_S1x8192_S8192 fullShare
        (Rows.rowAfter c (grid0.coords t) M3 ids hids w f3 k hk) k hk : sProp 𝕄)) 0
      ⊢ iprop(∃ f : Bf (F := F) c M3, ⌜M3.view.read (Elt F) f = Cert.GatherSpec.blockRows (pointOf t) ids w⌝ ∗ pt c M3 f) := by
  refine (RowFill.rows_join (c : Thread nD τ) M3 h3 Facts₀.squeezes_S1x8192_S8192 fullShare
    (fun k hk => Rows.rowAfter c (grid0.coords t) M3 ids hids w f3 k hk)).trans ?_
  iintro ⟨%f, %hf, H⟩
  iexists f
  isplitr
  · ipureintro
    funext y
    rw [hf y]
    exact Rows.read_rowAfter c t _ M3 ids hids w f3 y
  · iexact H

set_option maxHeartbeats 400000000 in
/-- One grid point of the kernel: holding the index list (the whole of `main_v0`) at words that all name rows of the
    table, the table (the whole of `main_arg1`), the output block's buffer at anything, the sixteen counters at zero
    and the core's `owes`, the body runs to its return; the index list and the table are as they were, the counters are
    at zero again, and the block's buffer reads, row by row, the table's rows the point's 256 words name. The table is
    read under one token per semaphore cell (sixteen copies read it at once) and the block is held row by row (sixteen
    copies land in it at once, each in a row of its own). -/
theorem kernelRun (c : Dev nD) (t : Fin grid0.N) (M3 : Memref sig .tc .vmem S256x8192 .f32) (h3 : M3.IsWhole)
    (ids : Bf (F := F) c (Memref.whole main_v0)) (hids : ∀ n, (ids n).toNat < 8192)
    (w : Bf (F := F) c (Memref.whole main_arg1)) (f3 : Bf (F := F) c M3)
    (W : Waits sig Unit) (Q : PUnit → sProp 𝕄) :
    iprop(pt c (Memref.whole main_v0) ids ∗ pt c (Memref.whole main_arg1) w ∗ pt c M3 f3 ∗ sems0 c ∗ owes (c : Thread nD τ) 0 W
      ∗ (iprop(pt c (Memref.whole main_v0) ids ∗ pt c (Memref.whole main_arg1) w
            ∗ (∃ f : Bf (F := F) c M3, ⌜M3.view.read (Elt F) f = Cert.GatherSpec.blockRows (pointOf t) ids w⌝ ∗ pt c M3 f)
            ∗ sems0 c ∗ ∃ W, owes (c : Thread nD τ) 0 W) -∗ Q ⟨⟩))
    ⊢ wp frame (wpE (defs₀ (F := F)) Variants.none c none) Set.univ
        (cc0__gather_kernel (grid0.coords t) (Memref.whole main_v0) (Memref.isWhole_whole _) (Memref.whole main_arg1) (Memref.isWhole_whole _) M3 h3 cc0_scratch0) Q := by
  iintro ⟨H1, H2, H3, ⟨Hd0, Hd1, Hd2, Hd3, Hd4, Hd5, Hd6, Hd7, Hd8, Hd9, Hd10, Hd11, Hd12, Hd13, Hd14, Hd15⟩, HO, Hk⟩
  ihave HT := ((toks_iff c w).1) $$ H2
  icases HT with ⟨Hrest, T0, T1, T2, T3, T4, T5, T6, T7, T8, T9, T10, T11, T12, T13, T14, T15, T16, T17⟩
  ihave Hrows := (RowFill.rows_split (c : Thread nD τ) M3 h3 Facts₀.squeezes_S1x8192_S8192 fullShare f3) $$ H3
  rows_intro
  iclear Hrows
  unfold RowFill.rowRes RowFill.rowM tok
  sl_exec (disch := first | exact ⟨Rows.row_inb _ (hids _), Rows.row_inb _ (hids _)⟩ | exact Rows.row_inb _ (hids _))
  sl_step
  iapply Hk
  isplitl [H1]; · iexact H1
  isplitl [Hrest T0 T1 T2 T3 T4 T5 T6 T7 T8 T9 T10 T11 T12 T13 T14 T15 T16 T17]
  · iapply ((toks_iff c w).2)
    isplitl [Hrest]; · iexact Hrest
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    iexact T17
  isplitr [Hd0 Hd1 Hd2 Hd3 Hd4 Hd5 Hd6 Hd7 Hd8 Hd9 Hd10 Hd11 Hd12 Hd13 Hd14 Hd15 HO]
  · iapply (block_of_rows c t M3 h3 ids hids w f3)
    rows_exact
    iapply (rows_end _)
    iempintro
  isplitl [Hd0 Hd1 Hd2 Hd3 Hd4 Hd5 Hd6 Hd7 Hd8 Hd9 Hd10 Hd11 Hd12 Hd13 Hd14 Hd15]
  ·
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    iexact Hd15
  iexists _; iexact HO

end Cert.KernelIdeal.Body

end
-- ==== Proof.RunIdeal.lean ====
/-
  The launch of the idealized kernel program: @main is the flattening of the index array (a host reshape), ONE kernel
  region — a pipeline over the output array in 16 blocks of 256 rows, the flat index list prefetched into scalar
  memory, the table left in HBM and copied row by row by the body's own transfers on sixteen scratch DMA semaphores —,
  and the reshape of the output array into the result. Its run, for any float family: from any memory whose index
  words all name rows of the table, with zero counters, every weakly fair execution terminates, the result is the
  gather of the table's rows by the index words, and both arguments are as launched.
  The launch is the library's theorem for @main as a list of segments: the host stretch before the region, the region
  (its body obligation from the body's run at a symbolic grid point; entered with the index list as the prefetched
  table and the table and the counters inside the invariant), the host stretch after it. The output array's final
  contents are the blocks the points wrote back: block t holds the rows named by words 256 t … 256 t + 255, and the
  sixteen blocks tile the array.
-/
import proofs.«408184_j41532333752647_1_alg».proof.Proof.BodyIdeal
import proofs.«408184_j41532333752647_1_alg».proof.Proof.Gen.KernelIdeal.Launch
import proofs.«408184_j41532333752647_1_alg».proof.Proof.Spec
import Idealize.ShloMosaic.Lib.Pipeline.Regions
import Idealize.ShloMosaic.Lib.Pipeline.FrameSuffix
import Idealize.ShloMosaic.Lib.Pipeline.Value

noncomputable section

namespace Cert.KernelIdeal.Run

open Cert.KernelIdeal Cert.KernelIdeal.Gen Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ)

/-- Core c's buffer contents at launch, as a valuation; -/
abbrev V₀ (c : Dev nD) : Valuation τ sig (Elt F) := fun b => m ((c : Dev nD), b)
/-- when the region is entered (the index array has been flattened); -/
abbrev V0 (c : Dev nD) : Valuation τ sig (Elt F) := StableHlo.after hostOps0 (V₀ m c)
/-- the same read at a TensorCore reference. -/
abbrev V (c : Dev nD) (b : Ref sig .tc) : Buf (Elt F) ((c : Thread nD τ).loc b) := V0 m c (Proc.devRef .tc b)

/-- The flat index list and the table as the region finds them. -/
abbrev ids (c : Dev nD) : Bf (F := F) c (Memref.whole main_v0) := V m c main_v0
abbrev wtab (c : Dev nD) : Bf (F := F) c (Memref.whole main_arg1) := V m c main_arg1

/-- The prefetched table's contents (one device: core 0's), admissible (the side condition is trivial: no index map
    reads the table). -/
def tbl : pre0.Contents (Elt F) := fun k => V m 0 (pre0.ref k)
def adm : (p : Fin 1) → (pcfgs (F := F) p).Adm := fun _ => ⟨tbl m, trivial⟩

/-- The invariant between grid points: the index list and the table whole at their contents, the sixteen counters at
    zero, the scoped buffers no window stages. -/
def Φc (c : Dev nD) : sProp 𝕄 :=
  iprop(pt c (Memref.whole main_v0) (ids m c) ∗ pt c (Memref.whole main_arg1) (wtab m c) ∗ sems0 c
    ∗ Pipeline.scopedRest (Ix := Unit) (Name := ℕ) (U := UU nD τ) (Lvl := ℕ) (Val := Elt F) spec0 c)

/-- The proof data on core c: the output array at its entry contents; after the body at point t the block holds the
    rows the point's 256 words name; the invariant; nothing owed; the full share. -/
def dats (p : Fin 1) (c : Dev nD) : Dat τ (Elt F) Unit ℕ (UU nD τ) ℕ (Pipeline.pin (pcfgs (F := F)) (adm m) p) c where
  A w := V m c (Pipeline.arrRef spec0 w)
  after w t := match w with | ⟨0, _⟩ => Cert.GatherSpec.blockRows (pointOf t) (ids m c) (wtab m c)
  Φ _ := Φc m c
  q _ := fullShare
  owed _ := 0

abbrev 𝒱₀ : Variants := Variants.none

/-- The index list the region finds is the launch's index array flattened in row-major order. -/
theorem ids_eq (c : Dev nD) : ids m c = shapeCast S4096 (m ((c : Thread nD τ).loc main_arg0)) shapeCasts_S8x512_S4096 := by
  show StableHlo.after hostOps0 (V₀ m c) (Proc.devRef .tc main_v0) = _
  after_results
  rfl

/-- Every word of it names a row of the table. -/
theorem ids_lt (hidx : ∀ (c : Dev nD) i, (m ((c : Thread nD τ).loc main_arg0) i).toNat < 8192) (c : Dev nD) (n : S4096.Idx) :
    ((ids m c) n).toNat < 8192 := by
  rw [ids_eq]
  exact hidx c _

/-- Owning a whole staging buffer at contents X is holding its buffer whole at something that reads X. -/
theorem owns_whole' (c : Dev nD) (M3 : Memref sig .tc .vmem S256x8192 .f32) (h3 : M3.IsWhole) (X : S256x8192.Idx → Elt F .f32) :
    (owns (c : Thread nD τ) M3 fullShare X : sProp 𝕄) = iprop(∃ f : Bf (F := F) c M3, ⌜M3.view.read (Elt F) f = X⌝ ∗ pt c M3 f) := by
  unfold owns; rw [h3.set_eq_univ]

/-- The library's body obligation at every grid point: the invariant taken apart, the body's run applied at the
    point's staging buffer, its post reassembled. -/
theorem body_obligation (hidx : ∀ (c : Dev nD) i, (m ((c : Thread nD τ).loc main_arg0) i).toNat < 8192) (c : Dev nD) :
    BodyObligation (dats m 0 c) (defs₀ (F := F)) 𝒱₀ () Set.univ := fun t => by
  rw [bigSep_W0, bigSep_W0]
  simp only [owns_whole' c _ (hstage0_0 _)]
  rw [show (dats m 0 c).Φ t.castSucc = Φc m c from rfl, show (dats m 0 c).Φ t.succ = Φc m c from rfl]
  unfold Φc Dat.owesAt Pipeline.owesWithin
  rw [show (dats m 0 c).owed t.castSucc = 0 from rfl, show (dats m 0 c).owed t.succ = 0 from rfl]
  iintro ⟨⟨Hids, Hw, Hsems, Hr⟩, ⟨%W, %hW, HO⟩, ⟨%d0, %f0, %hf0, H0⟩⟩
  iapply (kernelRun c t _ (hstage0_0 _) (ids m c) (ids_lt m hidx c) (wtab m c) f0 W)
  isplitl [Hids]; · iexact Hids
  isplitl [Hw]; · iexact Hw
  isplitl [H0]; · iexact H0
  isplitl [Hsems]; · iexact Hsems
  isplitl [HO]; · iexact HO
  iintro ⟨Hids, Hw, ⟨%f, %hf, H0⟩, Hsems, ⟨%W', HO⟩⟩
  isplitl [Hids Hw Hsems Hr]
  · isplitl [Hids]; · iexact Hids
    isplitl [Hw]; · iexact Hw
    isplitl [Hsems]; · iexact Hsems
    iexact Hr
  isplitl [HO]
  · iexists W'; isplitr; · ipureintro; exact fun _ _ => Or.inl trivial
    iexact HO
  iexists f; isplitr; swap; (· iexact H0)
  ipureintro
  dsimp only [dats]
  exact hf

/-! ## The launch: @main as host stretch, region, host stretch -/

/-- The kernel's own semaphores are scoped, distinct, and no staging semaphore. -/
theorem ownSemFacts : Pipeline.OwnSemFacts spec0 osem := by decide

/-- The launch element: the pipeline library's at the staging cells and the pipeline's transfers; no counter yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15] (by decide) (by decide)

/-- No core owes another anything: no level is assigned. -/
abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- THE FIRST HOST STRETCH: the flattening of the index array, over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The output array's contents after the region, as the library computes them. -/
abbrev finalA (c : Dev nD) (w : Fin 1) : Buf (Elt F) ((spec0 w).arr.view.loc (c : Thread nD τ)) :=
  (dats m 0 c).arrAt w (Pipeline.pin (pcfgs (F := F)) (adm m) 0).N

/-- Core c's buffer contents when the region is left: the output array at its final contents, every other buffer as
    the region found it. -/
abbrev W1 (c : Dev nD) : Valuation τ sig (Elt F) := Pipeline.withArrays spec0 c (V0 m c) (finalA m c)

/-- The buffers the last host stretch runs within: the output array and the buffers that bypass the region. -/
abbrev TR : Finset (DevRef τ sig) := Pipeline.tailRefs sig pre0 spec0

/-- Those buffers held at a valuation, one by one. -/
theorem held_TR (c : Dev nD) (Wv : Valuation τ sig (Elt F)) :
    (StableHlo.held (c : Thread nD τ) TR Wv : sProp 𝕄)
      = iprop((((c : Thread nD τ).loc main_v1) ↦{fullShare} Wv (Proc.devRef .tc main_v1))
          ∗ (((c : Thread nD τ).loc main_arg0) ↦{fullShare} Wv (Proc.devRef .tc main_arg0))
          ∗ (((c : Thread nD τ).loc main_arg1) ↦{fullShare} Wv (Proc.devRef .tc main_arg1))
          ∗ (((c : Thread nD τ).loc main_v2) ↦{fullShare} Wv (Proc.devRef .tc main_v2))) := by
  rw [Pipeline.held_tailRefs pre0 spec0 (launch0 (F := F)).win.arr_inj c Wv, unscopedRestP0_eq]
  unfold Pipeline.arrPts
  rw [bigSep_W0]

/-- When the region is left the output array holds its final contents, -/
theorem W1_v1 (c : Dev nD) : W1 m c (Proc.devRef .tc main_v1) = finalA m c 0 :=
  Pipeline.withArrays_arr spec0 (launch0 (F := F)).win.arr_inj c (V0 m c) (finalA m c) 0
/-- and every other buffer what it held when the region was entered. -/
theorem W1_of_ne (c : Dev nD) (b : Ref sig .tc) (hb : ∀ w, Pipeline.arrRef spec0 w ≠ b) : W1 m c (Proc.devRef .tc b) = V m c b :=
  Pipeline.withArrays_of_ne spec0 c (V0 m c) (finalA m c) b hb

/-- On the one device the table's contents are core c's index list. -/
theorem tbl_eq (c : Dev nD) : (fun k => V m c (pre0.ref k)) = tbl m := by
  obtain rfl : c = 0 := Subsingleton.elim _ _
  rfl

/-- The last host stretch touches the output array and the result only: no prefetched table. -/
theorem tail_sub : ∀ op ∈ (hostOps1 : List (HloOp τ sig (Elt F))), op.bufs ⊆ TR := by
  intro op hop
  refine Pipeline.sub_tailRefs pre0 spec0 op ((List.forall_iff_forall_mem.mp hostOps1_sub) op hop) ?_
  simp only [hostOps1, List.mem_cons, List.mem_nil_iff, or_false] at hop
  subst hop
  intro k
  obtain rfl : k = 0 := Subsingleton.elim _ _
  simp only [StableHlo.reshape_bufs, Finset.mem_insert, Finset.mem_singleton, not_or]
  exact ⟨StableHlo.devRef_ne_of_ne (by decide), StableHlo.devRef_ne_of_ne (by decide)⟩

/-- What rides beside the buffers through the last host stretch: the index list, which the stretch does not touch,
    and the core's `owes`. -/
abbrev R1 (c : Dev nD) : sProp 𝕄 := iprop(pt c (Memref.whole main_v0) (ids m c) ∗ R c)

/-- THE LAST HOST STRETCH: the reshape of the output array into the result. -/
def seg1 : Pipeline.HostSeg (Name := ℕ) (U := UU nD τ) (pcfgs (F := F)) defs₀ 𝒱₀ L lv :=
  Pipeline.HostSeg.ofOps _ _ _ _ _ TR hostOps1 (tail_sub)
    (by intro _ h; (repeat (cases h with | head => rfl | tail _ h => ?_)); exact nomatch h) (W1 m) (R1 m)

set_option backward.isDefEq.respectTransparency.types false in
/-- THE REGION: entered from what the first stretch left — the output array into the pipeline, the index list as the
    prefetched table, the table and the sixteen counters into the invariant, the index array and the result's buffer
    bypassing —, left with the output array at its final contents. -/
def reg0 (hidx : ∀ (c : Dev nD) i, (m ((c : Thread nD τ).loc main_arg0) i).toNat < 8192) :
    Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 16
  osem := osem
  ho := ownSemFacts
  hbody c := (body_obligation m hidx c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) TR (W1 m c) ∗ R1 m c)
  X c := iprop(pt c (Memref.whole main_arg1) (wtab m c) ∗ sems0 c)
  Y c := iprop(pt c (Memref.whole main_v0) (ids m c) ∗ pt c (Memref.whole main_arg1) (wtab m c))
  Z c := iprop((((c : Thread nD τ).loc main_arg0) ↦{fullShare} V m c main_arg0) ∗ (((c : Thread nD τ).loc main_v2) ↦{fullShare} V m c main_v2))
  hentry c := by
    rw [show StableHlo.held (c : Thread nD τ) (Pipeline.ucRefs τ sig) (StableHlo.after hostOps0 (V₀ m c))
        = unscopedBufs c (V m c) from (Pipeline.unscopedBufs_held c _).symm, ownSems0_eq]
    have hsplit := (Pipeline.arrays_of_unscopedBufs (pcfgs (F := F)) (adm m) (dats m) (launch0 (F := F)).win (launch0 (F := F)).arr_whole c
        ((dats m 0 c).share_full fun _ => rfl) (V m c) fun _ => rfl).trans
        (sep_mono .rfl ((Entails.of_eq (Pipeline.unscopedRest_split preFacts0 c (V m c))).trans
          (sep_mono .rfl (Entails.of_eq (unscopedRestP0_eq c (V m c))))))
    rw [tbl_eq m c] at hsplit
    iintro ⟨⟨Hub, HO⟩, Hos, -⟩
    ihave H := hsplit $$ Hub
    icases H with ⟨Ha, Hpf, H0, H1, H2⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H0]; · iexact H0
    iexact H2
  hin c := by
    rw [show (dats m 0 c).Φ 0 = Φc m c from rfl, show ((adm m 0).1 : pre0.Contents (Elt F)) = tbl m from rfl, ← tbl_eq m c]
    unfold Φc Pipeline.prefHeld
    rw [bigSep_W0]
    iintro ⟨⟨Hw, Hos⟩, Hpf, Hr⟩
    isplitl [Hpf]; · iexact Hpf
    isplitl [Hw]; · iexact Hw
    isplitl [Hos] <;> iassumption
  hout c := by
    rw [ownSems0_eq, show (dats m 0 c).Φ (Fin.last _) = Φc m c from rfl]; unfold Φc
    iintro ⟨Hids, Hw, Hos, Hr⟩
    isplitl [Hids Hw]
    · isplitl [Hids]; · iexact Hids
      iexact Hw
    isplitl [Hos] <;> iassumption
  hexit c := by
    rw [held_TR, Pipeline.arrays_eq (Pipeline.pin (pcfgs (F := F)) (adm m)) (dats m) 0 c (launch0 (F := F)).arr_whole ((dats m 0 c).share_full fun _ => rfl), bigSep_W0]
    rw [W1_v1, W1_of_ne m c main_arg0 (by decide), W1_of_ne m c main_arg1 (by decide), W1_of_ne m c main_v2 (by decide)]
    iintro ⟨Ha, HO, ⟨Hids, Hw⟩, ⟨H0, H2⟩⟩
    imodintro
    isplitl [Ha H0 Hw H2]
    · isplitl [Ha]; · iexact Ha
      isplitl [H0]; · iexact H0
      isplitl [Hw]; · iexact Hw
      iexact H2
    isplitl [Hids]; · iexact Hids
    unfold Pipeline.Dat.owesAt Pipeline.owesWithin
    icases HO with ⟨%W, -, HO⟩; iexists W; iexact HO

/-- @main as the list of the three. -/
abbrev segs (hidx : ∀ (c : Dev nD) i, (m ((c : Thread nD τ).loc main_arg0) i).toNat < 8192) :
    List (Pipeline.Seg (pcfgs (F := F)) (adm m) (dats m) () defs₀ 𝒱₀ L lv) :=
  [.host (seg0 m), .region (reg0 m hidx), .host (seg1 m)]

/-- What the last stretch leaves: the buffers it ran within at its results, and the index list. -/
abbrev Tₙ (c : Dev nD) : sProp 𝕄 :=
  iprop(StableHlo.held (c : Thread nD τ) TR (StableHlo.after hostOps1 (W1 m c)) ∗ pt c (Memref.whole main_v0) (ids m c))

/-- The physical post: the result and the two arguments at what the last stretch leaves in them. -/
def QC : PUnit × MemSt nD τ sig (Elt F) → Prop := fun r =>
  ∀ c : Dev nD, r.2.mem ((c : Thread nD τ).loc main_v2) = StableHlo.after hostOps1 (W1 m c) (Proc.devRef .tc main_v2)
    ∧ r.2.mem ((c : Thread nD τ).loc main_arg0) = StableHlo.after hostOps1 (W1 m c) (Proc.devRef .tc main_arg0)
    ∧ r.2.mem ((c : Thread nD τ).loc main_arg1) = StableHlo.after hostOps1 (W1 m c) (Proc.devRef .tc main_arg1)

/-- What the last stretch leaves is the last thread state beside the core owing nothing. -/
theorem last_chain (c : Dev nD) :
    iprop(StableHlo.held (c : Thread nD τ) TR (StableHlo.after hostOps1 (W1 m c)) ∗ R1 m c)
      ⊢ iprop(Tₙ m c ∗ ∃ W, owes (c : Thread nD τ) (0 : CellTallies nD τ sig Unit) W) := by
  iintro ⟨Hh, Hids, HO⟩
  isplitr [HO]
  · isplitl [Hh]; · iexact Hh
    iexact Hids
  iexact HO

set_option backward.isDefEq.respectTransparency.types false in
/-- From any memory whose index words name rows of the table, with zero counters: every weakly fair execution of
    @main terminates, and every final state has the result and the arguments at what the last stretch leaves. -/
theorem run_frame (hidx : ∀ (c : Dev nD) i, (m ((c : Thread nD τ).loc main_arg0) i).toNat < 8192) (ρ : Dev nD → PrngReg) :
    θ_run defs (onTc (τ := τ) (main (F := F))) ⟨m, fun _ => 0, ρ⟩ (QC m) :=
  Pipeline.θ_run_regions_kit (pcfgs (F := F)) (adm m) (dats m) () (cellOf_inj (adm m)) EP defs₀ 𝒱₀ L lv m ρ main (segs m hidx)
    (fun c Q => by rw [main_segs (adm m) (dats m) () 𝒱₀ L lv (seg0 m) (seg1 m) (reg0 m hidx) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => last_chain m c⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v2) = StableHlo.after hostOps1 (W1 m c) (Proc.devRef .tc main_v2)
      ∧ s.mem ((c : Thread nD τ).loc main_arg0) = StableHlo.after hostOps1 (W1 m c) (Proc.devRef .tc main_arg0)
      ∧ s.mem ((c : Thread nD τ).loc main_arg1) = StableHlo.after hostOps1 (W1 m c) (Proc.devRef .tc main_arg1))
    (hfin := fun c s' => by
      dsimp only [Tₙ]; rw [held_TR]
      iintro ⟨⟨⟨-, H0, H1, H2⟩, -⟩, HSI⟩
      icombine HSI H0 gives %h0
      icombine HSI H1 gives %h1
      icombine HSI H2 gives %h2
      imodintro
      isplitr; · ipureintro; exact ⟨Buf.eq_of_forall_mem_univ h2, Buf.eq_of_forall_mem_univ h0, Buf.eq_of_forall_mem_univ h1⟩
      iexact HSI)
    (hQ := fun _ h => h)

/-! ## The values -/

/-- The first stretch writes the flat index list only, -/
theorem not_written0 (b : Ref sig .tc) (hb : b ≠ main_v0) :
    ∀ op ∈ (hostOps0 : List (HloOp τ sig (Elt F))), Proc.devRef .tc b ∉ op.writes := by
  intro op hop
  simp only [List.mem_cons, List.mem_nil_iff, or_false] at hop
  subst hop
  simp only [StableHlo.reshape_writes, Finset.mem_singleton]
  exact StableHlo.devRef_ne_of_ne hb

/-- the last one the result only. -/
theorem not_written1 (b : Ref sig .tc) (hb : b ≠ main_v2) :
    ∀ op ∈ (hostOps1 : List (HloOp τ sig (Elt F))), Proc.devRef .tc b ∉ op.writes := by
  intro op hop
  simp only [List.mem_cons, List.mem_nil_iff, or_false] at hop
  subst hop
  simp only [StableHlo.reshape_writes, Finset.mem_singleton]
  exact StableHlo.devRef_ne_of_ne hb

/-- The table as the region finds it is the launch's. -/
theorem wtab_eq (c : Dev nD) : wtab m c = m ((c : Thread nD τ).loc main_arg1) :=
  StableHlo.after_of_forall_not_mem (b := Proc.devRef .tc main_arg1) hostOps0 (V₀ m c) (not_written0 main_arg1 (by decide))

/-- The arguments end as launched: no stretch writes them and they are no array of the pipeline. -/
theorem tail_arg0 (c : Dev nD) : StableHlo.after hostOps1 (W1 m c) (Proc.devRef .tc main_arg0) = m ((c : Thread nD τ).loc main_arg0) := by
  rw [StableHlo.after_of_forall_not_mem hostOps1 (W1 m c) (not_written1 main_arg0 (by decide)), W1_of_ne m c main_arg0 (by decide)]
  exact StableHlo.after_of_forall_not_mem (b := Proc.devRef .tc main_arg0) hostOps0 (V₀ m c) (not_written0 main_arg0 (by decide))
theorem tail_arg1 (c : Dev nD) : StableHlo.after hostOps1 (W1 m c) (Proc.devRef .tc main_arg1) = m ((c : Thread nD τ).loc main_arg1) := by
  rw [StableHlo.after_of_forall_not_mem hostOps1 (W1 m c) (not_written1 main_arg1 (by decide)), W1_of_ne m c main_arg1 (by decide)]
  exact wtab_eq m c

/-- The result is the output array's final contents at the result's shape. -/
theorem tail_v2 (c : Dev nD) : StableHlo.after hostOps1 (W1 m c) (Proc.devRef .tc main_v2)
    = shapeCast S8x512x8192 (finalA m c 0) shapeCasts_S4096x8192_S8x512x8192 := by
  after_results
  rw [W1_v1]
  rfl

/-- The printed index map over the grid: point t's block is block row t, block column 0. -/
theorem idx_facts : ∀ t : Fin grid0.N, cc0_transform_1 (grid0.coords t) (0 : Fin 2) = t.val ∧ cc0_transform_1 (grid0.coords t) (1 : Fin 2) = 0 := by
  decide

/-- The window's block index at a point is the printed map at the point's coordinates, whatever the table holds. -/
theorem index_eq (a : (pcfg0 (F := F)).Adm) (t : Fin (cfg0 a).N) : ((cfg0 a).win 0).index t = cc0_transform_1 (grid0.coords t) := rfl

/-- Every point writes its block back: the next point's block is another. -/
theorem flush_all (a : (pcfg0 (F := F)).Adm) (t : Fin (cfg0 a).N) : ((cfg0 a).win 0).flush t = true := by
  unfold Pipeline.Window.flush
  rw [Bool.and_eq_true]
  refine ⟨rfl, ?_⟩
  rw [Bool.or_eq_true, decide_eq_true_eq, decide_eq_true_eq]
  have hN : (cfg0 a).N = (cfg0 a).grid.N := rfl
  by_cases h : t.val + 1 = (cfg0 a).grid.N
  · exact Or.inl h
  · refine Or.inr ⟨by have := t.isLt; omega, fun e => ?_⟩
    have e0 := congrFun e (0 : Fin 2)
    rw [index_eq, index_eq, (idx_facts _).1, (idx_facts _).1] at e0
    simp at e0

/-- An index of the output array is in point t's block iff each coordinate is in the block's range on its axis. -/
theorem mem_blk (a : (pcfg0 (F := F)).Adm) (t : Fin (cfg0 a).N) (i : S4096x8192.Idx) :
    i ∈ (((cfg0 a).win 0).blk t).view.set ↔ ∀ x : Fin 2, ((cfg0 a).win 0).index t x * S256x8192.size x ≤ (i x).val
      ∧ (i x).val < ((cfg0 a).win 0).index t x * S256x8192.size x + S256x8192.size x := by
  have h : (((cfg0 a).win 0).blk t).view.set = (((cfg0 a).win 0).rect t).set := View.set_slice_whole main_v1 _
  rw [h]
  exact Rect.mem_set_unit

/-- The sixteen blocks tile the array: row r is in the block of point r / 256. -/
theorem cover (a : (pcfg0 (F := F)).Adm) (i : S4096x8192.Idx) :
    ∃ t : Fin (cfg0 a).N, ((cfg0 a).win 0).flush t = true ∧ i ∈ (((cfg0 a).win 0).blk t).view.set := by
  have hi0 : (i 0).val < 4096 := (i 0).isLt
  have hi1 : (i 1).val < 8192 := (i 1).isLt
  have hN : (cfg0 a).N = 16 := N_0
  have ht : (i 0).val / 256 < (cfg0 a).N := by rw [hN]; omega
  obtain ⟨f0, f1⟩ := idx_facts ⟨(i 0).val / 256, ht⟩
  refine ⟨⟨(i 0).val / 256, ht⟩, flush_all a _, ?_⟩
  rw [mem_blk]
  intro x
  rw [index_eq]
  match x with
  | ⟨0, _⟩ =>
    show cc0_transform_1 (grid0.coords ⟨(i 0).val / 256, ht⟩) (0 : Fin 2) * 256 ≤ (i 0).val
      ∧ (i 0).val < cc0_transform_1 (grid0.coords ⟨(i 0).val / 256, ht⟩) (0 : Fin 2) * 256 + 256
    rw [f0]
    show (i 0).val / 256 * 256 ≤ (i 0).val ∧ (i 0).val < (i 0).val / 256 * 256 + 256
    omega
  | ⟨1, _⟩ =>
    show cc0_transform_1 (grid0.coords ⟨(i 0).val / 256, ht⟩) (1 : Fin 2) * 8192 ≤ (i 1).val
      ∧ (i 1).val < cc0_transform_1 (grid0.coords ⟨(i 0).val / 256, ht⟩) (1 : Fin 2) * 8192 + 8192
    rw [f1]
    omega

/-- WHAT POINT t WRITES BACK is block t of the flat gather: row r of the block is row 256 t + r of the array, which
    is the table's row named by word 256 t + r of the flat list. -/
theorem flushed_eq (c : Dev nD) (t : Fin (cfg0 (adm m 0)).N) :
    (dats m 0 c).flushed 0 t
      = (((cfg0 (adm m 0)).win 0).blk t).view.read (Elt F) (Cert.GatherSpec.gatheredFlat (ids m c) (wtab m c)) := by
  show ((cfg0 (adm m 0)).win 0).cut (grid0.coords t) ((dats m 0 c).after 0 t) = _
  dsimp only [dats]
  obtain ⟨f0, f1⟩ := idx_facts t
  show (Cert.GatherSpec.blockRows (pointOf t) (ids m c) (wtab m c) : S256x8192.Idx → Elt F .f32)
      = fun y : S256x8192.Idx => Cert.GatherSpec.gatheredFlat (ids m c) (wtab m c) ((((cfg0 (adm m 0)).win 0).blk t).view.emb y)
  funext y
  have hy0 : (y (0 : Fin 2)).val < 256 := (y 0).isLt
  have hy1 : (y (1 : Fin 2)).val < 8192 := (y 1).isLt
  obtain ⟨E, hE⟩ : ∃ E : S4096x8192.Idx, E = (((cfg0 (adm m 0)).win 0).blk t).view.emb y := ⟨_, rfl⟩
  have he0 : (E (0 : Fin 2)).val = 256 * t.val + (y (0 : Fin 2)).val := by
    rw [hE]
    show ((cfg0 (adm m 0)).win 0).index t (0 : Fin 2) * 256 + 1 * (y (0 : Fin 2)).val = _
    rw [index_eq, f0]; omega
  have he1 : (E (1 : Fin 2)).val = (y (1 : Fin 2)).val := by
    rw [hE]
    show ((cfg0 (adm m 0)).win 0).index t (1 : Fin 2) * 8192 + 1 * (y (1 : Fin 2)).val = _
    rw [index_eq, f1]; omega
  show _ = Cert.GatherSpec.gatheredFlat (ids m c) (wtab m c) ((((cfg0 (adm m 0)).win 0).blk t).view.emb y)
  rw [← hE]
  unfold Cert.GatherSpec.blockRows Cert.GatherSpec.gatheredFlat
  refine congrArg (wtab m c) ?_
  have h0 : (⟨256 * (pointOf t).val + (y (0 : Fin 2)).val, by have := (pointOf t).isLt; omega⟩ : Fin 4096) = E (0 : Fin 2) := Fin.ext he0.symm
  have h1 : (y (1 : Fin 2) : Fin 8192) = E (1 : Fin 2) := Fin.ext he1.symm
  exact congrArg₂ (fun (p : Fin 4096) (q : Fin 8192) => ValueIdx.ix2 (Cert.GatherSpec.rowOf (ids m c (ValueIdx.ix1 p))) q) h0 h1

/-- THE OUTPUT ARRAY after the region: row n is the table's row named by word n of the flat index list. -/
theorem finalA_eq (c : Dev nD) : finalA m c 0 = Cert.GatherSpec.gatheredFlat (ids m c) (wtab m c) :=
  (dats m 0 c).arrAt_eq_of_cover 0 (Cert.GatherSpec.gatheredFlat (ids m c) (wtab m c)) (fun t _ => flushed_eq m c t) (cover (adm m 0))

/-- Read at the result's shape, with the flat list the flattened index array: the gather. Entry (b, s, k) of the
    result is entry (512 b + s, k) of the flat form, and word 512 b + s of the flat list is word (b, s) of the array. -/
theorem reshape_gathered (inp : S8x512.Idx → BitVec 32) (w : S8192x8192.Idx → Elt F .f32) :
    shapeCast S8x512x8192 (Cert.GatherSpec.gatheredFlat (shapeCast S4096 inp shapeCasts_S8x512_S4096) w) shapeCasts_S4096x8192_S8x512x8192
      = Cert.GatherSpec.gathered inp w := by
  funext j
  have hj0 : (j 0).val < 8 := (j 0).isLt
  have hj1 : (j 1).val < 512 := (j 1).isLt
  have hj2 : (j 2).val < 8192 := (j 2).isLt
  rw [shapeCast_apply _ shapeCasts_S4096x8192_S8x512x8192 j
    (ValueIdx.ix2 (⟨512 * (j 0).val + (j 1).val, by omega⟩ : Fin 4096) (⟨(j 2).val, hj2⟩ : Fin 8192))
    (by
      rw [Shape.rowMajor_val_two, Shape.rowMajor_val_three]
      show (512 * (j 0).val + (j 1).val) * 8192 + (j 2).val = ((j 0).val * 512 + (j 1).val) * 8192 + (j 2).val
      omega)]
  show w (ValueIdx.ix2 (Cert.GatherSpec.rowOf (shapeCast S4096 inp shapeCasts_S8x512_S4096
      (ValueIdx.ix1 (⟨512 * (j 0).val + (j 1).val, by omega⟩ : Fin 4096)))) (⟨(j 2).val, hj2⟩ : Fin 8192))
    = w (ValueIdx.ix2 (Cert.GatherSpec.rowOf (inp (ValueIdx.ix2 (j 0) (j 1)))) (j 2))
  rw [shapeCast_apply inp shapeCasts_S8x512_S4096 (ValueIdx.ix1 (⟨512 * (j 0).val + (j 1).val, by omega⟩ : Fin 4096))
    (ValueIdx.ix2 (j 0) (j 1))
    (by
      rw [Shape.rowMajor_val_two, Shape.rowMajor_val_one]
      show (j 0).val * 512 + (j 1).val = 512 * (j 0).val + (j 1).val
      omega)]
  rfl

/-- From any memory whose index words name rows of the table, with zero counters: every weakly fair execution of
    @main terminates with the result the gather of the table's rows by the index words, the arguments unchanged. -/
theorem run_main (ρ : Dev nD → PrngReg)
    (hidx : ∀ (c : Dev nD) i, (m ((c.tc : Thread nD τ).loc main_arg0) i).toNat < 8192) :
    θ_run (defs (F := F)) (onTc (τ := τ) (main (F := F))) ⟨m, fun _ => 0, ρ⟩ (fun r => ∀ c : Dev nD,
      r.2.mem ((c.tc : Thread nD τ).loc main_v2) = Cert.GatherSpec.gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by
      rw [tail_v2, finalA_eq, ids_eq, wtab_eq]
      exact reshape_gathered _ _), (h c).2.1.trans (tail_arg0 m c), (h c).2.2.trans (tail_arg1 m c)⟩)
    (run_frame m hidx ρ)

end Cert.KernelIdeal.Run

end
-- ==== Proof.RowsBits.lean ====
/-
  What one grid point of the gather leaves in its output block, as mathematics.

  At grid point t the kernel reads, for j = 0 … 255, word `256 t + j` of the flattened index list (32-bit arithmetic that
  does not wrap, since 256 · 15 + 255 < 4096) and copies row `word` of the table into row j of the [256, 8192] block.
  Written as 256 one-row writes over whatever the block held, the block then reads, at (r, k), entry k of the table's
  row named by word `256 t + r`: every entry lies in exactly one of the rows, all of them are written, and nothing is
  read back in between.
-/
import proofs.«408184_j41532333752647_1_alg».proof.Proof.Gen.Kernel
import proofs.«408184_j41532333752647_1_alg».proof.Proof.Gen.Kernel.Launch
import proofs.«408184_j41532333752647_1_alg».proof.Proof.Spec
import proofs.«408184_j41532333752647_1_alg».proof.Proof.LibRowFill
import Idealize.ShloMosaic.Lib.Pipeline.Kit

noncomputable section

namespace Cert.Kernel.Rows

open Cert.Kernel Cert.Kernel.Gen
open Idealize.ShloMosaic Idealize.ShloMosaic.TcCoe Idealize.ShloMosaic.ValueIdx
open Facts₀ Facts

variable {F : FTy → Type} [FloatOps F]

abbrev Bf (c : Dev nD) {sp : Space} {S : Shape} {e : EltTy} (M : Memref sig .tc sp S e) : Type := Buf (Elt F) (M.view.loc (c : Thread nD τ))

/-- A word below 8192 names a row of the table: the one-row rectangle at that row lies inside it. -/
theorem row_inb (v : BitVec 32) (h : v.toNat < 8192) :
    ∀ a : Fin 2, (![v.toNat, 0] : Fin 2 → Nat) a + S1x8192.size a ≤ S8192x8192.size a := by
  intro a
  fin_cases a
  · show v.toNat + 1 ≤ 8192; omega
  · show 0 + 8192 ≤ 8192; omega

/-- Position `256 t + j` of the index list, as the kernel computes it in 32-bit words. -/
abbrev pos (i : grid0.Coords) (j : Fin 256) : Index :=
  Scalar.indexCast (Scalar.addi (Scalar.muli (BitVec.ofNat 32 (i 0).val) 256#32) (BitVec.ofNat 32 j.val))

/-- The 32-bit arithmetic does not wrap. -/
theorem pos_toNat (i : grid0.Coords) (j : Fin 256) : (pos i j).toNat = 256 * (i 0).val + j.val := by
  have hi : (i 0).val < 16 := (i 0).isLt
  have hj := j.isLt
  show (BitVec.ofNat 32 (i 0).val * 256#32 + BitVec.ofNat 32 j.val).toNat = _
  rw [BitVec.toNat_add, BitVec.toNat_mul, BitVec.toNat_ofNat, BitVec.toNat_ofNat, BitVec.toNat_ofNat]
  omega

/-- The position is inside the list of 4096 words. -/
theorem pos_inb (i : grid0.Coords) (j : Fin 256) : ∀ a, (![(pos i j).toNat] : Fin 1 → Nat) a + S1.size a ≤ S4096.size a := by
  intro a
  have hi : (i 0).val < 16 := (i 0).isLt
  have hj := j.isLt
  fin_cases a
  show (pos i j).toNat + 1 ≤ 4096
  rw [pos_toNat]; omega

/-- The word the point reads at place j of its 256, as the body's scalar load reads it off the index list. -/
def wordAt (c : Dev nD) (i : grid0.Coords) (ids : Bf (F := F) c (Memref.whole main_v0)) (j : Fin 256) : Elt F .i32 :=
  View.readAt (Elt F) (Memref.whole main_v0).view (Rect.unit (s := S4096) ![(pos i j).toNat] S1.size (pos_inb i j)).toLoadRect ids
    (Shape.Idx.first (show 0 < S1.numel by decide))

/-- It is word `256 t + j` of the list. -/
theorem wordAt_eq (c : Dev nD) (i : grid0.Coords) (ids : Bf (F := F) c (Memref.whole main_v0)) (j : Fin 256)
    (h : 256 * (i 0).val + j.val < 4096) :
    wordAt c i ids j = ids (ix1 (⟨256 * (i 0).val + j.val, h⟩ : Fin 4096)) := by
  unfold wordAt
  rw [View.readAt_apply]
  show ids _ = ids _
  refine congrArg ids (funext fun a => Fin.ext ?_)
  match a with
  | ⟨0, _⟩ =>
    have h0 : ∀ x : S1.Idx, (x 0).val = 0 := fun x => by
      have h : (x 0).val < 1 := (x 0).isLt
      omega
    show (pos i j).toNat + 1 * ((Shape.Idx.first (show 0 < S1.numel by decide) : S1.Idx) 0).val = 256 * (i 0).val + j.val
    rw [h0, pos_toNat]; omega

/-- Row `v` of the table as the copy's source view reads it: a vector of 8192 entries. -/
def rowVec (c : Dev nD) (w : Bf (F := F) c (Memref.whole main_arg1)) (v : BitVec 32) (hv : v.toNat < 8192) : S8192.Idx → Elt F .f32 :=
  ReadAs.same.apply (View.read (Elt F)
    (((Memref.whole main_arg1).slice (Rect.unit (s := S8192x8192) ![v.toNat, 0] S1x8192.size (row_inb v hv)) (fun _ => rfl)).squeeze
      S8192 Facts₀.squeezes_S1x8192_S8192).view w)

/-- Entry k of it is the table's entry (v, k). -/
theorem rowVec_apply (c : Dev nD) (w : Bf (F := F) c (Memref.whole main_arg1)) (v : BitVec 32) (hv : v.toNat < 8192) (x : S8192.Idx) :
    rowVec c w v hv x = w (ix2 (⟨v.toNat, hv⟩ : Fin 8192) (⟨(x 0).val, (x 0).isLt⟩ : Fin 8192)) := by
  unfold rowVec
  dsimp only [ReadAs.apply]
  rw [View.read_apply]
  simp only [cast_eq]
  refine congrArg w (funext fun a => Fin.ext ?_)
  simp only [Memref.view_squeeze, Memref.view_slice, Memref.view_whole, View.emb_reshape, View.emb_slice, View.emb_whole,
    Function.Embedding.trans_apply, Function.Embedding.refl_apply, Equiv.coe_toEmbedding]
  rw [Shape.reshapeEquiv_cons_one (n := 1) (d := ![8192])]
  match a with
  | ⟨0, _⟩ => show v.toNat + 1 * 0 = v.toNat; omega
  | ⟨1, _⟩ => show 0 + 1 * (x 0).val = (x 0).val; omega

/-- The word at place j names a row of the table when every word of the list does. -/
theorem wordAt_lt (c : Dev nD) (i : grid0.Coords) (ids : Bf (F := F) c (Memref.whole main_v0)) (hids : ∀ n, (ids n).toNat < 8192)
    (j : Fin 256) : (wordAt c i ids j).toNat < 8192 := by
  have hi : (i 0).val < 16 := (i 0).isLt
  have hj := j.isLt
  rw [wordAt_eq c i ids j (by omega)]
  exact hids _

/-- The vector the point copies into row j of its block: the table's row named by its j-th word. -/
def payload (c : Dev nD) (i : grid0.Coords) (ids : Bf (F := F) c (Memref.whole main_v0)) (hids : ∀ n, (ids n).toNat < 8192)
    (w : Bf (F := F) c (Memref.whole main_arg1)) (j : Fin 256) : S8192.Idx → Elt F .f32 :=
  rowVec c w (wordAt c i ids j) (wordAt_lt c i ids hids j)

/-- A vector of 8192 entries and a one-row [1, 8192] payload have as many entries. -/
theorem hq : (⟨1, ![8192]⟩ : Shape).numel = (⟨2, ![1, 8192]⟩ : Shape).numel := by decide

/-- Row k of the block after its copy has landed: the row's own view written whole with the table's row named by the
    point's k-th word, over what the buffer held. -/
def rowAfter (c : Dev nD) (i : grid0.Coords) (M3 : Memref sig .tc .vmem S256x8192 .f32) (ids : Bf (F := F) c (Memref.whole main_v0))
    (hids : ∀ n, (ids n).toNat < 8192) (w : Bf (F := F) c (Memref.whole main_arg1))
    (f3 : (RowFill.rowView (R := 256) (C := 8192) M3.view hq ⟨0, by decide⟩).ty.Contents (Elt F)) (k : Nat) (hk : k < 256) :
    (RowFill.rowView (R := 256) (C := 8192) M3.view hq ⟨k, hk⟩).ty.Contents (Elt F) :=
  (RowFill.rowView (R := 256) (C := 8192) M3.view hq ⟨k, hk⟩).writes (Elt F) f3
    [⟨Rect.whole (⟨1, ![8192]⟩ : Shape), payload c i ids hids w ⟨k, hk⟩⟩]

/-- The grid has one axis: a point's coordinate is its number. -/
theorem coords_val : ∀ t : Fin grid0.N, ((grid0.coords t) 0).val = t.val := by decide

/-- Read through the block's memref on row (y 0), the landed row is the point's row of the gather. -/
theorem read_rowAfter (c : Dev nD) (t : Fin grid0.N) (ht : t.val < 16) (M3 : Memref sig .tc .vmem S256x8192 .f32)
    (ids : Bf (F := F) c (Memref.whole main_v0)) (hids : ∀ n, (ids n).toNat < 8192) (w : Bf (F := F) c (Memref.whole main_arg1))
    (f3 : (RowFill.rowView (R := 256) (C := 8192) M3.view hq ⟨0, by decide⟩).ty.Contents (Elt F)) (y : S256x8192.Idx) :
    M3.view.read (Elt F) (rowAfter c (grid0.coords t) M3 ids hids w f3 (y 0).val (y 0).isLt) y
      = Cert.GatherSpec.blockRows (⟨t.val, ht⟩ : Fin 16) ids w y := by
  have hy : (y 0).val < 256 := (y 0).isLt
  have hlt : 256 * ((grid0.coords t) 0).val + (y 0).val < 4096 := by rw [coords_val]; omega
  unfold rowAfter
  rw [RowFill.read_row_written M3.view hq ⟨(y 0).val, hy⟩ f3 _ y rfl]
  show rowVec c w (wordAt c (grid0.coords t) ids ⟨(y 0).val, hy⟩) _ (ix1 (n := 8192) (y 1)) = _
  rw [rowVec_apply]
  unfold Cert.GatherSpec.blockRows
  refine congrArg w (funext fun a => Fin.ext ?_)
  match a with
  | ⟨0, _⟩ =>
    show (wordAt c (grid0.coords t) ids ⟨(y 0).val, hy⟩).toNat = (Cert.GatherSpec.rowOf _).val
    rw [wordAt_eq c (grid0.coords t) ids ⟨(y 0).val, hy⟩ hlt, Cert.GatherSpec.rowOf_val_of_lt _ (hids _)]
    have e : (ix1 (⟨256 * ((grid0.coords t) 0).val + (y 0).val, hlt⟩ : Fin 4096) : (⟨1, ![4096]⟩ : Shape).Idx)
        = ix1 (⟨256 * t.val + (y 0).val, by omega⟩ : Fin 4096) := by
      refine congrArg ix1 (Fin.ext ?_)
      show 256 * ((grid0.coords t) 0).val + (y 0).val = 256 * t.val + (y 0).val
      rw [coords_val]
    exact congrArg (fun n => (ids n).toNat) e
  | ⟨1, _⟩ => rfl

end Cert.Kernel.Rows

end
-- ==== Proof.BodyBits.lean ====
import proofs.«408184_j41532333752647_1_alg».proof.Proof.Gen.Kernel
import proofs.«408184_j41532333752647_1_alg».proof.Proof.Gen.Kernel.Skeleton
import proofs.«408184_j41532333752647_1_alg».proof.Proof.Gen.Kernel.Launch
import proofs.«408184_j41532333752647_1_alg».proof.Proof.Spec
import proofs.«408184_j41532333752647_1_alg».proof.Proof.LibRowRes
import proofs.«408184_j41532333752647_1_alg».proof.Proof.RowsBits
import Idealize.ShloMosaic.Lib.Tactic
import Idealize.ShloMosaic.Lib.Pipeline.Kit

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

open Facts₀ Facts

/-- The kernel's own semaphores on each core: its sixteen scratch DMA semaphores, cells 2 to 17 of the pool (the
    staging buffers' two come first). -/
abbrev osem : Fin 16 → SemLoc sig := fun | 0 => .dma 2 | 1 => .dma 3 | 2 => .dma 4 | 3 => .dma 5 | 4 => .dma 6 | 5 => .dma 7 | 6 => .dma 8 | 7 => .dma 9 | 8 => .dma 10 | 9 => .dma 11 | 10 => .dma 12 | 11 => .dma 13 | 12 => .dma 14 | 13 => .dma 15 | 14 => .dma 16 | 15 => .dma 17 | ⟨_ + 16, h⟩ => absurd h (Nat.not_lt.2 (Nat.le_add_left _ _))

/-- The sixteen counters at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0)

/-- The grid point as a number below 16. -/
abbrev pointOf (t : Fin grid0.N) : Fin 16 := ⟨t.val, by have := N_0; omega⟩

/-- The table held under read token n: one token per semaphore cell, so that sixteen copies can read it at once. -/
abbrev tok (c : Dev nD) (n : Fin 18) (w : Bf (F := F) c (Memref.whole main_arg1)) : sProp 𝕄 :=
  (Memref.whole main_arg1).view.loc (c : Thread nD τ) ↦{Transfers.shareTok fullShare 18 n} w

/-- The table held whole is what is left after eighteen read tokens, and the tokens (cells 0 to 17; the copies use 2 to 17). -/
theorem toks_iff (c : Dev nD) (w : Bf (F := F) c (Memref.whole main_arg1)) :
    (pt c (Memref.whole main_arg1) w : sProp 𝕄)
      ⊣⊢ iprop(((Memref.whole main_arg1).view.loc (c : Thread nD τ) ↦{Transfers.shareDrop fullShare 18} w)
          ∗ tok c 0 w ∗ tok c 1 w ∗ tok c 2 w ∗ tok c 3 w ∗ tok c 4 w ∗ tok c 5 w ∗ tok c 6 w ∗ tok c 7 w ∗ tok c 8 w ∗ tok c 9 w ∗ tok c 10 w ∗ tok c 11 w ∗ tok c 12 w ∗ tok c 13 w ∗ tok c 14 w ∗ tok c 15 w ∗ tok c 16 w ∗ tok c 17 w) := by
  have h : (pt c (Memref.whole main_arg1) w : sProp 𝕄)
      ⊣⊢ iprop(((Memref.whole main_arg1).view.loc (c : Thread nD τ) ↦{Transfers.shareDrop fullShare 18} w)
          ∗ bigSep Finset.univ (fun n : Fin 18 => tok c n w)) := Transfers.pointsTo_toks fullShare 18
  rw [bigSep_univ_eq_bigSepL (List.finRange 18) (by decide) (by decide)] at h
  exact h

/-- One more row off the chain, by number (the tactics below take the rows off and put them back one at a time), -/
theorem rows_off (Φ : (k : Nat) → k < 256 → sProp 𝕄) (k : Nat) (h : k < 256) :
    RowFill.rowsFrom Φ k ⊢ iprop(Φ k h ∗ RowFill.rowsFrom Φ (k + 1)) := Entails.of_eq (RowFill.rowsFrom_lt Φ k h)

/-- and back on. -/
theorem rows_on (Φ : (k : Nat) → k < 256 → sProp 𝕄) (k : Nat) (h : k < 256) :
    iprop(Φ k h ∗ RowFill.rowsFrom Φ (k + 1)) ⊢ RowFill.rowsFrom Φ k := Entails.of_eq (RowFill.rowsFrom_lt Φ k h).symm

/-- Past row 255 the chain is empty. -/
theorem rows_end (Φ : (k : Nat) → k < 256 → sProp 𝕄) : (BI.emp : sProp 𝕄) ⊢ RowFill.rowsFrom Φ 256 :=
  Entails.of_eq (RowFill.rowsFrom_ge Φ 256 (by decide)).symm

open Lean Elab Tactic in
/-- Take the 256 rows off the chain `Hrows`, naming row k `Rk`. -/
elab "rows_intro" : tactic => do
  for k in [0:256] do
    let s := s!"(ihave Hrow := (rows_off _ {k} (by decide)) $$ Hrows; icases Hrow with ⟨R{k}, Hrows⟩)"
    match Parser.runParserCategory (← getEnv) `tactic s with
    | .ok stx => evalTactic stx
    | .error e => throwError e

open Lean Elab Tactic in
/-- Put the 256 rows back: the goal is the chain from row 0, row k is `Rk`. -/
elab "rows_exact" : tactic => do
  for k in [0:256] do
    let s := s!"(iapply (rows_on _ {k} (by decide)); isplitl [R{k}]; (iexact R{k}))"
    match Parser.runParserCategory (← getEnv) `tactic s with
    | .ok stx => evalTactic stx
    | .error e => throwError e

/-- Once every copy has landed: the rows, each at what its copy left, are the block held whole, and through the block's
    memref it reads the point's rows of the gather. -/
theorem block_of_rows (c : Dev nD) (t : Fin grid0.N) (M3 : Memref sig .tc .vmem S256x8192 .f32) (h3 : M3.IsWhole)
    (ids : Bf (F := F) c (Memref.whole main_v0)) (hids : ∀ n, (ids n).toNat < 8192)
    (w : Bf (F := F) c (Memref.whole main_arg1)) (f3 : Bf (F := F) c M3) :
    RowFill.rowsFrom (fun k hk => (RowFill.rowRes (c : Thread nD τ) M3 Facts₀.squeezes_S1x8192_S8192 fullShare
        (Rows.rowAfter c (grid0.coords t) M3 ids hids w f3 k hk) k hk : sProp 𝕄)) 0
      ⊢ iprop(∃ f : Bf (F := F) c M3, ⌜M3.view.read (Elt F) f = Cert.GatherSpec.blockRows (pointOf t) ids w⌝ ∗ pt c M3 f) := by
  refine (RowFill.rows_join (c : Thread nD τ) M3 h3 Facts₀.squeezes_S1x8192_S8192 fullShare
    (fun k hk => Rows.rowAfter c (grid0.coords t) M3 ids hids w f3 k hk)).trans ?_
  iintro ⟨%f, %hf, H⟩
  iexists f
  isplitr
  · ipureintro
    funext y
    rw [hf y]
    exact Rows.read_rowAfter c t _ M3 ids hids w f3 y
  · iexact H

set_option maxHeartbeats 400000000 in
/-- One grid point of the kernel: holding the index list (the whole of `main_v0`) at words that all name rows of the
    table, the table (the whole of `main_arg1`), the output block's buffer at anything, the sixteen counters at zero
    and the core's `owes`, the body runs to its return; the index list and the table are as they were, the counters are
    at zero again, and the block's buffer reads, row by row, the table's rows the point's 256 words name. The table is
    read under one token per semaphore cell (sixteen copies read it at once) and the block is held row by row (sixteen
    copies land in it at once, each in a row of its own). -/
theorem kernelRun (c : Dev nD) (t : Fin grid0.N) (M3 : Memref sig .tc .vmem S256x8192 .f32) (h3 : M3.IsWhole)
    (ids : Bf (F := F) c (Memref.whole main_v0)) (hids : ∀ n, (ids n).toNat < 8192)
    (w : Bf (F := F) c (Memref.whole main_arg1)) (f3 : Bf (F := F) c M3)
    (W : Waits sig Unit) (Q : PUnit → sProp 𝕄) :
    iprop(pt c (Memref.whole main_v0) ids ∗ pt c (Memref.whole main_arg1) w ∗ pt c M3 f3 ∗ sems0 c ∗ owes (c : Thread nD τ) 0 W
      ∗ (iprop(pt c (Memref.whole main_v0) ids ∗ pt c (Memref.whole main_arg1) w
            ∗ (∃ f : Bf (F := F) c M3, ⌜M3.view.read (Elt F) f = Cert.GatherSpec.blockRows (pointOf t) ids w⌝ ∗ pt c M3 f)
            ∗ sems0 c ∗ ∃ W, owes (c : Thread nD τ) 0 W) -∗ Q ⟨⟩))
    ⊢ wp frame (wpE (defs₀ (F := F)) Variants.none c none) Set.univ
        (cc0__gather_kernel (grid0.coords t) (Memref.whole main_v0) (Memref.isWhole_whole _) (Memref.whole main_arg1) (Memref.isWhole_whole _) M3 h3 cc0_scratch0) Q := by
  iintro ⟨H1, H2, H3, ⟨Hd0, Hd1, Hd2, Hd3, Hd4, Hd5, Hd6, Hd7, Hd8, Hd9, Hd10, Hd11, Hd12, Hd13, Hd14, Hd15⟩, HO, Hk⟩
  ihave HT := ((toks_iff c w).1) $$ H2
  icases HT with ⟨Hrest, T0, T1, T2, T3, T4, T5, T6, T7, T8, T9, T10, T11, T12, T13, T14, T15, T16, T17⟩
  ihave Hrows := (RowFill.rows_split (c : Thread nD τ) M3 h3 Facts₀.squeezes_S1x8192_S8192 fullShare f3) $$ H3
  rows_intro
  iclear Hrows
  unfold RowFill.rowRes RowFill.rowM tok
  sl_exec (disch := first | exact ⟨Rows.row_inb _ (hids _), Rows.row_inb _ (hids _)⟩ | exact Rows.row_inb _ (hids _))
  sl_step
  iapply Hk
  isplitl [H1]; · iexact H1
  isplitl [Hrest T0 T1 T2 T3 T4 T5 T6 T7 T8 T9 T10 T11 T12 T13 T14 T15 T16 T17]
  · iapply ((toks_iff c w).2)
    isplitl [Hrest]; · iexact Hrest
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    iexact T17
  isplitr [Hd0 Hd1 Hd2 Hd3 Hd4 Hd5 Hd6 Hd7 Hd8 Hd9 Hd10 Hd11 Hd12 Hd13 Hd14 Hd15 HO]
  · iapply (block_of_rows c t M3 h3 ids hids w f3)
    rows_exact
    iapply (rows_end _)
    iempintro
  isplitl [Hd0 Hd1 Hd2 Hd3 Hd4 Hd5 Hd6 Hd7 Hd8 Hd9 Hd10 Hd11 Hd12 Hd13 Hd14 Hd15]
  ·
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    iexact Hd15
  iexists _; iexact HO

end Cert.Kernel.Body

end
-- ==== Proof.RunBits.lean ====
/-
  The launch of the idealized kernel program: @main is the flattening of the index array (a host reshape), ONE kernel
  region — a pipeline over the output array in 16 blocks of 256 rows, the flat index list prefetched into scalar
  memory, the table left in HBM and copied row by row by the body's own transfers on sixteen scratch DMA semaphores —,
  and the reshape of the output array into the result. Its run, for any float family: from any memory whose index
  words all name rows of the table, with zero counters, every weakly fair execution terminates, the result is the
  gather of the table's rows by the index words, and both arguments are as launched.
  The launch is the library's theorem for @main as a list of segments: the host stretch before the region, the region
  (its body obligation from the body's run at a symbolic grid point; entered with the index list as the prefetched
  table and the table and the counters inside the invariant), the host stretch after it. The output array's final
  contents are the blocks the points wrote back: block t holds the rows named by words 256 t … 256 t + 255, and the
  sixteen blocks tile the array.
-/
import proofs.«408184_j41532333752647_1_alg».proof.Proof.BodyBits
import proofs.«408184_j41532333752647_1_alg».proof.Proof.Gen.Kernel.Launch
import proofs.«408184_j41532333752647_1_alg».proof.Proof.Spec
import Idealize.ShloMosaic.Lib.Pipeline.Regions
import Idealize.ShloMosaic.Lib.Pipeline.FrameSuffix
import Idealize.ShloMosaic.Lib.Pipeline.Value

noncomputable section

namespace Cert.Kernel.Run

open Cert.Kernel Cert.Kernel.Gen Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ)

/-- Core c's buffer contents at launch, as a valuation; -/
abbrev V₀ (c : Dev nD) : Valuation τ sig (Elt F) := fun b => m ((c : Dev nD), b)
/-- when the region is entered (the index array has been flattened); -/
abbrev V0 (c : Dev nD) : Valuation τ sig (Elt F) := StableHlo.after hostOps0 (V₀ m c)
/-- the same read at a TensorCore reference. -/
abbrev V (c : Dev nD) (b : Ref sig .tc) : Buf (Elt F) ((c : Thread nD τ).loc b) := V0 m c (Proc.devRef .tc b)

/-- The flat index list and the table as the region finds them. -/
abbrev ids (c : Dev nD) : Bf (F := F) c (Memref.whole main_v0) := V m c main_v0
abbrev wtab (c : Dev nD) : Bf (F := F) c (Memref.whole main_arg1) := V m c main_arg1

/-- The prefetched table's contents (one device: core 0's), admissible (the side condition is trivial: no index map
    reads the table). -/
def tbl : pre0.Contents (Elt F) := fun k => V m 0 (pre0.ref k)
def adm : (p : Fin 1) → (pcfgs (F := F) p).Adm := fun _ => ⟨tbl m, trivial⟩

/-- The invariant between grid points: the index list and the table whole at their contents, the sixteen counters at
    zero, the scoped buffers no window stages. -/
def Φc (c : Dev nD) : sProp 𝕄 :=
  iprop(pt c (Memref.whole main_v0) (ids m c) ∗ pt c (Memref.whole main_arg1) (wtab m c) ∗ sems0 c
    ∗ Pipeline.scopedRest (Ix := Unit) (Name := ℕ) (U := UU nD τ) (Lvl := ℕ) (Val := Elt F) spec0 c)

/-- The proof data on core c: the output array at its entry contents; after the body at point t the block holds the
    rows the point's 256 words name; the invariant; nothing owed; the full share. -/
def dats (p : Fin 1) (c : Dev nD) : Dat τ (Elt F) Unit ℕ (UU nD τ) ℕ (Pipeline.pin (pcfgs (F := F)) (adm m) p) c where
  A w := V m c (Pipeline.arrRef spec0 w)
  after w t := match w with | ⟨0, _⟩ => Cert.GatherSpec.blockRows (pointOf t) (ids m c) (wtab m c)
  Φ _ := Φc m c
  q _ := fullShare
  owed _ := 0

abbrev 𝒱₀ : Variants := Variants.none

/-- The index list the region finds is the launch's index array flattened in row-major order. -/
theorem ids_eq (c : Dev nD) : ids m c = shapeCast S4096 (m ((c : Thread nD τ).loc main_arg0)) shapeCasts_S8x512_S4096 := by
  show StableHlo.after hostOps0 (V₀ m c) (Proc.devRef .tc main_v0) = _
  after_results
  rfl

/-- Every word of it names a row of the table. -/
theorem ids_lt (hidx : ∀ (c : Dev nD) i, (m ((c : Thread nD τ).loc main_arg0) i).toNat < 8192) (c : Dev nD) (n : S4096.Idx) :
    ((ids m c) n).toNat < 8192 := by
  rw [ids_eq]
  exact hidx c _

/-- Owning a whole staging buffer at contents X is holding its buffer whole at something that reads X. -/
theorem owns_whole' (c : Dev nD) (M3 : Memref sig .tc .vmem S256x8192 .f32) (h3 : M3.IsWhole) (X : S256x8192.Idx → Elt F .f32) :
    (owns (c : Thread nD τ) M3 fullShare X : sProp 𝕄) = iprop(∃ f : Bf (F := F) c M3, ⌜M3.view.read (Elt F) f = X⌝ ∗ pt c M3 f) := by
  unfold owns; rw [h3.set_eq_univ]

/-- The library's body obligation at every grid point: the invariant taken apart, the body's run applied at the
    point's staging buffer, its post reassembled. -/
theorem body_obligation (hidx : ∀ (c : Dev nD) i, (m ((c : Thread nD τ).loc main_arg0) i).toNat < 8192) (c : Dev nD) :
    BodyObligation (dats m 0 c) (defs₀ (F := F)) 𝒱₀ () Set.univ := fun t => by
  rw [bigSep_W0, bigSep_W0]
  simp only [owns_whole' c _ (hstage0_0 _)]
  rw [show (dats m 0 c).Φ t.castSucc = Φc m c from rfl, show (dats m 0 c).Φ t.succ = Φc m c from rfl]
  unfold Φc Dat.owesAt Pipeline.owesWithin
  rw [show (dats m 0 c).owed t.castSucc = 0 from rfl, show (dats m 0 c).owed t.succ = 0 from rfl]
  iintro ⟨⟨Hids, Hw, Hsems, Hr⟩, ⟨%W, %hW, HO⟩, ⟨%d0, %f0, %hf0, H0⟩⟩
  iapply (kernelRun c t _ (hstage0_0 _) (ids m c) (ids_lt m hidx c) (wtab m c) f0 W)
  isplitl [Hids]; · iexact Hids
  isplitl [Hw]; · iexact Hw
  isplitl [H0]; · iexact H0
  isplitl [Hsems]; · iexact Hsems
  isplitl [HO]; · iexact HO
  iintro ⟨Hids, Hw, ⟨%f, %hf, H0⟩, Hsems, ⟨%W', HO⟩⟩
  isplitl [Hids Hw Hsems Hr]
  · isplitl [Hids]; · iexact Hids
    isplitl [Hw]; · iexact Hw
    isplitl [Hsems]; · iexact Hsems
    iexact Hr
  isplitl [HO]
  · iexists W'; isplitr; · ipureintro; exact fun _ _ => Or.inl trivial
    iexact HO
  iexists f; isplitr; swap; (· iexact H0)
  ipureintro
  dsimp only [dats]
  exact hf

/-! ## The launch: @main as host stretch, region, host stretch -/

/-- The kernel's own semaphores are scoped, distinct, and no staging semaphore. -/
theorem ownSemFacts : Pipeline.OwnSemFacts spec0 osem := by decide

/-- The launch element: the pipeline library's at the staging cells and the pipeline's transfers; no counter yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8, 9, 10, 11, 12, 13, 14, 15] (by decide) (by decide)

/-- No core owes another anything: no level is assigned. -/
abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- THE FIRST HOST STRETCH: the flattening of the index array, over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The output array's contents after the region, as the library computes them. -/
abbrev finalA (c : Dev nD) (w : Fin 1) : Buf (Elt F) ((spec0 w).arr.view.loc (c : Thread nD τ)) :=
  (dats m 0 c).arrAt w (Pipeline.pin (pcfgs (F := F)) (adm m) 0).N

/-- Core c's buffer contents when the region is left: the output array at its final contents, every other buffer as
    the region found it. -/
abbrev W1 (c : Dev nD) : Valuation τ sig (Elt F) := Pipeline.withArrays spec0 c (V0 m c) (finalA m c)

/-- The buffers the last host stretch runs within: the output array and the buffers that bypass the region. -/
abbrev TR : Finset (DevRef τ sig) := Pipeline.tailRefs sig pre0 spec0

/-- Those buffers held at a valuation, one by one. -/
theorem held_TR (c : Dev nD) (Wv : Valuation τ sig (Elt F)) :
    (StableHlo.held (c : Thread nD τ) TR Wv : sProp 𝕄)
      = iprop((((c : Thread nD τ).loc main_v1) ↦{fullShare} Wv (Proc.devRef .tc main_v1))
          ∗ (((c : Thread nD τ).loc main_arg0) ↦{fullShare} Wv (Proc.devRef .tc main_arg0))
          ∗ (((c : Thread nD τ).loc main_arg1) ↦{fullShare} Wv (Proc.devRef .tc main_arg1))
          ∗ (((c : Thread nD τ).loc main_v2) ↦{fullShare} Wv (Proc.devRef .tc main_v2))) := by
  rw [Pipeline.held_tailRefs pre0 spec0 (launch0 (F := F)).win.arr_inj c Wv, unscopedRestP0_eq]
  unfold Pipeline.arrPts
  rw [bigSep_W0]

/-- When the region is left the output array holds its final contents, -/
theorem W1_v1 (c : Dev nD) : W1 m c (Proc.devRef .tc main_v1) = finalA m c 0 :=
  Pipeline.withArrays_arr spec0 (launch0 (F := F)).win.arr_inj c (V0 m c) (finalA m c) 0
/-- and every other buffer what it held when the region was entered. -/
theorem W1_of_ne (c : Dev nD) (b : Ref sig .tc) (hb : ∀ w, Pipeline.arrRef spec0 w ≠ b) : W1 m c (Proc.devRef .tc b) = V m c b :=
  Pipeline.withArrays_of_ne spec0 c (V0 m c) (finalA m c) b hb

/-- On the one device the table's contents are core c's index list. -/
theorem tbl_eq (c : Dev nD) : (fun k => V m c (pre0.ref k)) = tbl m := by
  obtain rfl : c = 0 := Subsingleton.elim _ _
  rfl

/-- The last host stretch touches the output array and the result only: no prefetched table. -/
theorem tail_sub : ∀ op ∈ (hostOps1 : List (HloOp τ sig (Elt F))), op.bufs ⊆ TR := by
  intro op hop
  refine Pipeline.sub_tailRefs pre0 spec0 op ((List.forall_iff_forall_mem.mp hostOps1_sub) op hop) ?_
  simp only [hostOps1, List.mem_cons, List.mem_nil_iff, or_false] at hop
  subst hop
  intro k
  obtain rfl : k = 0 := Subsingleton.elim _ _
  simp only [StableHlo.reshape_bufs, Finset.mem_insert, Finset.mem_singleton, not_or]
  exact ⟨StableHlo.devRef_ne_of_ne (by decide), StableHlo.devRef_ne_of_ne (by decide)⟩

/-- What rides beside the buffers through the last host stretch: the index list, which the stretch does not touch,
    and the core's `owes`. -/
abbrev R1 (c : Dev nD) : sProp 𝕄 := iprop(pt c (Memref.whole main_v0) (ids m c) ∗ R c)

/-- THE LAST HOST STRETCH: the reshape of the output array into the result. -/
def seg1 : Pipeline.HostSeg (Name := ℕ) (U := UU nD τ) (pcfgs (F := F)) defs₀ 𝒱₀ L lv :=
  Pipeline.HostSeg.ofOps _ _ _ _ _ TR hostOps1 (tail_sub)
    (by intro _ h; (repeat (cases h with | head => rfl | tail _ h => ?_)); exact nomatch h) (W1 m) (R1 m)

set_option backward.isDefEq.respectTransparency.types false in
/-- THE REGION: entered from what the first stretch left — the output array into the pipeline, the index list as the
    prefetched table, the table and the sixteen counters into the invariant, the index array and the result's buffer
    bypassing —, left with the output array at its final contents. -/
def reg0 (hidx : ∀ (c : Dev nD) i, (m ((c : Thread nD τ).loc main_arg0) i).toNat < 8192) :
    Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 16
  osem := osem
  ho := ownSemFacts
  hbody c := (body_obligation m hidx c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) TR (W1 m c) ∗ R1 m c)
  X c := iprop(pt c (Memref.whole main_arg1) (wtab m c) ∗ sems0 c)
  Y c := iprop(pt c (Memref.whole main_v0) (ids m c) ∗ pt c (Memref.whole main_arg1) (wtab m c))
  Z c := iprop((((c : Thread nD τ).loc main_arg0) ↦{fullShare} V m c main_arg0) ∗ (((c : Thread nD τ).loc main_v2) ↦{fullShare} V m c main_v2))
  hentry c := by
    rw [show StableHlo.held (c : Thread nD τ) (Pipeline.ucRefs τ sig) (StableHlo.after hostOps0 (V₀ m c))
        = unscopedBufs c (V m c) from (Pipeline.unscopedBufs_held c _).symm, ownSems0_eq]
    have hsplit := (Pipeline.arrays_of_unscopedBufs (pcfgs (F := F)) (adm m) (dats m) (launch0 (F := F)).win (launch0 (F := F)).arr_whole c
        ((dats m 0 c).share_full fun _ => rfl) (V m c) fun _ => rfl).trans
        (sep_mono .rfl ((Entails.of_eq (Pipeline.unscopedRest_split preFacts0 c (V m c))).trans
          (sep_mono .rfl (Entails.of_eq (unscopedRestP0_eq c (V m c))))))
    rw [tbl_eq m c] at hsplit
    iintro ⟨⟨Hub, HO⟩, Hos, -⟩
    ihave H := hsplit $$ Hub
    icases H with ⟨Ha, Hpf, H0, H1, H2⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H0]; · iexact H0
    iexact H2
  hin c := by
    rw [show (dats m 0 c).Φ 0 = Φc m c from rfl, show ((adm m 0).1 : pre0.Contents (Elt F)) = tbl m from rfl, ← tbl_eq m c]
    unfold Φc Pipeline.prefHeld
    rw [bigSep_W0]
    iintro ⟨⟨Hw, Hos⟩, Hpf, Hr⟩
    isplitl [Hpf]; · iexact Hpf
    isplitl [Hw]; · iexact Hw
    isplitl [Hos] <;> iassumption
  hout c := by
    rw [ownSems0_eq, show (dats m 0 c).Φ (Fin.last _) = Φc m c from rfl]; unfold Φc
    iintro ⟨Hids, Hw, Hos, Hr⟩
    isplitl [Hids Hw]
    · isplitl [Hids]; · iexact Hids
      iexact Hw
    isplitl [Hos] <;> iassumption
  hexit c := by
    rw [held_TR, Pipeline.arrays_eq (Pipeline.pin (pcfgs (F := F)) (adm m)) (dats m) 0 c (launch0 (F := F)).arr_whole ((dats m 0 c).share_full fun _ => rfl), bigSep_W0]
    rw [W1_v1, W1_of_ne m c main_arg0 (by decide), W1_of_ne m c main_arg1 (by decide), W1_of_ne m c main_v2 (by decide)]
    iintro ⟨Ha, HO, ⟨Hids, Hw⟩, ⟨H0, H2⟩⟩
    imodintro
    isplitl [Ha H0 Hw H2]
    · isplitl [Ha]; · iexact Ha
      isplitl [H0]; · iexact H0
      isplitl [Hw]; · iexact Hw
      iexact H2
    isplitl [Hids]; · iexact Hids
    unfold Pipeline.Dat.owesAt Pipeline.owesWithin
    icases HO with ⟨%W, -, HO⟩; iexists W; iexact HO

/-- @main as the list of the three. -/
abbrev segs (hidx : ∀ (c : Dev nD) i, (m ((c : Thread nD τ).loc main_arg0) i).toNat < 8192) :
    List (Pipeline.Seg (pcfgs (F := F)) (adm m) (dats m) () defs₀ 𝒱₀ L lv) :=
  [.host (seg0 m), .region (reg0 m hidx), .host (seg1 m)]

/-- What the last stretch leaves: the buffers it ran within at its results, and the index list. -/
abbrev Tₙ (c : Dev nD) : sProp 𝕄 :=
  iprop(StableHlo.held (c : Thread nD τ) TR (StableHlo.after hostOps1 (W1 m c)) ∗ pt c (Memref.whole main_v0) (ids m c))

/-- The physical post: the result and the two arguments at what the last stretch leaves in them. -/
def QC : PUnit × MemSt nD τ sig (Elt F) → Prop := fun r =>
  ∀ c : Dev nD, r.2.mem ((c : Thread nD τ).loc main_v2) = StableHlo.after hostOps1 (W1 m c) (Proc.devRef .tc main_v2)
    ∧ r.2.mem ((c : Thread nD τ).loc main_arg0) = StableHlo.after hostOps1 (W1 m c) (Proc.devRef .tc main_arg0)
    ∧ r.2.mem ((c : Thread nD τ).loc main_arg1) = StableHlo.after hostOps1 (W1 m c) (Proc.devRef .tc main_arg1)

/-- What the last stretch leaves is the last thread state beside the core owing nothing. -/
theorem last_chain (c : Dev nD) :
    iprop(StableHlo.held (c : Thread nD τ) TR (StableHlo.after hostOps1 (W1 m c)) ∗ R1 m c)
      ⊢ iprop(Tₙ m c ∗ ∃ W, owes (c : Thread nD τ) (0 : CellTallies nD τ sig Unit) W) := by
  iintro ⟨Hh, Hids, HO⟩
  isplitr [HO]
  · isplitl [Hh]; · iexact Hh
    iexact Hids
  iexact HO

set_option backward.isDefEq.respectTransparency.types false in
/-- From any memory whose index words name rows of the table, with zero counters: every weakly fair execution of
    @main terminates, and every final state has the result and the arguments at what the last stretch leaves. -/
theorem run_frame (hidx : ∀ (c : Dev nD) i, (m ((c : Thread nD τ).loc main_arg0) i).toNat < 8192) (ρ : Dev nD → PrngReg) :
    θ_run defs (onTc (τ := τ) (main (F := F))) ⟨m, fun _ => 0, ρ⟩ (QC m) :=
  Pipeline.θ_run_regions_kit (pcfgs (F := F)) (adm m) (dats m) () (cellOf_inj (adm m)) EP defs₀ 𝒱₀ L lv m ρ main (segs m hidx)
    (fun c Q => by rw [main_segs (adm m) (dats m) () 𝒱₀ L lv (seg0 m) (seg1 m) (reg0 m hidx) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => last_chain m c⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v2) = StableHlo.after hostOps1 (W1 m c) (Proc.devRef .tc main_v2)
      ∧ s.mem ((c : Thread nD τ).loc main_arg0) = StableHlo.after hostOps1 (W1 m c) (Proc.devRef .tc main_arg0)
      ∧ s.mem ((c : Thread nD τ).loc main_arg1) = StableHlo.after hostOps1 (W1 m c) (Proc.devRef .tc main_arg1))
    (hfin := fun c s' => by
      dsimp only [Tₙ]; rw [held_TR]
      iintro ⟨⟨⟨-, H0, H1, H2⟩, -⟩, HSI⟩
      icombine HSI H0 gives %h0
      icombine HSI H1 gives %h1
      icombine HSI H2 gives %h2
      imodintro
      isplitr; · ipureintro; exact ⟨Buf.eq_of_forall_mem_univ h2, Buf.eq_of_forall_mem_univ h0, Buf.eq_of_forall_mem_univ h1⟩
      iexact HSI)
    (hQ := fun _ h => h)

/-! ## The values -/

/-- The first stretch writes the flat index list only, -/
theorem not_written0 (b : Ref sig .tc) (hb : b ≠ main_v0) :
    ∀ op ∈ (hostOps0 : List (HloOp τ sig (Elt F))), Proc.devRef .tc b ∉ op.writes := by
  intro op hop
  simp only [List.mem_cons, List.mem_nil_iff, or_false] at hop
  subst hop
  simp only [StableHlo.reshape_writes, Finset.mem_singleton]
  exact StableHlo.devRef_ne_of_ne hb

/-- the last one the result only. -/
theorem not_written1 (b : Ref sig .tc) (hb : b ≠ main_v2) :
    ∀ op ∈ (hostOps1 : List (HloOp τ sig (Elt F))), Proc.devRef .tc b ∉ op.writes := by
  intro op hop
  simp only [List.mem_cons, List.mem_nil_iff, or_false] at hop
  subst hop
  simp only [StableHlo.reshape_writes, Finset.mem_singleton]
  exact StableHlo.devRef_ne_of_ne hb

/-- The table as the region finds it is the launch's. -/
theorem wtab_eq (c : Dev nD) : wtab m c = m ((c : Thread nD τ).loc main_arg1) :=
  StableHlo.after_of_forall_not_mem (b := Proc.devRef .tc main_arg1) hostOps0 (V₀ m c) (not_written0 main_arg1 (by decide))

/-- The arguments end as launched: no stretch writes them and they are no array of the pipeline. -/
theorem tail_arg0 (c : Dev nD) : StableHlo.after hostOps1 (W1 m c) (Proc.devRef .tc main_arg0) = m ((c : Thread nD τ).loc main_arg0) := by
  rw [StableHlo.after_of_forall_not_mem hostOps1 (W1 m c) (not_written1 main_arg0 (by decide)), W1_of_ne m c main_arg0 (by decide)]
  exact StableHlo.after_of_forall_not_mem (b := Proc.devRef .tc main_arg0) hostOps0 (V₀ m c) (not_written0 main_arg0 (by decide))
theorem tail_arg1 (c : Dev nD) : StableHlo.after hostOps1 (W1 m c) (Proc.devRef .tc main_arg1) = m ((c : Thread nD τ).loc main_arg1) := by
  rw [StableHlo.after_of_forall_not_mem hostOps1 (W1 m c) (not_written1 main_arg1 (by decide)), W1_of_ne m c main_arg1 (by decide)]
  exact wtab_eq m c

/-- The result is the output array's final contents at the result's shape. -/
theorem tail_v2 (c : Dev nD) : StableHlo.after hostOps1 (W1 m c) (Proc.devRef .tc main_v2)
    = shapeCast S8x512x8192 (finalA m c 0) shapeCasts_S4096x8192_S8x512x8192 := by
  after_results
  rw [W1_v1]
  rfl

/-- The printed index map over the grid: point t's block is block row t, block column 0. -/
theorem idx_facts : ∀ t : Fin grid0.N, cc0_transform_1 (grid0.coords t) (0 : Fin 2) = t.val ∧ cc0_transform_1 (grid0.coords t) (1 : Fin 2) = 0 := by
  decide

/-- The window's block index at a point is the printed map at the point's coordinates, whatever the table holds. -/
theorem index_eq (a : (pcfg0 (F := F)).Adm) (t : Fin (cfg0 a).N) : ((cfg0 a).win 0).index t = cc0_transform_1 (grid0.coords t) := rfl

/-- Every point writes its block back: the next point's block is another. -/
theorem flush_all (a : (pcfg0 (F := F)).Adm) (t : Fin (cfg0 a).N) : ((cfg0 a).win 0).flush t = true := by
  unfold Pipeline.Window.flush
  rw [Bool.and_eq_true]
  refine ⟨rfl, ?_⟩
  rw [Bool.or_eq_true, decide_eq_true_eq, decide_eq_true_eq]
  have hN : (cfg0 a).N = (cfg0 a).grid.N := rfl
  by_cases h : t.val + 1 = (cfg0 a).grid.N
  · exact Or.inl h
  · refine Or.inr ⟨by have := t.isLt; omega, fun e => ?_⟩
    have e0 := congrFun e (0 : Fin 2)
    rw [index_eq, index_eq, (idx_facts _).1, (idx_facts _).1] at e0
    simp at e0

/-- An index of the output array is in point t's block iff each coordinate is in the block's range on its axis. -/
theorem mem_blk (a : (pcfg0 (F := F)).Adm) (t : Fin (cfg0 a).N) (i : S4096x8192.Idx) :
    i ∈ (((cfg0 a).win 0).blk t).view.set ↔ ∀ x : Fin 2, ((cfg0 a).win 0).index t x * S256x8192.size x ≤ (i x).val
      ∧ (i x).val < ((cfg0 a).win 0).index t x * S256x8192.size x + S256x8192.size x := by
  have h : (((cfg0 a).win 0).blk t).view.set = (((cfg0 a).win 0).rect t).set := View.set_slice_whole main_v1 _
  rw [h]
  exact Rect.mem_set_unit

/-- The sixteen blocks tile the array: row r is in the block of point r / 256. -/
theorem cover (a : (pcfg0 (F := F)).Adm) (i : S4096x8192.Idx) :
    ∃ t : Fin (cfg0 a).N, ((cfg0 a).win 0).flush t = true ∧ i ∈ (((cfg0 a).win 0).blk t).view.set := by
  have hi0 : (i 0).val < 4096 := (i 0).isLt
  have hi1 : (i 1).val < 8192 := (i 1).isLt
  have hN : (cfg0 a).N = 16 := N_0
  have ht : (i 0).val / 256 < (cfg0 a).N := by rw [hN]; omega
  obtain ⟨f0, f1⟩ := idx_facts ⟨(i 0).val / 256, ht⟩
  refine ⟨⟨(i 0).val / 256, ht⟩, flush_all a _, ?_⟩
  rw [mem_blk]
  intro x
  rw [index_eq]
  match x with
  | ⟨0, _⟩ =>
    show cc0_transform_1 (grid0.coords ⟨(i 0).val / 256, ht⟩) (0 : Fin 2) * 256 ≤ (i 0).val
      ∧ (i 0).val < cc0_transform_1 (grid0.coords ⟨(i 0).val / 256, ht⟩) (0 : Fin 2) * 256 + 256
    rw [f0]
    show (i 0).val / 256 * 256 ≤ (i 0).val ∧ (i 0).val < (i 0).val / 256 * 256 + 256
    omega
  | ⟨1, _⟩ =>
    show cc0_transform_1 (grid0.coords ⟨(i 0).val / 256, ht⟩) (1 : Fin 2) * 8192 ≤ (i 1).val
      ∧ (i 1).val < cc0_transform_1 (grid0.coords ⟨(i 0).val / 256, ht⟩) (1 : Fin 2) * 8192 + 8192
    rw [f1]
    omega

/-- WHAT POINT t WRITES BACK is block t of the flat gather: row r of the block is row 256 t + r of the array, which
    is the table's row named by word 256 t + r of the flat list. -/
theorem flushed_eq (c : Dev nD) (t : Fin (cfg0 (adm m 0)).N) :
    (dats m 0 c).flushed 0 t
      = (((cfg0 (adm m 0)).win 0).blk t).view.read (Elt F) (Cert.GatherSpec.gatheredFlat (ids m c) (wtab m c)) := by
  show ((cfg0 (adm m 0)).win 0).cut (grid0.coords t) ((dats m 0 c).after 0 t) = _
  dsimp only [dats]
  obtain ⟨f0, f1⟩ := idx_facts t
  show (Cert.GatherSpec.blockRows (pointOf t) (ids m c) (wtab m c) : S256x8192.Idx → Elt F .f32)
      = fun y : S256x8192.Idx => Cert.GatherSpec.gatheredFlat (ids m c) (wtab m c) ((((cfg0 (adm m 0)).win 0).blk t).view.emb y)
  funext y
  have hy0 : (y (0 : Fin 2)).val < 256 := (y 0).isLt
  have hy1 : (y (1 : Fin 2)).val < 8192 := (y 1).isLt
  obtain ⟨E, hE⟩ : ∃ E : S4096x8192.Idx, E = (((cfg0 (adm m 0)).win 0).blk t).view.emb y := ⟨_, rfl⟩
  have he0 : (E (0 : Fin 2)).val = 256 * t.val + (y (0 : Fin 2)).val := by
    rw [hE]
    show ((cfg0 (adm m 0)).win 0).index t (0 : Fin 2) * 256 + 1 * (y (0 : Fin 2)).val = _
    rw [index_eq, f0]; omega
  have he1 : (E (1 : Fin 2)).val = (y (1 : Fin 2)).val := by
    rw [hE]
    show ((cfg0 (adm m 0)).win 0).index t (1 : Fin 2) * 8192 + 1 * (y (1 : Fin 2)).val = _
    rw [index_eq, f1]; omega
  show _ = Cert.GatherSpec.gatheredFlat (ids m c) (wtab m c) ((((cfg0 (adm m 0)).win 0).blk t).view.emb y)
  rw [← hE]
  unfold Cert.GatherSpec.blockRows Cert.GatherSpec.gatheredFlat
  refine congrArg (wtab m c) ?_
  have h0 : (⟨256 * (pointOf t).val + (y (0 : Fin 2)).val, by have := (pointOf t).isLt; omega⟩ : Fin 4096) = E (0 : Fin 2) := Fin.ext he0.symm
  have h1 : (y (1 : Fin 2) : Fin 8192) = E (1 : Fin 2) := Fin.ext he1.symm
  exact congrArg₂ (fun (p : Fin 4096) (q : Fin 8192) => ValueIdx.ix2 (Cert.GatherSpec.rowOf (ids m c (ValueIdx.ix1 p))) q) h0 h1

/-- THE OUTPUT ARRAY after the region: row n is the table's row named by word n of the flat index list. -/
theorem finalA_eq (c : Dev nD) : finalA m c 0 = Cert.GatherSpec.gatheredFlat (ids m c) (wtab m c) :=
  (dats m 0 c).arrAt_eq_of_cover 0 (Cert.GatherSpec.gatheredFlat (ids m c) (wtab m c)) (fun t _ => flushed_eq m c t) (cover (adm m 0))

/-- Read at the result's shape, with the flat list the flattened index array: the gather. Entry (b, s, k) of the
    result is entry (512 b + s, k) of the flat form, and word 512 b + s of the flat list is word (b, s) of the array. -/
theorem reshape_gathered (inp : S8x512.Idx → BitVec 32) (w : S8192x8192.Idx → Elt F .f32) :
    shapeCast S8x512x8192 (Cert.GatherSpec.gatheredFlat (shapeCast S4096 inp shapeCasts_S8x512_S4096) w) shapeCasts_S4096x8192_S8x512x8192
      = Cert.GatherSpec.gathered inp w := by
  funext j
  have hj0 : (j 0).val < 8 := (j 0).isLt
  have hj1 : (j 1).val < 512 := (j 1).isLt
  have hj2 : (j 2).val < 8192 := (j 2).isLt
  rw [shapeCast_apply _ shapeCasts_S4096x8192_S8x512x8192 j
    (ValueIdx.ix2 (⟨512 * (j 0).val + (j 1).val, by omega⟩ : Fin 4096) (⟨(j 2).val, hj2⟩ : Fin 8192))
    (by
      rw [Shape.rowMajor_val_two, Shape.rowMajor_val_three]
      show (512 * (j 0).val + (j 1).val) * 8192 + (j 2).val = ((j 0).val * 512 + (j 1).val) * 8192 + (j 2).val
      omega)]
  show w (ValueIdx.ix2 (Cert.GatherSpec.rowOf (shapeCast S4096 inp shapeCasts_S8x512_S4096
      (ValueIdx.ix1 (⟨512 * (j 0).val + (j 1).val, by omega⟩ : Fin 4096)))) (⟨(j 2).val, hj2⟩ : Fin 8192))
    = w (ValueIdx.ix2 (Cert.GatherSpec.rowOf (inp (ValueIdx.ix2 (j 0) (j 1)))) (j 2))
  rw [shapeCast_apply inp shapeCasts_S8x512_S4096 (ValueIdx.ix1 (⟨512 * (j 0).val + (j 1).val, by omega⟩ : Fin 4096))
    (ValueIdx.ix2 (j 0) (j 1))
    (by
      rw [Shape.rowMajor_val_two, Shape.rowMajor_val_one]
      show (j 0).val * 512 + (j 1).val = 512 * (j 0).val + (j 1).val
      omega)]
  rfl

/-- From any memory whose index words name rows of the table, with zero counters: every weakly fair execution of
    @main terminates with the result the gather of the table's rows by the index words, the arguments unchanged. -/
theorem run_main (ρ : Dev nD → PrngReg)
    (hidx : ∀ (c : Dev nD) i, (m ((c.tc : Thread nD τ).loc main_arg0) i).toNat < 8192) :
    θ_run (defs (F := F)) (onTc (τ := τ) (main (F := F))) ⟨m, fun _ => 0, ρ⟩ (fun r => ∀ c : Dev nD,
      r.2.mem ((c.tc : Thread nD τ).loc main_v2) = Cert.GatherSpec.gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by
      rw [tail_v2, finalA_eq, ids_eq, wtab_eq]
      exact reshape_gathered _ _), (h c).2.1.trans (tail_arg0 m c), (h c).2.2.trans (tail_arg1 m c)⟩)
    (run_frame m hidx ρ)

end Cert.Kernel.Run

end
-- ==== Proof.lean ====
/-
  The certificate: a row gather against its one-hot-and-contract reference.

  The kernel copies, for each of the 4096 index words, the table row the word names into the output; the reference
  builds the one-hot vector of the word and contracts it with the table. Under the precondition (every entry of the table
  finite, every word in [0, 8192)) both results are the array whose entry (b, s, k) is `W[inputs[b, s], k]`
  (`Cert.GatherSpec.gathered`): for the kernel by its run (the copies of one grid point fill one [256, 8192] block row by
  row, the blocks tile the flattened output, the last reshape restores [8, 512, 8192]); for the reference because the
  contraction of a one-hot row with the table has one term that is not zero. The ideal pass rewrote nothing, so the
  idealized kernel is the kernel's own text read over the extended reals and `preserves` asks nothing. The word-level
  kernel's frame is the same run read at the word-level instance: only the index range is used of the precondition.
-/
import proofs.«408184_j41532333752647_1_alg».proof.Defs
import proofs.«408184_j41532333752647_1_alg».proof.Proof.Gen.Kernel
import proofs.«408184_j41532333752647_1_alg».proof.Proof.Gen.KernelIdeal
import proofs.«408184_j41532333752647_1_alg».proof.Proof.Gen.ReferenceIdeal
import proofs.«408184_j41532333752647_1_alg».proof.Proof.Gen.Pre_finite_inputs
import proofs.«408184_j41532333752647_1_alg».proof.Proof.PreDecode
import proofs.«408184_j41532333752647_1_alg».proof.Proof.RefValue
import proofs.«408184_j41532333752647_1_alg».proof.Proof.RunIdeal
import proofs.«408184_j41532333752647_1_alg».proof.Proof.RunBits

noncomputable section

namespace Cert.Proof

open Idealize.ShloMosaic Idealize.ShloMosaic.TcCoe Idealize.SL.Sem

/-- The word-level kernel runs to the end and leaves its arguments as they were. -/
theorem frame_k : Cert.frame_Kernel := fun m ρ hpre =>
  (θ_run (Cert.Kernel.defs (F := Bits)) _ _).mono (fun _ h c => (h c).2)
    (Cert.Kernel.Run.run_main (F := Bits) m ρ (fun c i => Cert.PreDecode.idx_lt _ _ (hpre c) i))

/-- So does the idealized kernel. -/
theorem frame_ki : Cert.frame_KernelIdeal := fun m ρ hpre =>
  (θ_run (Cert.KernelIdeal.defs (F := Ideal)) _ _).mono (fun _ h c => (h c).2)
    (Cert.KernelIdeal.Run.run_main (F := Ideal) m ρ (fun c i => Cert.PreDecode.idx_lt _ _ (hpre c) i))

/-- And the reference. -/
theorem frame_ri : Cert.frame_ReferenceIdeal := fun m ρ hpre =>
  (θ_run (Cert.ReferenceIdeal.defs (F := Ideal)) _ _).mono (fun _ h c => (h c).2)
    (Cert.ReferenceIdeal.RefValue.run_gathered m ρ hpre)

/-- Both idealized programs end at the gather of the table's rows by the index words. -/
theorem algebraic : Cert.algebraic_KernelIdeal_ReferenceIdeal := by
  intro m ρ m' ρ' hpre hagree
  refine ⟨fun c => Cert.GatherSpec.gathered (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run_main (F := Ideal) m ρ (fun c i => Cert.PreDecode.idx_lt _ _ (hpre c) i), ?_⟩
  have hpre' : Cert.Pre_ReferenceIdeal m' := fun c => by
    rw [(hagree c).1, (hagree c).2]; exact hpre c
  refine (θ_run (Cert.ReferenceIdeal.defs (F := Ideal)) _ _).mono (fun _ h c => ⟨(h c).1.trans ?_, (h c).2⟩)
    (Cert.ReferenceIdeal.RefValue.run_gathered m' ρ' hpre')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
